-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v580) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32768x64 : Shape := ⟨3, ![4, 32768, 64]⟩
abbrev S4x32768x2 : Shape := ⟨3, ![4, 32768, 2]⟩
abbrev S3x3x64x64 : Shape := ⟨4, ![3, 3, 64, 64]⟩
abbrev S_ : Shape := ⟨0, ![]⟩

class Facts : Prop where
  bcast_S_S4x32768x64 : S_.BroadcastsInDim S4x32768x64 (![] : Fin 0 → Fin S4x32768x64.rank)
  reducesTo_S4x32768x64_S_d0_1_2 : S4x32768x64.ReducesTo [0, 1, 2] S_
  h_S_ : 0 < S_.numel
  bcast_S_S4x32768x2 : S_.BroadcastsInDim S4x32768x2 (![] : Fin 0 → Fin S4x32768x2.rank)
  reducesTo_S4x32768x2_S_d0_1_2 : S4x32768x2.ReducesTo [0, 1, 2] S_
  bcast_S_S3x3x64x64 : S_.BroadcastsInDim S3x3x64x64 (![] : Fin 0 → Fin S3x3x64x64.rank)
  reducesTo_S3x3x64x64_S_d0_1_2_3 : S3x3x64x64.ReducesTo [0, 1, 2, 3] S_

variable [Facts]

def fn {F : FTy → Type} [FloatOps F] (main_arg0 : FVec F S4x32768x64 .f32) (main_arg1 : FVec F S4x32768x2 .f32) (main_arg2 : FVec F S3x3x64x64 .f32) : IVec S_ 1 :=
  let main_v0 : FVec F S4x32768x64 .f32 := Host.absf main_arg0
  let main_cst : FVec F S_ .f32 := constant S_ .f32 0x7F800000#32
  let main_v1 : FVec F S4x32768x64 .f32 := broadcastInDim S4x32768x64 ![] bcast_S_S4x32768x64 main_cst
  let main_v2 : IVec S4x32768x64 1 := cmpf .olt main_v0 main_v1
  let main_c : IVec S_ 1 := constantI S_ 1 1#1
  let main_v3 : IVec S_ 1 := (fun x v => Host.reduce IntOp.andi x v reducesTo_S4x32768x64_S_d0_1_2 h_S_) main_v2 main_c
  let main_v4 : FVec F S4x32768x2 .f32 := Host.absf main_arg1
  let main_cst_0 : FVec F S_ .f32 := constant S_ .f32 0x7F800000#32
  let main_v5 : FVec F S4x32768x2 .f32 := broadcastInDim S4x32768x2 ![] bcast_S_S4x32768x2 main_cst_0
  let main_v6 : IVec S4x32768x2 1 := cmpf .olt main_v4 main_v5
  let main_c_1 : IVec S_ 1 := constantI S_ 1 1#1
  let main_v7 : IVec S_ 1 := (fun x v => Host.reduce IntOp.andi x v reducesTo_S4x32768x2_S_d0_1_2 h_S_) main_v6 main_c_1
  let main_v8 : IVec S_ 1 := andi main_v3 main_v7
  let main_v9 : FVec F S3x3x64x64 .f32 := Host.absf main_arg2
  let main_cst_2 : FVec F S_ .f32 := constant S_ .f32 0x7F800000#32
  let main_v10 : FVec F S3x3x64x64 .f32 := broadcastInDim S3x3x64x64 ![] bcast_S_S3x3x64x64 main_cst_2
  let main_v11 : IVec S3x3x64x64 1 := cmpf .olt main_v9 main_v10
  let main_c_3 : IVec S_ 1 := constantI S_ 1 1#1
  let main_v12 : IVec S_ 1 := (fun x v => Host.reduce IntOp.andi x v reducesTo_S3x3x64x64_S_d0_1_2_3 h_S_) main_v11 main_c_3
  let main_v13 : IVec S_ 1 := andi main_v8 main_v12
  main_v13
-- ==== Kernel.lean ====
abbrev S4x32768x64 : Shape := ⟨3, ![4, 32768, 64]⟩
abbrev S4x32768x2 : Shape := ⟨3, ![4, 32768, 2]⟩
abbrev S3x3x64x64 : Shape := ⟨4, ![3, 3, 64, 64]⟩
abbrev S2 : Shape := ⟨1, ![2]⟩
abbrev S_ : Shape := ⟨0, ![]⟩
abbrev S131072x2 : Shape := ⟨2, ![131072, 2]⟩
abbrev S1x2 : Shape := ⟨2, ![1, 2]⟩
abbrev S4 : Shape := ⟨1, ![4]⟩
abbrev S4x32768 : Shape := ⟨2, ![4, 32768]⟩
abbrev S131072 : Shape := ⟨1, ![131072]⟩
abbrev S131072x64 : Shape := ⟨2, ![131072, 64]⟩
abbrev S4x256x256 : Shape := ⟨3, ![4, 256, 256]⟩
abbrev S131072x1 : Shape := ⟨2, ![131072, 1]⟩
abbrev S131072x3 : Shape := ⟨2, ![131072, 3]⟩
abbrev S262144 : Shape := ⟨1, ![262144]⟩
abbrev S262144x1 : Shape := ⟨2, ![262144, 1]⟩
abbrev S262144x64 : Shape := ⟨2, ![262144, 64]⟩
abbrev S4x256x256x64 : Shape := ⟨4, ![4, 256, 256, 64]⟩
abbrev S4x258x258x64 : Shape := ⟨4, ![4, 258, 258, 64]⟩
abbrev S1x258x258x64 : Shape := ⟨4, ![1, 258, 258, 64]⟩
abbrev S1x32x256x64 : Shape := ⟨4, ![1, 32, 256, 64]⟩
abbrev S1x34x258x64 : Shape := ⟨4, ![1, 34, 258, 64]⟩
abbrev S34x258x64 : Shape := ⟨3, ![34, 258, 64]⟩
abbrev S32x256x64 : Shape := ⟨3, ![32, 256, 64]⟩
abbrev S1x1x64x64 : Shape := ⟨4, ![1, 1, 64, 64]⟩
abbrev S64x64 : Shape := ⟨2, ![64, 64]⟩
abbrev S8192x64 : Shape := ⟨2, ![8192, 64]⟩

abbrev nBuf : Space → Nat
  | .hbm => 130
  | .vmem => 5
  | .smem => 0
  | _ => 0

abbrev hbmTy0_0 (i : Nat) : BufTy := match i % 128 with
  | 0 => ⟨S4x32768x64, .f32⟩
  | 1 => ⟨S4x32768x2, .f32⟩
  | 2 => ⟨S3x3x64x64, .f32⟩
  | 3 => ⟨S2, .f32⟩
  | 4 => ⟨S_, .f32⟩
  | 5 => ⟨S2, .f32⟩
  | 6 => ⟨S2, .f32⟩
  | 7 => ⟨S_, .f32⟩
  | 8 => ⟨S_, .f32⟩
  | 9 => ⟨S_, .f32⟩
  | 10 => ⟨S4x32768x2, .f32⟩
  | 11 => ⟨S4x32768x2, .f32⟩
  | 12 => ⟨S_, .f32⟩
  | 13 => ⟨S4x32768x2, .f32⟩
  | 14 => ⟨S4x32768x2, .f32⟩
  | 15 => ⟨S4x32768x2, .f32⟩
  | 16 => ⟨S4x32768x2, .f32⟩
  | 17 => ⟨S_, .f32⟩
  | 18 => ⟨S4x32768x2, .f32⟩
  | 19 => ⟨S4x32768x2, .f32⟩
  | 20 => ⟨S_, .f32⟩
  | 21 => ⟨S4x32768x2, .f32⟩
  | 22 => ⟨S4x32768x2, .f32⟩
  | 23 => ⟨S131072x2, .f32⟩
  | 24 => ⟨S_, .f32⟩
  | 25 => ⟨S2, .f32⟩
  | 26 => ⟨S1x2, .f32⟩
  | 27 => ⟨S131072x2, .f32⟩
  | 28 => ⟨S131072x2, .f32⟩
  | 29 => ⟨S1x2, .f32⟩
  | 30 => ⟨S131072x2, .f32⟩
  | 31 => ⟨S131072x2, .f32⟩
  | 32 => ⟨S131072x2, .i32⟩
  | 33 => ⟨S4, .i32⟩
  | 34 => ⟨S4x32768, .i32⟩
  | 35 => ⟨S131072, .i32⟩
  | 36 => ⟨S131072x64, .f32⟩
  | 37 => ⟨S_, .i32⟩
  | 38 => ⟨S4x256x256, .i32⟩
  | 39 => ⟨S131072x1, .i32⟩
  | 40 => ⟨S131072, .i32⟩
  | 41 => ⟨S131072x1, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S131072x1, .i32⟩
  | 66 => ⟨S131072x1, .i32⟩
  | 67 => ⟨S131072x1, .i32⟩
  | 68 => ⟨S131072x3, .i32⟩
  | 69 => ⟨S4x256x256, .i32⟩
  | 70 => ⟨S262144, .i32⟩
  | 71 => ⟨S_, .i32⟩
  | 72 => ⟨S262144, .i32⟩
  | 73 => ⟨S262144, .i32⟩
  | 74 => ⟨S_, .i32⟩
  | 75 => ⟨S262144, .i32⟩
  | 76 => ⟨S262144, .i1⟩
  | 77 => ⟨S_, .i32⟩
  | 78 => ⟨S262144, .i32⟩
  | 79 => ⟨S262144, .i32⟩
  | 80 => ⟨S262144, .i32⟩
  | 81 => ⟨S262144x1, .i32⟩
  | 82 => ⟨S262144x64, .f32⟩
  | 83 => ⟨S_, .i32⟩
  | 84 => ⟨S262144, .i32⟩
  | 85 => ⟨S262144, .i1⟩
  | 86 => ⟨S262144x1, .i1⟩
  | 87 => ⟨S_, .f32⟩
  | 88 => ⟨S_, .f32⟩
  | 89 => ⟨S262144x64, .i1⟩
  | 90 => ⟨S262144x64, .f32⟩
  | 91 => ⟨S262144x64, .f32⟩
  | 92 => ⟨S4x256x256x64, .f32⟩
  | 93 => ⟨S_, .i32⟩
  | 94 => ⟨S_, .f32⟩
  | 95 => ⟨S4x258x258x64, .f32⟩
  | 96 => ⟨S4x258x258x64, .bf16⟩
  | 97 => ⟨S3x3x64x64, .bf16⟩
  | 98 => ⟨S4x256x256x64, .f32⟩
  | 99 => ⟨S131072x1, .i32⟩
  | 100 => ⟨S131072, .i32⟩
  | 101 => ⟨S131072x1, .i32⟩
  | 102 => ⟨S131072, .i32⟩
  | 103 => ⟨S_, .i32⟩
  | 104 => ⟨S131072, .i32⟩
  | 105 => ⟨S131072, .i1⟩
  | 106 => ⟨S_, .i32⟩
  | 107 => ⟨S131072, .i32⟩
  | 108 => ⟨S131072, .i32⟩
  | 109 => ⟨S131072, .i32⟩
  | 110 => ⟨S_, .i32⟩
  | 111 => ⟨S131072, .i32⟩
  | 112 => ⟨S131072, .i1⟩
  | 113 => ⟨S_, .i32⟩
  | 114 => ⟨S131072, .i32⟩
  | 115 => ⟨S131072, .i32⟩
  | 116 => ⟨S131072, .i32⟩
  | 117 => ⟨S_, .i32⟩
  | 118 => ⟨S131072, .i32⟩
  | 119 => ⟨S131072, .i1⟩
  | 120 => ⟨S_, .i32⟩
  | 121 => ⟨S131072, .i32⟩
  | 122 => ⟨S131072, .i32⟩
  | 123 => ⟨S131072, .i32⟩
  | 124 => ⟨S131072x1, .i32⟩
  | 125 => ⟨S131072x1, .i32⟩
  | 126 => ⟨S131072x1, .i32⟩
  | 127 => ⟨S131072x3, .i32⟩
  | _ => ⟨S4x32768x64, .f32⟩

abbrev hbmTy0_1 (i : Nat) : BufTy := match i % 128 with
  | 0 => ⟨S131072x64, .f32⟩
  | 1 => ⟨S4x32768x64, .f32⟩
  | _ => ⟨S4x32768x64, .f32⟩

abbrev hbmTy (i : Nat) : BufTy := match i / 128 with
  | 0 => hbmTy0_0 i
  | 1 => hbmTy0_1 i
  | _ => ⟨S4x32768x64, .f32⟩

abbrev bufTy : (tb : Table) → Fin (tcTables nBuf tb) → BufTy
  | .hbm, ⟨i, _⟩ => hbmTy i
  | .local _ .vmem, ⟨0, _⟩ => ⟨S1x258x258x64, .bf16⟩
  | .local _ .vmem, ⟨1, _⟩ => ⟨S1x258x258x64, .bf16⟩
  | .local _ .vmem, ⟨2, _⟩ => ⟨S3x3x64x64, .bf16⟩
  | .local _ .vmem, ⟨3, _⟩ => ⟨S1x32x256x64, .f32⟩
  | .local _ .vmem, ⟨4, _⟩ => ⟨S1x32x256x64, .f32⟩
  | _, _ => ⟨S4x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_3 : Ref sig .tc := ⟨.hbm, 17, rfl⟩
abbrev main_v5 : Ref sig .tc := ⟨.hbm, 18, rfl⟩
abbrev main_v6 : Ref sig .tc := ⟨.hbm, 19, rfl⟩
abbrev main_cst_4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_c_14 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_16 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v61 : Ref sig .tc := ⟨.hbm, 91, rfl⟩
abbrev main_v62 : Ref sig .tc := ⟨.hbm, 92, rfl⟩
abbrev main_c_17 : Ref sig .tc := ⟨.hbm, 93, rfl⟩
abbrev main_call2_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_c_19 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_20 : Ref sig .tc := ⟨.hbm, 110, rfl⟩
abbrev main_v76 : Ref sig .tc := ⟨.hbm, 111, rfl⟩
abbrev main_v77 : Ref sig .tc := ⟨.hbm, 112, rfl⟩
abbrev main_c_21 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_22 : Ref sig .tc := ⟨.hbm, 117, rfl⟩
abbrev main_v81 : Ref sig .tc := ⟨.hbm, 118, rfl⟩
abbrev main_v82 : Ref sig .tc := ⟨.hbm, 119, rfl⟩
abbrev main_c_23 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  v0
def k0_off1 (i : grid0.Coords) : Fin 4 → Nat :=
  let c0 : Index := 0#32
  let arg1 : BitVec 32 := BitVec.ofNat 32 (i 1).val
  let c32_i32 : BitVec 32 := 32#32
  let v0 : BitVec 32 := Scalar.muli arg1 c32_i32
  let v1 : BitVec 32 := v0
  let v2 : Index := Scalar.indexCast v1
  let c0_0 : Index := 0#32
  let c0_1 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x258x258x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x3x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S2 : S_.BroadcastsInDim S2 (![] : Fin 0 → Fin S2.rank)
  bcast_S_S4x32768x2 : S_.BroadcastsInDim S4x32768x2 (![] : Fin 0 → Fin S4x32768x2.rank)
  shapeCasts_S4x32768x2_S131072x2 : S4x32768x2.ShapeCasts S131072x2
  reducesTo_S131072x2_S2_d0 : S131072x2.ReducesTo [0] S2
  h_S_ : 0 < S_.numel
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S4_S4x32768_0 : S4.BroadcastsInDim S4x32768 (![0] : Fin 1 → Fin S4x32768.rank)
  shapeCasts_S4x32768_S131072 : S4x32768.ShapeCasts S131072
  shapeCasts_S4x32768x64_S131072x64 : S4x32768x64.ShapeCasts S131072x64
  bcast_S_S4x256x256 : S_.BroadcastsInDim S4x256x256 (![] : Fin 0 → Fin S4x256x256.rank)
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  shapeCasts_S4x256x256_S262144 : S4x256x256.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  bcast_S_S262144x64 : S_.BroadcastsInDim S262144x64 (![] : Fin 0 → Fin S262144x64.rank)
  shapeCasts_S262144x64_S4x256x256x64 : S262144x64.ShapeCasts S4x256x256x64
  pads_S4x256x256x64_S4x258x258x64_000_110_110_000 : S4x256x256x64.Pads (![0, 1, 1, 0] : Fin 4 → Nat) ![0, 1, 1, 0] ![0, 0, 0, 0] S4x258x258x64
  bitsLt_bf16_f32 : FTy.bits .bf16 < FTy.bits .f32
  h_S1x34x258x64 : 0 < S1x34x258x64.numel
  shapeCasts_S1x34x258x64_S1x34x258x64 : S1x34x258x64.ShapeCasts S1x34x258x64
  shapeCasts_S1x34x258x64_S34x258x64 : S1x34x258x64.ShapeCasts S34x258x64
  slices_S34x258x64_o0_0_0_S32x256x64 : S34x258x64.Slices ![0, 0, 0] S32x256x64
  inb_S3x3x64x64_S1x1x64x64_0_0_0_0 : ∀ a, (![0, 0, 0, 0] : Fin 4 → Nat) a + S1x1x64x64.size a ≤ S3x3x64x64.size a
  h_S1x1x64x64 : 0 < S1x1x64x64.numel
  shapeCasts_S1x1x64x64_S64x64 : S1x1x64x64.ShapeCasts S64x64
  shapeCasts_S32x256x64_S8192x64 : S32x256x64.ShapeCasts S8192x64
  shapeCasts_S8192x64_S32x256x64 : S8192x64.ShapeCasts S32x256x64
  slices_S34x258x64_o0_1_0_S32x256x64 : S34x258x64.Slices ![0, 1, 0] S32x256x64
  inb_S3x3x64x64_S1x1x64x64_0_1_0_0 : ∀ a, (![0, 1, 0, 0] : Fin 4 → Nat) a + S1x1x64x64.size a ≤ S3x3x64x64.size a
  slices_S34x258x64_o0_2_0_S32x256x64 : S34x258x64.Slices ![0, 2, 0] S32x256x64
  inb_S3x3x64x64_S1x1x64x64_0_2_0_0 : ∀ a, (![0, 2, 0, 0] : Fin 4 → Nat) a + S1x1x64x64.size a ≤ S3x3x64x64.size a
  slices_S34x258x64_o1_0_0_S32x256x64 : S34x258x64.Slices ![1, 0, 0] S32x256x64
  inb_S3x3x64x64_S1x1x64x64_1_0_0_0 : ∀ a, (![1, 0, 0, 0] : Fin 4 → Nat) a + S1x1x64x64.size a ≤ S3x3x64x64.size a
  slices_S34x258x64_o1_1_0_S32x256x64 : S34x258x64.Slices ![1, 1, 0] S32x256x64
  inb_S3x3x64x64_S1x1x64x64_1_1_0_0 : ∀ a, (![1, 1, 0, 0] : Fin 4 → Nat) a + S1x1x64x64.size a ≤ S3x3x64x64.size a
  slices_S34x258x64_o1_2_0_S32x256x64 : S34x258x64.Slices ![1, 2, 0] S32x256x64
  inb_S3x3x64x64_S1x1x64x64_1_2_0_0 : ∀ a, (![1, 2, 0, 0] : Fin 4 → Nat) a + S1x1x64x64.size a ≤ S3x3x64x64.size a
  slices_S34x258x64_o2_0_0_S32x256x64 : S34x258x64.Slices ![2, 0, 0] S32x256x64
  inb_S3x3x64x64_S1x1x64x64_2_0_0_0 : ∀ a, (![2, 0, 0, 0] : Fin 4 → Nat) a + S1x1x64x64.size a ≤ S3x3x64x64.size a
  slices_S34x258x64_o2_1_0_S32x256x64 : S34x258x64.Slices ![2, 1, 0] S32x256x64
  inb_S3x3x64x64_S1x1x64x64_2_1_0_0 : ∀ a, (![2, 1, 0, 0] : Fin 4 → Nat) a + S1x1x64x64.size a ≤ S3x3x64x64.size a
  slices_S34x258x64_o2_2_0_S32x256x64 : S34x258x64.Slices ![2, 2, 0] S32x256x64
  inb_S3x3x64x64_S1x1x64x64_2_2_0_0 : ∀ a, (![2, 2, 0, 0] : Fin 4 → Nat) a + S1x1x64x64.size a ≤ S3x3x64x64.size a
  inb_S1x32x256x64_S1x32x256x64_0_0_0_0 : ∀ a, (![0, 0, 0, 0] : Fin 4 → Nat) a + S1x32x256x64.size a ≤ S1x32x256x64.size a
  h_S1x32x256x64 : 0 < S1x32x256x64.numel
  shapeCasts_S1x32x256x64_S32x256x64 : S1x32x256x64.ShapeCasts S32x256x64
  shapeCasts_S32x256x64_S1x32x256x64 : S32x256x64.ShapeCasts S1x32x256x64
  shapeCasts_S131072x64_S4x32768x64 : S131072x64.ShapeCasts S4x32768x64
  scatter_S4x256x256_S131072x3_S131072_n_012_012_1_wf : ScatterDims.WF S4x256x256 S131072x3 S131072 [] [0, 1, 2] [0, 1, 2] 1
  gather_S131072x64_S262144x1_S262144x64_1_0_n_n_0_1_164_wf : GatherDims.WF S131072x64 S262144x1 S262144x64 [1] [0] [] [0] [] 1 ![1, 64]
  dot_S8192x64_S64x64_S8192x64_1_0_0_1_n_n_wf : DotDims.WF S8192x64 S64x64 S8192x64 [1] [0] [0] [1] [] []
  gather_S4x256x256x64_S131072x3_S131072x64_1_012_n_n_012_1_11164_wf : GatherDims.WF S4x256x256x64 S131072x3 S131072x64 [1] [0, 1, 2] [] [0, 1, 2] [] 1 ![1, 1, 1, 64]
  hrank0 : 0 < grid0.rank
  k0_mult1_dvd : ∀ i : grid0.Coords, 32 ∣ (k0_mult1 i).toNat
  k0_off1_inb : ∀ i : grid0.Coords, ∀ a, (k0_off1 i) a + S1x34x258x64.size a ≤ S1x258x258x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x258x258x64.size a ≤ S4x258x258x64.size a
  hwx0_0 : ∀ i : grid0.Coords, EltTy.bits .bf16 = 32 ∨ (Rect.block (s := S4x258x258x64) S1x258x258x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x64x64.size a ≤ S3x3x64x64.size a
  hwx0_1 : ∀ i : grid0.Coords, EltTy.bits .bf16 = 32 ∨ (Rect.block (s := S3x3x64x64) S3x3x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256x64.size a ≤ S4x256x256x64.size a
  hwx0_2 : ∀ i : grid0.Coords, EltTy.bits .f32 = 32 ∨ (Rect.block (s := S4x256x256x64) S1x32x256x64.size (cc0_transform_2 i) (hinb0_2 i)).WholeWords (EltTy.packing .f32)

variable [Facts₀]

def scatter_S4x256x256_S131072x3_S131072_n_012_012_1 : ScatterDims S4x256x256 S131072x3 S131072 where
  updateWindowDims := []
  insertedWindowDims := [0, 1, 2]
  scatterDimsToOperandDims := [0, 1, 2]
  indexVectorDim := 1
  wf := scatter_S4x256x256_S131072x3_S131072_n_012_012_1_wf
def gather_S131072x64_S262144x1_S262144x64_1_0_n_n_0_1_164 : GatherDims S131072x64 S262144x1 S262144x64 where
  offsetDims := [1]
  collapsedSliceDims := [0]
  operandBatchingDims := []
  startIndicesBatchingDims := []
  startIndexMap := [0]
  indexVectorDim := 1
  sliceSizes := ![1, 64]
  wf := gather_S131072x64_S262144x1_S262144x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S4x256x256x64_S131072x3_S131072x64_1_012_n_n_012_1_11164 : GatherDims S4x256x256x64 S131072x3 S131072x64 where
  offsetDims := [1]
  collapsedSliceDims := [0, 1, 2]
  operandBatchingDims := []
  startIndicesBatchingDims := []
  startIndexMap := [0, 1, 2]
  indexVectorDim := 1
  sliceSizes := ![1, 1, 1, 64]
  wf := gather_S4x256x256x64_S131072x3_S131072x64_1_012_n_n_012_1_11164_wf

abbrev win0_0 : Pipeline.Window sig grid0 :=
  Pipeline.Window.ofSpec (Memref.whole main_v64) S1x258x258x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S3x3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v66) S1x32x256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32768x64 : Shape := ⟨3, ![4, 32768, 64]⟩
abbrev S4x32768x2 : Shape := ⟨3, ![4, 32768, 2]⟩
abbrev S3x3x64x64 : Shape := ⟨4, ![3, 3, 64, 64]⟩
abbrev S2 : Shape := ⟨1, ![2]⟩
abbrev S_ : Shape := ⟨0, ![]⟩
abbrev S131072x2 : Shape := ⟨2, ![131072, 2]⟩
abbrev S1x2 : Shape := ⟨2, ![1, 2]⟩
abbrev S4 : Shape := ⟨1, ![4]⟩
abbrev S4x32768 : Shape := ⟨2, ![4, 32768]⟩
abbrev S131072 : Shape := ⟨1, ![131072]⟩
abbrev S131072x64 : Shape := ⟨2, ![131072, 64]⟩
abbrev S4x256x256 : Shape := ⟨3, ![4, 256, 256]⟩
abbrev S131072x1 : Shape := ⟨2, ![131072, 1]⟩
abbrev S131072x3 : Shape := ⟨2, ![131072, 3]⟩
abbrev S1x1x64x64 : Shape := ⟨4, ![1, 1, 64, 64]⟩
abbrev S64x64 : Shape := ⟨2, ![64, 64]⟩

abbrev nBuf : Space → Nat
  | .hbm => 910
  | .vmem => 0
  | .smem => 0
  | _ => 0

abbrev hbmTy0_0 (i : Nat) : BufTy := match i % 128 with
  | 0 => ⟨S4x32768x64, .f32⟩
  | 1 => ⟨S4x32768x2, .f32⟩
  | 2 => ⟨S3x3x64x64, .f32⟩
  | 3 => ⟨S2, .f32⟩
  | 4 => ⟨S_, .f32⟩
  | 5 => ⟨S2, .f32⟩
  | 6 => ⟨S2, .f32⟩
  | 7 => ⟨S_, .f32⟩
  | 8 => ⟨S_, .f32⟩
  | 9 => ⟨S_, .f32⟩
  | 10 => ⟨S4x32768x2, .f32⟩
  | 11 => ⟨S4x32768x2, .f32⟩
  | 12 => ⟨S_, .f32⟩
  | 13 => ⟨S4x32768x2, .f32⟩
  | 14 => ⟨S4x32768x2, .f32⟩
  | 15 => ⟨S4x32768x2, .f32⟩
  | 16 => ⟨S4x32768x2, .f32⟩
  | 17 => ⟨S_, .f32⟩
  | 18 => ⟨S4x32768x2, .f32⟩
  | 19 => ⟨S4x32768x2, .f32⟩
  | 20 => ⟨S_, .f32⟩
  | 21 => ⟨S4x32768x2, .f32⟩
  | 22 => ⟨S4x32768x2, .f32⟩
  | 23 => ⟨S131072x2, .f32⟩
  | 24 => ⟨S_, .f32⟩
  | 25 => ⟨S2, .f32⟩
  | 26 => ⟨S1x2, .f32⟩
  | 27 => ⟨S131072x2, .f32⟩
  | 28 => ⟨S131072x2, .f32⟩
  | 29 => ⟨S1x2, .f32⟩
  | 30 => ⟨S131072x2, .f32⟩
  | 31 => ⟨S131072x2, .f32⟩
  | 32 => ⟨S131072x2, .i32⟩
  | 33 => ⟨S4, .i32⟩
  | 34 => ⟨S4x32768, .i32⟩
  | 35 => ⟨S131072, .i32⟩
  | 36 => ⟨S131072x64, .f32⟩
  | 37 => ⟨S_, .i32⟩
  | 38 => ⟨S4x256x256, .i32⟩
  | 39 => ⟨S131072x1, .i32⟩
  | 40 => ⟨S131072, .i32⟩
  | 41 => ⟨S131072x1, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S131072x1, .i32⟩
  | 66 => ⟨S131072x1, .i32⟩
  | 67 => ⟨S131072x1, .i32⟩
  | 68 => ⟨S131072x3, .i32⟩
  | 69 => ⟨S4x256x256, .i32⟩
  | 70 => ⟨S_, .f32⟩
  | 71 => ⟨S131072x64, .f32⟩
  | 72 => ⟨S131072x1, .i32⟩
  | 73 => ⟨S131072, .i32⟩
  | 74 => ⟨S_, .i32⟩
  | 75 => ⟨S131072, .i32⟩
  | 76 => ⟨S131072, .i32⟩
  | 77 => ⟨S131072x1, .i32⟩
  | 78 => ⟨S131072, .i32⟩
  | 79 => ⟨S_, .i32⟩
  | 80 => ⟨S131072, .i32⟩
  | 81 => ⟨S131072, .i32⟩
  | 82 => ⟨S_, .i32⟩
  | 83 => ⟨S131072, .i32⟩
  | 84 => ⟨S131072, .i1⟩
  | 85 => ⟨S_, .i32⟩
  | 86 => ⟨S131072, .i32⟩
  | 87 => ⟨S131072, .i1⟩
  | 88 => ⟨S131072, .i1⟩
  | 89 => ⟨S_, .i32⟩
  | 90 => ⟨S131072, .i32⟩
  | 91 => ⟨S131072, .i1⟩
  | 92 => ⟨S131072, .i1⟩
  | 93 => ⟨S_, .i32⟩
  | 94 => ⟨S131072, .i32⟩
  | 95 => ⟨S131072, .i1⟩
  | 96 => ⟨S131072, .i1⟩
  | 97 => ⟨S_, .i32⟩
  | 98 => ⟨S_, .i32⟩
  | 99 => ⟨S_, .i32⟩
  | 100 => ⟨S131072, .i32⟩
  | 101 => ⟨S131072, .i32⟩
  | 102 => ⟨S_, .i32⟩
  | 103 => ⟨S131072, .i32⟩
  | 104 => ⟨S131072, .i32⟩
  | 105 => ⟨S_, .i32⟩
  | 106 => ⟨S_, .i32⟩
  | 107 => ⟨S_, .i32⟩
  | 108 => ⟨S131072, .i32⟩
  | 109 => ⟨S131072, .i32⟩
  | 110 => ⟨S_, .i32⟩
  | 111 => ⟨S131072, .i32⟩
  | 112 => ⟨S131072, .i32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S_, .i32⟩
  | 121 => ⟨S131072, .i32⟩
  | 122 => ⟨S131072, .i1⟩
  | 123 => ⟨S_, .i32⟩
  | 124 => ⟨S131072, .i32⟩
  | 125 => ⟨S131072, .i32⟩
  | 126 => ⟨S131072, .i32⟩
  | 127 => ⟨S_, .i32⟩
  | _ => ⟨S4x32768x64, .f32⟩

abbrev hbmTy0_1 (i : Nat) : BufTy := match i % 128 with
  | 0 => ⟨S131072, .i32⟩
  | 1 => ⟨S131072, .i1⟩
  | 2 => ⟨S_, .i32⟩
  | 3 => ⟨S131072, .i32⟩
  | 4 => ⟨S131072, .i32⟩
  | 5 => ⟨S131072, .i32⟩
  | 6 => ⟨S131072x1, .i32⟩
  | 7 => ⟨S131072x1, .i32⟩
  | 8 => ⟨S131072x1, .i32⟩
  | 9 => ⟨S131072x3, .i32⟩
  | 10 => ⟨S131072, .i32⟩
  | 11 => ⟨S_, .i32⟩
  | 12 => ⟨S131072, .i32⟩
  | 13 => ⟨S131072, .i1⟩
  | 14 => ⟨S131072, .i1⟩
  | 15 => ⟨S131072x1, .i1⟩
  | 16 => ⟨S_, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072x64, .f32⟩
  | 28 => ⟨S_, .f32⟩
  | 29 => ⟨S_, .f32⟩
  | 30 => ⟨S131072x64, .i1⟩
  | 31 => ⟨S131072x64, .f32⟩
  | 32 => ⟨S131072x64, .f32⟩
  | 33 => ⟨S1x1x64x64, .f32⟩
  | 34 => ⟨S64x64, .f32⟩
  | 35 => ⟨S131072x64, .f32⟩
  | 36 => ⟨S131072x64, .f32⟩
  | 37 => ⟨S131072x1, .i32⟩
  | 38 => ⟨S131072, .i32⟩
  | 39 => ⟨S_, .i32⟩
  | 40 => ⟨S131072, .i32⟩
  | 41 => ⟨S131072, .i32⟩
  | 42 => ⟨S131072x1, .i32⟩
  | 43 => ⟨S131072, .i32⟩
  | 44 => ⟨S_, .i32⟩
  | 45 => ⟨S131072, .i32⟩
  | 46 => ⟨S131072, .i32⟩
  | 47 => ⟨S_, .i32⟩
  | 48 => ⟨S131072, .i32⟩
  | 49 => ⟨S131072, .i1⟩
  | 50 => ⟨S_, .i32⟩
  | 51 => ⟨S131072, .i32⟩
  | 52 => ⟨S131072, .i1⟩
  | 53 => ⟨S131072, .i1⟩
  | 54 => ⟨S_, .i32⟩
  | 55 => ⟨S131072, .i32⟩
  | 56 => ⟨S131072, .i1⟩
  | 57 => ⟨S131072, .i1⟩
  | 58 => ⟨S_, .i32⟩
  | 59 => ⟨S131072, .i32⟩
  | 60 => ⟨S131072, .i1⟩
  | 61 => ⟨S131072, .i1⟩
  | 62 => ⟨S_, .i32⟩
  | 63 => ⟨S_, .i32⟩
  | 64 => ⟨S_, .i32⟩
  | 65 => ⟨S131072, .i32⟩
  | 66 => ⟨S131072, .i32⟩
  | 67 => ⟨S_, .i32⟩
  | 68 => ⟨S131072, .i32⟩
  | 69 => ⟨S131072, .i32⟩
  | 70 => ⟨S_, .i32⟩
  | 71 => ⟨S_, .i32⟩
  | 72 => ⟨S_, .i32⟩
  | 73 => ⟨S131072, .i32⟩
  | 74 => ⟨S131072, .i32⟩
  | 75 => ⟨S_, .i32⟩
  | 76 => ⟨S131072, .i32⟩
  | 77 => ⟨S131072, .i32⟩
  | 78 => ⟨S_, .i32⟩
  | 79 => ⟨S131072, .i32⟩
  | 80 => ⟨S131072, .i1⟩
  | 81 => ⟨S_, .i32⟩
  | 82 => ⟨S131072, .i32⟩
  | 83 => ⟨S131072, .i32⟩
  | 84 => ⟨S131072, .i32⟩
  | 85 => ⟨S_, .i32⟩
  | 86 => ⟨S131072, .i32⟩
  | 87 => ⟨S131072, .i1⟩
  | 88 => ⟨S_, .i32⟩
  | 89 => ⟨S131072, .i32⟩
  | 90 => ⟨S131072, .i32⟩
  | 91 => ⟨S131072, .i32⟩
  | 92 => ⟨S_, .i32⟩
  | 93 => ⟨S131072, .i32⟩
  | 94 => ⟨S131072, .i1⟩
  | 95 => ⟨S_, .i32⟩
  | 96 => ⟨S131072, .i32⟩
  | 97 => ⟨S131072, .i32⟩
  | 98 => ⟨S131072, .i32⟩
  | 99 => ⟨S131072x1, .i32⟩
  | 100 => ⟨S131072x1, .i32⟩
  | 101 => ⟨S131072x1, .i32⟩
  | 102 => ⟨S131072x3, .i32⟩
  | 103 => ⟨S131072, .i32⟩
  | 104 => ⟨S_, .i32⟩
  | 105 => ⟨S131072, .i32⟩
  | 106 => ⟨S131072, .i1⟩
  | 107 => ⟨S131072, .i1⟩
  | 108 => ⟨S131072x1, .i1⟩
  | 109 => ⟨S_, .i32⟩
  | 110 => ⟨S131072, .i32⟩
  | 111 => ⟨S131072, .i32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S131072x64, .f32⟩
  | 121 => ⟨S_, .f32⟩
  | 122 => ⟨S_, .f32⟩
  | 123 => ⟨S131072x64, .i1⟩
  | 124 => ⟨S131072x64, .f32⟩
  | 125 => ⟨S131072x64, .f32⟩
  | 126 => ⟨S1x1x64x64, .f32⟩
  | 127 => ⟨S64x64, .f32⟩
  | _ => ⟨S4x32768x64, .f32⟩

abbrev hbmTy0_2 (i : Nat) : BufTy := match i % 128 with
  | 0 => ⟨S131072x64, .f32⟩
  | 1 => ⟨S131072x64, .f32⟩
  | 2 => ⟨S131072x1, .i32⟩
  | 3 => ⟨S131072, .i32⟩
  | 4 => ⟨S_, .i32⟩
  | 5 => ⟨S131072, .i32⟩
  | 6 => ⟨S131072, .i32⟩
  | 7 => ⟨S131072x1, .i32⟩
  | 8 => ⟨S131072, .i32⟩
  | 9 => ⟨S_, .i32⟩
  | 10 => ⟨S131072, .i32⟩
  | 11 => ⟨S131072, .i32⟩
  | 12 => ⟨S_, .i32⟩
  | 13 => ⟨S131072, .i32⟩
  | 14 => ⟨S131072, .i1⟩
  | 15 => ⟨S_, .i32⟩
  | 16 => ⟨S131072, .i32⟩
  | 17 => ⟨S131072, .i1⟩
  | 18 => ⟨S131072, .i1⟩
  | 19 => ⟨S_, .i32⟩
  | 20 => ⟨S131072, .i32⟩
  | 21 => ⟨S131072, .i1⟩
  | 22 => ⟨S131072, .i1⟩
  | 23 => ⟨S_, .i32⟩
  | 24 => ⟨S131072, .i32⟩
  | 25 => ⟨S131072, .i1⟩
  | 26 => ⟨S131072, .i1⟩
  | 27 => ⟨S_, .i32⟩
  | 28 => ⟨S_, .i32⟩
  | 29 => ⟨S_, .i32⟩
  | 30 => ⟨S131072, .i32⟩
  | 31 => ⟨S131072, .i32⟩
  | 32 => ⟨S_, .i32⟩
  | 33 => ⟨S131072, .i32⟩
  | 34 => ⟨S131072, .i32⟩
  | 35 => ⟨S_, .i32⟩
  | 36 => ⟨S_, .i32⟩
  | 37 => ⟨S_, .i32⟩
  | 38 => ⟨S131072, .i32⟩
  | 39 => ⟨S131072, .i32⟩
  | 40 => ⟨S_, .i32⟩
  | 41 => ⟨S131072, .i32⟩
  | 42 => ⟨S131072, .i32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S_, .i32⟩
  | 51 => ⟨S131072, .i32⟩
  | 52 => ⟨S131072, .i1⟩
  | 53 => ⟨S_, .i32⟩
  | 54 => ⟨S131072, .i32⟩
  | 55 => ⟨S131072, .i32⟩
  | 56 => ⟨S131072, .i32⟩
  | 57 => ⟨S_, .i32⟩
  | 58 => ⟨S131072, .i32⟩
  | 59 => ⟨S131072, .i1⟩
  | 60 => ⟨S_, .i32⟩
  | 61 => ⟨S131072, .i32⟩
  | 62 => ⟨S131072, .i32⟩
  | 63 => ⟨S131072, .i32⟩
  | 64 => ⟨S131072x1, .i32⟩
  | 65 => ⟨S131072x1, .i32⟩
  | 66 => ⟨S131072x1, .i32⟩
  | 67 => ⟨S131072x3, .i32⟩
  | 68 => ⟨S131072, .i32⟩
  | 69 => ⟨S_, .i32⟩
  | 70 => ⟨S131072, .i32⟩
  | 71 => ⟨S131072, .i1⟩
  | 72 => ⟨S131072, .i1⟩
  | 73 => ⟨S131072x1, .i1⟩
  | 74 => ⟨S_, .i32⟩
  | 75 => ⟨S131072, .i32⟩
  | 76 => ⟨S131072, .i32⟩
  | 77 => ⟨S_, .i32⟩
  | 78 => ⟨S131072, .i32⟩
  | 79 => ⟨S131072, .i1⟩
  | 80 => ⟨S_, .i32⟩
  | 81 => ⟨S131072, .i32⟩
  | 82 => ⟨S131072, .i32⟩
  | 83 => ⟨S131072, .i32⟩
  | 84 => ⟨S131072x1, .i32⟩
  | 85 => ⟨S131072x64, .f32⟩
  | 86 => ⟨S_, .f32⟩
  | 87 => ⟨S_, .f32⟩
  | 88 => ⟨S131072x64, .i1⟩
  | 89 => ⟨S131072x64, .f32⟩
  | 90 => ⟨S131072x64, .f32⟩
  | 91 => ⟨S1x1x64x64, .f32⟩
  | 92 => ⟨S64x64, .f32⟩
  | 93 => ⟨S131072x64, .f32⟩
  | 94 => ⟨S131072x64, .f32⟩
  | 95 => ⟨S131072x1, .i32⟩
  | 96 => ⟨S131072, .i32⟩
  | 97 => ⟨S_, .i32⟩
  | 98 => ⟨S131072, .i32⟩
  | 99 => ⟨S131072, .i32⟩
  | 100 => ⟨S131072x1, .i32⟩
  | 101 => ⟨S131072, .i32⟩
  | 102 => ⟨S_, .i32⟩
  | 103 => ⟨S131072, .i32⟩
  | 104 => ⟨S131072, .i32⟩
  | 105 => ⟨S_, .i32⟩
  | 106 => ⟨S131072, .i32⟩
  | 107 => ⟨S131072, .i1⟩
  | 108 => ⟨S_, .i32⟩
  | 109 => ⟨S131072, .i32⟩
  | 110 => ⟨S131072, .i1⟩
  | 111 => ⟨S131072, .i1⟩
  | 112 => ⟨S_, .i32⟩
  | 113 => ⟨S131072, .i32⟩
  | 114 => ⟨S131072, .i1⟩
  | 115 => ⟨S131072, .i1⟩
  | 116 => ⟨S_, .i32⟩
  | 117 => ⟨S131072, .i32⟩
  | 118 => ⟨S131072, .i1⟩
  | 119 => ⟨S131072, .i1⟩
  | 120 => ⟨S_, .i32⟩
  | 121 => ⟨S_, .i32⟩
  | 122 => ⟨S_, .i32⟩
  | 123 => ⟨S131072, .i32⟩
  | 124 => ⟨S131072, .i32⟩
  | 125 => ⟨S_, .i32⟩
  | 126 => ⟨S131072, .i32⟩
  | 127 => ⟨S131072, .i32⟩
  | _ => ⟨S4x32768x64, .f32⟩

abbrev hbmTy0_3 (i : Nat) : BufTy := match i % 128 with
  | 0 => ⟨S_, .i32⟩
  | 1 => ⟨S_, .i32⟩
  | 2 => ⟨S_, .i32⟩
  | 3 => ⟨S131072, .i32⟩
  | 4 => ⟨S131072, .i32⟩
  | 5 => ⟨S_, .i32⟩
  | 6 => ⟨S131072, .i32⟩
  | 7 => ⟨S131072, .i32⟩
  | 8 => ⟨S_, .i32⟩
  | 9 => ⟨S131072, .i32⟩
  | 10 => ⟨S131072, .i1⟩
  | 11 => ⟨S_, .i32⟩
  | 12 => ⟨S131072, .i32⟩
  | 13 => ⟨S131072, .i32⟩
  | 14 => ⟨S131072, .i32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S131072x1, .i32⟩
  | 31 => ⟨S131072x1, .i32⟩
  | 32 => ⟨S131072x3, .i32⟩
  | 33 => ⟨S131072, .i32⟩
  | 34 => ⟨S_, .i32⟩
  | 35 => ⟨S131072, .i32⟩
  | 36 => ⟨S131072, .i1⟩
  | 37 => ⟨S131072, .i1⟩
  | 38 => ⟨S131072x1, .i1⟩
  | 39 => ⟨S_, .i32⟩
  | 40 => ⟨S131072, .i32⟩
  | 41 => ⟨S131072, .i32⟩
  | 42 => ⟨S_, .i32⟩
  | 43 => ⟨S131072, .i32⟩
  | 44 => ⟨S131072, .i1⟩
  | 45 => ⟨S_, .i32⟩
  | 46 => ⟨S131072, .i32⟩
  | 47 => ⟨S131072, .i32⟩
  | 48 => ⟨S131072, .i32⟩
  | 49 => ⟨S131072x1, .i32⟩
  | 50 => ⟨S131072x64, .f32⟩
  | 51 => ⟨S_, .f32⟩
  | 52 => ⟨S_, .f32⟩
  | 53 => ⟨S131072x64, .i1⟩
  | 54 => ⟨S131072x64, .f32⟩
  | 55 => ⟨S131072x64, .f32⟩
  | 56 => ⟨S1x1x64x64, .f32⟩
  | 57 => ⟨S64x64, .f32⟩
  | 58 => ⟨S131072x64, .f32⟩
  | 59 => ⟨S131072x64, .f32⟩
  | 60 => ⟨S131072x1, .i32⟩
  | 61 => ⟨S131072, .i32⟩
  | 62 => ⟨S_, .i32⟩
  | 63 => ⟨S131072, .i32⟩
  | 64 => ⟨S131072, .i32⟩
  | 65 => ⟨S131072x1, .i32⟩
  | 66 => ⟨S131072, .i32⟩
  | 67 => ⟨S_, .i32⟩
  | 68 => ⟨S131072, .i32⟩
  | 69 => ⟨S131072, .i32⟩
  | 70 => ⟨S_, .i32⟩
  | 71 => ⟨S131072, .i32⟩
  | 72 => ⟨S131072, .i1⟩
  | 73 => ⟨S_, .i32⟩
  | 74 => ⟨S131072, .i32⟩
  | 75 => ⟨S131072, .i1⟩
  | 76 => ⟨S131072, .i1⟩
  | 77 => ⟨S_, .i32⟩
  | 78 => ⟨S131072, .i32⟩
  | 79 => ⟨S131072, .i1⟩
  | 80 => ⟨S131072, .i1⟩
  | 81 => ⟨S_, .i32⟩
  | 82 => ⟨S131072, .i32⟩
  | 83 => ⟨S131072, .i1⟩
  | 84 => ⟨S131072, .i1⟩
  | 85 => ⟨S_, .i32⟩
  | 86 => ⟨S_, .i32⟩
  | 87 => ⟨S_, .i32⟩
  | 88 => ⟨S131072, .i32⟩
  | 89 => ⟨S131072, .i32⟩
  | 90 => ⟨S_, .i32⟩
  | 91 => ⟨S131072, .i32⟩
  | 92 => ⟨S131072, .i32⟩
  | 93 => ⟨S_, .i32⟩
  | 94 => ⟨S_, .i32⟩
  | 95 => ⟨S_, .i32⟩
  | 96 => ⟨S131072, .i32⟩
  | 97 => ⟨S131072, .i32⟩
  | 98 => ⟨S_, .i32⟩
  | 99 => ⟨S131072, .i32⟩
  | 100 => ⟨S131072, .i32⟩
  | 101 => ⟨S_, .i32⟩
  | 102 => ⟨S131072, .i32⟩
  | 103 => ⟨S131072, .i1⟩
  | 104 => ⟨S_, .i32⟩
  | 105 => ⟨S131072, .i32⟩
  | 106 => ⟨S131072, .i32⟩
  | 107 => ⟨S131072, .i32⟩
  | 108 => ⟨S_, .i32⟩
  | 109 => ⟨S131072, .i32⟩
  | 110 => ⟨S131072, .i1⟩
  | 111 => ⟨S_, .i32⟩
  | 112 => ⟨S131072, .i32⟩
  | 113 => ⟨S131072, .i32⟩
  | 114 => ⟨S131072, .i32⟩
  | 115 => ⟨S_, .i32⟩
  | 116 => ⟨S131072, .i32⟩
  | 117 => ⟨S131072, .i1⟩
  | 118 => ⟨S_, .i32⟩
  | 119 => ⟨S131072, .i32⟩
  | 120 => ⟨S131072, .i32⟩
  | 121 => ⟨S131072, .i32⟩
  | 122 => ⟨S131072x1, .i32⟩
  | 123 => ⟨S131072x1, .i32⟩
  | 124 => ⟨S131072x1, .i32⟩
  | 125 => ⟨S131072x3, .i32⟩
  | 126 => ⟨S131072, .i32⟩
  | 127 => ⟨S_, .i32⟩
  | _ => ⟨S4x32768x64, .f32⟩

abbrev hbmTy0_4 (i : Nat) : BufTy := match i % 128 with
  | 0 => ⟨S131072, .i32⟩
  | 1 => ⟨S131072, .i1⟩
  | 2 => ⟨S131072, .i1⟩
  | 3 => ⟨S131072x1, .i1⟩
  | 4 => ⟨S_, .i32⟩
  | 5 => ⟨S131072, .i32⟩
  | 6 => ⟨S131072, .i32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S131072x64, .f32⟩
  | 16 => ⟨S_, .f32⟩
  | 17 => ⟨S_, .f32⟩
  | 18 => ⟨S131072x64, .i1⟩
  | 19 => ⟨S131072x64, .f32⟩
  | 20 => ⟨S131072x64, .f32⟩
  | 21 => ⟨S1x1x64x64, .f32⟩
  | 22 => ⟨S64x64, .f32⟩
  | 23 => ⟨S131072x64, .f32⟩
  | 24 => ⟨S131072x64, .f32⟩
  | 25 => ⟨S131072x1, .i32⟩
  | 26 => ⟨S131072, .i32⟩
  | 27 => ⟨S_, .i32⟩
  | 28 => ⟨S131072, .i32⟩
  | 29 => ⟨S131072, .i32⟩
  | 30 => ⟨S131072x1, .i32⟩
  | 31 => ⟨S131072, .i32⟩
  | 32 => ⟨S_, .i32⟩
  | 33 => ⟨S131072, .i32⟩
  | 34 => ⟨S131072, .i32⟩
  | 35 => ⟨S_, .i32⟩
  | 36 => ⟨S131072, .i32⟩
  | 37 => ⟨S131072, .i1⟩
  | 38 => ⟨S_, .i32⟩
  | 39 => ⟨S131072, .i32⟩
  | 40 => ⟨S131072, .i1⟩
  | 41 => ⟨S131072, .i1⟩
  | 42 => ⟨S_, .i32⟩
  | 43 => ⟨S131072, .i32⟩
  | 44 => ⟨S131072, .i1⟩
  | 45 => ⟨S131072, .i1⟩
  | 46 => ⟨S_, .i32⟩
  | 47 => ⟨S131072, .i32⟩
  | 48 => ⟨S131072, .i1⟩
  | 49 => ⟨S131072, .i1⟩
  | 50 => ⟨S_, .i32⟩
  | 51 => ⟨S_, .i32⟩
  | 52 => ⟨S_, .i32⟩
  | 53 => ⟨S131072, .i32⟩
  | 54 => ⟨S131072, .i32⟩
  | 55 => ⟨S_, .i32⟩
  | 56 => ⟨S131072, .i32⟩
  | 57 => ⟨S131072, .i32⟩
  | 58 => ⟨S_, .i32⟩
  | 59 => ⟨S_, .i32⟩
  | 60 => ⟨S_, .i32⟩
  | 61 => ⟨S131072, .i32⟩
  | 62 => ⟨S131072, .i32⟩
  | 63 => ⟨S_, .i32⟩
  | 64 => ⟨S131072, .i32⟩
  | 65 => ⟨S131072, .i32⟩
  | 66 => ⟨S_, .i32⟩
  | 67 => ⟨S131072, .i32⟩
  | 68 => ⟨S131072, .i1⟩
  | 69 => ⟨S_, .i32⟩
  | 70 => ⟨S131072, .i32⟩
  | 71 => ⟨S131072, .i32⟩
  | 72 => ⟨S131072, .i32⟩
  | 73 => ⟨S_, .i32⟩
  | 74 => ⟨S131072, .i32⟩
  | 75 => ⟨S131072, .i1⟩
  | 76 => ⟨S_, .i32⟩
  | 77 => ⟨S131072, .i32⟩
  | 78 => ⟨S131072, .i32⟩
  | 79 => ⟨S131072, .i32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S131072x1, .i32⟩
  | 88 => ⟨S131072x1, .i32⟩
  | 89 => ⟨S131072x1, .i32⟩
  | 90 => ⟨S131072x3, .i32⟩
  | 91 => ⟨S131072, .i32⟩
  | 92 => ⟨S_, .i32⟩
  | 93 => ⟨S131072, .i32⟩
  | 94 => ⟨S131072, .i1⟩
  | 95 => ⟨S131072, .i1⟩
  | 96 => ⟨S131072x1, .i1⟩
  | 97 => ⟨S_, .i32⟩
  | 98 => ⟨S131072, .i32⟩
  | 99 => ⟨S131072, .i32⟩
  | 100 => ⟨S_, .i32⟩
  | 101 => ⟨S131072, .i32⟩
  | 102 => ⟨S131072, .i1⟩
  | 103 => ⟨S_, .i32⟩
  | 104 => ⟨S131072, .i32⟩
  | 105 => ⟨S131072, .i32⟩
  | 106 => ⟨S131072, .i32⟩
  | 107 => ⟨S131072x1, .i32⟩
  | 108 => ⟨S131072x64, .f32⟩
  | 109 => ⟨S_, .f32⟩
  | 110 => ⟨S_, .f32⟩
  | 111 => ⟨S131072x64, .i1⟩
  | 112 => ⟨S131072x64, .f32⟩
  | 113 => ⟨S131072x64, .f32⟩
  | 114 => ⟨S1x1x64x64, .f32⟩
  | 115 => ⟨S64x64, .f32⟩
  | 116 => ⟨S131072x64, .f32⟩
  | 117 => ⟨S131072x64, .f32⟩
  | 118 => ⟨S131072x1, .i32⟩
  | 119 => ⟨S131072, .i32⟩
  | 120 => ⟨S_, .i32⟩
  | 121 => ⟨S131072, .i32⟩
  | 122 => ⟨S131072, .i32⟩
  | 123 => ⟨S131072x1, .i32⟩
  | 124 => ⟨S131072, .i32⟩
  | 125 => ⟨S_, .i32⟩
  | 126 => ⟨S131072, .i32⟩
  | 127 => ⟨S131072, .i32⟩
  | _ => ⟨S4x32768x64, .f32⟩

abbrev hbmTy0_5 (i : Nat) : BufTy := match i % 128 with
  | 0 => ⟨S_, .i32⟩
  | 1 => ⟨S131072, .i32⟩
  | 2 => ⟨S131072, .i1⟩
  | 3 => ⟨S_, .i32⟩
  | 4 => ⟨S131072, .i32⟩
  | 5 => ⟨S131072, .i1⟩
  | 6 => ⟨S131072, .i1⟩
  | 7 => ⟨S_, .i32⟩
  | 8 => ⟨S131072, .i32⟩
  | 9 => ⟨S131072, .i1⟩
  | 10 => ⟨S131072, .i1⟩
  | 11 => ⟨S_, .i32⟩
  | 12 => ⟨S131072, .i32⟩
  | 13 => ⟨S131072, .i1⟩
  | 14 => ⟨S131072, .i1⟩
  | 15 => ⟨S_, .i32⟩
  | 16 => ⟨S_, .i32⟩
  | 17 => ⟨S_, .i32⟩
  | 18 => ⟨S131072, .i32⟩
  | 19 => ⟨S131072, .i32⟩
  | 20 => ⟨S_, .i32⟩
  | 21 => ⟨S131072, .i32⟩
  | 22 => ⟨S131072, .i32⟩
  | 23 => ⟨S_, .i32⟩
  | 24 => ⟨S_, .i32⟩
  | 25 => ⟨S_, .i32⟩
  | 26 => ⟨S131072, .i32⟩
  | 27 => ⟨S131072, .i32⟩
  | 28 => ⟨S_, .i32⟩
  | 29 => ⟨S131072, .i32⟩
  | 30 => ⟨S131072, .i32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S_, .i32⟩
  | 46 => ⟨S131072, .i32⟩
  | 47 => ⟨S131072, .i1⟩
  | 48 => ⟨S_, .i32⟩
  | 49 => ⟨S131072, .i32⟩
  | 50 => ⟨S131072, .i32⟩
  | 51 => ⟨S131072, .i32⟩
  | 52 => ⟨S131072x1, .i32⟩
  | 53 => ⟨S131072x1, .i32⟩
  | 54 => ⟨S131072x1, .i32⟩
  | 55 => ⟨S131072x3, .i32⟩
  | 56 => ⟨S131072, .i32⟩
  | 57 => ⟨S_, .i32⟩
  | 58 => ⟨S131072, .i32⟩
  | 59 => ⟨S131072, .i1⟩
  | 60 => ⟨S131072, .i1⟩
  | 61 => ⟨S131072x1, .i1⟩
  | 62 => ⟨S_, .i32⟩
  | 63 => ⟨S131072, .i32⟩
  | 64 => ⟨S131072, .i32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S131072x1, .i32⟩
  | 73 => ⟨S131072x64, .f32⟩
  | 74 => ⟨S_, .f32⟩
  | 75 => ⟨S_, .f32⟩
  | 76 => ⟨S131072x64, .i1⟩
  | 77 => ⟨S131072x64, .f32⟩
  | 78 => ⟨S131072x64, .f32⟩
  | 79 => ⟨S1x1x64x64, .f32⟩
  | 80 => ⟨S64x64, .f32⟩
  | 81 => ⟨S131072x64, .f32⟩
  | 82 => ⟨S131072x64, .f32⟩
  | 83 => ⟨S131072x1, .i32⟩
  | 84 => ⟨S131072, .i32⟩
  | 85 => ⟨S_, .i32⟩
  | 86 => ⟨S131072, .i32⟩
  | 87 => ⟨S131072, .i32⟩
  | 88 => ⟨S131072x1, .i32⟩
  | 89 => ⟨S131072, .i32⟩
  | 90 => ⟨S_, .i32⟩
  | 91 => ⟨S131072, .i32⟩
  | 92 => ⟨S131072, .i32⟩
  | 93 => ⟨S_, .i32⟩
  | 94 => ⟨S131072, .i32⟩
  | 95 => ⟨S131072, .i1⟩
  | 96 => ⟨S_, .i32⟩
  | 97 => ⟨S131072, .i32⟩
  | 98 => ⟨S131072, .i1⟩
  | 99 => ⟨S131072, .i1⟩
  | 100 => ⟨S_, .i32⟩
  | 101 => ⟨S131072, .i32⟩
  | 102 => ⟨S131072, .i1⟩
  | 103 => ⟨S131072, .i1⟩
  | 104 => ⟨S_, .i32⟩
  | 105 => ⟨S131072, .i32⟩
  | 106 => ⟨S131072, .i1⟩
  | 107 => ⟨S131072, .i1⟩
  | 108 => ⟨S_, .i32⟩
  | 109 => ⟨S_, .i32⟩
  | 110 => ⟨S_, .i32⟩
  | 111 => ⟨S131072, .i32⟩
  | 112 => ⟨S131072, .i32⟩
  | 113 => ⟨S_, .i32⟩
  | 114 => ⟨S131072, .i32⟩
  | 115 => ⟨S131072, .i32⟩
  | 116 => ⟨S_, .i32⟩
  | 117 => ⟨S_, .i32⟩
  | 118 => ⟨S_, .i32⟩
  | 119 => ⟨S131072, .i32⟩
  | 120 => ⟨S131072, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i1⟩
  | 127 => ⟨S_, .i32⟩
  | _ => ⟨S4x32768x64, .f32⟩

abbrev hbmTy0_6 (i : Nat) : BufTy := match i % 128 with
  | 0 => ⟨S131072, .i32⟩
  | 1 => ⟨S131072, .i32⟩
  | 2 => ⟨S131072, .i32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S_, .i32⟩
  | 11 => ⟨S131072, .i32⟩
  | 12 => ⟨S131072, .i1⟩
  | 13 => ⟨S_, .i32⟩
  | 14 => ⟨S131072, .i32⟩
  | 15 => ⟨S131072, .i32⟩
  | 16 => ⟨S131072, .i32⟩
  | 17 => ⟨S131072x1, .i32⟩
  | 18 => ⟨S131072x1, .i32⟩
  | 19 => ⟨S131072x1, .i32⟩
  | 20 => ⟨S131072x3, .i32⟩
  | 21 => ⟨S131072, .i32⟩
  | 22 => ⟨S_, .i32⟩
  | 23 => ⟨S131072, .i32⟩
  | 24 => ⟨S131072, .i1⟩
  | 25 => ⟨S131072, .i1⟩
  | 26 => ⟨S131072x1, .i1⟩
  | 27 => ⟨S_, .i32⟩
  | 28 => ⟨S131072, .i32⟩
  | 29 => ⟨S131072, .i32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S131072x1, .i32⟩
  | 38 => ⟨S131072x64, .f32⟩
  | 39 => ⟨S_, .f32⟩
  | 40 => ⟨S_, .f32⟩
  | 41 => ⟨S131072x64, .i1⟩
  | 42 => ⟨S131072x64, .f32⟩
  | 43 => ⟨S131072x64, .f32⟩
  | 44 => ⟨S1x1x64x64, .f32⟩
  | 45 => ⟨S64x64, .f32⟩
  | 46 => ⟨S131072x64, .f32⟩
  | 47 => ⟨S131072x64, .f32⟩
  | 48 => ⟨S131072x1, .i32⟩
  | 49 => ⟨S131072, .i32⟩
  | 50 => ⟨S_, .i32⟩
  | 51 => ⟨S131072, .i32⟩
  | 52 => ⟨S131072, .i32⟩
  | 53 => ⟨S131072x1, .i32⟩
  | 54 => ⟨S131072, .i32⟩
  | 55 => ⟨S_, .i32⟩
  | 56 => ⟨S131072, .i32⟩
  | 57 => ⟨S131072, .i32⟩
  | 58 => ⟨S_, .i32⟩
  | 59 => ⟨S131072, .i32⟩
  | 60 => ⟨S131072, .i1⟩
  | 61 => ⟨S_, .i32⟩
  | 62 => ⟨S131072, .i32⟩
  | 63 => ⟨S131072, .i1⟩
  | 64 => ⟨S131072, .i1⟩
  | 65 => ⟨S_, .i32⟩
  | 66 => ⟨S131072, .i32⟩
  | 67 => ⟨S131072, .i1⟩
  | 68 => ⟨S131072, .i1⟩
  | 69 => ⟨S_, .i32⟩
  | 70 => ⟨S131072, .i32⟩
  | 71 => ⟨S131072, .i1⟩
  | 72 => ⟨S131072, .i1⟩
  | 73 => ⟨S_, .i32⟩
  | 74 => ⟨S_, .i32⟩
  | 75 => ⟨S_, .i32⟩
  | 76 => ⟨S131072, .i32⟩
  | 77 => ⟨S131072, .i32⟩
  | 78 => ⟨S_, .i32⟩
  | 79 => ⟨S131072, .i32⟩
  | 80 => ⟨S131072, .i32⟩
  | 81 => ⟨S_, .i32⟩
  | 82 => ⟨S_, .i32⟩
  | 83 => ⟨S_, .i32⟩
  | 84 => ⟨S131072, .i32⟩
  | 85 => ⟨S131072, .i32⟩
  | 86 => ⟨S_, .i32⟩
  | 87 => ⟨S131072, .i32⟩
  | 88 => ⟨S131072, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S_, .i32⟩
  | 104 => ⟨S131072, .i32⟩
  | 105 => ⟨S131072, .i1⟩
  | 106 => ⟨S_, .i32⟩
  | 107 => ⟨S131072, .i32⟩
  | 108 => ⟨S131072, .i32⟩
  | 109 => ⟨S131072, .i32⟩
  | 110 => ⟨S131072x1, .i32⟩
  | 111 => ⟨S131072x1, .i32⟩
  | 112 => ⟨S131072x1, .i32⟩
  | 113 => ⟨S131072x3, .i32⟩
  | 114 => ⟨S131072, .i32⟩
  | 115 => ⟨S_, .i32⟩
  | 116 => ⟨S131072, .i32⟩
  | 117 => ⟨S131072, .i1⟩
  | 118 => ⟨S131072, .i1⟩
  | 119 => ⟨S131072x1, .i1⟩
  | 120 => ⟨S_, .i32⟩
  | 121 => ⟨S131072, .i32⟩
  | 122 => ⟨S131072, .i32⟩
  | 123 => ⟨S_, .i32⟩
  | 124 => ⟨S131072, .i32⟩
  | 125 => ⟨S131072, .i1⟩
  | 126 => ⟨S_, .i32⟩
  | 127 => ⟨S131072, .i32⟩
  | _ => ⟨S4x32768x64, .f32⟩

abbrev hbmTy0_7 (i : Nat) : BufTy := match i % 128 with
  | 0 => ⟨S131072, .i32⟩
  | 1 => ⟨S131072, .i32⟩
  | 2 => ⟨S131072x1, .i32⟩
  | 3 => ⟨S131072x64, .f32⟩
  | 4 => ⟨S_, .f32⟩
  | 5 => ⟨S_, .f32⟩
  | 6 => ⟨S131072x64, .i1⟩
  | 7 => ⟨S131072x64, .f32⟩
  | 8 => ⟨S131072x64, .f32⟩
  | 9 => ⟨S1x1x64x64, .f32⟩
  | 10 => ⟨S64x64, .f32⟩
  | 11 => ⟨S131072x64, .f32⟩
  | 12 => ⟨S131072x64, .f32⟩
  | 13 => ⟨S4x32768x64, .f32⟩
  | _ => ⟨S4x32768x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4x32768x64, .f32⟩

abbrev bufTy : (tb : Table) → Fin (tcTables nBuf tb) → BufTy
  | .hbm, ⟨i, _⟩ => hbmTy i
  | _, _ => ⟨S4x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_3 : Ref sig .tc := ⟨.hbm, 17, rfl⟩
abbrev main_v5 : Ref sig .tc := ⟨.hbm, 18, rfl⟩
abbrev main_v6 : Ref sig .tc := ⟨.hbm, 19, rfl⟩
abbrev main_cst_4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_14 : Ref sig .tc := ⟨.hbm, 79, rfl⟩
abbrev main_v55 : Ref sig .tc := ⟨.hbm, 80, rfl⟩
abbrev main_v56 : Ref sig .tc := ⟨.hbm, 81, rfl⟩
abbrev main_c_15 : Ref sig .tc := ⟨.hbm, 82, rfl⟩
abbrev main_v57 : Ref sig .tc := ⟨.hbm, 83, rfl⟩
abbrev main_v58 : Ref sig .tc := ⟨.hbm, 84, rfl⟩
abbrev main_c_16 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_17 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_18 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_19 : Ref sig .tc := ⟨.hbm, 97, rfl⟩
abbrev main_c_20 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_v68 : Ref sig .tc := ⟨.hbm, 104, rfl⟩
abbrev main_c_21 : Ref sig .tc := ⟨.hbm, 105, rfl⟩
abbrev main_c_22 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v69 : Ref sig .tc := ⟨.hbm, 112, rfl⟩
abbrev main_c_23 : Ref sig .tc := ⟨.hbm, 113, rfl⟩
abbrev main_v70 : Ref sig .tc := ⟨.hbm, 114, rfl⟩
abbrev main_v71 : Ref sig .tc := ⟨.hbm, 115, rfl⟩
abbrev main_c_24 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_25 : Ref sig .tc := ⟨.hbm, 120, rfl⟩
abbrev main_v75 : Ref sig .tc := ⟨.hbm, 121, rfl⟩
abbrev main_v76 : Ref sig .tc := ⟨.hbm, 122, rfl⟩
abbrev main_c_26 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_c_27 : Ref sig .tc := ⟨.hbm, 127, rfl⟩
abbrev main_v80 : Ref sig .tc := ⟨.hbm, 128, rfl⟩
abbrev main_v81 : Ref sig .tc := ⟨.hbm, 129, rfl⟩
abbrev main_c_28 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_c_29 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_c_30 : Ref sig .tc := ⟨.hbm, 144, rfl⟩
abbrev main_v94 : Ref sig .tc := ⟨.hbm, 145, rfl⟩
abbrev main_v95 : Ref sig .tc := ⟨.hbm, 146, rfl⟩
abbrev main_c_31 : Ref sig .tc := ⟨.hbm, 147, rfl⟩
abbrev main_v96 : Ref sig .tc := ⟨.hbm, 148, rfl⟩
abbrev main_v97 : Ref sig .tc := ⟨.hbm, 149, rfl⟩
abbrev main_c_32 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_33 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_c_34 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_c_35 : Ref sig .tc := ⟨.hbm, 172, rfl⟩
abbrev main_v114 : Ref sig .tc := ⟨.hbm, 173, rfl⟩
abbrev main_v115 : Ref sig .tc := ⟨.hbm, 174, rfl⟩
abbrev main_c_36 : Ref sig .tc := ⟨.hbm, 175, rfl⟩
abbrev main_v116 : Ref sig .tc := ⟨.hbm, 176, rfl⟩
abbrev main_v117 : Ref sig .tc := ⟨.hbm, 177, rfl⟩
abbrev main_c_37 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_c_38 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_c_39 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_c_40 : Ref sig .tc := ⟨.hbm, 190, rfl⟩
abbrev main_c_41 : Ref sig .tc := ⟨.hbm, 191, rfl⟩
abbrev main_call4_v0 : Ref sig .tc := ⟨.hbm, 192, rfl⟩
abbrev main_call4_v1 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_v127 : Ref sig .tc := ⟨.hbm, 197, rfl⟩
abbrev main_c_42 : Ref sig .tc := ⟨.hbm, 198, rfl⟩
abbrev main_c_43 : Ref sig .tc := ⟨.hbm, 199, rfl⟩
abbrev main_call5_v0 : Ref sig .tc := ⟨.hbm, 200, rfl⟩
abbrev main_call5_v1 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_v128 : Ref sig .tc := ⟨.hbm, 205, rfl⟩
abbrev main_c_44 : Ref sig .tc := ⟨.hbm, 206, rfl⟩
abbrev main_v129 : Ref sig .tc := ⟨.hbm, 207, rfl⟩
abbrev main_v130 : Ref sig .tc := ⟨.hbm, 208, rfl⟩
abbrev main_c_45 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_c_46 : Ref sig .tc := ⟨.hbm, 213, rfl⟩
abbrev main_v134 : Ref sig .tc := ⟨.hbm, 214, rfl⟩
abbrev main_v135 : Ref sig .tc := ⟨.hbm, 215, rfl⟩
abbrev main_c_47 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_c_48 : Ref sig .tc := ⟨.hbm, 220, rfl⟩
abbrev main_v139 : Ref sig .tc := ⟨.hbm, 221, rfl⟩
abbrev main_v140 : Ref sig .tc := ⟨.hbm, 222, rfl⟩
abbrev main_c_49 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_c_50 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_c_51 : Ref sig .tc := ⟨.hbm, 237, rfl⟩
abbrev main_v153 : Ref sig .tc := ⟨.hbm, 238, rfl⟩
abbrev main_v154 : Ref sig .tc := ⟨.hbm, 239, rfl⟩
abbrev main_c_52 : Ref sig .tc := ⟨.hbm, 240, rfl⟩
abbrev main_v155 : Ref sig .tc := ⟨.hbm, 241, rfl⟩
abbrev main_v156 : Ref sig .tc := ⟨.hbm, 242, rfl⟩
abbrev main_c_53 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_cst_54 : Ref sig .tc := ⟨.hbm, 249, rfl⟩
abbrev main_call6_v0 : Ref sig .tc := ⟨.hbm, 250, rfl⟩
abbrev main_call6_v1 : Ref sig .tc := ⟨.hbm, 251, rfl⟩
abbrev main_call6_v2 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_c_55 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_c_56 : Ref sig .tc := ⟨.hbm, 265, rfl⟩
abbrev main_v173 : Ref sig .tc := ⟨.hbm, 266, rfl⟩
abbrev main_v174 : Ref sig .tc := ⟨.hbm, 267, rfl⟩
abbrev main_c_57 : Ref sig .tc := ⟨.hbm, 268, rfl⟩
abbrev main_v175 : Ref sig .tc := ⟨.hbm, 269, rfl⟩
abbrev main_v176 : Ref sig .tc := ⟨.hbm, 270, rfl⟩
abbrev main_c_58 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_c_59 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_c_60 : Ref sig .tc := ⟨.hbm, 279, rfl⟩
abbrev main_v183 : Ref sig .tc := ⟨.hbm, 280, rfl⟩
abbrev main_v184 : Ref sig .tc := ⟨.hbm, 281, rfl⟩
abbrev main_v185 : Ref sig .tc := ⟨.hbm, 282, rfl⟩
abbrev main_c_61 : Ref sig .tc := ⟨.hbm, 283, rfl⟩
abbrev main_c_62 : Ref sig .tc := ⟨.hbm, 284, rfl⟩
abbrev main_call7_v0 : Ref sig .tc := ⟨.hbm, 285, rfl⟩
abbrev main_call7_v1 : Ref sig .tc := ⟨.hbm, 286, rfl⟩
abbrev main_call7_v2 : Ref sig .tc := ⟨.hbm, 287, rfl⟩
abbrev main_call7_v3 : Ref sig .tc := ⟨.hbm, 288, rfl⟩
abbrev main_call7_v4 : Ref sig .tc := ⟨.hbm, 289, rfl⟩
abbrev main_v186 : Ref sig .tc := ⟨.hbm, 290, rfl⟩
abbrev main_c_63 : Ref sig .tc := ⟨.hbm, 291, rfl⟩
abbrev main_c_64 : Ref sig .tc := ⟨.hbm, 292, rfl⟩
abbrev main_call8_v0 : Ref sig .tc := ⟨.hbm, 293, rfl⟩
abbrev main_call8_v1 : Ref sig .tc := ⟨.hbm, 294, rfl⟩
abbrev main_call8_v2 : Ref sig .tc := ⟨.hbm, 295, rfl⟩
abbrev main_call8_v3 : Ref sig .tc := ⟨.hbm, 296, rfl⟩
abbrev main_call8_v4 : Ref sig .tc := ⟨.hbm, 297, rfl⟩
abbrev main_v187 : Ref sig .tc := ⟨.hbm, 298, rfl⟩
abbrev main_c_65 : Ref sig .tc := ⟨.hbm, 299, rfl⟩
abbrev main_v188 : Ref sig .tc := ⟨.hbm, 300, rfl⟩
abbrev main_v189 : Ref sig .tc := ⟨.hbm, 301, rfl⟩
abbrev main_c_66 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_c_67 : Ref sig .tc := ⟨.hbm, 306, rfl⟩
abbrev main_v193 : Ref sig .tc := ⟨.hbm, 307, rfl⟩
abbrev main_v194 : Ref sig .tc := ⟨.hbm, 308, rfl⟩
abbrev main_c_68 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_c_69 : Ref sig .tc := ⟨.hbm, 313, rfl⟩
abbrev main_v198 : Ref sig .tc := ⟨.hbm, 314, rfl⟩
abbrev main_v199 : Ref sig .tc := ⟨.hbm, 315, rfl⟩
abbrev main_c_70 : Ref sig .tc := ⟨.hbm, 316, rfl⟩
abbrev main_v200 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_v204 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_c_71 : Ref sig .tc := ⟨.hbm, 325, rfl⟩
abbrev main_v208 : Ref sig .tc := ⟨.hbm, 326, rfl⟩
abbrev main_v209 : Ref sig .tc := ⟨.hbm, 327, rfl⟩
abbrev main_v210 : Ref sig .tc := ⟨.hbm, 328, rfl⟩
abbrev main_v211 : Ref sig .tc := ⟨.hbm, 329, rfl⟩
abbrev main_c_72 : Ref sig .tc := ⟨.hbm, 330, rfl⟩
abbrev main_v212 : Ref sig .tc := ⟨.hbm, 331, rfl⟩
abbrev main_v213 : Ref sig .tc := ⟨.hbm, 332, rfl⟩
abbrev main_c_73 : Ref sig .tc := ⟨.hbm, 333, rfl⟩
abbrev main_v214 : Ref sig .tc := ⟨.hbm, 334, rfl⟩
abbrev main_v215 : Ref sig .tc := ⟨.hbm, 335, rfl⟩
abbrev main_c_74 : Ref sig .tc := ⟨.hbm, 336, rfl⟩
abbrev main_v216 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_cst_75 : Ref sig .tc := ⟨.hbm, 342, rfl⟩
abbrev main_call9_v0 : Ref sig .tc := ⟨.hbm, 343, rfl⟩
abbrev main_call9_v1 : Ref sig .tc := ⟨.hbm, 344, rfl⟩
abbrev main_call9_v2 : Ref sig .tc := ⟨.hbm, 345, rfl⟩
abbrev main_v221 : Ref sig .tc := ⟨.hbm, 346, rfl⟩
abbrev main_v222 : Ref sig .tc := ⟨.hbm, 347, rfl⟩
abbrev main_v223 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_v227 : Ref sig .tc := ⟨.hbm, 352, rfl⟩
abbrev main_c_76 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_c_77 : Ref sig .tc := ⟨.hbm, 358, rfl⟩
abbrev main_v232 : Ref sig .tc := ⟨.hbm, 359, rfl⟩
abbrev main_v233 : Ref sig .tc := ⟨.hbm, 360, rfl⟩
abbrev main_c_78 : Ref sig .tc := ⟨.hbm, 361, rfl⟩
abbrev main_v234 : Ref sig .tc := ⟨.hbm, 362, rfl⟩
abbrev main_v235 : Ref sig .tc := ⟨.hbm, 363, rfl⟩
abbrev main_c_79 : Ref sig .tc := ⟨.hbm, 364, rfl⟩
abbrev main_v236 : Ref sig .tc := ⟨.hbm, 365, rfl⟩
abbrev main_v237 : Ref sig .tc := ⟨.hbm, 366, rfl⟩
abbrev main_v238 : Ref sig .tc := ⟨.hbm, 367, rfl⟩
abbrev main_c_80 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_c_81 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩
abbrev main_c_82 : Ref sig .tc := ⟨.hbm, 376, rfl⟩
abbrev main_c_83 : Ref sig .tc := ⟨.hbm, 377, rfl⟩
abbrev main_call10_v0 : Ref sig .tc := ⟨.hbm, 378, rfl⟩
abbrev main_call10_v1 : Ref sig .tc := ⟨.hbm, 379, rfl⟩
abbrev main_call10_v2 : Ref sig .tc := ⟨.hbm, 380, rfl⟩
abbrev main_call10_v3 : Ref sig .tc := ⟨.hbm, 381, rfl⟩
abbrev main_call10_v4 : Ref sig .tc := ⟨.hbm, 382, rfl⟩
abbrev main_v245 : Ref sig .tc := ⟨.hbm, 383, rfl⟩
abbrev main_c_84 : Ref sig .tc := ⟨.hbm, 384, rfl⟩
abbrev main_c_85 : Ref sig .tc := ⟨.hbm, 385, rfl⟩
abbrev main_call11_v0 : Ref sig .tc := ⟨.hbm, 386, rfl⟩
abbrev main_call11_v1 : Ref sig .tc := ⟨.hbm, 387, rfl⟩
abbrev main_call11_v2 : Ref sig .tc := ⟨.hbm, 388, rfl⟩
abbrev main_call11_v3 : Ref sig .tc := ⟨.hbm, 389, rfl⟩
abbrev main_call11_v4 : Ref sig .tc := ⟨.hbm, 390, rfl⟩
abbrev main_v246 : Ref sig .tc := ⟨.hbm, 391, rfl⟩
abbrev main_c_86 : Ref sig .tc := ⟨.hbm, 392, rfl⟩
abbrev main_v247 : Ref sig .tc := ⟨.hbm, 393, rfl⟩
abbrev main_v248 : Ref sig .tc := ⟨.hbm, 394, rfl⟩
abbrev main_c_87 : Ref sig .tc := ⟨.hbm, 395, rfl⟩
abbrev main_v249 : Ref sig .tc := ⟨.hbm, 396, rfl⟩
abbrev main_v250 : Ref sig .tc := ⟨.hbm, 397, rfl⟩
abbrev main_v251 : Ref sig .tc := ⟨.hbm, 398, rfl⟩
abbrev main_c_88 : Ref sig .tc := ⟨.hbm, 399, rfl⟩
abbrev main_v252 : Ref sig .tc := ⟨.hbm, 400, rfl⟩
abbrev main_v253 : Ref sig .tc := ⟨.hbm, 401, rfl⟩
abbrev main_c_89 : Ref sig .tc := ⟨.hbm, 402, rfl⟩
abbrev main_v254 : Ref sig .tc := ⟨.hbm, 403, rfl⟩
abbrev main_v255 : Ref sig .tc := ⟨.hbm, 404, rfl⟩
abbrev main_v256 : Ref sig .tc := ⟨.hbm, 405, rfl⟩
abbrev main_c_90 : Ref sig .tc := ⟨.hbm, 406, rfl⟩
abbrev main_v257 : Ref sig .tc := ⟨.hbm, 407, rfl⟩
abbrev main_v258 : Ref sig .tc := ⟨.hbm, 408, rfl⟩
abbrev main_c_91 : Ref sig .tc := ⟨.hbm, 409, rfl⟩
abbrev main_v259 : Ref sig .tc := ⟨.hbm, 410, rfl⟩
abbrev main_v260 : Ref sig .tc := ⟨.hbm, 411, rfl⟩
abbrev main_v261 : Ref sig .tc := ⟨.hbm, 412, rfl⟩
abbrev main_v262 : Ref sig .tc := ⟨.hbm, 413, rfl⟩
abbrev main_v263 : Ref sig .tc := ⟨.hbm, 414, rfl⟩
abbrev main_v264 : Ref sig .tc := ⟨.hbm, 415, rfl⟩
abbrev main_v265 : Ref sig .tc := ⟨.hbm, 416, rfl⟩
abbrev main_v266 : Ref sig .tc := ⟨.hbm, 417, rfl⟩
abbrev main_c_92 : Ref sig .tc := ⟨.hbm, 418, rfl⟩
abbrev main_v267 : Ref sig .tc := ⟨.hbm, 419, rfl⟩
abbrev main_v268 : Ref sig .tc := ⟨.hbm, 420, rfl⟩
abbrev main_v269 : Ref sig .tc := ⟨.hbm, 421, rfl⟩
abbrev main_v270 : Ref sig .tc := ⟨.hbm, 422, rfl⟩
abbrev main_c_93 : Ref sig .tc := ⟨.hbm, 423, rfl⟩
abbrev main_v271 : Ref sig .tc := ⟨.hbm, 424, rfl⟩
abbrev main_v272 : Ref sig .tc := ⟨.hbm, 425, rfl⟩
abbrev main_c_94 : Ref sig .tc := ⟨.hbm, 426, rfl⟩
abbrev main_v273 : Ref sig .tc := ⟨.hbm, 427, rfl⟩
abbrev main_v274 : Ref sig .tc := ⟨.hbm, 428, rfl⟩
abbrev main_c_95 : Ref sig .tc := ⟨.hbm, 429, rfl⟩
abbrev main_v275 : Ref sig .tc := ⟨.hbm, 430, rfl⟩
abbrev main_v276 : Ref sig .tc := ⟨.hbm, 431, rfl⟩
abbrev main_v277 : Ref sig .tc := ⟨.hbm, 432, rfl⟩
abbrev main_v278 : Ref sig .tc := ⟨.hbm, 433, rfl⟩
abbrev main_v279 : Ref sig .tc := ⟨.hbm, 434, rfl⟩
abbrev main_cst_96 : Ref sig .tc := ⟨.hbm, 435, rfl⟩
abbrev main_call12_v0 : Ref sig .tc := ⟨.hbm, 436, rfl⟩
abbrev main_call12_v1 : Ref sig .tc := ⟨.hbm, 437, rfl⟩
abbrev main_call12_v2 : Ref sig .tc := ⟨.hbm, 438, rfl⟩
abbrev main_v280 : Ref sig .tc := ⟨.hbm, 439, rfl⟩
abbrev main_v281 : Ref sig .tc := ⟨.hbm, 440, rfl⟩
abbrev main_v282 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_v286 : Ref sig .tc := ⟨.hbm, 445, rfl⟩
abbrev main_c_97 : Ref sig .tc := ⟨.hbm, 446, rfl⟩
abbrev main_v287 : Ref sig .tc := ⟨.hbm, 447, rfl⟩
abbrev main_v288 : Ref sig .tc := ⟨.hbm, 448, rfl⟩
abbrev main_v289 : Ref sig .tc := ⟨.hbm, 449, rfl⟩
abbrev main_v290 : Ref sig .tc := ⟨.hbm, 450, rfl⟩
abbrev main_c_98 : Ref sig .tc := ⟨.hbm, 451, rfl⟩
abbrev main_v291 : Ref sig .tc := ⟨.hbm, 452, rfl⟩
abbrev main_v292 : Ref sig .tc := ⟨.hbm, 453, rfl⟩
abbrev main_c_99 : Ref sig .tc := ⟨.hbm, 454, rfl⟩
abbrev main_v293 : Ref sig .tc := ⟨.hbm, 455, rfl⟩
abbrev main_v294 : Ref sig .tc := ⟨.hbm, 456, rfl⟩
abbrev main_c_100 : Ref sig .tc := ⟨.hbm, 457, rfl⟩
abbrev main_v295 : Ref sig .tc := ⟨.hbm, 458, rfl⟩
abbrev main_v296 : Ref sig .tc := ⟨.hbm, 459, rfl⟩
abbrev main_v297 : Ref sig .tc := ⟨.hbm, 460, rfl⟩
abbrev main_c_101 : Ref sig .tc := ⟨.hbm, 461, rfl⟩
abbrev main_v298 : Ref sig .tc := ⟨.hbm, 462, rfl⟩
abbrev main_v299 : Ref sig .tc := ⟨.hbm, 463, rfl⟩
abbrev main_v300 : Ref sig .tc := ⟨.hbm, 464, rfl⟩
abbrev main_c_102 : Ref sig .tc := ⟨.hbm, 465, rfl⟩
abbrev main_v301 : Ref sig .tc := ⟨.hbm, 466, rfl⟩
abbrev main_v302 : Ref sig .tc := ⟨.hbm, 467, rfl⟩
abbrev main_v303 : Ref sig .tc := ⟨.hbm, 468, rfl⟩
abbrev main_c_103 : Ref sig .tc := ⟨.hbm, 469, rfl⟩
abbrev main_c_104 : Ref sig .tc := ⟨.hbm, 470, rfl⟩
abbrev main_call13_v0 : Ref sig .tc := ⟨.hbm, 471, rfl⟩
abbrev main_call13_v1 : Ref sig .tc := ⟨.hbm, 472, rfl⟩
abbrev main_call13_v2 : Ref sig .tc := ⟨.hbm, 473, rfl⟩
abbrev main_call13_v3 : Ref sig .tc := ⟨.hbm, 474, rfl⟩
abbrev main_call13_v4 : Ref sig .tc := ⟨.hbm, 475, rfl⟩
abbrev main_v304 : Ref sig .tc := ⟨.hbm, 476, rfl⟩
abbrev main_c_105 : Ref sig .tc := ⟨.hbm, 477, rfl⟩
abbrev main_c_106 : Ref sig .tc := ⟨.hbm, 478, rfl⟩
abbrev main_call14_v0 : Ref sig .tc := ⟨.hbm, 479, rfl⟩
abbrev main_call14_v1 : Ref sig .tc := ⟨.hbm, 480, rfl⟩
abbrev main_call14_v2 : Ref sig .tc := ⟨.hbm, 481, rfl⟩
abbrev main_call14_v3 : Ref sig .tc := ⟨.hbm, 482, rfl⟩
abbrev main_call14_v4 : Ref sig .tc := ⟨.hbm, 483, rfl⟩
abbrev main_v305 : Ref sig .tc := ⟨.hbm, 484, rfl⟩
abbrev main_c_107 : Ref sig .tc := ⟨.hbm, 485, rfl⟩
abbrev main_v306 : Ref sig .tc := ⟨.hbm, 486, rfl⟩
abbrev main_v307 : Ref sig .tc := ⟨.hbm, 487, rfl⟩
abbrev main_c_108 : Ref sig .tc := ⟨.hbm, 488, rfl⟩
abbrev main_v308 : Ref sig .tc := ⟨.hbm, 489, rfl⟩
abbrev main_v309 : Ref sig .tc := ⟨.hbm, 490, rfl⟩
abbrev main_v310 : Ref sig .tc := ⟨.hbm, 491, rfl⟩
abbrev main_c_109 : Ref sig .tc := ⟨.hbm, 492, rfl⟩
abbrev main_v311 : Ref sig .tc := ⟨.hbm, 493, rfl⟩
abbrev main_v312 : Ref sig .tc := ⟨.hbm, 494, rfl⟩
abbrev main_c_110 : Ref sig .tc := ⟨.hbm, 495, rfl⟩
abbrev main_v313 : Ref sig .tc := ⟨.hbm, 496, rfl⟩
abbrev main_v314 : Ref sig .tc := ⟨.hbm, 497, rfl⟩
abbrev main_v315 : Ref sig .tc := ⟨.hbm, 498, rfl⟩
abbrev main_c_111 : Ref sig .tc := ⟨.hbm, 499, rfl⟩
abbrev main_v316 : Ref sig .tc := ⟨.hbm, 500, rfl⟩
abbrev main_v317 : Ref sig .tc := ⟨.hbm, 501, rfl⟩
abbrev main_c_112 : Ref sig .tc := ⟨.hbm, 502, rfl⟩
abbrev main_v318 : Ref sig .tc := ⟨.hbm, 503, rfl⟩
abbrev main_v319 : Ref sig .tc := ⟨.hbm, 504, rfl⟩
abbrev main_v320 : Ref sig .tc := ⟨.hbm, 505, rfl⟩
abbrev main_v321 : Ref sig .tc := ⟨.hbm, 506, rfl⟩
abbrev main_v322 : Ref sig .tc := ⟨.hbm, 507, rfl⟩
abbrev main_v323 : Ref sig .tc := ⟨.hbm, 508, rfl⟩
abbrev main_v324 : Ref sig .tc := ⟨.hbm, 509, rfl⟩
abbrev main_v325 : Ref sig .tc := ⟨.hbm, 510, rfl⟩
abbrev main_c_113 : Ref sig .tc := ⟨.hbm, 511, rfl⟩
abbrev main_v326 : Ref sig .tc := ⟨.hbm, 512, rfl⟩
abbrev main_v327 : Ref sig .tc := ⟨.hbm, 513, rfl⟩
abbrev main_v328 : Ref sig .tc := ⟨.hbm, 514, rfl⟩
abbrev main_v329 : Ref sig .tc := ⟨.hbm, 515, rfl⟩
abbrev main_c_114 : Ref sig .tc := ⟨.hbm, 516, rfl⟩
abbrev main_v330 : Ref sig .tc := ⟨.hbm, 517, rfl⟩
abbrev main_v331 : Ref sig .tc := ⟨.hbm, 518, rfl⟩
abbrev main_c_115 : Ref sig .tc := ⟨.hbm, 519, rfl⟩
abbrev main_v332 : Ref sig .tc := ⟨.hbm, 520, rfl⟩
abbrev main_v333 : Ref sig .tc := ⟨.hbm, 521, rfl⟩
abbrev main_c_116 : Ref sig .tc := ⟨.hbm, 522, rfl⟩
abbrev main_v334 : Ref sig .tc := ⟨.hbm, 523, rfl⟩
abbrev main_v335 : Ref sig .tc := ⟨.hbm, 524, rfl⟩
abbrev main_v336 : Ref sig .tc := ⟨.hbm, 525, rfl⟩
abbrev main_v337 : Ref sig .tc := ⟨.hbm, 526, rfl⟩
abbrev main_v338 : Ref sig .tc := ⟨.hbm, 527, rfl⟩
abbrev main_cst_117 : Ref sig .tc := ⟨.hbm, 528, rfl⟩
abbrev main_call15_v0 : Ref sig .tc := ⟨.hbm, 529, rfl⟩
abbrev main_call15_v1 : Ref sig .tc := ⟨.hbm, 530, rfl⟩
abbrev main_call15_v2 : Ref sig .tc := ⟨.hbm, 531, rfl⟩
abbrev main_v339 : Ref sig .tc := ⟨.hbm, 532, rfl⟩
abbrev main_v340 : Ref sig .tc := ⟨.hbm, 533, rfl⟩
abbrev main_v341 : Ref sig .tc := ⟨.hbm, 534, rfl⟩
abbrev main_v342 : Ref sig .tc := ⟨.hbm, 535, rfl⟩
abbrev main_v343 : Ref sig .tc := ⟨.hbm, 536, rfl⟩
abbrev main_v344 : Ref sig .tc := ⟨.hbm, 537, rfl⟩
abbrev main_v345 : Ref sig .tc := ⟨.hbm, 538, rfl⟩
abbrev main_c_118 : Ref sig .tc := ⟨.hbm, 539, rfl⟩
abbrev main_v346 : Ref sig .tc := ⟨.hbm, 540, rfl⟩
abbrev main_v347 : Ref sig .tc := ⟨.hbm, 541, rfl⟩
abbrev main_v348 : Ref sig .tc := ⟨.hbm, 542, rfl⟩
abbrev main_v349 : Ref sig .tc := ⟨.hbm, 543, rfl⟩
abbrev main_c_119 : Ref sig .tc := ⟨.hbm, 544, rfl⟩
abbrev main_v350 : Ref sig .tc := ⟨.hbm, 545, rfl⟩
abbrev main_v351 : Ref sig .tc := ⟨.hbm, 546, rfl⟩
abbrev main_c_120 : Ref sig .tc := ⟨.hbm, 547, rfl⟩
abbrev main_v352 : Ref sig .tc := ⟨.hbm, 548, rfl⟩
abbrev main_v353 : Ref sig .tc := ⟨.hbm, 549, rfl⟩
abbrev main_c_121 : Ref sig .tc := ⟨.hbm, 550, rfl⟩
abbrev main_v354 : Ref sig .tc := ⟨.hbm, 551, rfl⟩
abbrev main_v355 : Ref sig .tc := ⟨.hbm, 552, rfl⟩
abbrev main_v356 : Ref sig .tc := ⟨.hbm, 553, rfl⟩
abbrev main_c_122 : Ref sig .tc := ⟨.hbm, 554, rfl⟩
abbrev main_v357 : Ref sig .tc := ⟨.hbm, 555, rfl⟩
abbrev main_v358 : Ref sig .tc := ⟨.hbm, 556, rfl⟩
abbrev main_v359 : Ref sig .tc := ⟨.hbm, 557, rfl⟩
abbrev main_c_123 : Ref sig .tc := ⟨.hbm, 558, rfl⟩
abbrev main_v360 : Ref sig .tc := ⟨.hbm, 559, rfl⟩
abbrev main_v361 : Ref sig .tc := ⟨.hbm, 560, rfl⟩
abbrev main_v362 : Ref sig .tc := ⟨.hbm, 561, rfl⟩
abbrev main_c_124 : Ref sig .tc := ⟨.hbm, 562, rfl⟩
abbrev main_c_125 : Ref sig .tc := ⟨.hbm, 563, rfl⟩
abbrev main_call16_v0 : Ref sig .tc := ⟨.hbm, 564, rfl⟩
abbrev main_call16_v1 : Ref sig .tc := ⟨.hbm, 565, rfl⟩
abbrev main_call16_v2 : Ref sig .tc := ⟨.hbm, 566, rfl⟩
abbrev main_call16_v3 : Ref sig .tc := ⟨.hbm, 567, rfl⟩
abbrev main_call16_v4 : Ref sig .tc := ⟨.hbm, 568, rfl⟩
abbrev main_v363 : Ref sig .tc := ⟨.hbm, 569, rfl⟩
abbrev main_c_126 : Ref sig .tc := ⟨.hbm, 570, rfl⟩
abbrev main_c_127 : Ref sig .tc := ⟨.hbm, 571, rfl⟩
abbrev main_call17_v0 : Ref sig .tc := ⟨.hbm, 572, rfl⟩
abbrev main_call17_v1 : Ref sig .tc := ⟨.hbm, 573, rfl⟩
abbrev main_call17_v2 : Ref sig .tc := ⟨.hbm, 574, rfl⟩
abbrev main_call17_v3 : Ref sig .tc := ⟨.hbm, 575, rfl⟩
abbrev main_call17_v4 : Ref sig .tc := ⟨.hbm, 576, rfl⟩
abbrev main_v364 : Ref sig .tc := ⟨.hbm, 577, rfl⟩
abbrev main_c_128 : Ref sig .tc := ⟨.hbm, 578, rfl⟩
abbrev main_v365 : Ref sig .tc := ⟨.hbm, 579, rfl⟩
abbrev main_v366 : Ref sig .tc := ⟨.hbm, 580, rfl⟩
abbrev main_c_129 : Ref sig .tc := ⟨.hbm, 581, rfl⟩
abbrev main_v367 : Ref sig .tc := ⟨.hbm, 582, rfl⟩
abbrev main_v368 : Ref sig .tc := ⟨.hbm, 583, rfl⟩
abbrev main_v369 : Ref sig .tc := ⟨.hbm, 584, rfl⟩
abbrev main_c_130 : Ref sig .tc := ⟨.hbm, 585, rfl⟩
abbrev main_v370 : Ref sig .tc := ⟨.hbm, 586, rfl⟩
abbrev main_v371 : Ref sig .tc := ⟨.hbm, 587, rfl⟩
abbrev main_c_131 : Ref sig .tc := ⟨.hbm, 588, rfl⟩
abbrev main_v372 : Ref sig .tc := ⟨.hbm, 589, rfl⟩
abbrev main_v373 : Ref sig .tc := ⟨.hbm, 590, rfl⟩
abbrev main_v374 : Ref sig .tc := ⟨.hbm, 591, rfl⟩
abbrev main_c_132 : Ref sig .tc := ⟨.hbm, 592, rfl⟩
abbrev main_v375 : Ref sig .tc := ⟨.hbm, 593, rfl⟩
abbrev main_v376 : Ref sig .tc := ⟨.hbm, 594, rfl⟩
abbrev main_c_133 : Ref sig .tc := ⟨.hbm, 595, rfl⟩
abbrev main_v377 : Ref sig .tc := ⟨.hbm, 596, rfl⟩
abbrev main_v378 : Ref sig .tc := ⟨.hbm, 597, rfl⟩
abbrev main_v379 : Ref sig .tc := ⟨.hbm, 598, rfl⟩
abbrev main_v380 : Ref sig .tc := ⟨.hbm, 599, rfl⟩
abbrev main_v381 : Ref sig .tc := ⟨.hbm, 600, rfl⟩
abbrev main_v382 : Ref sig .tc := ⟨.hbm, 601, rfl⟩
abbrev main_v383 : Ref sig .tc := ⟨.hbm, 602, rfl⟩
abbrev main_v384 : Ref sig .tc := ⟨.hbm, 603, rfl⟩
abbrev main_c_134 : Ref sig .tc := ⟨.hbm, 604, rfl⟩
abbrev main_v385 : Ref sig .tc := ⟨.hbm, 605, rfl⟩
abbrev main_v386 : Ref sig .tc := ⟨.hbm, 606, rfl⟩
abbrev main_v387 : Ref sig .tc := ⟨.hbm, 607, rfl⟩
abbrev main_v388 : Ref sig .tc := ⟨.hbm, 608, rfl⟩
abbrev main_c_135 : Ref sig .tc := ⟨.hbm, 609, rfl⟩
abbrev main_v389 : Ref sig .tc := ⟨.hbm, 610, rfl⟩
abbrev main_v390 : Ref sig .tc := ⟨.hbm, 611, rfl⟩
abbrev main_c_136 : Ref sig .tc := ⟨.hbm, 612, rfl⟩
abbrev main_v391 : Ref sig .tc := ⟨.hbm, 613, rfl⟩
abbrev main_v392 : Ref sig .tc := ⟨.hbm, 614, rfl⟩
abbrev main_c_137 : Ref sig .tc := ⟨.hbm, 615, rfl⟩
abbrev main_v393 : Ref sig .tc := ⟨.hbm, 616, rfl⟩
abbrev main_v394 : Ref sig .tc := ⟨.hbm, 617, rfl⟩
abbrev main_v395 : Ref sig .tc := ⟨.hbm, 618, rfl⟩
abbrev main_v396 : Ref sig .tc := ⟨.hbm, 619, rfl⟩
abbrev main_v397 : Ref sig .tc := ⟨.hbm, 620, rfl⟩
abbrev main_cst_138 : Ref sig .tc := ⟨.hbm, 621, rfl⟩
abbrev main_call18_v0 : Ref sig .tc := ⟨.hbm, 622, rfl⟩
abbrev main_call18_v1 : Ref sig .tc := ⟨.hbm, 623, rfl⟩
abbrev main_call18_v2 : Ref sig .tc := ⟨.hbm, 624, rfl⟩
abbrev main_v398 : Ref sig .tc := ⟨.hbm, 625, rfl⟩
abbrev main_v399 : Ref sig .tc := ⟨.hbm, 626, rfl⟩
abbrev main_v400 : Ref sig .tc := ⟨.hbm, 627, rfl⟩
abbrev main_v401 : Ref sig .tc := ⟨.hbm, 628, rfl⟩
abbrev main_v402 : Ref sig .tc := ⟨.hbm, 629, rfl⟩
abbrev main_v403 : Ref sig .tc := ⟨.hbm, 630, rfl⟩
abbrev main_v404 : Ref sig .tc := ⟨.hbm, 631, rfl⟩
abbrev main_c_139 : Ref sig .tc := ⟨.hbm, 632, rfl⟩
abbrev main_v405 : Ref sig .tc := ⟨.hbm, 633, rfl⟩
abbrev main_v406 : Ref sig .tc := ⟨.hbm, 634, rfl⟩
abbrev main_v407 : Ref sig .tc := ⟨.hbm, 635, rfl⟩
abbrev main_v408 : Ref sig .tc := ⟨.hbm, 636, rfl⟩
abbrev main_c_140 : Ref sig .tc := ⟨.hbm, 637, rfl⟩
abbrev main_v409 : Ref sig .tc := ⟨.hbm, 638, rfl⟩
abbrev main_v410 : Ref sig .tc := ⟨.hbm, 639, rfl⟩
abbrev main_c_141 : Ref sig .tc := ⟨.hbm, 640, rfl⟩
abbrev main_v411 : Ref sig .tc := ⟨.hbm, 641, rfl⟩
abbrev main_v412 : Ref sig .tc := ⟨.hbm, 642, rfl⟩
abbrev main_c_142 : Ref sig .tc := ⟨.hbm, 643, rfl⟩
abbrev main_v413 : Ref sig .tc := ⟨.hbm, 644, rfl⟩
abbrev main_v414 : Ref sig .tc := ⟨.hbm, 645, rfl⟩
abbrev main_v415 : Ref sig .tc := ⟨.hbm, 646, rfl⟩
abbrev main_c_143 : Ref sig .tc := ⟨.hbm, 647, rfl⟩
abbrev main_v416 : Ref sig .tc := ⟨.hbm, 648, rfl⟩
abbrev main_v417 : Ref sig .tc := ⟨.hbm, 649, rfl⟩
abbrev main_v418 : Ref sig .tc := ⟨.hbm, 650, rfl⟩
abbrev main_c_144 : Ref sig .tc := ⟨.hbm, 651, rfl⟩
abbrev main_v419 : Ref sig .tc := ⟨.hbm, 652, rfl⟩
abbrev main_v420 : Ref sig .tc := ⟨.hbm, 653, rfl⟩
abbrev main_v421 : Ref sig .tc := ⟨.hbm, 654, rfl⟩
abbrev main_c_145 : Ref sig .tc := ⟨.hbm, 655, rfl⟩
abbrev main_c_146 : Ref sig .tc := ⟨.hbm, 656, rfl⟩
abbrev main_call19_v0 : Ref sig .tc := ⟨.hbm, 657, rfl⟩
abbrev main_call19_v1 : Ref sig .tc := ⟨.hbm, 658, rfl⟩
abbrev main_call19_v2 : Ref sig .tc := ⟨.hbm, 659, rfl⟩
abbrev main_call19_v3 : Ref sig .tc := ⟨.hbm, 660, rfl⟩
abbrev main_call19_v4 : Ref sig .tc := ⟨.hbm, 661, rfl⟩
abbrev main_v422 : Ref sig .tc := ⟨.hbm, 662, rfl⟩
abbrev main_c_147 : Ref sig .tc := ⟨.hbm, 663, rfl⟩
abbrev main_c_148 : Ref sig .tc := ⟨.hbm, 664, rfl⟩
abbrev main_call20_v0 : Ref sig .tc := ⟨.hbm, 665, rfl⟩
abbrev main_call20_v1 : Ref sig .tc := ⟨.hbm, 666, rfl⟩
abbrev main_call20_v2 : Ref sig .tc := ⟨.hbm, 667, rfl⟩
abbrev main_call20_v3 : Ref sig .tc := ⟨.hbm, 668, rfl⟩
abbrev main_call20_v4 : Ref sig .tc := ⟨.hbm, 669, rfl⟩
abbrev main_v423 : Ref sig .tc := ⟨.hbm, 670, rfl⟩
abbrev main_c_149 : Ref sig .tc := ⟨.hbm, 671, rfl⟩
abbrev main_v424 : Ref sig .tc := ⟨.hbm, 672, rfl⟩
abbrev main_v425 : Ref sig .tc := ⟨.hbm, 673, rfl⟩
abbrev main_c_150 : Ref sig .tc := ⟨.hbm, 674, rfl⟩
abbrev main_v426 : Ref sig .tc := ⟨.hbm, 675, rfl⟩
abbrev main_v427 : Ref sig .tc := ⟨.hbm, 676, rfl⟩
abbrev main_v428 : Ref sig .tc := ⟨.hbm, 677, rfl⟩
abbrev main_c_151 : Ref sig .tc := ⟨.hbm, 678, rfl⟩
abbrev main_v429 : Ref sig .tc := ⟨.hbm, 679, rfl⟩
abbrev main_v430 : Ref sig .tc := ⟨.hbm, 680, rfl⟩
abbrev main_c_152 : Ref sig .tc := ⟨.hbm, 681, rfl⟩
abbrev main_v431 : Ref sig .tc := ⟨.hbm, 682, rfl⟩
abbrev main_v432 : Ref sig .tc := ⟨.hbm, 683, rfl⟩
abbrev main_v433 : Ref sig .tc := ⟨.hbm, 684, rfl⟩
abbrev main_c_153 : Ref sig .tc := ⟨.hbm, 685, rfl⟩
abbrev main_v434 : Ref sig .tc := ⟨.hbm, 686, rfl⟩
abbrev main_v435 : Ref sig .tc := ⟨.hbm, 687, rfl⟩
abbrev main_c_154 : Ref sig .tc := ⟨.hbm, 688, rfl⟩
abbrev main_v436 : Ref sig .tc := ⟨.hbm, 689, rfl⟩
abbrev main_v437 : Ref sig .tc := ⟨.hbm, 690, rfl⟩
abbrev main_v438 : Ref sig .tc := ⟨.hbm, 691, rfl⟩
abbrev main_v439 : Ref sig .tc := ⟨.hbm, 692, rfl⟩
abbrev main_v440 : Ref sig .tc := ⟨.hbm, 693, rfl⟩
abbrev main_v441 : Ref sig .tc := ⟨.hbm, 694, rfl⟩
abbrev main_v442 : Ref sig .tc := ⟨.hbm, 695, rfl⟩
abbrev main_v443 : Ref sig .tc := ⟨.hbm, 696, rfl⟩
abbrev main_c_155 : Ref sig .tc := ⟨.hbm, 697, rfl⟩
abbrev main_v444 : Ref sig .tc := ⟨.hbm, 698, rfl⟩
abbrev main_v445 : Ref sig .tc := ⟨.hbm, 699, rfl⟩
abbrev main_v446 : Ref sig .tc := ⟨.hbm, 700, rfl⟩
abbrev main_v447 : Ref sig .tc := ⟨.hbm, 701, rfl⟩
abbrev main_c_156 : Ref sig .tc := ⟨.hbm, 702, rfl⟩
abbrev main_v448 : Ref sig .tc := ⟨.hbm, 703, rfl⟩
abbrev main_v449 : Ref sig .tc := ⟨.hbm, 704, rfl⟩
abbrev main_c_157 : Ref sig .tc := ⟨.hbm, 705, rfl⟩
abbrev main_v450 : Ref sig .tc := ⟨.hbm, 706, rfl⟩
abbrev main_v451 : Ref sig .tc := ⟨.hbm, 707, rfl⟩
abbrev main_c_158 : Ref sig .tc := ⟨.hbm, 708, rfl⟩
abbrev main_v452 : Ref sig .tc := ⟨.hbm, 709, rfl⟩
abbrev main_v453 : Ref sig .tc := ⟨.hbm, 710, rfl⟩
abbrev main_v454 : Ref sig .tc := ⟨.hbm, 711, rfl⟩
abbrev main_v455 : Ref sig .tc := ⟨.hbm, 712, rfl⟩
abbrev main_v456 : Ref sig .tc := ⟨.hbm, 713, rfl⟩
abbrev main_cst_159 : Ref sig .tc := ⟨.hbm, 714, rfl⟩
abbrev main_call21_v0 : Ref sig .tc := ⟨.hbm, 715, rfl⟩
abbrev main_call21_v1 : Ref sig .tc := ⟨.hbm, 716, rfl⟩
abbrev main_call21_v2 : Ref sig .tc := ⟨.hbm, 717, rfl⟩
abbrev main_v457 : Ref sig .tc := ⟨.hbm, 718, rfl⟩
abbrev main_v458 : Ref sig .tc := ⟨.hbm, 719, rfl⟩
abbrev main_v459 : Ref sig .tc := ⟨.hbm, 720, rfl⟩
abbrev main_v460 : Ref sig .tc := ⟨.hbm, 721, rfl⟩
abbrev main_v461 : Ref sig .tc := ⟨.hbm, 722, rfl⟩
abbrev main_v462 : Ref sig .tc := ⟨.hbm, 723, rfl⟩
abbrev main_v463 : Ref sig .tc := ⟨.hbm, 724, rfl⟩
abbrev main_c_160 : Ref sig .tc := ⟨.hbm, 725, rfl⟩
abbrev main_v464 : Ref sig .tc := ⟨.hbm, 726, rfl⟩
abbrev main_v465 : Ref sig .tc := ⟨.hbm, 727, rfl⟩
abbrev main_v466 : Ref sig .tc := ⟨.hbm, 728, rfl⟩
abbrev main_v467 : Ref sig .tc := ⟨.hbm, 729, rfl⟩
abbrev main_c_161 : Ref sig .tc := ⟨.hbm, 730, rfl⟩
abbrev main_v468 : Ref sig .tc := ⟨.hbm, 731, rfl⟩
abbrev main_v469 : Ref sig .tc := ⟨.hbm, 732, rfl⟩
abbrev main_c_162 : Ref sig .tc := ⟨.hbm, 733, rfl⟩
abbrev main_v470 : Ref sig .tc := ⟨.hbm, 734, rfl⟩
abbrev main_v471 : Ref sig .tc := ⟨.hbm, 735, rfl⟩
abbrev main_c_163 : Ref sig .tc := ⟨.hbm, 736, rfl⟩
abbrev main_v472 : Ref sig .tc := ⟨.hbm, 737, rfl⟩
abbrev main_v473 : Ref sig .tc := ⟨.hbm, 738, rfl⟩
abbrev main_v474 : Ref sig .tc := ⟨.hbm, 739, rfl⟩
abbrev main_c_164 : Ref sig .tc := ⟨.hbm, 740, rfl⟩
abbrev main_v475 : Ref sig .tc := ⟨.hbm, 741, rfl⟩
abbrev main_v476 : Ref sig .tc := ⟨.hbm, 742, rfl⟩
abbrev main_v477 : Ref sig .tc := ⟨.hbm, 743, rfl⟩
abbrev main_c_165 : Ref sig .tc := ⟨.hbm, 744, rfl⟩
abbrev main_v478 : Ref sig .tc := ⟨.hbm, 745, rfl⟩
abbrev main_v479 : Ref sig .tc := ⟨.hbm, 746, rfl⟩
abbrev main_v480 : Ref sig .tc := ⟨.hbm, 747, rfl⟩
abbrev main_c_166 : Ref sig .tc := ⟨.hbm, 748, rfl⟩
abbrev main_c_167 : Ref sig .tc := ⟨.hbm, 749, rfl⟩
abbrev main_call22_v0 : Ref sig .tc := ⟨.hbm, 750, rfl⟩
abbrev main_call22_v1 : Ref sig .tc := ⟨.hbm, 751, rfl⟩
abbrev main_call22_v2 : Ref sig .tc := ⟨.hbm, 752, rfl⟩
abbrev main_call22_v3 : Ref sig .tc := ⟨.hbm, 753, rfl⟩
abbrev main_call22_v4 : Ref sig .tc := ⟨.hbm, 754, rfl⟩
abbrev main_v481 : Ref sig .tc := ⟨.hbm, 755, rfl⟩
abbrev main_c_168 : Ref sig .tc := ⟨.hbm, 756, rfl⟩
abbrev main_c_169 : Ref sig .tc := ⟨.hbm, 757, rfl⟩
abbrev main_call23_v0 : Ref sig .tc := ⟨.hbm, 758, rfl⟩
abbrev main_call23_v1 : Ref sig .tc := ⟨.hbm, 759, rfl⟩
abbrev main_call23_v2 : Ref sig .tc := ⟨.hbm, 760, rfl⟩
abbrev main_call23_v3 : Ref sig .tc := ⟨.hbm, 761, rfl⟩
abbrev main_call23_v4 : Ref sig .tc := ⟨.hbm, 762, rfl⟩
abbrev main_v482 : Ref sig .tc := ⟨.hbm, 763, rfl⟩
abbrev main_c_170 : Ref sig .tc := ⟨.hbm, 764, rfl⟩
abbrev main_v483 : Ref sig .tc := ⟨.hbm, 765, rfl⟩
abbrev main_v484 : Ref sig .tc := ⟨.hbm, 766, rfl⟩
abbrev main_c_171 : Ref sig .tc := ⟨.hbm, 767, rfl⟩
abbrev main_v485 : Ref sig .tc := ⟨.hbm, 768, rfl⟩
abbrev main_v486 : Ref sig .tc := ⟨.hbm, 769, rfl⟩
abbrev main_v487 : Ref sig .tc := ⟨.hbm, 770, rfl⟩
abbrev main_c_172 : Ref sig .tc := ⟨.hbm, 771, rfl⟩
abbrev main_v488 : Ref sig .tc := ⟨.hbm, 772, rfl⟩
abbrev main_v489 : Ref sig .tc := ⟨.hbm, 773, rfl⟩
abbrev main_c_173 : Ref sig .tc := ⟨.hbm, 774, rfl⟩
abbrev main_v490 : Ref sig .tc := ⟨.hbm, 775, rfl⟩
abbrev main_v491 : Ref sig .tc := ⟨.hbm, 776, rfl⟩
abbrev main_v492 : Ref sig .tc := ⟨.hbm, 777, rfl⟩
abbrev main_c_174 : Ref sig .tc := ⟨.hbm, 778, rfl⟩
abbrev main_v493 : Ref sig .tc := ⟨.hbm, 779, rfl⟩
abbrev main_v494 : Ref sig .tc := ⟨.hbm, 780, rfl⟩
abbrev main_c_175 : Ref sig .tc := ⟨.hbm, 781, rfl⟩
abbrev main_v495 : Ref sig .tc := ⟨.hbm, 782, rfl⟩
abbrev main_v496 : Ref sig .tc := ⟨.hbm, 783, rfl⟩
abbrev main_v497 : Ref sig .tc := ⟨.hbm, 784, rfl⟩
abbrev main_v498 : Ref sig .tc := ⟨.hbm, 785, rfl⟩
abbrev main_v499 : Ref sig .tc := ⟨.hbm, 786, rfl⟩
abbrev main_v500 : Ref sig .tc := ⟨.hbm, 787, rfl⟩
abbrev main_v501 : Ref sig .tc := ⟨.hbm, 788, rfl⟩
abbrev main_v502 : Ref sig .tc := ⟨.hbm, 789, rfl⟩
abbrev main_c_176 : Ref sig .tc := ⟨.hbm, 790, rfl⟩
abbrev main_v503 : Ref sig .tc := ⟨.hbm, 791, rfl⟩
abbrev main_v504 : Ref sig .tc := ⟨.hbm, 792, rfl⟩
abbrev main_v505 : Ref sig .tc := ⟨.hbm, 793, rfl⟩
abbrev main_v506 : Ref sig .tc := ⟨.hbm, 794, rfl⟩
abbrev main_c_177 : Ref sig .tc := ⟨.hbm, 795, rfl⟩
abbrev main_v507 : Ref sig .tc := ⟨.hbm, 796, rfl⟩
abbrev main_v508 : Ref sig .tc := ⟨.hbm, 797, rfl⟩
abbrev main_c_178 : Ref sig .tc := ⟨.hbm, 798, rfl⟩
abbrev main_v509 : Ref sig .tc := ⟨.hbm, 799, rfl⟩
abbrev main_v510 : Ref sig .tc := ⟨.hbm, 800, rfl⟩
abbrev main_c_179 : Ref sig .tc := ⟨.hbm, 801, rfl⟩
abbrev main_v511 : Ref sig .tc := ⟨.hbm, 802, rfl⟩
abbrev main_v512 : Ref sig .tc := ⟨.hbm, 803, rfl⟩
abbrev main_v513 : Ref sig .tc := ⟨.hbm, 804, rfl⟩
abbrev main_v514 : Ref sig .tc := ⟨.hbm, 805, rfl⟩
abbrev main_v515 : Ref sig .tc := ⟨.hbm, 806, rfl⟩
abbrev main_cst_180 : Ref sig .tc := ⟨.hbm, 807, rfl⟩
abbrev main_call24_v0 : Ref sig .tc := ⟨.hbm, 808, rfl⟩
abbrev main_call24_v1 : Ref sig .tc := ⟨.hbm, 809, rfl⟩
abbrev main_call24_v2 : Ref sig .tc := ⟨.hbm, 810, rfl⟩
abbrev main_v516 : Ref sig .tc := ⟨.hbm, 811, rfl⟩
abbrev main_v517 : Ref sig .tc := ⟨.hbm, 812, rfl⟩
abbrev main_v518 : Ref sig .tc := ⟨.hbm, 813, rfl⟩
abbrev main_v519 : Ref sig .tc := ⟨.hbm, 814, rfl⟩
abbrev main_v520 : Ref sig .tc := ⟨.hbm, 815, rfl⟩
abbrev main_v521 : Ref sig .tc := ⟨.hbm, 816, rfl⟩
abbrev main_v522 : Ref sig .tc := ⟨.hbm, 817, rfl⟩
abbrev main_c_181 : Ref sig .tc := ⟨.hbm, 818, rfl⟩
abbrev main_v523 : Ref sig .tc := ⟨.hbm, 819, rfl⟩
abbrev main_v524 : Ref sig .tc := ⟨.hbm, 820, rfl⟩
abbrev main_v525 : Ref sig .tc := ⟨.hbm, 821, rfl⟩
abbrev main_v526 : Ref sig .tc := ⟨.hbm, 822, rfl⟩
abbrev main_c_182 : Ref sig .tc := ⟨.hbm, 823, rfl⟩
abbrev main_v527 : Ref sig .tc := ⟨.hbm, 824, rfl⟩
abbrev main_v528 : Ref sig .tc := ⟨.hbm, 825, rfl⟩
abbrev main_c_183 : Ref sig .tc := ⟨.hbm, 826, rfl⟩
abbrev main_v529 : Ref sig .tc := ⟨.hbm, 827, rfl⟩
abbrev main_v530 : Ref sig .tc := ⟨.hbm, 828, rfl⟩
abbrev main_c_184 : Ref sig .tc := ⟨.hbm, 829, rfl⟩
abbrev main_v531 : Ref sig .tc := ⟨.hbm, 830, rfl⟩
abbrev main_v532 : Ref sig .tc := ⟨.hbm, 831, rfl⟩
abbrev main_v533 : Ref sig .tc := ⟨.hbm, 832, rfl⟩
abbrev main_c_185 : Ref sig .tc := ⟨.hbm, 833, rfl⟩
abbrev main_v534 : Ref sig .tc := ⟨.hbm, 834, rfl⟩
abbrev main_v535 : Ref sig .tc := ⟨.hbm, 835, rfl⟩
abbrev main_v536 : Ref sig .tc := ⟨.hbm, 836, rfl⟩
abbrev main_c_186 : Ref sig .tc := ⟨.hbm, 837, rfl⟩
abbrev main_v537 : Ref sig .tc := ⟨.hbm, 838, rfl⟩
abbrev main_v538 : Ref sig .tc := ⟨.hbm, 839, rfl⟩
abbrev main_v539 : Ref sig .tc := ⟨.hbm, 840, rfl⟩
abbrev main_c_187 : Ref sig .tc := ⟨.hbm, 841, rfl⟩
abbrev main_c_188 : Ref sig .tc := ⟨.hbm, 842, rfl⟩
abbrev main_call25_v0 : Ref sig .tc := ⟨.hbm, 843, rfl⟩
abbrev main_call25_v1 : Ref sig .tc := ⟨.hbm, 844, rfl⟩
abbrev main_call25_v2 : Ref sig .tc := ⟨.hbm, 845, rfl⟩
abbrev main_call25_v3 : Ref sig .tc := ⟨.hbm, 846, rfl⟩
abbrev main_call25_v4 : Ref sig .tc := ⟨.hbm, 847, rfl⟩
abbrev main_v540 : Ref sig .tc := ⟨.hbm, 848, rfl⟩
abbrev main_c_189 : Ref sig .tc := ⟨.hbm, 849, rfl⟩
abbrev main_c_190 : Ref sig .tc := ⟨.hbm, 850, rfl⟩
abbrev main_call26_v0 : Ref sig .tc := ⟨.hbm, 851, rfl⟩
abbrev main_call26_v1 : Ref sig .tc := ⟨.hbm, 852, rfl⟩
abbrev main_call26_v2 : Ref sig .tc := ⟨.hbm, 853, rfl⟩
abbrev main_call26_v3 : Ref sig .tc := ⟨.hbm, 854, rfl⟩
abbrev main_call26_v4 : Ref sig .tc := ⟨.hbm, 855, rfl⟩
abbrev main_v541 : Ref sig .tc := ⟨.hbm, 856, rfl⟩
abbrev main_c_191 : Ref sig .tc := ⟨.hbm, 857, rfl⟩
abbrev main_v542 : Ref sig .tc := ⟨.hbm, 858, rfl⟩
abbrev main_v543 : Ref sig .tc := ⟨.hbm, 859, rfl⟩
abbrev main_c_192 : Ref sig .tc := ⟨.hbm, 860, rfl⟩
abbrev main_v544 : Ref sig .tc := ⟨.hbm, 861, rfl⟩
abbrev main_v545 : Ref sig .tc := ⟨.hbm, 862, rfl⟩
abbrev main_v546 : Ref sig .tc := ⟨.hbm, 863, rfl⟩
abbrev main_c_193 : Ref sig .tc := ⟨.hbm, 864, rfl⟩
abbrev main_v547 : Ref sig .tc := ⟨.hbm, 865, rfl⟩
abbrev main_v548 : Ref sig .tc := ⟨.hbm, 866, rfl⟩
abbrev main_c_194 : Ref sig .tc := ⟨.hbm, 867, rfl⟩
abbrev main_v549 : Ref sig .tc := ⟨.hbm, 868, rfl⟩
abbrev main_v550 : Ref sig .tc := ⟨.hbm, 869, rfl⟩
abbrev main_v551 : Ref sig .tc := ⟨.hbm, 870, rfl⟩
abbrev main_c_195 : Ref sig .tc := ⟨.hbm, 871, rfl⟩
abbrev main_v552 : Ref sig .tc := ⟨.hbm, 872, rfl⟩
abbrev main_v553 : Ref sig .tc := ⟨.hbm, 873, rfl⟩
abbrev main_c_196 : Ref sig .tc := ⟨.hbm, 874, rfl⟩
abbrev main_v554 : Ref sig .tc := ⟨.hbm, 875, rfl⟩
abbrev main_v555 : Ref sig .tc := ⟨.hbm, 876, rfl⟩
abbrev main_v556 : Ref sig .tc := ⟨.hbm, 877, rfl⟩
abbrev main_v557 : Ref sig .tc := ⟨.hbm, 878, rfl⟩
abbrev main_v558 : Ref sig .tc := ⟨.hbm, 879, rfl⟩
abbrev main_v559 : Ref sig .tc := ⟨.hbm, 880, rfl⟩
abbrev main_v560 : Ref sig .tc := ⟨.hbm, 881, rfl⟩
abbrev main_v561 : Ref sig .tc := ⟨.hbm, 882, rfl⟩
abbrev main_c_197 : Ref sig .tc := ⟨.hbm, 883, rfl⟩
abbrev main_v562 : Ref sig .tc := ⟨.hbm, 884, rfl⟩
abbrev main_v563 : Ref sig .tc := ⟨.hbm, 885, rfl⟩
abbrev main_v564 : Ref sig .tc := ⟨.hbm, 886, rfl⟩
abbrev main_v565 : Ref sig .tc := ⟨.hbm, 887, rfl⟩
abbrev main_c_198 : Ref sig .tc := ⟨.hbm, 888, rfl⟩
abbrev main_v566 : Ref sig .tc := ⟨.hbm, 889, rfl⟩
abbrev main_v567 : Ref sig .tc := ⟨.hbm, 890, rfl⟩
abbrev main_c_199 : Ref sig .tc := ⟨.hbm, 891, rfl⟩
abbrev main_v568 : Ref sig .tc := ⟨.hbm, 892, rfl⟩
abbrev main_v569 : Ref sig .tc := ⟨.hbm, 893, rfl⟩
abbrev main_c_200 : Ref sig .tc := ⟨.hbm, 894, rfl⟩
abbrev main_v570 : Ref sig .tc := ⟨.hbm, 895, rfl⟩
abbrev main_v571 : Ref sig .tc := ⟨.hbm, 896, rfl⟩
abbrev main_v572 : Ref sig .tc := ⟨.hbm, 897, rfl⟩
abbrev main_v573 : Ref sig .tc := ⟨.hbm, 898, rfl⟩
abbrev main_v574 : Ref sig .tc := ⟨.hbm, 899, rfl⟩
abbrev main_cst_201 : Ref sig .tc := ⟨.hbm, 900, rfl⟩
abbrev main_call27_v0 : Ref sig .tc := ⟨.hbm, 901, rfl⟩
abbrev main_call27_v1 : Ref sig .tc := ⟨.hbm, 902, rfl⟩
abbrev main_call27_v2 : Ref sig .tc := ⟨.hbm, 903, rfl⟩
abbrev main_v575 : Ref sig .tc := ⟨.hbm, 904, rfl⟩
abbrev main_v576 : Ref sig .tc := ⟨.hbm, 905, rfl⟩
abbrev main_v577 : Ref sig .tc := ⟨.hbm, 906, rfl⟩
abbrev main_v578 : Ref sig .tc := ⟨.hbm, 907, rfl⟩
abbrev main_v579 : Ref sig .tc := ⟨.hbm, 908, rfl⟩
abbrev main_v580 : Ref sig .tc := ⟨.hbm, 909, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S_S4x32768x2 : S_.BroadcastsInDim S4x32768x2 (![] : Fin 0 → Fin S4x32768x2.rank)
  shapeCasts_S4x32768x2_S131072x2 : S4x32768x2.ShapeCasts S131072x2
  reducesTo_S131072x2_S2_d0 : S131072x2.ReducesTo [0] S2
  h_S_ : 0 < S_.numel
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  bcast_S4_S4x32768_0 : S4.BroadcastsInDim S4x32768 (![0] : Fin 1 → Fin S4x32768.rank)
  shapeCasts_S4x32768_S131072 : S4x32768.ShapeCasts S131072
  shapeCasts_S4x32768x64_S131072x64 : S4x32768x64.ShapeCasts S131072x64
  bcast_S_S4x256x256 : S_.BroadcastsInDim S4x256x256 (![] : Fin 0 → Fin S4x256x256.rank)
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  bcast_S_S131072x64 : S_.BroadcastsInDim S131072x64 (![] : Fin 0 → Fin S131072x64.rank)
  bcast_S131072x1_S131072x64_0_1 : S131072x1.BroadcastsInDim S131072x64 (![0, 1] : Fin 2 → Fin S131072x64.rank)
  slices_S3x3x64x64_S1x1x64x64_0_0_0_0 : S3x3x64x64.Slices ![0, 0, 0, 0] S1x1x64x64
  shapeCasts_S1x1x64x64_S64x64 : S1x1x64x64.ShapeCasts S64x64
  slices_S3x3x64x64_S1x1x64x64_0_1_0_0 : S3x3x64x64.Slices ![0, 1, 0, 0] S1x1x64x64
  slices_S3x3x64x64_S1x1x64x64_0_2_0_0 : S3x3x64x64.Slices ![0, 2, 0, 0] S1x1x64x64
  slices_S3x3x64x64_S1x1x64x64_1_0_0_0 : S3x3x64x64.Slices ![1, 0, 0, 0] S1x1x64x64
  slices_S3x3x64x64_S1x1x64x64_1_1_0_0 : S3x3x64x64.Slices ![1, 1, 0, 0] S1x1x64x64
  slices_S3x3x64x64_S1x1x64x64_1_2_0_0 : S3x3x64x64.Slices ![1, 2, 0, 0] S1x1x64x64
  slices_S3x3x64x64_S1x1x64x64_2_0_0_0 : S3x3x64x64.Slices ![2, 0, 0, 0] S1x1x64x64
  slices_S3x3x64x64_S1x1x64x64_2_1_0_0 : S3x3x64x64.Slices ![2, 1, 0, 0] S1x1x64x64
  slices_S3x3x64x64_S1x1x64x64_2_2_0_0 : S3x3x64x64.Slices ![2, 2, 0, 0] S1x1x64x64
  shapeCasts_S131072x64_S4x32768x64 : S131072x64.ShapeCasts S4x32768x64
  scatter_S4x256x256_S131072x3_S131072_n_012_012_1_wf : ScatterDims.WF S4x256x256 S131072x3 S131072 [] [0, 1, 2] [0, 1, 2] 1
  gather_S4x256x256_S131072x3_S131072_n_012_n_n_012_1_111_wf : GatherDims.WF S4x256x256 S131072x3 S131072 [] [0, 1, 2] [] [0, 1, 2] [] 1 ![1, 1, 1]
  gather_S131072x64_S131072x1_S131072x64_1_0_n_n_0_1_164_wf : GatherDims.WF S131072x64 S131072x1 S131072x64 [1] [0] [] [0] [] 1 ![1, 64]
  dot_S131072x64_S64x64_S131072x64_1_0_0_1_n_n_wf : DotDims.WF S131072x64 S64x64 S131072x64 [1] [0] [0] [1] [] []

variable [Facts₀]

def scatter_S4x256x256_S131072x3_S131072_n_012_012_1 : ScatterDims S4x256x256 S131072x3 S131072 where
  updateWindowDims := []
  insertedWindowDims := [0, 1, 2]
  scatterDimsToOperandDims := [0, 1, 2]
  indexVectorDim := 1
  wf := scatter_S4x256x256_S131072x3_S131072_n_012_012_1_wf
def gather_S4x256x256_S131072x3_S131072_n_012_n_n_012_1_111 : GatherDims S4x256x256 S131072x3 S131072 where
  offsetDims := []
  collapsedSliceDims := [0, 1, 2]
  operandBatchingDims := []
  startIndicesBatchingDims := []
  startIndexMap := [0, 1, 2]
  indexVectorDim := 1
  sliceSizes := ![1, 1, 1]
  wf := gather_S4x256x256_S131072x3_S131072_n_012_n_n_012_1_111_wf
def gather_S131072x64_S131072x1_S131072x64_1_0_n_n_0_1_164 : GatherDims S131072x64 S131072x1 S131072x64 where
  offsetDims := [1]
  collapsedSliceDims := [0]
  operandBatchingDims := []
  startIndicesBatchingDims := []
  startIndexMap := [0]
  indexVectorDim := 1
  sliceSizes := ![1, 64]
  wf := gather_S131072x64_S131072x1_S131072x64_1_0_n_n_0_1_164_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf

class Facts : Prop extends Facts₀ where

variable [Facts]
-- ==== Proof.FrameK.lean ====
/-
  The frame of `Kernel`: @main is a stretch of host operations (the index chain, the scatter that builds the voxel
  table, the gather that fills the dense feature grid and its zero border), ONE region — a 3×3 convolution over a
  4 × 8 grid of points, each point reading a 34-row band of its batch's padded grid and the nine 64×64 weight taps and
  storing one 32×256×64 block — and a tail of host operations that reads the region's result back at each point's
  voxel. Stated at any float family: the region's body runs on whole staging buffers, leaves its two inputs as they
  were and its output block at ONE function of the input blocks (`out0_2`); the pipeline's proof data says so at every
  grid point; and the launch theorem for a region with host operations on both sides gives the run, from which the
  argument arrays are read back unchanged.
-/
import proofs.«166044_j24610162606296_1_alg».proof.Proof.Gen.Kernel.Launch
import proofs.«166044_j24610162606296_1_alg».proof.Proof.Gen.Kernel.Skeleton
import proofs.«166044_j24610162606296_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after every host operation that
    precedes the region, in order. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
set_option maxHeartbeats 4000000 in
theorem hostOps0_5_fresh : (hostOps0_5 : List (HloOp τ sig (Elt F))).Forall fun op => op.fresh = ∅ := by
  simp only [List.Forall]; repeat' constructor
set_option maxHeartbeats 4000000 in
theorem hostOps0_6_fresh : (hostOps0_6 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the region touch unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 4000000 in
/-- No operation after the region writes `main_v64`. -/
theorem tail_keeps_main_v64 : (hostOps1 : List (HloOp τ sig (Elt F))).Forall fun op => Proc.devRef (τ := τ) .tc main_v64 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
set_option maxHeartbeats 4000000 in
/-- No operation after the region writes `main_v65`. -/
theorem tail_keeps_main_v65 : (hostOps1 : List (HloOp τ sig (Elt F))).Forall fun op => Proc.devRef (τ := τ) .tc main_v65 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
set_option maxHeartbeats 4000000 in
/-- No operation after the region writes `main_v66`. -/
theorem tail_keeps_main_v66 : (hostOps1 : List (HloOp τ sig (Elt F))).Forall fun op => Proc.devRef (τ := τ) .tc main_v66 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)

/-- And so none of them writes an array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  fin_cases w
  · exact (List.forall_iff_forall_mem.mp tail_keeps_main_v64) op hop
  · exact (List.forall_iff_forall_mem.mp tail_keeps_main_v65) op hop
  · exact (List.forall_iff_forall_mem.mp tail_keeps_main_v66) op hop

set_option maxHeartbeats 8000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 8000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 8000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the three
    argument arrays (none is an array of the pipeline), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

/-! ## The body's accesses -/

/-- The 34-row band of the padded grid the point reads: rows `32 · h … 32 · h + 33` of its batch's 258. -/
abbrev rBand (i : grid0.Coords) : Rect S1x258x258x64 := Rect.unit (s := S1x258x258x64) (k0_off1 i) S1x34x258x64.size (k0_off1_inb i)
abbrev rTap00 : Rect S3x3x64x64 := Rect.unit (s := S3x3x64x64) ![0, 0, 0, 0] S1x1x64x64.size inb_S3x3x64x64_S1x1x64x64_0_0_0_0
abbrev rTap01 : Rect S3x3x64x64 := Rect.unit (s := S3x3x64x64) ![0, 1, 0, 0] S1x1x64x64.size inb_S3x3x64x64_S1x1x64x64_0_1_0_0
abbrev rTap02 : Rect S3x3x64x64 := Rect.unit (s := S3x3x64x64) ![0, 2, 0, 0] S1x1x64x64.size inb_S3x3x64x64_S1x1x64x64_0_2_0_0
abbrev rTap10 : Rect S3x3x64x64 := Rect.unit (s := S3x3x64x64) ![1, 0, 0, 0] S1x1x64x64.size inb_S3x3x64x64_S1x1x64x64_1_0_0_0
abbrev rTap11 : Rect S3x3x64x64 := Rect.unit (s := S3x3x64x64) ![1, 1, 0, 0] S1x1x64x64.size inb_S3x3x64x64_S1x1x64x64_1_1_0_0
abbrev rTap12 : Rect S3x3x64x64 := Rect.unit (s := S3x3x64x64) ![1, 2, 0, 0] S1x1x64x64.size inb_S3x3x64x64_S1x1x64x64_1_2_0_0
abbrev rTap20 : Rect S3x3x64x64 := Rect.unit (s := S3x3x64x64) ![2, 0, 0, 0] S1x1x64x64.size inb_S3x3x64x64_S1x1x64x64_2_0_0_0
abbrev rTap21 : Rect S3x3x64x64 := Rect.unit (s := S3x3x64x64) ![2, 1, 0, 0] S1x1x64x64.size inb_S3x3x64x64_S1x1x64x64_2_1_0_0
abbrev rTap22 : Rect S3x3x64x64 := Rect.unit (s := S3x3x64x64) ![2, 2, 0, 0] S1x1x64x64.size inb_S3x3x64x64_S1x1x64x64_2_2_0_0
abbrev rOut : Rect S1x32x256x64 := Rect.unit (s := S1x32x256x64) ![0, 0, 0, 0] S1x32x256x64.size inb_S1x32x256x64_S1x32x256x64_0_0_0_0

/-! ## What the body leaves in the output window's buffer -/

/-- The value the body stores: the nine taps' products accumulated in the order the body adds them, from the band and
    the nine weight taps it loaded (the payloads are the skeleton's). -/
def stored (i : grid0.Coords) (x0 : Vec F S1x258x258x64 .bf16) (x1 : Vec F S3x3x64x64 .bf16) : FVec F S1x32x256x64 .f32 :=
  k0_pay1
    (k0_pay5 (k0_pay2 (View.ld x0 (rBand i)))
      (k0_pay3 (View.ld x0 (rBand i)) (View.ld x1 rTap00) (View.ld x1 rTap01) (View.ld x1 rTap02))
      (k0_pay4 (View.ld x0 (rBand i)) (View.ld x1 rTap10))
      (View.ld x1 rTap11) (View.ld x1 rTap12) (View.ld x1 rTap20) (View.ld x1 rTap21))
    (k0_pay6 (k0_pay2 (View.ld x0 (rBand i))) (View.ld x1 rTap22))

/-- Window 2's staging buffer after the body: its one store, over the whole block. -/
def out0_2 (i : grid0.Coords) (x0 : Vec F S1x258x258x64 .bf16) (x1 : Vec F S3x3x64x64 .bf16) : Vec F S1x32x256x64 .f32 :=
  View.canon [⟨rOut, stored i x0 x1⟩]

/-- The store covers the buffer. -/
theorem cover0_2 (p0 : Vec F S1x32x256x64 .f32) (y : S1x32x256x64.Idx) :
    ∃ pc ∈ ([⟨rOut, p0⟩] : List (View.Piece (Elt F) S1x32x256x64 .f32)), y ∈ pc.1.set :=
  View.cover_of_tiled [⟨rOut, p0⟩] S1x32x256x64.size (by rfl) y

/-! ## The body's triple -/

set_option maxHeartbeats 4000000 in
/-- The body on whole staging buffers, the inputs' at contents `x0`, `x1` and the output's at anything, runs to the
    continuation holding the inputs' as they were and the output's at `out0_2` of them. -/
theorem sound_kernel (c : Dev nD) (E : Set ℕ) (i : grid0.Coords) (arg2 : Memref sig .tc .vmem S1x258x258x64 .bf16) (harg2 : arg2.IsWhole)
    (arg3 : Memref sig .tc .vmem S3x3x64x64 .bf16) (harg3 : arg3.IsWhole) (arg4 : Memref sig .tc .vmem S1x32x256x64 .f32) (harg4 : arg4.IsWhole)
    (x0 : Vec F S1x258x258x64 .bf16) (x1 : Vec F S3x3x64x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 i x0 x1)) -∗ K ⟨⟩))
      ⊢ wp frame (wpE (defs₀ (F := F)) Variants.none c none) E (cc0__conv_kernel i arg2 harg2 arg3 harg3 arg4 harg4) K := by
  simp only [cc0__conv_kernel_eq_skeleton]; unfold cc0__conv_kernel_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the pipeline on core `c`: the arrays as the region finds them; after the body at point `t` each
    input's buffer at its block and the output's at `out0_2` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frame

end
-- ==== Proof.FrameKI.lean ====
/-
  The frame of `KernelIdeal`: @main is a stretch of host operations (the index chain, the scatter that builds the voxel
  table, the gather that fills the dense feature grid and its zero border), ONE region — a 3×3 convolution over a
  4 × 8 grid of points, each point reading a 34-row band of its batch's padded grid and the nine 64×64 weight taps and
  storing one 32×256×64 block — and a tail of host operations that reads the region's result back at each point's
  voxel. Stated at any float family: the region's body runs on whole staging buffers, leaves its two inputs as they
  were and its output block at ONE function of the input blocks (`out0_2`); the pipeline's proof data says so at every
  grid point; and the launch theorem for a region with host operations on both sides gives the run, from which the
  argument arrays are read back unchanged.
-/
import proofs.«166044_j24610162606296_1_alg».proof.Proof.Gen.KernelIdeal.Launch
import proofs.«166044_j24610162606296_1_alg».proof.Proof.Gen.KernelIdeal.Skeleton
import proofs.«166044_j24610162606296_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after every host operation that
    precedes the region, in order. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
set_option maxHeartbeats 4000000 in
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor
set_option maxHeartbeats 4000000 in
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor
set_option maxHeartbeats 4000000 in
theorem hostOps0_5_fresh : (hostOps0_5 : List (HloOp τ sig (Elt F))).Forall fun op => op.fresh = ∅ := by
  simp only [List.Forall]; repeat' constructor
set_option maxHeartbeats 4000000 in
theorem hostOps0_6_fresh : (hostOps0_6 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The operations after the region touch unscoped TensorCore references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 4000000 in
/-- No operation after the region writes `main_v64`. -/
theorem tail_keeps_main_v64 : (hostOps1 : List (HloOp τ sig (Elt F))).Forall fun op => Proc.devRef (τ := τ) .tc main_v64 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
set_option maxHeartbeats 4000000 in
/-- No operation after the region writes `main_v65`. -/
theorem tail_keeps_main_v65 : (hostOps1 : List (HloOp τ sig (Elt F))).Forall fun op => Proc.devRef (τ := τ) .tc main_v65 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
set_option maxHeartbeats 4000000 in
/-- No operation after the region writes `main_v66`. -/
theorem tail_keeps_main_v66 : (hostOps1 : List (HloOp τ sig (Elt F))).Forall fun op => Proc.devRef (τ := τ) .tc main_v66 ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)

/-- And so none of them writes an array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  fin_cases w
  · exact (List.forall_iff_forall_mem.mp tail_keeps_main_v64) op hop
  · exact (List.forall_iff_forall_mem.mp tail_keeps_main_v65) op hop
  · exact (List.forall_iff_forall_mem.mp tail_keeps_main_v66) op hop

set_option maxHeartbeats 8000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 8000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 8000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post, read at the three
    argument arrays (none is an array of the pipeline), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c)⟩) h

/-! ## The body's accesses -/

/-- The 34-row band of the padded grid the point reads: rows `32 · h … 32 · h + 33` of its batch's 258. -/
abbrev rBand (i : grid0.Coords) : Rect S1x258x258x64 := Rect.unit (s := S1x258x258x64) (k0_off1 i) S1x34x258x64.size (k0_off1_inb i)
abbrev rTap00 : Rect S3x3x64x64 := Rect.unit (s := S3x3x64x64) ![0, 0, 0, 0] S1x1x64x64.size inb_S3x3x64x64_S1x1x64x64_0_0_0_0
abbrev rTap01 : Rect S3x3x64x64 := Rect.unit (s := S3x3x64x64) ![0, 1, 0, 0] S1x1x64x64.size inb_S3x3x64x64_S1x1x64x64_0_1_0_0
abbrev rTap02 : Rect S3x3x64x64 := Rect.unit (s := S3x3x64x64) ![0, 2, 0, 0] S1x1x64x64.size inb_S3x3x64x64_S1x1x64x64_0_2_0_0
abbrev rTap10 : Rect S3x3x64x64 := Rect.unit (s := S3x3x64x64) ![1, 0, 0, 0] S1x1x64x64.size inb_S3x3x64x64_S1x1x64x64_1_0_0_0
abbrev rTap11 : Rect S3x3x64x64 := Rect.unit (s := S3x3x64x64) ![1, 1, 0, 0] S1x1x64x64.size inb_S3x3x64x64_S1x1x64x64_1_1_0_0
abbrev rTap12 : Rect S3x3x64x64 := Rect.unit (s := S3x3x64x64) ![1, 2, 0, 0] S1x1x64x64.size inb_S3x3x64x64_S1x1x64x64_1_2_0_0
abbrev rTap20 : Rect S3x3x64x64 := Rect.unit (s := S3x3x64x64) ![2, 0, 0, 0] S1x1x64x64.size inb_S3x3x64x64_S1x1x64x64_2_0_0_0
abbrev rTap21 : Rect S3x3x64x64 := Rect.unit (s := S3x3x64x64) ![2, 1, 0, 0] S1x1x64x64.size inb_S3x3x64x64_S1x1x64x64_2_1_0_0
abbrev rTap22 : Rect S3x3x64x64 := Rect.unit (s := S3x3x64x64) ![2, 2, 0, 0] S1x1x64x64.size inb_S3x3x64x64_S1x1x64x64_2_2_0_0
abbrev rOut : Rect S1x32x256x64 := Rect.unit (s := S1x32x256x64) ![0, 0, 0, 0] S1x32x256x64.size inb_S1x32x256x64_S1x32x256x64_0_0_0_0

/-! ## What the body leaves in the output window's buffer -/

/-- The value the body stores: the nine taps' products accumulated in the order the body adds them, from the band and
    the nine weight taps it loaded (the payloads are the skeleton's). -/
def stored (i : grid0.Coords) (x0 : Vec F S1x258x258x64 .bf16) (x1 : Vec F S3x3x64x64 .bf16) : FVec F S1x32x256x64 .f32 :=
  k0_pay1
    (k0_pay5 (k0_pay2 (View.ld x0 (rBand i)))
      (k0_pay3 (View.ld x0 (rBand i)) (View.ld x1 rTap00) (View.ld x1 rTap01) (View.ld x1 rTap02))
      (k0_pay4 (View.ld x0 (rBand i)) (View.ld x1 rTap10))
      (View.ld x1 rTap11) (View.ld x1 rTap12) (View.ld x1 rTap20) (View.ld x1 rTap21))
    (k0_pay6 (k0_pay2 (View.ld x0 (rBand i))) (View.ld x1 rTap22))

/-- Window 2's staging buffer after the body: its one store, over the whole block. -/
def out0_2 (i : grid0.Coords) (x0 : Vec F S1x258x258x64 .bf16) (x1 : Vec F S3x3x64x64 .bf16) : Vec F S1x32x256x64 .f32 :=
  View.canon [⟨rOut, stored i x0 x1⟩]

/-- The store covers the buffer. -/
theorem cover0_2 (p0 : Vec F S1x32x256x64 .f32) (y : S1x32x256x64.Idx) :
    ∃ pc ∈ ([⟨rOut, p0⟩] : List (View.Piece (Elt F) S1x32x256x64 .f32)), y ∈ pc.1.set :=
  View.cover_of_tiled [⟨rOut, p0⟩] S1x32x256x64.size (by rfl) y

/-! ## The body's triple -/

set_option maxHeartbeats 4000000 in
/-- The body on whole staging buffers, the inputs' at contents `x0`, `x1` and the output's at anything, runs to the
    continuation holding the inputs' as they were and the output's at `out0_2` of them. -/
theorem sound_kernel (c : Dev nD) (E : Set ℕ) (i : grid0.Coords) (arg2 : Memref sig .tc .vmem S1x258x258x64 .bf16) (harg2 : arg2.IsWhole)
    (arg3 : Memref sig .tc .vmem S3x3x64x64 .bf16) (harg3 : arg3.IsWhole) (arg4 : Memref sig .tc .vmem S1x32x256x64 .f32) (harg4 : arg4.IsWhole)
    (x0 : Vec F S1x258x258x64 .bf16) (x1 : Vec F S3x3x64x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 i x0 x1)) -∗ K ⟨⟩))
      ⊢ wp frame (wpE (defs₀ (F := F)) Variants.none c none) E (cc0__conv_kernel i arg2 harg2 arg3 harg3 arg4 harg4) K := by
  simp only [cc0__conv_kernel_eq_skeleton]; unfold cc0__conv_kernel_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- The proof data of the pipeline on core `c`: the arrays as the region finds them; after the body at point `t` each
    input's buffer at its block and the output's at `out0_2` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frame

end
-- ==== Proof.Spec.lean ====
/-
  What the two programs compute, as functions of the three argument arrays.

  Both programs turn each point's anchor into a voxel of a 4 × 256 × 256 table (a sigmoid of the clipped anchor, less
  the least sigmoid of its column, times 256, cut to an integer), and both build the same table of "the largest point
  number in this voxel, or −1". The kernel's program then lays the winning points' features out as a dense grid with a
  zero border, convolves it with the nine 64 × 64 weight taps, and reads the result back at each point's voxel; the
  reference walks the nine neighbours of each point's voxel, looks each up in the table, and accumulates the products
  with the nine taps. Both are, at a point whose voxel is `(b, y, x)` and an output channel `o`,

      ((0 + T 0 0) + T 0 1) + … + T 2 2,   T dy dx = Σ_c N(b, y + dy, x + dx, c) · w[dy, dx, c, o],

  where `N(b, py, px, c)` is the feature `c` of the point that wins voxel `(b, py − 1, px − 1)`, and zero when that
  voxel lies outside the table or is empty: the function `G` below. The definitions are stated once over each
  program's own shape names so that each program's composed term is one of them on the nose.
-/
import proofs.«166044_j24610162606296_1_alg».proof.Proof.Gen.KernelIdeal
import proofs.«166044_j24610162606296_1_alg».proof.Proof.Gen.ReferenceIdeal
import Idealize.ShloMosaic.PureOps.Ideal
import Idealize.ShloMosaic.Lib.ValueIdx

noncomputable section

/-! ## The kernel program's functions -/

namespace Cert.KernelIdeal.Spec

open Idealize.ShloMosaic Cert.KernelIdeal Cert.KernelIdeal.Gen

variable {F : FTy → Type} [FloatOps F]

/-- The sigmoid of the clipped anchors, one row of two per point (points counted along batches, then along a batch). -/
def sig (a : FVec F S4x32768x2 .f32) : FVec F S131072x2 .f32 :=
  shapeCast S131072x2 (Host.divf (broadcastInDim S4x32768x2 ![] bcast_S_S4x32768x2 (constant S_ .f32 0x3F800000#32))
    (addf (broadcastInDim S4x32768x2 ![] bcast_S_S4x32768x2 (constant S_ .f32 0x3F800000#32))
      (Host.exp (Host.negf (minimumf (broadcastInDim S4x32768x2 ![] bcast_S_S4x32768x2 (id (constant S_ .f32 0x41135C29#32)))
        (maximumf (broadcastInDim S4x32768x2 ![] bcast_S_S4x32768x2 (id (constant S_ .f32 0xC1135C29#32))) a))))))
    shapeCasts_S4x32768x2_S131072x2

/-- Each point's voxel coordinates as 32-bit words: its sigmoid less the column's least, divided by the voxel size
    1/256, cut to an integer. -/
def idxW (a : FVec F S4x32768x2 .f32) : IVec S131072x2 32 :=
  fptosi 32 (Host.divf
    (subf (sig a) (broadcastInDim S131072x2 ![0, 1] bcast_S1x2_S131072x2_0_1 (broadcastInDim S1x2 ![1] bcast_S2_S1x2_1
      (Host.reduce FloatOps.minimumf (sig a) (constant S_ .f32 0x7F800000#32) reducesTo_S131072x2_S2_d0 h_S_))))
    (broadcastInDim S131072x2 ![0, 1] bcast_S1x2_S131072x2_0_1 (broadcastInDim S1x2 ![1] bcast_S2_S1x2_1
      (Host.divf (broadcastInDim S2 ![] bcast_S_S2 (constant S_ .f32 0x3F800000#32)) (constant S2 .f32 0x43800000#32)))))

/-- Each point's batch number as a word. -/
def batchW : IVec S131072 32 :=
  shapeCast S131072 (broadcastInDim S4x32768 ![0] bcast_S4_S4x32768_0 (iotaInDim S4 32 0)) shapeCasts_S4x32768_S131072

/-- The features, one row of 64 per point. -/
def featsW (x0 : FVec F S4x32768x64 .f32) : FVec F S131072x64 .f32 := shapeCast S131072x64 x0 shapeCasts_S4x32768x64_S131072x64

/-- Column 0 (the row coordinate) and column 1 (the column coordinate) of the voxel coordinates. -/
def col0 (idx : IVec S131072x2 32) : IVec S131072 32 :=
  shapeCast S131072 (extractStridedSlice S131072x1 ![0, 0] idx slices_S131072x2_S131072x1_0_0) shapeCasts_S131072x1_S131072
def col1 (idx : IVec S131072x2 32) : IVec S131072 32 :=
  shapeCast S131072 (extractStridedSlice S131072x1 ![0, 1] idx slices_S131072x2_S131072x1_0_1) shapeCasts_S131072x1_S131072

/-- A negative index counted from the end of an axis of extent `n`. -/
def normI (n : BitVec 32) (v : IVec S131072 32) : IVec S131072 32 :=
  select (cmpi .slt v (broadcastInDim S131072 ![] bcast_S_S131072 (constantI S_ 32 0#32)))
    (addi v (broadcastInDim S131072 ![] bcast_S_S131072 (constantI S_ 32 n))) v

/-- The three index columns (batch, row, column) side by side. -/
def idx3 (b y x : IVec S131072 32) : IVec S131072x3 32 :=
  concatenate S131072x3 1 [⟨S131072x1, broadcastInDim S131072x1 ![0] bcast_S131072_S131072x1_0 (normI 4#32 b)⟩,
    ⟨S131072x1, broadcastInDim S131072x1 ![0] bcast_S131072_S131072x1_0 (normI 256#32 y)⟩,
    ⟨S131072x1, broadcastInDim S131072x1 ![0] bcast_S131072_S131072x1_0 (normI 256#32 x)⟩]
    concatenates_S131072x1_S131072x1_S131072x1_S131072x3_d1

/-- The voxel table: per voxel the largest number of a point that falls in it, `-1` where none does. -/
def gridW (a : FVec F S4x32768x2 .f32) : IVec S4x256x256 32 :=
  Host.scatter scatter_S4x256x256_S131072x3_S131072_n_012_012_1 IntOp.maxsi
    (broadcastInDim S4x256x256 ![] bcast_S_S4x256x256 (constantI S_ 32 4294967295#32))
    (idx3 batchW (col0 (idxW a)) (col1 (idxW a))) (iotaInDim S131072 32 0)

/-- The voxel table as one row of 262144. -/
def gridFlat (a : FVec F S4x32768x2 .f32) : IVec S262144 32 := shapeCast S262144 (gridW a) shapeCasts_S4x256x256_S262144

/-- The row of the feature table a voxel reads: its winner, or row 0 for an empty voxel, a negative number counted
    from the end. -/
def rowOf (a : FVec F S4x32768x2 .f32) : IVec S262144 32 :=
  select (cmpi .slt (maxsi (gridFlat a) (broadcastInDim S262144 ![] bcast_S_S262144 (constantI S_ 32 0#32)))
      (broadcastInDim S262144 ![] bcast_S_S262144 (constantI S_ 32 0#32)))
    (addi (maxsi (gridFlat a) (broadcastInDim S262144 ![] bcast_S_S262144 (constantI S_ 32 0#32)))
      (broadcastInDim S262144 ![] bcast_S_S262144 (constantI S_ 32 131072#32)))
    (maxsi (gridFlat a) (broadcastInDim S262144 ![] bcast_S_S262144 (constantI S_ 32 0#32)))

/-- The dense grid of representative features, one row of 64 per voxel: the winner's features, zero where the voxel is
    empty. -/
def repfeat (x0 : FVec F S4x32768x64 .f32) (a : FVec F S4x32768x2 .f32) : FVec F S262144x64 .f32 :=
  select (broadcastInDim S262144x64 ![0, 1] bcast_S262144x1_S262144x64_0_1
      (broadcastInDim S262144x1 ![0] bcast_S262144_S262144x1_0
        (cmpi .sge (gridFlat a) (broadcastInDim S262144 ![] bcast_S_S262144 (constantI S_ 32 0#32)))))
    (Host.gather gather_S131072x64_S262144x1_S262144x64_1_0_n_n_0_1_164 (featsW x0)
      (broadcastInDim S262144x1 ![0] bcast_S262144_S262144x1_0 (rowOf a)))
    (broadcastInDim S262144x64 ![] bcast_S_S262144x64 (id (constant S_ .f32 0x00000000#32)))

/-- The dense grid with a border of one zero voxel on each side of its two spatial axes, as the region reads it. -/
def rpad (x0 : FVec F S4x32768x64 .f32) (a : FVec F S4x32768x2 .f32) : FVec F S4x258x258x64 .bf16 :=
  truncf .bf16 (pad S4x258x258x64 ![0, 1, 1, 0] ![0, 1, 1, 0] ![0, 0, 0, 0]
    (shapeCast S4x256x256x64 (repfeat x0 a) shapeCasts_S262144x64_S4x256x256x64) (sitofp .f32 (constantI S_ 32 0#32))
    pads_S4x256x256x64_S4x258x258x64_000_110_110_000 h_S_) bitsLt_bf16_f32

/-- The weights as the region reads them. -/
def wbf (x2 : FVec F S3x3x64x64 .f32) : FVec F S3x3x64x64 .bf16 := truncf .bf16 x2 bitsLt_bf16_f32

/-- The operations after the region: the region's result `D` read at each point's voxel. -/
def kTail (D : FVec F S4x256x256x64 .f32) (idx : IVec S131072x2 32) (bat : IVec S131072 32) : FVec F S4x32768x64 .f32 :=
  shapeCast S4x32768x64 (Host.gather gather_S4x256x256x64_S131072x3_S131072x64_1_012_n_n_012_1_11164 D
    (idx3 bat (col0 idx) (col1 idx))) shapeCasts_S131072x64_S4x32768x64

/-- Nine terms added in the body's order, from zero. -/
def acc9 (T : Fin 3 → Fin 3 → EReal) : EReal :=
  ((((((((0 + T 0 0) + T 0 1) + T 0 2) + T 1 0) + T 1 1) + T 1 2) + T 2 0) + T 2 1) + T 2 2

/-- The region's result over the extended reals: the 3 × 3 convolution of the padded grid with the weights. -/
def dense (rp : FVec Ideal S4x258x258x64 .bf16) (w : FVec Ideal S3x3x64x64 .bf16) : FVec Ideal S4x256x256x64 .f32 :=
  fun j => acc9 fun dy dx => ∑ c : Fin 64,
    rp (ValueIdx.ix4 (j 0) (⟨(j 1).val + dy.val, by have h1 : (j 1).val < 256 := (j 1).isLt; have h2 : dy.val < 3 := dy.isLt; show _ < 258; omega⟩ : Fin 258)
        (⟨(j 2).val + dx.val, by have h1 : (j 2).val < 256 := (j 2).isLt; have h2 : dx.val < 3 := dx.isLt; show _ < 258; omega⟩ : Fin 258) c)
      * w (ValueIdx.ix4 dy dx c (j 3))

/-- The kernel program's result as a function of the three arguments, over the extended reals. -/
def kOut (x0 : FVec Ideal S4x32768x64 .f32) (a : FVec Ideal S4x32768x2 .f32) (x2 : FVec Ideal S3x3x64x64 .f32) :
    FVec Ideal S4x32768x64 .f32 :=
  kTail (dense (rpad x0 a) (wbf x2)) (idxW a) batchW

/-! ## The common formula -/

/-- The feature `c` that the padded voxel `(b, py, px)` holds: the winner's, and zero on the border and at an empty
    voxel. A winner's number is read as a row of the feature table the way a gather reads it (signed, kept inside the
    table). -/
def NF (x0 : FVec Ideal S4x32768x64 .f32) (a : FVec Ideal S4x32768x2 .f32) (b : Fin 4) (py px : Nat) (c : Fin 64) : EReal :=
  if h : 1 ≤ py ∧ py ≤ 256 ∧ 1 ≤ px ∧ px ≤ 256 then
    if 0 ≤ (gridW a (ValueIdx.ix3 b (⟨py - 1, by omega⟩ : Fin 256) (⟨px - 1, by omega⟩ : Fin 256))).toInt then
      featsW x0 (ValueIdx.ix2 (⟨min (gridW a (ValueIdx.ix3 b (⟨py - 1, by omega⟩ : Fin 256) (⟨px - 1, by omega⟩ : Fin 256))).toInt.toNat (131072 - 1),
        by omega⟩ : Fin 131072) c)
    else 0
  else 0

/-- THE RESULT, index by index: at point `n` of batch `b` and channel `o`, the nine taps' sums accumulated in order over
    the nine neighbours of the point's voxel. -/
def G (x0 : FVec Ideal S4x32768x64 .f32) (a : FVec Ideal S4x32768x2 .f32) (x2 : FVec Ideal S3x3x64x64 .f32) :
    FVec Ideal S4x32768x64 .f32 :=
  fun j => acc9 fun dy dx => ∑ c : Fin 64,
    NF x0 a (j 0)
      ((idxW a (ValueIdx.ix2 (⟨(j 0).val * 32768 + (j 1).val, by have h0 : (j 0).val < 4 := (j 0).isLt; have h1 : (j 1).val < 32768 := (j 1).isLt; show _ < 131072; omega⟩ : Fin 131072) (0 : Fin 2))).toNat + dy.val)
      ((idxW a (ValueIdx.ix2 (⟨(j 0).val * 32768 + (j 1).val, by have h0 : (j 0).val < 4 := (j 0).isLt; have h1 : (j 1).val < 32768 := (j 1).isLt; show _ < 131072; omega⟩ : Fin 131072) (1 : Fin 2))).toNat + dx.val) c
      * x2 (ValueIdx.ix4 dy dx c (j 2))

end Cert.KernelIdeal.Spec

/-! ## The reference program's functions -/

namespace Cert.ReferenceIdeal.Spec

open Idealize.ShloMosaic Cert.ReferenceIdeal Cert.ReferenceIdeal.Gen

variable {F : FTy → Type} [FloatOps F]

/-- The sigmoid of the clipped anchors, one row of two per point (points counted along batches, then along a batch). -/
def sig (a : FVec F S4x32768x2 .f32) : FVec F S131072x2 .f32 :=
  shapeCast S131072x2 (Host.divf (broadcastInDim S4x32768x2 ![] bcast_S_S4x32768x2 (constant S_ .f32 0x3F800000#32))
    (addf (broadcastInDim S4x32768x2 ![] bcast_S_S4x32768x2 (constant S_ .f32 0x3F800000#32))
      (Host.exp (Host.negf (minimumf (broadcastInDim S4x32768x2 ![] bcast_S_S4x32768x2 (id (constant S_ .f32 0x41135C29#32)))
        (maximumf (broadcastInDim S4x32768x2 ![] bcast_S_S4x32768x2 (id (constant S_ .f32 0xC1135C29#32))) a))))))
    shapeCasts_S4x32768x2_S131072x2

/-- Each point's voxel coordinates as 32-bit words: its sigmoid less the column's least, divided by the voxel size
    1/256, cut to an integer. -/
def idxW (a : FVec F S4x32768x2 .f32) : IVec S131072x2 32 :=
  fptosi 32 (Host.divf
    (subf (sig a) (broadcastInDim S131072x2 ![0, 1] bcast_S1x2_S131072x2_0_1 (broadcastInDim S1x2 ![1] bcast_S2_S1x2_1
      (Host.reduce FloatOps.minimumf (sig a) (constant S_ .f32 0x7F800000#32) reducesTo_S131072x2_S2_d0 h_S_))))
    (broadcastInDim S131072x2 ![0, 1] bcast_S1x2_S131072x2_0_1 (broadcastInDim S1x2 ![1] bcast_S2_S1x2_1
      (Host.divf (broadcastInDim S2 ![] bcast_S_S2 (constant S_ .f32 0x3F800000#32)) (constant S2 .f32 0x43800000#32)))))

/-- Each point's batch number as a word. -/
def batchW : IVec S131072 32 :=
  shapeCast S131072 (broadcastInDim S4x32768 ![0] bcast_S4_S4x32768_0 (iotaInDim S4 32 0)) shapeCasts_S4x32768_S131072

/-- The features, one row of 64 per point. -/
def featsW (x0 : FVec F S4x32768x64 .f32) : FVec F S131072x64 .f32 := shapeCast S131072x64 x0 shapeCasts_S4x32768x64_S131072x64

/-- Column 0 (the row coordinate) and column 1 (the column coordinate) of the voxel coordinates. -/
def col0 (idx : IVec S131072x2 32) : IVec S131072 32 :=
  shapeCast S131072 (extractStridedSlice S131072x1 ![0, 0] idx slices_S131072x2_S131072x1_0_0) shapeCasts_S131072x1_S131072
def col1 (idx : IVec S131072x2 32) : IVec S131072 32 :=
  shapeCast S131072 (extractStridedSlice S131072x1 ![0, 1] idx slices_S131072x2_S131072x1_0_1) shapeCasts_S131072x1_S131072

/-- A negative index counted from the end of an axis of extent `n`. -/
def normI (n : BitVec 32) (v : IVec S131072 32) : IVec S131072 32 :=
  select (cmpi .slt v (broadcastInDim S131072 ![] bcast_S_S131072 (constantI S_ 32 0#32)))
    (addi v (broadcastInDim S131072 ![] bcast_S_S131072 (constantI S_ 32 n))) v

/-- The three index columns (batch, row, column) side by side. -/
def idx3 (b y x : IVec S131072 32) : IVec S131072x3 32 :=
  concatenate S131072x3 1 [⟨S131072x1, broadcastInDim S131072x1 ![0] bcast_S131072_S131072x1_0 (normI 4#32 b)⟩,
    ⟨S131072x1, broadcastInDim S131072x1 ![0] bcast_S131072_S131072x1_0 (normI 256#32 y)⟩,
    ⟨S131072x1, broadcastInDim S131072x1 ![0] bcast_S131072_S131072x1_0 (normI 256#32 x)⟩]
    concatenates_S131072x1_S131072x1_S131072x1_S131072x3_d1

/-- The voxel table: per voxel the largest number of a point that falls in it, `-1` where none does. -/
def gridW (a : FVec F S4x32768x2 .f32) : IVec S4x256x256 32 :=
  Host.scatter scatter_S4x256x256_S131072x3_S131072_n_012_012_1 IntOp.maxsi
    (broadcastInDim S4x256x256 ![] bcast_S_S4x256x256 (constantI S_ 32 4294967295#32))
    (idx3 batchW (col0 (idxW a)) (col1 (idxW a))) (iotaInDim S131072 32 0)

/-- A coordinate shifted by a tap's offset (a word: −1, 0 or 1). -/
def shiftI (v : IVec S131072 32) (d : BitVec 32) : IVec S131072 32 :=
  addi v (broadcastInDim S131072 ![] bcast_S_S131072 (constantI S_ 32 d))

/-- "Both shifted coordinates lie in `[0, 256)`". -/
def inb (y' x' : IVec S131072 32) : IVec S131072 1 :=
  andi (andi (andi (cmpi .sge y' (broadcastInDim S131072 ![] bcast_S_S131072 (constantI S_ 32 0#32)))
      (cmpi .slt y' (broadcastInDim S131072 ![] bcast_S_S131072 (constantI S_ 32 256#32))))
    (cmpi .sge x' (broadcastInDim S131072 ![] bcast_S_S131072 (constantI S_ 32 0#32))))
    (cmpi .slt x' (broadcastInDim S131072 ![] bcast_S_S131072 (constantI S_ 32 256#32)))

/-- A coordinate kept inside `[0, 255]`. -/
def clipI (v : IVec S131072 32) : IVec S131072 32 :=
  minsi (broadcastInDim S131072 ![] bcast_S_S131072 (id (constantI S_ 32 255#32)))
    (maxsi (broadcastInDim S131072 ![] bcast_S_S131072 (id (constantI S_ 32 0#32))) v)

/-- The winner of each point's neighbour voxel at a tap. -/
def nid (a : FVec F S4x32768x2 .f32) (dyw dxw : BitVec 32) : IVec S131072 32 :=
  Host.gather gather_S4x256x256_S131072x3_S131072_n_012_n_n_012_1_111 (gridW a)
    (idx3 batchW (clipI (shiftI (col0 (idxW a)) dyw)) (clipI (shiftI (col1 (idxW a)) dxw)))

/-- The row of the feature table a point reads at a tap. -/
def rowR (a : FVec F S4x32768x2 .f32) (dyw dxw : BitVec 32) : IVec S131072 32 :=
  select (cmpi .slt (maxsi (nid a dyw dxw) (broadcastInDim S131072 ![] bcast_S_S131072 (constantI S_ 32 0#32)))
      (broadcastInDim S131072 ![] bcast_S_S131072 (constantI S_ 32 0#32)))
    (addi (maxsi (nid a dyw dxw) (broadcastInDim S131072 ![] bcast_S_S131072 (constantI S_ 32 0#32)))
      (broadcastInDim S131072 ![] bcast_S_S131072 (constantI S_ 32 131072#32)))
    (maxsi (nid a dyw dxw) (broadcastInDim S131072 ![] bcast_S_S131072 (constantI S_ 32 0#32)))

/-- Each point's neighbour features at a tap: the neighbour voxel's winner's, zero where the neighbour lies outside the
    table or is empty. -/
def nfeat (x0 : FVec F S4x32768x64 .f32) (a : FVec F S4x32768x2 .f32) (dyw dxw : BitVec 32) : FVec F S131072x64 .f32 :=
  select (broadcastInDim S131072x64 ![0, 1] bcast_S131072x1_S131072x64_0_1
      (broadcastInDim S131072x1 ![0] bcast_S131072_S131072x1_0
        (andi (inb (shiftI (col0 (idxW a)) dyw) (shiftI (col1 (idxW a)) dxw))
          (cmpi .sge (nid a dyw dxw) (broadcastInDim S131072 ![] bcast_S_S131072 (constantI S_ 32 0#32))))))
    (Host.gather gather_S131072x64_S131072x1_S131072x64_1_0_n_n_0_1_164 (featsW x0)
      (broadcastInDim S131072x1 ![0] bcast_S131072_S131072x1_0 (rowR a dyw dxw)))
    (broadcastInDim S131072x64 ![] bcast_S_S131072x64 (id (constant S_ .f32 0x00000000#32)))

/-- One tap: the running sum plus the neighbour features times the tap's 64 × 64 weights. -/
def tap (x0 : FVec F S4x32768x64 .f32) (a : FVec F S4x32768x2 .f32) (x2 : FVec F S3x3x64x64 .f32) (dyw dxw : BitVec 32)
    (off : Fin 4 → Nat) (hs : S3x3x64x64.Slices off S1x1x64x64) (acc : FVec F S131072x64 .f32) : FVec F S131072x64 .f32 :=
  addf acc (Host.dotGeneral dot_S131072x64_S64x64_S131072x64_1_0_0_1_n_n none (nfeat x0 a dyw dxw)
    (shapeCast S64x64 (extractStridedSlice S1x1x64x64 off x2 hs) shapeCasts_S1x1x64x64_S64x64))

/-- The reference program's result as a function of the three arguments: the nine taps from zero, one row per point,
    laid out by batch. -/
def rOut (x0 : FVec F S4x32768x64 .f32) (a : FVec F S4x32768x2 .f32) (x2 : FVec F S3x3x64x64 .f32) : FVec F S4x32768x64 .f32 :=
  shapeCast S4x32768x64
    (tap x0 a x2 1#32 1#32 ![2, 2, 0, 0] slices_S3x3x64x64_S1x1x64x64_2_2_0_0 (
     tap x0 a x2 1#32 0#32 ![2, 1, 0, 0] slices_S3x3x64x64_S1x1x64x64_2_1_0_0 (
     tap x0 a x2 1#32 4294967295#32 ![2, 0, 0, 0] slices_S3x3x64x64_S1x1x64x64_2_0_0_0 (
     tap x0 a x2 0#32 1#32 ![1, 2, 0, 0] slices_S3x3x64x64_S1x1x64x64_1_2_0_0 (
     tap x0 a x2 0#32 0#32 ![1, 1, 0, 0] slices_S3x3x64x64_S1x1x64x64_1_1_0_0 (
     tap x0 a x2 0#32 4294967295#32 ![1, 0, 0, 0] slices_S3x3x64x64_S1x1x64x64_1_0_0_0 (
     tap x0 a x2 4294967295#32 1#32 ![0, 2, 0, 0] slices_S3x3x64x64_S1x1x64x64_0_2_0_0 (
     tap x0 a x2 4294967295#32 0#32 ![0, 1, 0, 0] slices_S3x3x64x64_S1x1x64x64_0_1_0_0 (
     tap x0 a x2 4294967295#32 4294967295#32 ![0, 0, 0, 0] slices_S3x3x64x64_S1x1x64x64_0_0_0_0 (broadcastInDim S131072x64 ![] bcast_S_S131072x64 (constant S_ .f32 0x00000000#32)))))))))))
    shapeCasts_S131072x64_S4x32768x64

end Cert.ReferenceIdeal.Spec

end
-- ==== Proof.StoredAt.lean ====
/- The block the region's body stores at a grid point, read at an index: the nine taps' sums over the 34-row band. -/
import proofs.«166044_j24610162606296_1_alg».proof.Proof.FrameKI
import proofs.«166044_j24610162606296_1_alg».proof.Proof.Spec
import Idealize.ShloMosaic.Lib.Pipeline.Value
import Idealize.ShloMosaic.Lib.ValueLayout
import Idealize.ShloMosaic.PureOps.Ideal.Laws

noncomputable section

namespace Cert.KernelIdeal.Frame

open Idealize.ShloMosaic Cert.KernelIdeal Cert.KernelIdeal.Gen

section Taps

open Idealize.ShloMosaic.ValueIdx

/-! ## One tap's product read at an index -/

/-- The product's left operand index keeps the output's row on its free axis … -/
theorem mm_lhs_0 (j : S8192x64.Idx) (q : dot_S8192x64_S64x64_S8192x64_1_0_0_1_n_n.contr.Idx) :
    (dot_S8192x64_S64x64_S8192x64_1_0_0_1_n_n.lhsIdx j q 0).val = (j 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl
/-- … and carries the contraction coordinate on its contracted axis. -/
theorem mm_lhs_1 (j : S8192x64.Idx) (q : dot_S8192x64_S64x64_S8192x64_1_0_0_1_n_n.contr.Idx) :
    (dot_S8192x64_S64x64_S8192x64_1_0_0_1_n_n.lhsIdx j q 1).val = (q ⟨0, by decide⟩).val :=
  dot_S8192x64_S64x64_S8192x64_1_0_0_1_n_n.lhsIdx_val_of_single rfl j q
/-- The right operand index carries the contraction coordinate on its contracted axis … -/
theorem mm_rhs_0 (j : S8192x64.Idx) (q : dot_S8192x64_S64x64_S8192x64_1_0_0_1_n_n.contr.Idx) :
    (dot_S8192x64_S64x64_S8192x64_1_0_0_1_n_n.rhsIdx j q 0).val = (q ⟨0, by decide⟩).val :=
  dot_S8192x64_S64x64_S8192x64_1_0_0_1_n_n.rhsIdx_val_of_single rfl j q
/-- … and keeps the output's column on its free axis. -/
theorem mm_rhs_1 (j : S8192x64.Idx) (q : dot_S8192x64_S64x64_S8192x64_1_0_0_1_n_n.contr.Idx) :
    (dot_S8192x64_S64x64_S8192x64_1_0_0_1_n_n.rhsIdx j q 1).val = (j 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

/-- An 8192 × 64 by 64 × 64 product into the zero block, over the extended reals, at row `p` and column `q`: the sum
    over the 64 contracted channels of the operands' products. -/
theorem mm_apply (lhs : FVec Ideal S8192x64 .bf16) (rhs : FVec Ideal S64x64 .bf16) (p : Fin 8192) (q : Fin 64) :
    matmul dot_S8192x64_S64x64_S8192x64_1_0_0_1_n_n none lhs rhs (constant (F := Ideal) S8192x64 .f32 0x00000000#32) (ix2 p q)
      = ∑ c : Fin 64, lhs (ix2 p c) * rhs (ix2 c q) := by
  simp only [matmul]
  rw [Ideal.matmul_constant_zero_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q) ((contrEquiv1 dot_S8192x64_S64x64_S8192x64_1_0_0_1_n_n 64 rfl rfl).symm k) = ix2 p k :=
    funext fun a => Fin.ext (by
      match a with
      | ⟨0, _⟩ => exact mm_lhs_0 _ _
      | ⟨1, _⟩ => exact (mm_lhs_1 _ _).trans hk)
  have er : dot_S8192x64_S64x64_S8192x64_1_0_0_1_n_n.rhsIdx (ix2 p q) ((contrEquiv1 dot_S8192x64_S64x64_S8192x64_1_0_0_1_n_n 64 rfl rfl).symm k) = ix2 k q :=
    funext fun a => Fin.ext (by
      match a with
      | ⟨0, _⟩ => exact (mm_rhs_0 _ _).trans hk
      | ⟨1, _⟩ => exact mm_rhs_1 _ _)
  rw [el, er]

/-! ## The layout operations around a tap's product -/

/-- One tap's term as the body computes it: the band's 32 × 256 × 64 sub-block at offsets `off`, laid out as 8192 rows
    of 64 channels, times the tap's 64 × 64 weights, into the zero block. -/
def tapT (v5 : FVec Ideal S34x258x64 .bf16) (w : Vec Ideal S1x1x64x64 .bf16) (off : Fin 3 → Nat)
    (hs : S34x258x64.Slices off S32x256x64) : FVec Ideal S8192x64 .f32 :=
  matmul dot_S8192x64_S64x64_S8192x64_1_0_0_1_n_n none
    (shapeCast S8192x64 (extractStridedSlice S32x256x64 off v5 hs) shapeCasts_S32x256x64_S8192x64)
    (shapeCast S64x64 w shapeCasts_S1x1x64x64_S64x64 : FVec Ideal S64x64 .bf16) (constant (F := Ideal) S8192x64 .f32 0x00000000#32)

/-- The term laid back out as 32 × 256 × 64, at row `r`, column `x`, channel `o`, for the tap `(dy, dx)`: the sum over
    the input channels of the band at `(r + dy, x + dx)` times the tap's weight. Row `r`, column `x` of the block is row
    `256·r + x` of the 8192. -/
theorem tap_apply (v5 : FVec Ideal S34x258x64 .bf16) (w : Vec Ideal S1x1x64x64 .bf16) (off : Fin 3 → Nat)
    (hs : S34x258x64.Slices off S32x256x64) (dy dx : Fin 3) (h0 : off 0 = dy.val) (h1 : off 1 = dx.val) (h2 : off 2 = 0)
    (r : Fin 32) (x : Fin 256) (o : Fin 64) :
    shapeCast S32x256x64 (tapT v5 w off hs) shapeCasts_S8192x64_S32x256x64 (ix3 r x o)
      = ∑ c : Fin 64, v5 (ix3 (⟨r.val + dy.val, by have := r.isLt; have := dy.isLt; omega⟩ : Fin 34)
            (⟨x.val + dx.val, by have := x.isLt; have := dx.isLt; omega⟩ : Fin 258) c)
          * w (ix4 (0 : Fin 1) (0 : Fin 1) c o) := by
  have hr := r.isLt; have hx := x.isLt; have ho := o.isLt
  refine (shapeCast_apply (tapT v5 w off hs) shapeCasts_S8192x64_S32x256x64 (ix3 r x o)
    (ix2 (⟨r.val * 256 + x.val, by omega⟩ : Fin 8192) o) (by
      rw [Shape.rowMajor_val_two, Shape.rowMajor_val_three]
      show (r.val * 256 + x.val) * 64 + o.val = (r.val * 256 + x.val) * 64 + o.val
      rfl)).trans ?_
  unfold tapT
  refine (mm_apply _ _ _ _).trans ?_
  refine Finset.sum_congr rfl fun c _ => ?_
  have hc := c.isLt
  refine congrArg₂ (· * ·) ?_ ?_
  · refine (shapeCast_apply (extractStridedSlice S32x256x64 off v5 hs) shapeCasts_S32x256x64_S8192x64
      (ix2 (⟨r.val * 256 + x.val, by omega⟩ : Fin 8192) c) (ix3 r x c) (by
        rw [Shape.rowMajor_val_three, Shape.rowMajor_val_two]
        show (r.val * 256 + x.val) * 64 + c.val = (r.val * 256 + x.val) * 64 + c.val
        rfl)).trans ?_
    exact extractStridedSlice_apply off v5 hs (ix3 r x c) _ (fun a => match a with
      | ⟨0, _⟩ => by show r.val + dy.val = off 0 + r.val; omega
      | ⟨1, _⟩ => by show x.val + dx.val = off 1 + x.val; omega
      | ⟨2, _⟩ => by show c.val = off 2 + c.val; omega)
  · exact shapeCast_apply w shapeCasts_S1x1x64x64_S64x64 (ix2 c o) (ix4 (0 : Fin 1) (0 : Fin 1) c o) (by
      rw [Shape.rowMajor_val_four, Shape.rowMajor_val_two]
      show (((0 : ℕ) * 1 + 0) * 64 + c.val) * 64 + o.val = c.val * 64 + o.val
      omega)

/-! ## The payloads read at an index -/

/-- The band without its leading unit axis: entry `(a, b, c)` is the band's `(0, a, b, c)`. -/
theorem pay2_apply (v3 : Vec Ideal S1x34x258x64 .bf16) (a : Fin 34) (b : Fin 258) (c : Fin 64) :
    k0_pay2 (F := Ideal) v3 (ix3 a b c) = v3 (ix4 (0 : Fin 1) a b c) := by
  unfold k0_pay2
  refine (shapeCast_apply _ shapeCasts_S1x34x258x64_S34x258x64 (ix3 a b c) (ix4 (0 : Fin 1) a b c) (by
    rw [Shape.rowMajor_val_four, Shape.rowMajor_val_three]
    show ((((0 : ℕ) * 34 + a.val) * 258 + b.val) * 64 + c.val) = (a.val * 258 + b.val) * 64 + c.val
    omega)).trans ?_
  rw [shapeCast_self]

/-- The band the point loads: its row `a` is row `32·h + a` of the padded slab. -/
theorem band_apply (i : grid0.Coords) (x0 : Vec Ideal S1x258x258x64 .bf16) (a : Fin 34) (b : Fin 258) (c : Fin 64)
    (n : Fin 258) (hn : n.val = 32 * (i 1).val + a.val) :
    View.ld x0 (rBand i) (ix4 (0 : Fin 1) a b c) = x0 (ix4 (0 : Fin 1) n b c) := by
  show x0 ((rBand i).idx (ix4 (0 : Fin 1) a b c)) = _
  refine congrArg x0 (funext fun e => Fin.ext ?_)
  have hoff := k0_off1_eq i
  match e with
  | ⟨0, _⟩ => show k0_off1 i 0 + 1 * 0 = 0; rw [hoff]; rfl
  | ⟨1, _⟩ => show k0_off1 i 1 + 1 * a.val = n.val; rw [hoff, hn]; show 32 * (i 1).val + 1 * a.val = _; omega
  | ⟨2, _⟩ => show k0_off1 i 2 + 1 * b.val = b.val; rw [hoff]; show 0 + 1 * b.val = _; omega
  | ⟨3, _⟩ => show k0_off1 i 3 + 1 * c.val = c.val; rw [hoff]; show 0 + 1 * c.val = _; omega

/-- A weight tap the body loads: the 1 × 1 × 64 × 64 block of the weights at `(dy, dx)`. -/
theorem wtap_apply (x1 : Vec Ideal S3x3x64x64 .bf16) (off : Fin 4 → Nat)
    (inb : ∀ a, off a + S1x1x64x64.size a ≤ S3x3x64x64.size a) (dy dx : Fin 3)
    (h0 : off 0 = dy.val) (h1 : off 1 = dx.val) (h2 : off 2 = 0) (h3 : off 3 = 0) (c o : Fin 64) :
    View.ld x1 (Rect.unit (s := S3x3x64x64) off S1x1x64x64.size inb) (ix4 (0 : Fin 1) (0 : Fin 1) c o) = x1 (ix4 dy dx c o) := by
  show x1 ((Rect.unit (s := S3x3x64x64) off S1x1x64x64.size inb).idx (ix4 (0 : Fin 1) (0 : Fin 1) c o)) = _
  refine congrArg x1 (funext fun e => Fin.ext ?_)
  match e with
  | ⟨0, _⟩ => show off 0 + 1 * 0 = dy.val; omega
  | ⟨1, _⟩ => show off 1 + 1 * 0 = dx.val; omega
  | ⟨2, _⟩ => show off 2 + 1 * c.val = c.val; omega
  | ⟨3, _⟩ => show off 3 + 1 * o.val = o.val; omega

/-- One tap's term of the stored block over the slab and the weights themselves. -/
theorem tap_at (i : grid0.Coords) (x0 : Vec Ideal S1x258x258x64 .bf16) (x1 : Vec Ideal S3x3x64x64 .bf16)
    (off3 : Fin 3 → Nat) (hs : S34x258x64.Slices off3 S32x256x64)
    (off4 : Fin 4 → Nat) (inb : ∀ a, off4 a + S1x1x64x64.size a ≤ S3x3x64x64.size a) (dy dx : Fin 3)
    (h30 : off3 0 = dy.val) (h31 : off3 1 = dx.val) (h32 : off3 2 = 0)
    (h40 : off4 0 = dy.val) (h41 : off4 1 = dx.val) (h42 : off4 2 = 0) (h43 : off4 3 = 0)
    (r : Fin 32) (x : Fin 256) (o : Fin 64) :
    shapeCast S32x256x64 (tapT (k0_pay2 (F := Ideal) (View.ld x0 (rBand i)))
        (View.ld x1 (Rect.unit (s := S3x3x64x64) off4 S1x1x64x64.size inb)) off3 hs) shapeCasts_S8192x64_S32x256x64 (ix3 r x o)
      = ∑ c : Fin 64,
          x0 (ValueIdx.ix4 (0 : Fin 1)
              (⟨32 * (i 1).val + r.val + dy.val, by have h1 : (i 1).val < 8 := (i 1).isLt; have := r.isLt; have := dy.isLt; omega⟩ : Fin 258)
              (⟨x.val + dx.val, by have := x.isLt; have := dx.isLt; omega⟩ : Fin 258) c)
            * x1 (ValueIdx.ix4 dy dx c o) := by
  refine (tap_apply _ _ off3 hs dy dx h30 h31 h32 r x o).trans ?_
  refine Finset.sum_congr rfl fun c _ => ?_
  refine congrArg₂ (· * ·) ?_ (wtap_apply x1 off4 inb dy dx h40 h41 h42 h43 c o)
  refine (pay2_apply _ _ _ _).trans ?_
  exact band_apply i x0 _ _ _ _ (by show 32 * (i 1).val + r.val + dy.val = 32 * (i 1).val + (r.val + dy.val); omega)

/-- The stored block with its leading unit axis: entry `(0, r, x, o)` is the running sum's plus the last tap's. -/
theorem pay1_apply (v62 : FVec Ideal S32x256x64 .f32) (v67 : FVec Ideal S8192x64 .f32) (r : Fin 32) (x : Fin 256) (o : Fin 64) :
    k0_pay1 (F := Ideal) v62 v67 (ix4 (0 : Fin 1) r x o)
      = v62 (ix3 r x o) + shapeCast S32x256x64 v67 shapeCasts_S8192x64_S32x256x64 (ix3 r x o) := by
  unfold k0_pay1
  exact shapeCast_apply (addf v62 (shapeCast S32x256x64 v67 shapeCasts_S8192x64_S32x256x64)) shapeCasts_S32x256x64_S1x32x256x64
    (ix4 (0 : Fin 1) r x o) (ix3 r x o) (by
      rw [Shape.rowMajor_val_three, Shape.rowMajor_val_four]
      show (r.val * 256 + x.val) * 64 + o.val = ((((0 : ℕ) * 32 + r.val) * 256 + x.val) * 64 + o.val)
      omega)

/-- The running sum and the last tap, at an index of the 32 × 256 × 64 block: the nine taps' terms added in the body's
    order to the zero the sum starts from. Every addition is entrywise, so this is the payloads' definitions read at the
    index. -/
theorem body_split (B : Vec Ideal S1x34x258x64 .bf16) (w00 w01 w02 w10 w11 w12 w20 w21 w22 : Vec Ideal S1x1x64x64 .bf16)
    (j : S32x256x64.Idx) :
    k0_pay5 (F := Ideal) (k0_pay2 B) (k0_pay3 B w00 w01 w02) (k0_pay4 B w10) w11 w12 w20 w21 j
        + shapeCast S32x256x64 (k0_pay6 (F := Ideal) (k0_pay2 B) w22) shapeCasts_S8192x64_S32x256x64 j
      = ((((((((Ideal.ofBits .f32 0x00000000#32
          + shapeCast S32x256x64 (tapT (k0_pay2 (F := Ideal) B) w00 ![0, 0, 0] slices_S34x258x64_o0_0_0_S32x256x64) shapeCasts_S8192x64_S32x256x64 j)
          + shapeCast S32x256x64 (tapT (k0_pay2 (F := Ideal) B) w01 ![0, 1, 0] slices_S34x258x64_o0_1_0_S32x256x64) shapeCasts_S8192x64_S32x256x64 j)
          + shapeCast S32x256x64 (tapT (k0_pay2 (F := Ideal) B) w02 ![0, 2, 0] slices_S34x258x64_o0_2_0_S32x256x64) shapeCasts_S8192x64_S32x256x64 j)
          + shapeCast S32x256x64 (tapT (k0_pay2 (F := Ideal) B) w10 ![1, 0, 0] slices_S34x258x64_o1_0_0_S32x256x64) shapeCasts_S8192x64_S32x256x64 j)
          + shapeCast S32x256x64 (tapT (k0_pay2 (F := Ideal) B) w11 ![1, 1, 0] slices_S34x258x64_o1_1_0_S32x256x64) shapeCasts_S8192x64_S32x256x64 j)
          + shapeCast S32x256x64 (tapT (k0_pay2 (F := Ideal) B) w12 ![1, 2, 0] slices_S34x258x64_o1_2_0_S32x256x64) shapeCasts_S8192x64_S32x256x64 j)
          + shapeCast S32x256x64 (tapT (k0_pay2 (F := Ideal) B) w20 ![2, 0, 0] slices_S34x258x64_o2_0_0_S32x256x64) shapeCasts_S8192x64_S32x256x64 j)
          + shapeCast S32x256x64 (tapT (k0_pay2 (F := Ideal) B) w21 ![2, 1, 0] slices_S34x258x64_o2_1_0_S32x256x64) shapeCasts_S8192x64_S32x256x64 j)
          + shapeCast S32x256x64 (tapT (k0_pay2 (F := Ideal) B) w22 ![2, 2, 0] slices_S34x258x64_o2_2_0_S32x256x64) shapeCasts_S8192x64_S32x256x64 j := rfl

/-- Nine terms added in order to a zero are `Spec.acc9` of them. -/
theorem acc9_congr {Z R00 R01 R02 R10 R11 R12 R20 R21 R22 : EReal} {T : Fin 3 → Fin 3 → EReal} (hZ : Z = 0)
    (h00 : R00 = T 0 0) (h01 : R01 = T 0 1) (h02 : R02 = T 0 2) (h10 : R10 = T 1 0) (h11 : R11 = T 1 1) (h12 : R12 = T 1 2)
    (h20 : R20 = T 2 0) (h21 : R21 = T 2 1) (h22 : R22 = T 2 2) :
    ((((((((Z + R00) + R01) + R02) + R10) + R11) + R12) + R20) + R21) + R22 = Spec.acc9 T := by
  rw [hZ, h00, h01, h02, h10, h11, h12, h20, h21, h22]; rfl

end Taps

/-- At grid point `i = (b, h)` the stored block's entry `(0, r, x, o)` is the nine taps' sums, in the body's order, over
    rows `32·h + r + dy` and columns `x + dx` of the point's padded slab `x0` against the weights `x1`. -/
theorem stored_apply (i : grid0.Coords) (x0 : Vec Ideal S1x258x258x64 .bf16) (x1 : Vec Ideal S3x3x64x64 .bf16)
    (r : Fin 32) (x : Fin 256) (o : Fin 64) :
    stored (F := Ideal) i x0 x1 (ValueIdx.ix4 (0 : Fin 1) r x o)
      = Spec.acc9 fun dy dx => ∑ c : Fin 64,
          x0 (ValueIdx.ix4 (0 : Fin 1)
              (⟨32 * (i 1).val + r.val + dy.val, by have h1 : (i 1).val < 8 := (i 1).isLt; have := r.isLt; have := dy.isLt; omega⟩ : Fin 258)
              (⟨x.val + dx.val, by have := x.isLt; have := dx.isLt; omega⟩ : Fin 258) c)
            * x1 (ValueIdx.ix4 dy dx c o) := by
  unfold stored
  refine (pay1_apply _ _ r x o).trans ?_
  refine (body_split _ _ _ _ _ _ _ _ _ _ (ValueIdx.ix3 r x o)).trans ?_
  exact acc9_congr Ideal.ofBits_zero_f32
    (tap_at i x0 x1 ![0, 0, 0] slices_S34x258x64_o0_0_0_S32x256x64 ![0, 0, 0, 0] inb_S3x3x64x64_S1x1x64x64_0_0_0_0 0 0 rfl rfl rfl rfl rfl rfl rfl r x o)
    (tap_at i x0 x1 ![0, 1, 0] slices_S34x258x64_o0_1_0_S32x256x64 ![0, 1, 0, 0] inb_S3x3x64x64_S1x1x64x64_0_1_0_0 0 1 rfl rfl rfl rfl rfl rfl rfl r x o)
    (tap_at i x0 x1 ![0, 2, 0] slices_S34x258x64_o0_2_0_S32x256x64 ![0, 2, 0, 0] inb_S3x3x64x64_S1x1x64x64_0_2_0_0 0 2 rfl rfl rfl rfl rfl rfl rfl r x o)
    (tap_at i x0 x1 ![1, 0, 0] slices_S34x258x64_o1_0_0_S32x256x64 ![1, 0, 0, 0] inb_S3x3x64x64_S1x1x64x64_1_0_0_0 1 0 rfl rfl rfl rfl rfl rfl rfl r x o)
    (tap_at i x0 x1 ![1, 1, 0] slices_S34x258x64_o1_1_0_S32x256x64 ![1, 1, 0, 0] inb_S3x3x64x64_S1x1x64x64_1_1_0_0 1 1 rfl rfl rfl rfl rfl rfl rfl r x o)
    (tap_at i x0 x1 ![1, 2, 0] slices_S34x258x64_o1_2_0_S32x256x64 ![1, 2, 0, 0] inb_S3x3x64x64_S1x1x64x64_1_2_0_0 1 2 rfl rfl rfl rfl rfl rfl rfl r x o)
    (tap_at i x0 x1 ![2, 0, 0] slices_S34x258x64_o2_0_0_S32x256x64 ![2, 0, 0, 0] inb_S3x3x64x64_S1x1x64x64_2_0_0_0 2 0 rfl rfl rfl rfl rfl rfl rfl r x o)
    (tap_at i x0 x1 ![2, 1, 0] slices_S34x258x64_o2_1_0_S32x256x64 ![2, 1, 0, 0] inb_S3x3x64x64_S1x1x64x64_2_1_0_0 2 1 rfl rfl rfl rfl rfl rfl rfl r x o)
    (tap_at i x0 x1 ![2, 2, 0] slices_S34x258x64_o2_2_0_S32x256x64 ![2, 2, 0, 0] inb_S3x3x64x64_S1x1x64x64_2_2_0_0 2 2 rfl rfl rfl rfl rfl rfl rfl r x o)

end Cert.KernelIdeal.Frame

end
-- ==== Proof.Dense.lean ====
/- The region's result array after the run is the 3 × 3 convolution of the padded grid with the weights. -/
import proofs.«166044_j24610162606296_1_alg».proof.Proof.FrameKI
import proofs.«166044_j24610162606296_1_alg».proof.Proof.Spec
import proofs.«166044_j24610162606296_1_alg».proof.Proof.StoredAt
import Idealize.ShloMosaic.Lib.Pipeline.Value

noncomputable section

namespace Cert.KernelIdeal.Frame

open Idealize.ShloMosaic Cert.KernelIdeal Cert.KernelIdeal.Gen

/-! ## The windows' block indices over the grid, each input block as a part of its array, the blocks' cover -/
namespace DenseArr

/-- Two rank-4 indices with equal coordinates are equal. -/
theorem ix4_ext {n0 n1 n2 n3 : Nat} {a a' : Fin n0} {b b' : Fin n1} {c c' : Fin n2} {d d' : Fin n3}
    (ha : a.val = a'.val) (hb : b.val = b'.val) (hc : c.val = c'.val) (hd : d.val = d'.val) :
    ValueIdx.ix4 a b c d = ValueIdx.ix4 a' b' c' d' := by
  obtain rfl := Fin.ext ha
  obtain rfl := Fin.ext hb
  obtain rfl := Fin.ext hc
  obtain rfl := Fin.ext hd
  rfl

theorem zero_off : (![0, 0, 0, 0] : Fin 4 → Nat) = fun _ => 0 := funext fun a => by fin_cases a <;> rfl

/-- The three windows' block indices at every grid point: the slab's is (b, 0, 0, 0), the weights' (0, 0, 0, 0), the
    result's (b, h, 0, 0), where (b, h) are the point's coordinates. -/
theorem index_facts : ∀ t : Fin cfg0.N,
    win0_0.index t (0 : Fin 4) = (grid0.coords t 0).val ∧ win0_0.index t (1 : Fin 4) = 0
    ∧ win0_0.index t (2 : Fin 4) = 0 ∧ win0_0.index t (3 : Fin 4) = 0
    ∧ win0_1.index t (0 : Fin 4) = 0 ∧ win0_1.index t (1 : Fin 4) = 0
    ∧ win0_1.index t (2 : Fin 4) = 0 ∧ win0_1.index t (3 : Fin 4) = 0
    ∧ win0_2.index t (0 : Fin 4) = (grid0.coords t 0).val ∧ win0_2.index t (1 : Fin 4) = (grid0.coords t 1).val
    ∧ win0_2.index t (2 : Fin 4) = 0 ∧ win0_2.index t (3 : Fin 4) = 0 :=
  (by decide +kernel : ∀ t : Fin grid0.N, _)

/-- Every pair (b, h) is some grid point's coordinates. -/
theorem coords_onto : ∀ (q0 : Fin 4) (q1 : Fin 8), ∃ t : Fin cfg0.N,
    (grid0.coords t 0).val = q0.val ∧ (grid0.coords t 1).val = q1.val :=
  (by decide +kernel : ∀ (q0 : Fin 4) (q1 : Fin 8), ∃ t : Fin grid0.N, (grid0.coords t 0).val = q0.val ∧ (grid0.coords t 1).val = q1.val)

/-- The slab window's block at a point is the point's batch of the padded grid. -/
theorem slab_apply (m : (ℓ : Loc nD τ sig) → Buf (Elt Ideal) ℓ) (c : Dev nD) (t : Fin cfg0.N) (b : Fin 4)
    (hb : b.val = (grid0.coords t 0).val) (R X : Fin 258) (ch : Fin 64) :
    (iblk (F := Ideal) m c 0 t : Vec Ideal S1x258x258x64 .bf16) (ValueIdx.ix4 (0 : Fin 1) R X ch)
      = (V m c main_v64 : Vec Ideal S4x258x258x64 .bf16) (ValueIdx.ix4 b R X ch) := by
  obtain ⟨e0, e1, e2, e3, -⟩ := index_facts t
  unfold iblk
  rw [View.read_apply]
  show V m c main_v64 _ = V m c main_v64 _
  congr 1
  funext a
  apply Fin.ext
  match a with
  | ⟨0, _⟩ => show win0_0.index t (0 : Fin 4) * 1 + 1 * 0 = b.val; omega
  | ⟨1, _⟩ => show win0_0.index t (1 : Fin 4) * 258 + 1 * R.val = R.val; omega
  | ⟨2, _⟩ => show win0_0.index t (2 : Fin 4) * 258 + 1 * X.val = X.val; omega
  | ⟨3, _⟩ => show win0_0.index t (3 : Fin 4) * 64 + 1 * ch.val = ch.val; omega

/-- The weights window's block at every point is the whole weight array. -/
theorem taps_eq (m : (ℓ : Loc nD τ sig) → Buf (Elt Ideal) ℓ) (c : Dev nD) (t : Fin cfg0.N) :
    (iblk (F := Ideal) m c 1 t : Vec Ideal S3x3x64x64 .bf16) = (V m c main_v65 : Vec Ideal S3x3x64x64 .bf16) := by
  obtain ⟨-, -, -, -, e0, e1, e2, e3, -⟩ := index_facts t
  funext y
  unfold iblk
  rw [View.read_apply]
  show V m c main_v65 _ = V m c main_v65 _
  congr 1
  funext a
  apply Fin.ext
  match a with
  | ⟨0, _⟩ => show win0_1.index t (0 : Fin 4) * 3 + 1 * (y 0).val = (y 0).val; omega
  | ⟨1, _⟩ => show win0_1.index t (1 : Fin 4) * 3 + 1 * (y 1).val = (y 1).val; omega
  | ⟨2, _⟩ => show win0_1.index t (2 : Fin 4) * 64 + 1 * (y 2).val = (y 2).val; omega
  | ⟨3, _⟩ => show win0_1.index t (3 : Fin 4) * 64 + 1 * (y 3).val = (y 3).val; omega

/-- What a point stores at block entry (0, r, x, o) is the convolution at the array entry that sits there: the point's
    slab is batch b of the padded grid and its block row r is array row 32·h + r. -/
theorem stored_eq_dense (i : grid0.Coords) (x0 : Vec Ideal S1x258x258x64 .bf16) (x1 : Vec Ideal S3x3x64x64 .bf16)
    (A : Vec Ideal S4x258x258x64 .bf16) (W : Vec Ideal S3x3x64x64 .bf16) (b : Fin 4)
    (h0 : ∀ (R X : Fin 258) (ch : Fin 64), x0 (ValueIdx.ix4 (0 : Fin 1) R X ch) = A (ValueIdx.ix4 b R X ch))
    (h1 : x1 = W) (r : Fin 32) (x : Fin 256) (o : Fin 64) (k : S4x256x256x64.Idx)
    (hk0 : (k 0).val = b.val) (hk1 : (k 1).val = 32 * (i 1).val + r.val) (hk2 : (k 2).val = x.val)
    (hk3 : (k 3).val = o.val) :
    stored (F := Ideal) i x0 x1 (ValueIdx.ix4 (0 : Fin 1) r x o) = Spec.dense A W k := by
  subst h1
  rw [stored_apply]
  show Spec.acc9 _ = Spec.acc9 _
  congr 1
  funext dy dx
  refine Finset.sum_congr rfl fun ch _ => ?_
  rw [h0]
  exact congrArg₂ (· * ·)
    (congrArg A (ix4_ext hk0.symm (by show 32 * (i 1).val + r.val + dy.val = (k 1).val + dy.val; omega) (by show x.val + dx.val = (k 2).val + dx.val; omega) rfl))
    (congrArg x1 (ix4_ext rfl rfl rfl hk3.symm))

/-- An index of the result array is in point t's block iff each coordinate is in the block's range on its axis. -/
theorem mem_blk (t : Fin cfg0.N) (i : S4x256x256x64.Idx) :
    i ∈ ((cfg0.win 2).blk t).view.set ↔ ∀ a : Fin 4, win0_2.index t a * S1x32x256x64.size a ≤ (i a).val
      ∧ (i a).val < win0_2.index t a * S1x32x256x64.size a + S1x32x256x64.size a := by
  show i ∈ ((View.whole main_v66).slice (win0_2.rect t)).set ↔ _
  rw [View.set_slice_whole, Rect.mem_set_unit]
  exact Iff.rfl

/-- The blocks tile the array: row y of batch b lies in the block of the point (b, y / 32). -/
theorem covered (i : S4x256x256x64.Idx) :
    ∃ t : Fin cfg0.N, (cfg0.win 2).flush t = true ∧ i ∈ ((cfg0.win 2).blk t).view.set := by
  have hi0 : (i 0).val < 4 := (i 0).isLt
  have hi1 : (i 1).val < 256 := (i 1).isLt
  have hi2 : (i 2).val < 256 := (i 2).isLt
  have hi3 : (i 3).val < 64 := (i 3).isLt
  obtain ⟨t, q0, q1⟩ := coords_onto ⟨(i 0).val, hi0⟩ ⟨(i 1).val / 32, by omega⟩
  obtain ⟨-, -, -, -, -, -, -, -, e0, e1, e2, e3⟩ := index_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1
              rw [e0, q0]; show (i 0).val * 1 ≤ (i 0).val ∧ (i 0).val < (i 0).val * 1 + 1; omega
  | ⟨1, _⟩ => show win0_2.index t (1 : Fin 4) * 32 ≤ (i 1).val ∧ (i 1).val < win0_2.index t (1 : Fin 4) * 32 + 32
              rw [e1, q1]; show (i 1).val / 32 * 32 ≤ (i 1).val ∧ (i 1).val < (i 1).val / 32 * 32 + 32; omega
  | ⟨2, _⟩ => show win0_2.index t (2 : Fin 4) * 256 ≤ (i 2).val ∧ (i 2).val < win0_2.index t (2 : Fin 4) * 256 + 256
              rw [e2]; omega
  | ⟨3, _⟩ => show win0_2.index t (3 : Fin 4) * 64 ≤ (i 3).val ∧ (i 3).val < win0_2.index t (3 : Fin 4) * 64 + 64
              rw [e3]; omega

/-- What point t writes back is block t of the convolution of the padded grid with the weights. -/
theorem flushed_eq (m : (ℓ : Loc nD τ sig) → Buf (Elt Ideal) ℓ) (c : Dev nD) (t : Fin cfg0.N) :
    (dats (F := Ideal) m 0 c).flushed 2 t
      = ((cfg0.win 2).blk t).view.read (Elt Ideal) (Spec.dense (V m c main_v64) (V m c main_v65)) := by
  show (cfg0.win 2).cut (grid0.coords t) ((dats m 0 c).after 2 t) = _
  rw [after0_2]
  unfold out0_2
  rw [View.canon_unit_zero zero_off]
  obtain ⟨-, -, -, -, -, -, -, -, e0, e1, e2, e3⟩ := index_facts t
  funext j
  have hj0 : (j 0).val < 1 := (j 0).isLt
  have hj1 : (j 1).val < 32 := (j 1).isLt
  have hj2 : (j 2).val < 256 := (j 2).isLt
  have hj3 : (j 3).val < 64 := (j 3).isLt
  have hb : (grid0.coords t 0).val < 4 := (grid0.coords t 0).isLt
  have hjeq : (j : S1x32x256x64.Idx)
      = ValueIdx.ix4 (0 : Fin 1) (⟨(j 1).val, hj1⟩ : Fin 32) (⟨(j 2).val, hj2⟩ : Fin 256) (⟨(j 3).val, hj3⟩ : Fin 64) := by
    funext a
    apply Fin.ext
    match a with
    | ⟨0, _⟩ => show (j 0).val = 0; omega
    | ⟨1, _⟩ => rfl
    | ⟨2, _⟩ => rfl
    | ⟨3, _⟩ => rfl
  show stored (F := Ideal) (grid0.coords t) (iblk m c 0 t) (iblk m c 1 t) (j : S1x32x256x64.Idx)
    = Spec.dense (V m c main_v64) (V m c main_v65) (((cfg0.win 2).blk t).view.emb j)
  refine (congrArg (stored (F := Ideal) (grid0.coords t) (iblk m c 0 t) (iblk m c 1 t)) hjeq).trans ?_
  refine stored_eq_dense (grid0.coords t) (iblk m c 0 t) (iblk m c 1 t) (V m c main_v64) (V m c main_v65)
    ⟨(grid0.coords t 0).val, hb⟩ (fun R X ch => slab_apply m c t ⟨(grid0.coords t 0).val, hb⟩ rfl R X ch) (taps_eq m c t)
    ⟨(j 1).val, hj1⟩ ⟨(j 2).val, hj2⟩ ⟨(j 3).val, hj3⟩ (((cfg0.win 2).blk t).view.emb j) ?_ ?_ ?_ ?_
  · show win0_2.index t (0 : Fin 4) * 1 + 1 * (j 0).val = (grid0.coords t 0).val; omega
  · show win0_2.index t (1 : Fin 4) * 32 + 1 * (j 1).val = 32 * (grid0.coords t 1).val + (j 1).val; omega
  · show win0_2.index t (2 : Fin 4) * 256 + 1 * (j 2).val = (j 2).val; omega
  · show win0_2.index t (3 : Fin 4) * 64 + 1 * (j 3).val = (j 3).val; omega

end DenseArr

/-- Every block of the result is what its grid point stored, the blocks tile the array, and each stored entry is the
    convolution at that entry's voxel. -/
theorem final2 (m : (ℓ : Loc nD τ sig) → Buf (Elt Ideal) ℓ) (c : Dev nD) :
    (dats (F := Ideal) m 0 c).arrAt 2 cfg0.N = Spec.dense (V m c main_v64) (V m c main_v65) :=
  (dats (F := Ideal) m 0 c).arrAt_eq_of_cover 2 (Spec.dense (V m c main_v64) (V m c main_v65))
    (fun t _ => DenseArr.flushed_eq m c t) DenseArr.covered

end Cert.KernelIdeal.Frame

end
-- ==== Proof.LibNary3.lean ====
/-
  A host operation over a literal family of three references (a three-operand concatenation): its result with each
  operand's contents read at its own reference, so that the operands' contents can be rewritten further. General:
  nothing here depends on a program.
-/
import Idealize.ShloMosaic.Lib.StableHlo.Run

noncomputable section

namespace LibNary3

open Idealize.ShloMosaic Idealize.ShloMosaic.StableHlo Idealize.SL.Sem

variable {τ : Topo} {sig : RefSig} {Val : EltTy → Type}
variable {x a b y : Ref sig .tc}

/-- An operation over the literal family `![x, a, b]` of three references writes, at its result reference, its function
    applied to the family of the three operands' contents, each read at its own reference: the family is `Fin.cons`
    three times over the empty family, so operand `k` at a literal `k` is the `k`-th entry by computation. The two
    families agree at each of the three indices, which is all the function can see. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end LibNary3

end
-- ==== Proof.KHost.lean ====
/- What the host operations of the kernel's program compute: before the region, the padded grid, the weights, the voxel
   coordinates and the batch numbers; after it, the region's result read back at each point's voxel.

   Each equation evaluates a literal list of operations: every operation's result at its own reference is its function
   of its operands' contents, and at any other reference what was there; what is left is the composed term, which is
   the function of Spec.lean by definition. The two long lists hold a concatenation of three computed columns; they are
   run in two stretches, cut before it, the first stretch's values entering the second as hypotheses. -/
import proofs.«166044_j24610162606296_1_alg».proof.Proof.FrameKI
import proofs.«166044_j24610162606296_1_alg».proof.Proof.Spec
import proofs.«166044_j24610162606296_1_alg».proof.Proof.LibNary3
import Idealize.ShloMosaic.Lib.StableHlo.Run

noncomputable section

namespace Cert.KernelIdeal.Frame

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The three-reference result lemma, with the result reference kept out of the index so that one simplifier pass can
    use it. -/
theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  LibNary3.nary3_result f hxs hy G

open StableHlo in
/-- One simplifier pass over a literal list of host operations: each operation's result at its own reference is its
    function of its operands' contents, and at any other reference what was there. -/
macro "host_results" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

/-- A line of operations run in two stretches, cut after the first `k`. -/
theorem after_split (k : Nat) (ops : List (HloOp τ sig (Elt F))) (W : Valuation τ sig (Elt F)) :
    StableHlo.after ops W = StableHlo.after (ops.drop k) (StableHlo.after (ops.take k) W) := by
  rw [← StableHlo.after_append, List.take_append_drop]

/-! ## The operations before the region -/

/-- The 95 operations before the region, in order. -/
abbrev preOps : List (HloOp τ sig (Elt F)) :=
  List.flatten [hostOps0, hostOps0_1, hostOps0_2, hostOps0_3, hostOps0_4, hostOps0_5, hostOps0_6]

set_option maxHeartbeats 4000000 in
theorem V_main_v17 (c : Dev nD) : V m c main_v17 = Spec.idxW (m ((c : Thread nD τ).loc main_arg1)) := by
  dsimp only [V, V0]
  simp only [hostOps0, hostOps0_1, hostOps0_2, hostOps0_3, hostOps0_4, hostOps0_5, hostOps0_6, List.flatten_cons, List.flatten_nil, List.append_nil, List.cons_append, List.nil_append]
  host_results
  simp only [StableHlo.TRef.ofBuf, StableHlo.TRef.toBuf, cast_eq]
  rfl

set_option maxHeartbeats 4000000 in
theorem V_main_v20 (c : Dev nD) : V m c main_v20 = Spec.batchW := by
  dsimp only [V, V0]
  simp only [hostOps0, hostOps0_1, hostOps0_2, hostOps0_3, hostOps0_4, hostOps0_5, hostOps0_6, List.flatten_cons, List.flatten_nil, List.append_nil, List.cons_append, List.nil_append]
  host_results
  rfl

set_option maxHeartbeats 4000000 in
theorem V_main_v65 (c : Dev nD) : V m c main_v65 = Spec.wbf (m ((c : Thread nD τ).loc main_arg2)) := by
  dsimp only [V, V0]
  simp only [hostOps0, hostOps0_1, hostOps0_2, hostOps0_3, hostOps0_4, hostOps0_5, hostOps0_6, List.flatten_cons, List.flatten_nil, List.append_nil, List.cons_append, List.nil_append]
  host_results
  rfl

/-! The padded grid passes through the three-piece concatenation of the index columns, so the 95 operations are run in
two stretches, cut before it: the first 65 make the three index columns, the initial table, the point numbers and the
feature rows; the last 30 scatter the point numbers into the table, read the winners' features, zero the empty voxels,
pad and round. -/

section Pre
variable (c : Dev nD)

set_option maxHeartbeats 4000000 in
/-- The batch column at the cut. -/
theorem pre_v43 : StableHlo.after ((preOps (F := F)).take 65) (fun b => m (c, b)) (Proc.devRef .tc main_v43)
    = broadcastInDim S131072x1 ![0] bcast_S131072_S131072x1_0 (Spec.normI 4#32 Spec.batchW) := by
  simp only [preOps, hostOps0, hostOps0_1, hostOps0_2, hostOps0_3, hostOps0_4, hostOps0_5, hostOps0_6, List.flatten_cons, List.flatten_nil, List.append_nil, List.cons_append, List.nil_append, List.take_succ_cons, List.take_zero]
  host_results
  rfl

set_option maxHeartbeats 4000000 in
/-- The row column at the cut. -/
theorem pre_v44 : StableHlo.after ((preOps (F := F)).take 65) (fun b => m (c, b)) (Proc.devRef .tc main_v44)
    = broadcastInDim S131072x1 ![0] bcast_S131072_S131072x1_0
        (Spec.normI 256#32 (Spec.col0 (Spec.idxW (m ((c : Thread nD τ).loc main_arg1))))) := by
  simp only [preOps, hostOps0, hostOps0_1, hostOps0_2, hostOps0_3, hostOps0_4, hostOps0_5, hostOps0_6, List.flatten_cons, List.flatten_nil, List.append_nil, List.cons_append, List.nil_append, List.take_succ_cons, List.take_zero]
  host_results
  simp only [StableHlo.TRef.ofBuf, StableHlo.TRef.toBuf, cast_eq]
  rfl

set_option maxHeartbeats 4000000 in
/-- The column column at the cut. -/
theorem pre_v45 : StableHlo.after ((preOps (F := F)).take 65) (fun b => m (c, b)) (Proc.devRef .tc main_v45)
    = broadcastInDim S131072x1 ![0] bcast_S131072_S131072x1_0
        (Spec.normI 256#32 (Spec.col1 (Spec.idxW (m ((c : Thread nD τ).loc main_arg1))))) := by
  simp only [preOps, hostOps0, hostOps0_1, hostOps0_2, hostOps0_3, hostOps0_4, hostOps0_5, hostOps0_6, List.flatten_cons, List.flatten_nil, List.append_nil, List.cons_append, List.nil_append, List.take_succ_cons, List.take_zero]
  host_results
  simp only [StableHlo.TRef.ofBuf, StableHlo.TRef.toBuf, cast_eq]
  rfl

set_option maxHeartbeats 4000000 in
/-- The table before any point is written: `-1` everywhere. -/
theorem pre_v22 : StableHlo.after ((preOps (F := F)).take 65) (fun b => m (c, b)) (Proc.devRef .tc main_v22)
    = broadcastInDim S4x256x256 ![] bcast_S_S4x256x256 (constantI S_ 32 4294967295#32) := by
  simp only [preOps, hostOps0, hostOps0_1, hostOps0_2, hostOps0_3, hostOps0_4, hostOps0_5, hostOps0_6, List.flatten_cons, List.flatten_nil, List.append_nil, List.cons_append, List.nil_append, List.take_succ_cons, List.take_zero]
  host_results

set_option maxHeartbeats 4000000 in
/-- The point numbers. -/
theorem pre_v27 : StableHlo.after ((preOps (F := F)).take 65) (fun b => m (c, b)) (Proc.devRef .tc main_v27)
    = iotaInDim S131072 32 0 := by
  simp only [preOps, hostOps0, hostOps0_1, hostOps0_2, hostOps0_3, hostOps0_4, hostOps0_5, hostOps0_6, List.flatten_cons, List.flatten_nil, List.append_nil, List.cons_append, List.nil_append, List.take_succ_cons, List.take_zero]
  host_results

set_option maxHeartbeats 4000000 in
/-- The feature rows. -/
theorem pre_v21 : StableHlo.after ((preOps (F := F)).take 65) (fun b => m (c, b)) (Proc.devRef .tc main_v21)
    = Spec.featsW (m ((c : Thread nD τ).loc main_arg0)) := by
  simp only [preOps, hostOps0, hostOps0_1, hostOps0_2, hostOps0_3, hostOps0_4, hostOps0_5, hostOps0_6, List.flatten_cons, List.flatten_nil, List.append_nil, List.cons_append, List.nil_append, List.take_succ_cons, List.take_zero]
  host_results
  rfl
end Pre

set_option maxHeartbeats 16000000 in
/-- The last 30 operations, from any contents that hold the three index columns, the initial table, the point numbers
    and the feature rows: the padded grid. -/
theorem post_v64 (G : Valuation τ sig (Elt F)) (x0 : FVec F S4x32768x64 .f32) (a : FVec F S4x32768x2 .f32)
    (h43 : G (Proc.devRef .tc main_v43) = broadcastInDim S131072x1 ![0] bcast_S131072_S131072x1_0 (Spec.normI 4#32 Spec.batchW))
    (h44 : G (Proc.devRef .tc main_v44) = broadcastInDim S131072x1 ![0] bcast_S131072_S131072x1_0 (Spec.normI 256#32 (Spec.col0 (Spec.idxW a))))
    (h45 : G (Proc.devRef .tc main_v45) = broadcastInDim S131072x1 ![0] bcast_S131072_S131072x1_0 (Spec.normI 256#32 (Spec.col1 (Spec.idxW a))))
    (h22 : G (Proc.devRef .tc main_v22) = broadcastInDim S4x256x256 ![] bcast_S_S4x256x256 (constantI S_ 32 4294967295#32))
    (h27 : G (Proc.devRef .tc main_v27) = iotaInDim S131072 32 0)
    (h21 : G (Proc.devRef .tc main_v21) = Spec.featsW x0) :
    StableHlo.after ((preOps (F := F)).drop 65) G (Proc.devRef .tc main_v64) = Spec.rpad x0 a := by
  simp only [preOps, hostOps0, hostOps0_1, hostOps0_2, hostOps0_3, hostOps0_4, hostOps0_5, hostOps0_6, List.flatten_cons, List.flatten_nil, List.append_nil, List.cons_append, List.nil_append, List.drop_succ_cons, List.drop_zero]
  host_results
  simp only [StableHlo.TRef.ofBuf, StableHlo.TRef.toBuf, cast_eq]
  rw [h43, h44, h45, h22, h27, h21]
  rfl

theorem V_main_v64 (c : Dev nD) : V m c main_v64 = Spec.rpad (m ((c : Thread nD τ).loc main_arg0)) (m ((c : Thread nD τ).loc main_arg1)) := by
  show StableHlo.after (preOps (F := F)) (fun b => m (c, b)) (Proc.devRef .tc main_v64) = _
  rw [after_split 65 preOps]
  exact post_v64 _ _ _ (pre_v43 m c) (pre_v44 m c) (pre_v45 m c) (pre_v22 m c) (pre_v27 m c) (pre_v21 m c)

/-! ## The operations after the region

The 31 operations are run in two stretches, cut before the three-piece concatenation: the first 28 make the three index
columns (batch, row, column, each with negative indices counted from the end) from the voxel coordinates and the batch
numbers and leave the region's result alone; the last three put the columns side by side, read the region's result at
them and lay the rows out by batch. -/

section Tail
variable (W : Valuation τ sig (Elt F))

set_option maxHeartbeats 4000000 in
/-- The first stretch leaves the region's result as it was. -/
theorem tail_pre66 : StableHlo.after (hostOps1.take 28) W (Proc.devRef .tc main_v66) = W (Proc.devRef .tc main_v66) := by
  simp only [hostOps1, List.take_succ_cons, List.take_zero]
  host_results

set_option maxHeartbeats 4000000 in
/-- The batch column. -/
theorem tail_pre86 : StableHlo.after (hostOps1.take 28) W (Proc.devRef .tc main_v86)
    = broadcastInDim S131072x1 ![0] bcast_S131072_S131072x1_0 (Spec.normI 4#32 (W (Proc.devRef .tc main_v20))) := by
  simp only [hostOps1, List.take_succ_cons, List.take_zero]
  host_results
  rfl

set_option maxHeartbeats 4000000 in
/-- The row column. -/
theorem tail_pre87 : StableHlo.after (hostOps1.take 28) W (Proc.devRef .tc main_v87)
    = broadcastInDim S131072x1 ![0] bcast_S131072_S131072x1_0 (Spec.normI 256#32 (Spec.col0 (W (Proc.devRef .tc main_v17)))) := by
  simp only [hostOps1, List.take_succ_cons, List.take_zero]
  host_results
  rfl

set_option maxHeartbeats 4000000 in
/-- The column column. -/
theorem tail_pre88 : StableHlo.after (hostOps1.take 28) W (Proc.devRef .tc main_v88)
    = broadcastInDim S131072x1 ![0] bcast_S131072_S131072x1_0 (Spec.normI 256#32 (Spec.col1 (W (Proc.devRef .tc main_v17)))) := by
  simp only [hostOps1, List.take_succ_cons, List.take_zero]
  host_results
  rfl

set_option maxHeartbeats 4000000 in
/-- The last three operations, from any contents. -/
theorem tail_post : StableHlo.after (hostOps1.drop 28) W (Proc.devRef .tc main_v91)
    = shapeCast S4x32768x64 (Host.gather gather_S4x256x256x64_S131072x3_S131072x64_1_012_n_n_012_1_11164 (W (Proc.devRef .tc main_v66))
        (concatenate S131072x3 1 [⟨S131072x1, W (Proc.devRef .tc main_v86)⟩, ⟨S131072x1, W (Proc.devRef .tc main_v87)⟩,
          ⟨S131072x1, W (Proc.devRef .tc main_v88)⟩] concatenates_S131072x1_S131072x1_S131072x1_S131072x3_d1))
      shapeCasts_S131072x64_S4x32768x64 := by
  simp only [hostOps1, List.drop_succ_cons, List.drop_zero]
  host_results
  rfl
end Tail

set_option maxHeartbeats 4000000 in
/-- The result buffer after the operations that follow the region. -/
theorem tail_v91 (dats : (p : Fin 1) → (c : Dev nD) → Pipeline.Dat τ (Elt F) Unit ℕ (UR sig nD τ) ℕ (cfgs p) c) (c : Dev nD) :
    Pipeline.afterTail₀ cfgs dats 0 (V0 m) [hostOps1] c main_v91
      = Spec.kTail ((dats 0 c).arrAt 2 cfg0.N) (V m c main_v17) (V m c main_v20) := by
  unfold Pipeline.afterTail₀
  have h66 := Pipeline.withArrays_arr spec0 launch0.win.arr_inj c (V0 m c) (fun w => (dats 0 c).arrAt w (cfgs 0).N) 2
  have h17 := Pipeline.withArrays_of_ne spec0 c (V0 m c) (fun w => (dats 0 c).arrAt w (cfgs 0).N) main_v17 (by decide)
  have h20 := Pipeline.withArrays_of_ne spec0 c (V0 m c) (fun w => (dats 0 c).arrAt w (cfgs 0).N) main_v20 (by decide)
  show StableHlo.after hostOps1 (Pipeline.withArrays spec0 c (V0 m c) (fun w => (dats 0 c).arrAt w (cfgs 0).N)) (Proc.devRef .tc main_v91) = _
  rw [after_split 28 hostOps1, tail_post, tail_pre66, tail_pre86, tail_pre87, tail_pre88, h17, h20]
  exact congrArg (fun D => Spec.kTail D (V m c main_v17) (V m c main_v20)) h66

end Cert.KernelIdeal.Frame

end
-- ==== Proof.LibMinReduce.lean ====
/-
  A minimum taken along ONE axis of an array of extended reals, read at a result index.

  Both programs of a kernel-against-reference pair may take such a minimum: the kernel by a
  `vector.multi_reduction <minimumf>` over one axis of a block, the reference by a one-operand
  `stablehlo.reduce` whose body is `stablehlo.minimum`. Each is defined as a fold of the two-argument minimum,
  from a starting value, over the source indices in row-major order. On the extended reals the two-argument
  minimum is `min`, which commutes and associates, so the order of the fold does not matter: at the result index
  `j` each is the fold of `min`, from the starting value, over the coordinates `k` of the dropped axis, of the
  source at `j` with `k` inserted on that axis (`Shape.Reduces.lift`). Stated so, a kernel's minimum over a
  block's rows and a reference's minimum over the whole array's rows are folds over the SAME index set `Fin n`
  and can be compared summand by summand.

  `multiReduction_minimumf_single` is the kernel's side; `hostReduce_minimumf_single` is the reference's. They
  are the counterparts for `min` of the readings of a sum and of a maximum along one axis.
-/
import Idealize.ShloMosaic.PureOps.Ideal.Laws

namespace Cert.LibMinReduce

open Idealize.ShloMosaic

variable {φ : FTy}

/-- A float `vector.multi_reduction <minimumf>` over the one axis `a`, at the exact values: at the result index
    `j` it is the fold of `min`, from the accumulator's value, over the coordinates `k` of axis `a`, of the source
    at `j` with `k` inserted. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a minimum body over the one axis `a`, at the exact values: at
    `j` it is the fold of `min`, from the initial value's one element, over the coordinates `k` of axis `a`, of the
    operand at `j` with `k` inserted. (`h'` is the shape fact the operation carries; `h`, at the same shapes, names
    the inserted index.) -/
theorem hostReduce_minimumf_single {s t u : Shape} {a : Fin s.rank} (x : FVec Ideal s φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end Cert.LibMinReduce
-- ==== Proof.IdxRange.lean ====
/- Each point's voxel coordinates lie in [0, 255], and its batch number is its index divided by 32768. -/
import proofs.«166044_j24610162606296_1_alg».proof.Proof.Spec
import proofs.«166044_j24610162606296_1_alg».proof.Proof.LibMinReduce
import Idealize.ShloMosaic.Lib.Pipeline.Value
import Idealize.ShloMosaic.Lib.ValueLayout
import Idealize.ShloMosaic.Lib.IdealHost

noncomputable section

namespace Cert.KernelIdeal.Spec

open Idealize.ShloMosaic Cert.KernelIdeal Cert.KernelIdeal.Gen Idealize.ShloMosaic.ValueIdx

namespace IdxRange

/-! ## Words and reals -/

/-- A bit pattern whose exponent field is not all ones denotes a real. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- So does an f32 word whose exponent field is not all ones. -/
theorem ofBits_f32_real (b : BitVec 32) (h : (b.extractLsb' 23 8).toNat ≠ 2 ^ 8 - 1) :
    ∃ r : ℝ, Ideal.ofBits .f32 b = (r : EReal) := ieee_real 8 23 b h

/-- The pattern 0x43800000 is 256. -/
theorem ofBits_256 : Ideal.ofBits .f32 0x43800000#32 = ((256 : ℝ) : EReal) := by
  simp [Ideal.ofBits, Ideal.ieee, -EReal.coe_mul]; norm_num

/-- The pattern 0x7F800000 is the top element. -/
theorem ofBits_inf : Ideal.ofBits .f32 0x7F800000#32 = ⊤ := by
  simp [Ideal.ofBits, Ideal.ieee]

/-- A value clipped between two reals is a real. -/
theorem clip_real (lo hi : ℝ) (v : EReal) : ∃ c : ℝ, min (hi : EReal) (max (lo : EReal) v) = (c : EReal) := by
  have h1 : min (hi : EReal) (max (lo : EReal) v) ≠ ⊤ :=
    ne_top_of_le_ne_top (EReal.coe_ne_top hi) (min_le_left _ _)
  have h2 : min (hi : EReal) (max (lo : EReal) v) ≠ ⊥ := by
    have hle : ((min hi lo : ℝ) : EReal) ≤ min (hi : EReal) (max (lo : EReal) v) :=
      le_min (EReal.coe_le_coe_iff.2 (min_le_left _ _))
        ((EReal.coe_le_coe_iff.2 (min_le_right _ _)).trans (le_max_left _ _))
    exact ne_bot_of_le_ne_bot (EReal.coe_ne_bot _) hle
  exact ⟨_, (EReal.coe_toReal h1 h2).symm⟩

/-- The integer part of a real in [0, 256), as a 32-bit word, is below 256. -/
theorem fptosi_lt (q : ℝ) (h0 : 0 ≤ q) (h1 : q < 256) : (Ideal.fptosi 32 (q : EReal)).toNat < 256 := by
  unfold Ideal.fptosi
  rw [Ideal.toIntClamped_coe, if_pos h0]
  have hf0 : 0 ≤ ⌊q⌋ := Int.floor_nonneg.2 h0
  have hf1 : ⌊q⌋ < 256 := Int.floor_lt.2 (by exact_mod_cast h1)
  rw [BitVec.toNat_ofInt]
  omega

/-! ## The sigmoid -/

/-- Every sigmoid is a real strictly between 0 and 1: the clipped anchor is a real whatever the anchor, the
    exponential of its negation a positive real, and one over one plus that lies in (0, 1). -/
theorem sig_real (a : FVec Ideal S4x32768x2 .f32) (j : S131072x2.Idx) :
    ∃ r : ℝ, 0 < r ∧ r < 1 ∧ sig (F := Ideal) a j = (r : EReal) := by
  obtain ⟨hi, hhi⟩ : ∃ r : ℝ, Ideal.ofBits .f32 0x41135C29#32 = (r : EReal) := ofBits_f32_real _ (by decide)
  obtain ⟨lo, hlo⟩ : ∃ r : ℝ, Ideal.ofBits .f32 0xC1135C29#32 = (r : EReal) := ofBits_f32_real _ (by decide)
  obtain ⟨c, hc⟩ := clip_real lo hi (a (Shape.reshapeEquiv shapeCasts_S4x32768x2_S131072x2 j))
  have hpos : 0 < Real.exp (-c) := Real.exp_pos _
  refine ⟨(1 + Real.exp (-c))⁻¹, by positivity, inv_lt_one_of_one_lt₀ (by linarith), ?_⟩
  show Ideal.div (Ideal.ofBits .f32 0x3F800000#32) (Ideal.ofBits .f32 0x3F800000#32
    + Ideal.exp (-(min (Ideal.ofBits .f32 0x41135C29#32) (max (Ideal.ofBits .f32 0xC1135C29#32)
        (a (Shape.reshapeEquiv shapeCasts_S4x32768x2_S131072x2 j)))))) = _
  rw [Ideal.ofBits_one_f32, hhi, hlo, hc]
  exact Ideal.logistic_coe c

/-! ## The column's least sigmoid -/

theorem hred : S131072x2.Reduces [0] S2 := by decide

/-- Column k with the row i put back is the index (i, k). -/
theorem lift_eq (i : Fin 131072) (k : Fin 2) : hred.lift (ix1 k) i = ix2 i k := by
  funext c
  match c with
  | ⟨0, _⟩ => rfl
  | ⟨1, _⟩ => rfl

/-- The least sigmoid of column k. -/
def colMin (a : FVec Ideal S4x32768x2 .f32) (k : Fin 2) : EReal :=
  Host.reduce (FloatOps.minimumf (F := Ideal) (φ := .f32)) (sig (F := Ideal) a) (constant (F := Ideal) S_ .f32 0x7F800000#32) reducesTo_S131072x2_S2_d0 h_S_ (ix1 k)

theorem colMin_eq (a : FVec Ideal S4x32768x2 .f32) (k : Fin 2) :
    colMin a k = (Finset.univ : Finset (Fin 131072)).fold min ⊤ (fun i => sig (F := Ideal) a (ix2 i k)) := by
  unfold colMin
  rw [Cert.LibMinReduce.hostReduce_minimumf_single _ _ reducesTo_S131072x2_S2_d0 hred h_S_ (ix1 k)]
  have h0 : (constant (F := Ideal) S_ .f32 0x7F800000#32) (Shape.Idx.first h_S_) = ⊤ := ofBits_inf
  have h1 : (sig (F := Ideal) a ∘ hred.lift (ix1 k)) = fun i : Fin 131072 => sig (F := Ideal) a (ix2 i k) := by
    funext i
    exact congrArg (sig (F := Ideal) a) (lift_eq i k)
  rw [h0, h1]
  rfl

theorem colMin_le (a : FVec Ideal S4x32768x2 .f32) (i : Fin 131072) (k : Fin 2) :
    colMin a k ≤ sig (F := Ideal) a (ix2 i k) := by
  rw [colMin_eq]
  exact (Finset.fold_min_le _).2 (Or.inr ⟨i, Finset.mem_univ _, le_rfl⟩)

theorem colMin_nonneg (a : FVec Ideal S4x32768x2 .f32) (k : Fin 2) : 0 ≤ colMin a k := by
  rw [colMin_eq]
  refine (Finset.le_fold_min _).2 ⟨le_top, fun i _ => ?_⟩
  obtain ⟨r, h0, _, hr⟩ := sig_real a (ix2 i k)
  rw [hr]
  exact_mod_cast h0.le

/-! ## Reading the two broadcasts of a row of two -/

theorem bcast_row_apply {α : Type} (R : S2.Idx → α) (i : Fin 131072) (k : Fin 2) :
    broadcastInDim S131072x2 ![0, 1] bcast_S1x2_S131072x2_0_1 (broadcastInDim S1x2 ![1] bcast_S2_S1x2_1 R) (ix2 i k)
      = R (ix1 k) := by
  rw [broadcastInDim_apply _ _ _ (ix2 i k) (ix2 (0 : Fin 1) k) (by
    intro a
    match a with
    | ⟨0, _⟩ => rfl
    | ⟨1, _⟩ => rfl)]
  rw [broadcastInDim_apply _ _ _ (ix2 (0 : Fin 1) k) (ix1 k) (by
    intro a
    match a with
    | ⟨0, _⟩ => rfl)]

end IdxRange

open IdxRange

/-! ## The two facts -/

/-- A sigmoid lies strictly between 0 and 1 and the column's least sigmoid is at most every entry, so the scaled
    difference is a real in [0, 256) and its integer part is a word below 256. -/
theorem idxW_lt (a : FVec Ideal S4x32768x2 .f32) (i : Fin 131072) (k : Fin 2) :
    (idxW (F := Ideal) a (ValueIdx.ix2 i k)).toNat < 256 := by
  obtain ⟨r, hr0, hr1, hr⟩ := sig_real a (ix2 i k)
  have hle := colMin_le a i k
  have hnn := colMin_nonneg a k
  obtain ⟨m, hm⟩ : ∃ m : ℝ, colMin a k = (m : EReal) :=
    ⟨_, (EReal.coe_toReal (ne_top_of_le_ne_top (by rw [hr]; exact EReal.coe_ne_top r) hle)
      (ne_bot_of_le_ne_bot EReal.zero_ne_bot hnn)).symm⟩
  rw [hr, hm] at hle
  rw [hm] at hnn
  have hmr : m ≤ r := EReal.coe_le_coe_iff.1 hle
  have hm0 : 0 ≤ m := by exact_mod_cast hnn
  have hread : idxW (F := Ideal) a (ix2 i k)
      = Ideal.fptosi 32 (Ideal.div (sig (F := Ideal) a (ix2 i k) - colMin a k)
          (Ideal.div (Ideal.ofBits .f32 0x3F800000#32) (Ideal.ofBits .f32 0x43800000#32))) := by
    unfold idxW colMin
    show Ideal.fptosi 32 (Ideal.div (sig (F := Ideal) a (ix2 i k) - _) _) = _
    rw [bcast_row_apply, bcast_row_apply]
    rfl
  rw [hread, hr, hm, Ideal.ofBits_one_f32, ofBits_256, Ideal.div_coe (by norm_num) 1, one_mul,
    Ideal.div_coe (by norm_num), ← EReal.coe_sub, ← EReal.coe_mul]
  exact fptosi_lt _ (mul_nonneg (by linarith) (by norm_num)) (by
    have : (1 : ℝ) / (1 / 256) = 256 := by norm_num
    rw [this]; nlinarith)

/-- Point i belongs to batch i / 32768. -/
theorem batchW_apply (i : Fin 131072) : batchW (ValueIdx.ix1 i) = BitVec.ofNat 32 (i.val / 32768) := by
  unfold batchW
  have hi := i.isLt
  rw [shapeCast_apply _ shapeCasts_S4x32768_S131072 (ix1 i)
    (ix2 (⟨i.val / 32768, by omega⟩ : Fin 4) (⟨i.val % 32768, by omega⟩ : Fin 32768)) (by
      rw [Shape.rowMajor_val_two, Shape.rowMajor_val_one]
      show i.val / 32768 * 32768 + i.val % 32768 = i.val
      omega)]
  rw [broadcastInDim_apply _ _ _ _ (ix1 (⟨i.val / 32768, by omega⟩ : Fin 4)) (by
    intro a
    match a with
    | ⟨0, _⟩ => rfl)]
  rfl

end Cert.KernelIdeal.Spec

end
-- ==== Proof.LibGatherRows.lean ====
/-
  A gather of whole rows, read at an index. What `x[idx]` along the first axis of a table `x : [N, C]` lowers to, for a
  column of start indices `idx : [E, 1]`: a gather with offset axis 1, the operand's axis 0 collapsed, no batching axes, the
  start index mapped to axis 0, the index vector on the start indices' axis 1, and slices of one whole row. Result element
  `(e, j)` is the table at row `idx[e, 0]` — read as a signed integer and clamped into `[0, N − 1]`, as a gather clamps
  every start index — and column `j`. Where the start index, read unsigned, is already below `N ≤ 2³¹`, the sign and the
  clamp change nothing and the row is the start index itself.
-/
import Idealize.ShloMosaic.Lib.ValueIdx

namespace LibGatherRows

open Idealize.ShloMosaic Idealize.ShloMosaic.ValueIdx

variable {α : Type}

/-- The dimension numbers of a gather of whole rows, for an operand `[N, C]`, start indices `[E, 1]` and a result
    `[E, C]`; their conditions `wf` are decided on a program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, j)`: the operand at row `idx[e, 0]`, read signed and clamped into `[0, N − 1]`, and
    column `j`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N C E wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ =>
    show (rowDims N C E wf).start (ix2 e j) idx 0 + (rowDims N C E wf).batchCoord (ix2 e j) 0
      + (rowDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e j) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e j) idx 1 + (rowDims N C E wf).batchCoord (ix2 e j) 1
      + (rowDims N C E wf).offCoord (ix2 e j) 1 = j.val
    rw [GatherDims.batchCoord_eq_zero _ _ _ List.not_mem_nil]
    have hst : (rowDims N C E wf).start (ix2 e j) idx 1 = 0 := by
      unfold GatherDims.start
      rw [dif_neg (show ¬ (1 : Fin 2) ∈ (rowDims N C E wf).startIndexMap from
        fun h => absurd (congrArg Fin.val (List.mem_singleton.mp h)) Nat.one_ne_zero)]
    have hk : (1 : Fin 2) ∈ (rowDims N C E wf).sKept :=
      (GatherDims.mem_sKept _ _).mpr
        ⟨fun h => absurd (congrArg Fin.val (List.mem_singleton.mp h)) Nat.one_ne_zero, List.not_mem_nil⟩
    have hoff : (rowDims N C E wf).offCoord (ix2 e j) 1 = j.val := by
      unfold GatherDims.offCoord
      rw [dif_pos hk]
      rfl
    rw [hst, hoff, Nat.add_zero, Nat.zero_add]

/-- A 32-bit word below 2³¹ read as a signed integer is its unsigned reading. -/
theorem toInt_toNat_of_lt {a : BitVec 32} (ha : a.toNat < 2 ^ 31) : a.toInt.toNat = a.toNat := by
  have hw := BitVec.toInt_eq_toNat_cond a
  split at hw <;> omega

/-- THE GATHER OF ROWS AT AN IN-RANGE START INDEX: where `idx[e, 0]`, read unsigned, is below `N ≤ 2³¹`, the result's
    element `(e, j)` is the operand at row `idx[e, 0]` and column `j`. -/
theorem gather_rows_apply_of_lt {N C E : Nat} (hN : N ≤ 2 ^ 31)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (j : Fin C)
    (h : (idx (ix2 e (0 : Fin 1))).toNat < N) :
    Host.gather (rowDims N C E wf) x idx (ix2 e j) = x (ix2 (⟨(idx (ix2 e (0 : Fin 1))).toNat, h⟩ : Fin N) j) := by
  rw [gather_rows_apply (by omega) wf x idx e j]
  congr 2
  refine Fin.ext ?_
  show min (idx (ix2 e (0 : Fin 1))).toInt.toNat (N - 1) = (idx (ix2 e (0 : Fin 1))).toNat
  rw [toInt_toNat_of_lt (by omega)]
  omega

/-- A record of dimension numbers with the fields of a gather of whole rows is `rowDims`. -/
theorem eq_rowDims {N C E : Nat} (G : GatherDims ⟨2, ![N, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C]) :
    ∃ wf, G = rowDims N C E wf := by
  obtain ⟨od, cd, ob, sb, sm, iv, ss, wf⟩ := G
  simp only at hod hcd hob hsb hsm hiv hss
  subst hod hcd hob hsb hsm hiv hss
  exact ⟨wf, rfl⟩

/-- The gather of rows at an in-range start index, for any record of dimension numbers with those fields. -/
theorem gather_apply_of_fields {N C E : Nat} (hN : N ≤ 2 ^ 31) (G : GatherDims ⟨2, ![N, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C])
    (x : (⟨2, ![N, C]⟩ : Shape).Idx → α) (idx : IVec ⟨2, ![E, 1]⟩ 32) (e : Fin E) (j : Fin C)
    (h : (idx (ix2 e (0 : Fin 1))).toNat < N) :
    Host.gather G x idx (ix2 e j) = x (ix2 (⟨(idx (ix2 e (0 : Fin 1))).toNat, h⟩ : Fin N) j) := by
  obtain ⟨wf, rfl⟩ := eq_rowDims G hod hcd hob hsb hsm hiv hss
  exact gather_rows_apply_of_lt hN wf x idx e j h

end LibGatherRows
-- ==== Proof.KBridge.lean ====
/-
  The kernel program's result is the common formula.

  Entry (b, n, o) of the kernel program's result, with point i = b·32768 + n: the tail reads the region's result D at the
  index triple (batch word, row word, column word) of point i. Each word is first passed through "count a negative index
  from the end"; the batch word is i / 32768 = b and the two coordinate words lie in [0, 255], so none is negative and
  all three pass unchanged. A gather whose three leading operand axes are collapsed and named by the start index map
  reads D at (clamp b, clamp y, clamp x, o), and in range the clamps are identities too: the entry is D(b, y, x, o).
  D(b, y, x, o) is, by definition, the nine sums Σ_c P(b, y + dy, x + dx, c) · w(dy, dx, c, o) added in order from zero, P
  the padded grid. P(b, py, px, c) is the padding value, the integer zero converted, which is 0, when py or px is 0 or
  257; otherwise it is the dense grid's row ((b·256 + py − 1)·256 + px − 1), feature c: where that voxel's table entry g is
  not negative, the larger of g and 0 is g, g is not counted from the end, and the gathered row is row g of the feature
  table (read signed and kept inside the table); where g is negative the select takes the constant 0. That is N of the
  common formula, and the weights pass through the format change unchanged, so the entry is G(b, n, o).
-/
import proofs.«166044_j24610162606296_1_alg».proof.Proof.Spec
import proofs.«166044_j24610162606296_1_alg».proof.Proof.IdxRange
import proofs.«166044_j24610162606296_1_alg».proof.Proof.LibGatherRows
import Idealize.ShloMosaic.Lib.Pipeline.Value
import Idealize.ShloMosaic.Lib.ValueLayout
import Idealize.ShloMosaic.Lib.KernelVsHost

namespace LibGatherVoxel

open Idealize.ShloMosaic Idealize.ShloMosaic.ValueIdx

variable {α : Type}

/-- The dimension numbers of a gather of single rows out of a rank-4 operand `[N0, N1, N2, C]` whose three leading axes
    are all collapsed and all named by the start index map, for start indices `[E, 3]` and a result `[E, C]`. -/
abbrev dims3 (N0 N1 N2 C E : Nat)
    (wf : GatherDims.WF ⟨4, ![N0, N1, N2, C]⟩ ⟨2, ![E, 3]⟩ ⟨2, ![E, C]⟩ [1] [0, 1, 2] [] [0, 1, 2] [] 1 ![1, 1, 1, C]) :
    GatherDims ⟨4, ![N0, N1, N2, C]⟩ ⟨2, ![E, 3]⟩ ⟨2, ![E, C]⟩ where
  offsetDims := [1]
  collapsedSliceDims := [0, 1, 2]
  operandBatchingDims := []
  startIndicesBatchingDims := []
  startIndexMap := [0, 1, 2]
  indexVectorDim := 1
  sliceSizes := ![1, 1, 1, C]
  wf := wf

/-- THE GATHER READ AT `(e, j)`: the operand at the three start-index components `idx[e, 0]`, `idx[e, 1]`, `idx[e, 2]`, each
    read signed and clamped into its axis, and column `j`. On a collapsed axis the slice has size one, so the clamp is to
    `[0, N − 1]`, and neither a batching nor an offset coordinate is added; on the last axis the start is zero and the
    offset coordinate is `j`. -/
theorem gather3_apply {N0 N1 N2 C E w : Nat} (h0 : 0 < N0) (h1 : 0 < N1) (h2 : 0 < N2)
    (wf : GatherDims.WF ⟨4, ![N0, N1, N2, C]⟩ ⟨2, ![E, 3]⟩ ⟨2, ![E, C]⟩ [1] [0, 1, 2] [] [0, 1, 2] [] 1 ![1, 1, 1, C])
    (x : (⟨4, ![N0, N1, N2, C]⟩ : Shape).Idx → α) (idx : IVec ⟨2, ![E, 3]⟩ w) (e : Fin E) (j : Fin C) :
    Host.gather (dims3 N0 N1 N2 C E wf) x idx (ix2 e j)
      = x (ix4 (⟨min (idx (ix2 e (0 : Fin 3))).toInt.toNat (N0 - 1), by omega⟩ : Fin N0)
          (⟨min (idx (ix2 e (1 : Fin 3))).toInt.toNat (N1 - 1), by omega⟩ : Fin N1)
          (⟨min (idx (ix2 e (2 : Fin 3))).toInt.toNat (N2 - 1), by omega⟩ : Fin N2) j) := by
  unfold Host.gather
  congr 1
  funext a
  refine Fin.ext ?_
  match a with
  | ⟨0, _⟩ =>
    show (dims3 N0 N1 N2 C E wf).start (ix2 e j) idx 0 + (dims3 N0 N1 N2 C E wf).batchCoord (ix2 e j) 0
      + (dims3 N0 N1 N2 C E wf).offCoord (ix2 e j) 0 = _
    have hm : (0 : Fin 4) ∈ (dims3 N0 N1 N2 C E wf).startIndexMap :=
      (by decide : (0 : Fin 4) ∈ ([0, 1, 2] : List (Fin 4)))
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    have hsi : (dims3 N0 N1 N2 C E wf).siIdx (ix2 e j) ⟨List.idxOf (0 : Fin 4) (dims3 N0 N1 N2 C E wf).startIndexMap,
        List.idxOf_lt_length_iff.2 hm⟩ = ix2 e (0 : Fin 3) := by
      funext b; refine Fin.ext ?_
      match b with
      | ⟨0, _⟩ => rfl
      | ⟨1, _⟩ => rfl
    rw [hsi]
    rfl
  | ⟨1, _⟩ =>
    show (dims3 N0 N1 N2 C E wf).start (ix2 e j) idx 1 + (dims3 N0 N1 N2 C E wf).batchCoord (ix2 e j) 1
      + (dims3 N0 N1 N2 C E wf).offCoord (ix2 e j) 1 = _
    have hm : (1 : Fin 4) ∈ (dims3 N0 N1 N2 C E wf).startIndexMap :=
      (by decide : (1 : Fin 4) ∈ ([0, 1, 2] : List (Fin 4)))
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    have hsi : (dims3 N0 N1 N2 C E wf).siIdx (ix2 e j) ⟨List.idxOf (1 : Fin 4) (dims3 N0 N1 N2 C E wf).startIndexMap,
        List.idxOf_lt_length_iff.2 hm⟩ = ix2 e (1 : Fin 3) := by
      funext b; refine Fin.ext ?_
      match b with
      | ⟨0, _⟩ => rfl
      | ⟨1, _⟩ => rfl
    rw [hsi]
    rfl
  | ⟨2, _⟩ =>
    show (dims3 N0 N1 N2 C E wf).start (ix2 e j) idx 2 + (dims3 N0 N1 N2 C E wf).batchCoord (ix2 e j) 2
      + (dims3 N0 N1 N2 C E wf).offCoord (ix2 e j) 2 = _
    have hm : (2 : Fin 4) ∈ (dims3 N0 N1 N2 C E wf).startIndexMap :=
      (by decide : (2 : Fin 4) ∈ ([0, 1, 2] : List (Fin 4)))
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos hm]
    have hsi : (dims3 N0 N1 N2 C E wf).siIdx (ix2 e j) ⟨List.idxOf (2 : Fin 4) (dims3 N0 N1 N2 C E wf).startIndexMap,
        List.idxOf_lt_length_iff.2 hm⟩ = ix2 e (2 : Fin 3) := by
      funext b; refine Fin.ext ?_
      match b with
      | ⟨0, _⟩ => rfl
      | ⟨1, _⟩ => rfl
    rw [hsi]
    rfl
  | ⟨3, _⟩ =>
    show (dims3 N0 N1 N2 C E wf).start (ix2 e j) idx 3 + (dims3 N0 N1 N2 C E wf).batchCoord (ix2 e j) 3
      + (dims3 N0 N1 N2 C E wf).offCoord (ix2 e j) 3 = j.val
    have hm : ¬ (3 : Fin 4) ∈ (dims3 N0 N1 N2 C E wf).startIndexMap :=
      (by decide : ¬ (3 : Fin 4) ∈ ([0, 1, 2] : List (Fin 4)))
    rw [GatherDims.batchCoord_eq_zero _ _ _ List.not_mem_nil]
    have hst : (dims3 N0 N1 N2 C E wf).start (ix2 e j) idx 3 = 0 := by
      unfold GatherDims.start
      rw [dif_neg hm]
    have hk : (3 : Fin 4) ∈ (dims3 N0 N1 N2 C E wf).sKept :=
      (GatherDims.mem_sKept _ _).mpr ⟨hm, List.not_mem_nil⟩
    have hoff : (dims3 N0 N1 N2 C E wf).offCoord (ix2 e j) 3 = j.val := by
      unfold GatherDims.offCoord
      rw [dif_pos hk]
      rfl
    rw [hst, hoff, Nat.add_zero, Nat.zero_add]

/-- THE SAME AT IN-RANGE START INDICES: where the three words, read unsigned, are below the extents (each at most 2³¹), the
    signs and the clamps change nothing. -/
theorem gather3_apply_of_lt {N0 N1 N2 C E : Nat} (hN0 : N0 ≤ 2 ^ 31) (hN1 : N1 ≤ 2 ^ 31) (hN2 : N2 ≤ 2 ^ 31)
    (wf : GatherDims.WF ⟨4, ![N0, N1, N2, C]⟩ ⟨2, ![E, 3]⟩ ⟨2, ![E, C]⟩ [1] [0, 1, 2] [] [0, 1, 2] [] 1 ![1, 1, 1, C])
    (x : (⟨4, ![N0, N1, N2, C]⟩ : Shape).Idx → α) (idx : IVec ⟨2, ![E, 3]⟩ 32) (e : Fin E) (j : Fin C)
    (h0 : (idx (ix2 e (0 : Fin 3))).toNat < N0) (h1 : (idx (ix2 e (1 : Fin 3))).toNat < N1)
    (h2 : (idx (ix2 e (2 : Fin 3))).toNat < N2) :
    Host.gather (dims3 N0 N1 N2 C E wf) x idx (ix2 e j)
      = x (ix4 (⟨(idx (ix2 e (0 : Fin 3))).toNat, h0⟩ : Fin N0) (⟨(idx (ix2 e (1 : Fin 3))).toNat, h1⟩ : Fin N1)
          (⟨(idx (ix2 e (2 : Fin 3))).toNat, h2⟩ : Fin N2) j) := by
  rw [gather3_apply (by omega) (by omega) (by omega) wf x idx e j]
  refine congrArg x ?_
  funext a
  refine Fin.ext ?_
  match a with
  | ⟨0, _⟩ =>
    show min (idx (ix2 e (0 : Fin 3))).toInt.toNat (N0 - 1) = (idx (ix2 e (0 : Fin 3))).toNat
    rw [LibGatherRows.toInt_toNat_of_lt (by omega)]; omega
  | ⟨1, _⟩ =>
    show min (idx (ix2 e (1 : Fin 3))).toInt.toNat (N1 - 1) = (idx (ix2 e (1 : Fin 3))).toNat
    rw [LibGatherRows.toInt_toNat_of_lt (by omega)]; omega
  | ⟨2, _⟩ =>
    show min (idx (ix2 e (2 : Fin 3))).toInt.toNat (N2 - 1) = (idx (ix2 e (2 : Fin 3))).toNat
    rw [LibGatherRows.toInt_toNat_of_lt (by omega)]; omega
  | ⟨3, _⟩ => rfl

end LibGatherVoxel

noncomputable section

namespace Cert.KernelIdeal.Spec

open Idealize.ShloMosaic Idealize.ShloMosaic.ValueIdx Cert.KernelIdeal Cert.KernelIdeal.Gen

namespace KB

/-- A word that is not negative as a signed integer is left alone by "count a negative index from the end". -/
theorem select_slt_zero {x y : BitVec 32} (hx : x.toNat < 2 ^ 31) :
    Scalar.select (IntOp.cmpi .slt x 0#32) y x = x := by
  have hlt : x.slt 0#32 = false := by
    rw [BitVec.slt_eq_decide, decide_eq_false_iff_not, BitVec.toInt_zero, BitVec.toInt_eq_toNat_of_lt (by omega)]
    omega
  show (if BitVec.ofBool (x.slt 0#32) = 1 then y else x) = x
  rw [hlt]
  exact if_neg (by decide)

/-- "Count a negative index from the end" at a point whose word is not negative: the word. -/
theorem normI_apply_of_lt (n : BitVec 32) (v : IVec S131072 32) (i : Fin 131072) (h : (v (ix1 i)).toNat < 2 ^ 31) :
    normI n v (ix1 i) = v (ix1 i) :=
  select_slt_zero (y := IntOp.addi (v (ix1 i)) n) h

/-- Column 0 of the voxel coordinates read at a point. -/
theorem col0_apply (idx : IVec S131072x2 32) (i : Fin 131072) : col0 idx (ix1 i) = idx (ix2 i (0 : Fin 2)) := by
  unfold col0
  refine (shapeCast_apply _ shapeCasts_S131072x1_S131072 (ix1 i) (ix2 i (0 : Fin 1)) ?_).trans ?_
  · rw [Shape.rowMajor_val_two, Shape.rowMajor_val_one]
    show i.val * 1 + 0 = i.val
    omega
  · exact extractStridedSlice_apply _ idx slices_S131072x2_S131072x1_0_0 (ix2 i (0 : Fin 1)) (ix2 i (0 : Fin 2))
      (fun a => match a with
        | ⟨0, _⟩ => by show i.val = 0 + i.val; omega
        | ⟨1, _⟩ => by show 0 = 0 + 0; rfl)

/-- Column 1 of the voxel coordinates read at a point. -/
theorem col1_apply (idx : IVec S131072x2 32) (i : Fin 131072) : col1 idx (ix1 i) = idx (ix2 i (1 : Fin 2)) := by
  unfold col1
  refine (shapeCast_apply _ shapeCasts_S131072x1_S131072 (ix1 i) (ix2 i (0 : Fin 1)) ?_).trans ?_
  · rw [Shape.rowMajor_val_two, Shape.rowMajor_val_one]
    show i.val * 1 + 0 = i.val
    omega
  · exact extractStridedSlice_apply _ idx slices_S131072x2_S131072x1_0_1 (ix2 i (0 : Fin 1)) (ix2 i (1 : Fin 2))
      (fun a => match a with
        | ⟨0, _⟩ => by show i.val = 0 + i.val; omega
        | ⟨1, _⟩ => by show 1 = 1 + 0; rfl)

/-- A vector laid as a column of one reads the vector. -/
theorem bcol_apply (v : IVec S131072 32) (i : Fin 131072) :
    broadcastInDim S131072x1 ![0] bcast_S131072_S131072x1_0 v (ix2 i (0 : Fin 1)) = v (ix1 i) :=
  broadcastInDim_apply _ bcast_S131072_S131072x1_0 v (ix2 i (0 : Fin 1)) (ix1 i)
    (fun a => match a with
      | ⟨0, _⟩ => by
        show i.val = if (131072 : Nat) = 1 then 0 else i.val
        rw [if_neg (by decide)])

/-! Three columns of one side by side, read at a row: column `k` is the `k`-th piece. -/

theorem cat3_apply0 (X0 X1 X2 : S131072x1.Idx → BitVec 32)
    (h : Shape.Concatenates [S131072x1, S131072x1, S131072x1] S131072x3 1) (i : Fin 131072) :
    concatenate S131072x3 1 [⟨S131072x1, X0⟩, ⟨S131072x1, X1⟩, ⟨S131072x1, X2⟩] h (ix2 i (0 : Fin 3)) = X0 (ix2 i (0 : Fin 1)) :=
  concatenate_apply_piece (t := S131072x3) (1 : Fin 2) [⟨S131072x1, X0⟩, ⟨S131072x1, X1⟩, ⟨S131072x1, X2⟩] h
    (ix2 i (0 : Fin 3)) 0 (show 0 < 3 by decide) S131072x1 X0 rfl rfl 0 rfl (ix2 i (0 : Fin 1))
    (fun c hc => match c with
      | ⟨0, _⟩ => rfl
      | ⟨1, _⟩ => absurd rfl hc) rfl

theorem cat3_apply1 (X0 X1 X2 : S131072x1.Idx → BitVec 32)
    (h : Shape.Concatenates [S131072x1, S131072x1, S131072x1] S131072x3 1) (i : Fin 131072) :
    concatenate S131072x3 1 [⟨S131072x1, X0⟩, ⟨S131072x1, X1⟩, ⟨S131072x1, X2⟩] h (ix2 i (1 : Fin 3)) = X1 (ix2 i (0 : Fin 1)) :=
  concatenate_apply_piece (t := S131072x3) (1 : Fin 2) [⟨S131072x1, X0⟩, ⟨S131072x1, X1⟩, ⟨S131072x1, X2⟩] h
    (ix2 i (1 : Fin 3)) 1 (show 1 < 3 by decide) S131072x1 X1 rfl rfl 1 rfl (ix2 i (0 : Fin 1))
    (fun c hc => match c with
      | ⟨0, _⟩ => rfl
      | ⟨1, _⟩ => absurd rfl hc) rfl

theorem cat3_apply2 (X0 X1 X2 : S131072x1.Idx → BitVec 32)
    (h : Shape.Concatenates [S131072x1, S131072x1, S131072x1] S131072x3 1) (i : Fin 131072) :
    concatenate S131072x3 1 [⟨S131072x1, X0⟩, ⟨S131072x1, X1⟩, ⟨S131072x1, X2⟩] h (ix2 i (2 : Fin 3)) = X2 (ix2 i (0 : Fin 1)) :=
  concatenate_apply_piece (t := S131072x3) (1 : Fin 2) [⟨S131072x1, X0⟩, ⟨S131072x1, X1⟩, ⟨S131072x1, X2⟩] h
    (ix2 i (2 : Fin 3)) 2 (show 2 < 3 by decide) S131072x1 X2 rfl rfl 2 rfl (ix2 i (0 : Fin 1))
    (fun c hc => match c with
      | ⟨0, _⟩ => rfl
      | ⟨1, _⟩ => absurd rfl hc) rfl

/-- The three index columns read at a row: the batch, the row and the column word, each counted from the end when
    negative. First the batch word. -/
theorem idx3_apply0 (b y x : IVec S131072 32) (i : Fin 131072) :
    idx3 b y x (ix2 i (0 : Fin 3)) = normI 4#32 b (ix1 i) :=
  (cat3_apply0 _ _ _ concatenates_S131072x1_S131072x1_S131072x1_S131072x3_d1 i).trans (bcol_apply _ i)

/-- The row word. -/
theorem idx3_apply1 (b y x : IVec S131072 32) (i : Fin 131072) :
    idx3 b y x (ix2 i (1 : Fin 3)) = normI 256#32 y (ix1 i) :=
  (cat3_apply1 _ _ _ concatenates_S131072x1_S131072x1_S131072x1_S131072x3_d1 i).trans (bcol_apply _ i)

/-- The column word. -/
theorem idx3_apply2 (b y x : IVec S131072 32) (i : Fin 131072) :
    idx3 b y x (ix2 i (2 : Fin 3)) = normI 256#32 x (ix1 i) :=
  (cat3_apply2 _ _ _ concatenates_S131072x1_S131072x1_S131072x1_S131072x3_d1 i).trans (bcol_apply _ i)

/-- A word that is not negative, read as a signed integer, is below 2³¹ read unsigned. -/
theorem toNat_lt_of_toInt_nonneg {g : BitVec 32} (hg : 0 ≤ g.toInt) : g.toNat < 2 ^ 31 := by
  have hw := BitVec.toInt_eq_toNat_cond g
  have := g.isLt
  split at hw <;> omega

/-- The larger of a word that is not negative and zero is the word. -/
theorem maxsi_zero_of_nonneg {g : BitVec 32} (hg : 0 ≤ g.toInt) : IntOp.maxsi g 0#32 = g := by
  show (if (0#32).slt g then g else 0#32) = g
  by_cases h : (0#32).slt g
  · rw [if_pos h]
  · rw [if_neg h]
    rw [BitVec.slt_iff_toInt_lt, BitVec.toInt_zero] at h
    have h0 : g.toInt = (0#32).toInt := by rw [BitVec.toInt_zero]; omega
    exact (BitVec.eq_of_toInt_eq h0).symm

/-- The row a voxel's winner reads is the winner itself: it is not negative, so it is neither replaced by zero nor
    counted from the end. -/
theorem rowWord_of_nonneg {g : BitVec 32} (hg : 0 ≤ g.toInt) :
    Scalar.select (IntOp.cmpi .slt (IntOp.maxsi g 0#32) 0#32) (IntOp.addi (IntOp.maxsi g 0#32) 131072#32)
      (IntOp.maxsi g 0#32) = g := by
  rw [maxsi_zero_of_nonneg hg]
  exact select_slt_zero (toNat_lt_of_toInt_nonneg hg)

/-- "Not negative" as the one-bit word a comparison yields. -/
theorem cmpi_sge_zero (g : BitVec 32) : IntOp.cmpi .sge g 0#32 = if 0 ≤ g.toInt then 1#1 else 0#1 := by
  show BitVec.ofBool ((0#32).sle g) = _
  rw [BitVec.sle_eq_decide, BitVec.toInt_zero]
  by_cases h : 0 ≤ g.toInt
  · rw [if_pos h, decide_eq_true h]; rfl
  · rw [if_neg h, decide_eq_false h]; rfl

/-- What a voxel whose table entry is `g` holds for feature `c`: the winner's feature, zero where there is no winner. -/
def pick (x0 : FVec Ideal S4x32768x64 .f32) (g : BitVec 32) (c : Fin 64) : EReal :=
  if 0 ≤ g.toInt then featsW x0 (ix2 (⟨min g.toInt.toNat (131072 - 1), by omega⟩ : Fin 131072) c) else 0

/-- The flat voxel table read at a voxel's row-major position. -/
theorem gridFlat_apply (a : FVec Ideal S4x32768x2 .f32) (b : Fin 4) (y x : Fin 256) (v : Fin 262144)
    (hv : v.val = (b.val * 256 + y.val) * 256 + x.val) : gridFlat a (ix1 v) = gridW a (ix3 b y x) := by
  unfold gridFlat
  refine shapeCast_apply _ shapeCasts_S4x256x256_S262144 (ix1 v) (ix3 b y x) ?_
  rw [Shape.rowMajor_val_three, Shape.rowMajor_val_one]
  show (b.val * 256 + y.val) * 256 + x.val = v.val
  omega

/-- The select of the winner's feature row, over ANY voxel table `gf` and ANY feature matrix `fw`, read at a voxel's row
    and a feature: the feature of the row the table names where the entry is not negative, zero elsewhere. -/
theorem repfeat_gen (fw : FVec Ideal S131072x64 .f32) (gf : IVec S262144 32) (v : Fin 262144) (c : Fin 64) :
    select (broadcastInDim S262144x64 ![0, 1] bcast_S262144x1_S262144x64_0_1
        (broadcastInDim S262144x1 ![0] bcast_S262144_S262144x1_0
          (cmpi .sge gf (broadcastInDim S262144 ![] bcast_S_S262144 (constantI S_ 32 0#32)))))
      (Host.gather gather_S131072x64_S262144x1_S262144x64_1_0_n_n_0_1_164 fw
        (broadcastInDim S262144x1 ![0] bcast_S262144_S262144x1_0
          (select (cmpi .slt (maxsi gf (broadcastInDim S262144 ![] bcast_S_S262144 (constantI S_ 32 0#32)))
              (broadcastInDim S262144 ![] bcast_S_S262144 (constantI S_ 32 0#32)))
            (addi (maxsi gf (broadcastInDim S262144 ![] bcast_S_S262144 (constantI S_ 32 0#32)))
              (broadcastInDim S262144 ![] bcast_S_S262144 (constantI S_ 32 131072#32)))
            (maxsi gf (broadcastInDim S262144 ![] bcast_S_S262144 (constantI S_ 32 0#32))))))
      (broadcastInDim S262144x64 ![] bcast_S_S262144x64 (id (constant S_ .f32 0x00000000#32))) (ix2 v c)
    = if 0 ≤ (gf (ix1 v)).toInt then
        fw (ix2 (⟨min (gf (ix1 v)).toInt.toNat (131072 - 1), by omega⟩ : Fin 131072) c)
      else 0 := by
  have hcol : ∀ {k : Nat} (w : IVec S262144 k),
      broadcastInDim S262144x1 ![0] bcast_S262144_S262144x1_0 w (ix2 v (0 : Fin 1)) = w (ix1 v) :=
    fun w => broadcastInDim_apply _ bcast_S262144_S262144x1_0 w (ix2 v (0 : Fin 1)) (ix1 v)
      (fun a' => match a' with
        | ⟨0, _⟩ => by
          show v.val = if (262144 : Nat) = 1 then 0 else v.val
          rw [if_neg (by decide)])
  have hc : (broadcastInDim S262144x64 ![0, 1] bcast_S262144x1_S262144x64_0_1
      (broadcastInDim S262144x1 ![0] bcast_S262144_S262144x1_0
        (cmpi .sge gf (broadcastInDim S262144 ![] bcast_S_S262144 (constantI S_ 32 0#32))))) (ix2 v c)
      = IntOp.cmpi .sge (gf (ix1 v)) 0#32 := by
    refine (broadcastInDim_apply _ bcast_S262144x1_S262144x64_0_1 _ (ix2 v c) (ix2 v (0 : Fin 1)) ?_).trans
      (hcol (cmpi .sge gf (broadcastInDim S262144 ![] bcast_S_S262144 (constantI S_ 32 0#32))))
    intro a'
    match a' with
    | ⟨0, _⟩ =>
      show v.val = if (262144 : Nat) = 1 then 0 else v.val
      rw [if_neg (by decide)]
    | ⟨1, _⟩ =>
      show 0 = if (1 : Nat) = 1 then 0 else c.val
      rw [if_pos rfl]
  refine (select_apply _ _ _ (ix2 v c)).trans ?_
  rw [hc, cmpi_sge_zero]
  by_cases hg : 0 ≤ (gf (ix1 v)).toInt
  · rw [if_pos hg, if_pos hg, select_one]
    obtain ⟨wf, hG⟩ := LibGatherRows.eq_rowDims gather_S131072x64_S262144x1_S262144x64_1_0_n_n_0_1_164
      rfl rfl rfl rfl rfl rfl rfl
    rw [hG, LibGatherRows.gather_rows_apply (N := 131072) (by decide) wf]
    have hrow : broadcastInDim S262144x1 ![0] bcast_S262144_S262144x1_0
        (select (cmpi .slt (maxsi gf (broadcastInDim S262144 ![] bcast_S_S262144 (constantI S_ 32 0#32)))
            (broadcastInDim S262144 ![] bcast_S_S262144 (constantI S_ 32 0#32)))
          (addi (maxsi gf (broadcastInDim S262144 ![] bcast_S_S262144 (constantI S_ 32 0#32)))
            (broadcastInDim S262144 ![] bcast_S_S262144 (constantI S_ 32 131072#32)))
          (maxsi gf (broadcastInDim S262144 ![] bcast_S_S262144 (constantI S_ 32 0#32)))) (ix2 v (0 : Fin 1))
        = gf (ix1 v) := (hcol _).trans (rowWord_of_nonneg hg)
    refine congrArg (fun r : Fin 131072 => fw (ix2 r c)) (Fin.ext ?_)
    exact congrArg (fun r : BitVec 32 => min r.toInt.toNat (131072 - 1)) hrow
  · rw [if_neg hg, if_neg hg, select_zero]
    exact Ideal.ofBits_zero_f32

/-- The dense grid of features read at a voxel's row and a feature: the winner's feature, zero where there is none. -/
theorem repfeat_apply (x0 : FVec Ideal S4x32768x64 .f32) (a : FVec Ideal S4x32768x2 .f32) (v : Fin 262144) (c : Fin 64) :
    repfeat x0 a (ix2 v c) = pick x0 (gridFlat a (ix1 v)) c := by
  unfold repfeat rowOf pick
  exact repfeat_gen (featsW x0) (gridFlat a) v c
/-- The padding value: the integer zero converted is the float zero. -/
theorem padval_eq_zero : (sitofp .f32 (constantI S_ 32 0#32) : FVec Ideal S_ .f32) (Shape.Idx.first h_S_) = 0 :=
  sitofp_zero (φ := .f32)

/-- THE PADDED GRID READ AT AN INDEX: the winner's feature of the voxel one step back along both spatial axes, zero on
    the border and at an empty voxel. -/
theorem rpad_apply (x0 : FVec Ideal S4x32768x64 .f32) (a : FVec Ideal S4x32768x2 .f32) (b : Fin 4) (py px : Fin 258)
    (c : Fin 64) : rpad x0 a (ix4 b py px c) = NF x0 a b py.val px.val c := by
  unfold rpad NF
  refine (truncf_apply (ψ := .bf16) _ bitsLt_bf16_f32 (ix4 b py px c)).trans ?_
  by_cases h : 1 ≤ py.val ∧ py.val ≤ 256 ∧ 1 ≤ px.val ∧ px.val ≤ 256
  · rw [dif_pos h]
    refine (pad_apply_of_inside _ _ _ _ _ pads_S4x256x256x64_S4x258x258x64_000_110_110_000 h_S_ (ix4 b py px c)
      (ix4 b (⟨py.val - 1, by omega⟩ : Fin 256) (⟨px.val - 1, by omega⟩ : Fin 256) c) ?_).trans ?_
    · intro a'
      match a' with
      | ⟨0, _⟩ => show b.val = 0 + b.val * (0 + 1); omega
      | ⟨1, _⟩ => show py.val = 1 + (py.val - 1) * (0 + 1); omega
      | ⟨2, _⟩ => show px.val = 1 + (px.val - 1) * (0 + 1); omega
      | ⟨3, _⟩ => show c.val = 0 + c.val * (0 + 1); omega
    · have hvlt : (b.val * 256 + (py.val - 1)) * 256 + (px.val - 1) < 262144 := by have := b.isLt; omega
      refine (shapeCast_apply _ shapeCasts_S262144x64_S4x256x256x64 _
        (ix2 (⟨(b.val * 256 + (py.val - 1)) * 256 + (px.val - 1), hvlt⟩ : Fin 262144) c) ?_).trans ?_
      · rw [Shape.rowMajor_val_two, Shape.rowMajor_val_four]
        show ((b.val * 256 + (py.val - 1)) * 256 + (px.val - 1)) * 64 + c.val
          = ((b.val * 256 + (py.val - 1)) * 256 + (px.val - 1)) * 64 + c.val
        rfl
      · rw [repfeat_apply, gridFlat_apply a b ⟨py.val - 1, by omega⟩ ⟨px.val - 1, by omega⟩ _ rfl]
        rfl
  · rw [dif_neg h]
    by_cases hy : 1 ≤ py.val ∧ py.val ≤ 256
    · refine (pad_apply_of_not_inside _ _ _ _ _ pads_S4x256x256x64_S4x258x258x64_000_110_110_000 h_S_ (ix4 b py px c) 2 ?_).trans
        padval_eq_zero
      show ¬(1 ≤ px.val ∧ (px.val - 1) % (0 + 1) = 0 ∧ (px.val - 1) / (0 + 1) < 256)
      omega
    · refine (pad_apply_of_not_inside _ _ _ _ _ pads_S4x256x256x64_S4x258x258x64_000_110_110_000 h_S_ (ix4 b py px c) 1 ?_).trans
        padval_eq_zero
      show ¬(1 ≤ py.val ∧ (py.val - 1) % (0 + 1) = 0 ∧ (py.val - 1) / (0 + 1) < 256)
      omega

/-! ## The tail and the whole -/

/-- THE TAIL READ AT A POINT AND A CHANNEL: where the point's batch, row and column words name the voxel `(bb, y, x)`, the
    region's result at that voxel. -/
theorem kTail_apply (D : FVec Ideal S4x256x256x64 .f32) (idx : IVec S131072x2 32) (bat : IVec S131072 32)
    (b : Fin 4) (n : Fin 32768) (o : Fin 64) (i : Fin 131072) (hi : i.val = b.val * 32768 + n.val)
    (bb : Fin 4) (y x : Fin 256) (hb : (bat (ix1 i)).toNat = bb.val)
    (hy : (idx (ix2 i (0 : Fin 2))).toNat = y.val) (hx : (idx (ix2 i (1 : Fin 2))).toNat = x.val) :
    kTail D idx bat (ix3 b n o) = D (ix4 bb y x o) := by
  unfold kTail
  refine (shapeCast_apply _ shapeCasts_S131072x64_S4x32768x64 (ix3 b n o) (ix2 i o) ?_).trans ?_
  · rw [Shape.rowMajor_val_two, Shape.rowMajor_val_three]
    show i.val * 64 + o.val = (b.val * 32768 + n.val) * 64 + o.val
    rw [hi]
  · have hbl := bb.isLt
    have hyl := y.isLt
    have hxl := x.isLt
    have e0 : idx3 bat (col0 idx) (col1 idx) (ix2 i (0 : Fin 3)) = bat (ix1 i) := by
      rw [idx3_apply0]
      exact normI_apply_of_lt _ _ _ (by omega)
    have e1 : idx3 bat (col0 idx) (col1 idx) (ix2 i (1 : Fin 3)) = idx (ix2 i (0 : Fin 2)) := by
      rw [idx3_apply1, normI_apply_of_lt _ _ _ (by rw [col0_apply]; omega), col0_apply]
    have e2 : idx3 bat (col0 idx) (col1 idx) (ix2 i (2 : Fin 3)) = idx (ix2 i (1 : Fin 2)) := by
      rw [idx3_apply2, normI_apply_of_lt _ _ _ (by rw [col1_apply]; omega), col1_apply]
    have hG : gather_S4x256x256x64_S131072x3_S131072x64_1_012_n_n_012_1_11164
        = LibGatherVoxel.dims3 4 256 256 64 131072 gather_S4x256x256x64_S131072x3_S131072x64_1_012_n_n_012_1_11164_wf := rfl
    rw [hG, LibGatherVoxel.gather3_apply_of_lt (by decide) (by decide) (by decide) _ D _ i o
      (by rw [e0]; omega) (by rw [e1]; omega) (by rw [e2]; omega)]
    refine congrArg D ?_
    funext c
    refine Fin.ext ?_
    match c with
    | ⟨0, _⟩ => exact (congrArg BitVec.toNat e0).trans hb
    | ⟨1, _⟩ => exact (congrArg BitVec.toNat e1).trans hy
    | ⟨2, _⟩ => exact (congrArg BitVec.toNat e2).trans hx
    | ⟨3, _⟩ => rfl

/-- The region's result over the padded grid and the weights, read at a voxel and a channel: the nine taps' sums over the
    voxel's nine neighbours. -/
theorem dense_rpad_apply (x0 : FVec Ideal S4x32768x64 .f32) (a : FVec Ideal S4x32768x2 .f32)
    (x2 : FVec Ideal S3x3x64x64 .f32) (b : Fin 4) (y x : Fin 256) (o : Fin 64) :
    dense (rpad x0 a) (wbf x2) (ix4 b y x o)
      = acc9 fun dy dx => ∑ c : Fin 64, NF x0 a b (y.val + dy.val) (x.val + dx.val) c * x2 (ix4 dy dx c o) := by
  unfold dense
  refine congrArg acc9 ?_
  funext dy dx
  refine Finset.sum_congr rfl fun c _ => ?_
  have hy : y.val + dy.val < 258 := by have := y.isLt; have := dy.isLt; omega
  have hx : x.val + dx.val < 258 := by have := x.isLt; have := dx.isLt; omega
  show rpad x0 a (ix4 b (⟨y.val + dy.val, hy⟩ : Fin 258) (⟨x.val + dx.val, hx⟩ : Fin 258) c) * x2 (ix4 dy dx c o) = _
  rw [rpad_apply]

end KB

open KB in
/-- THE KERNEL PROGRAM'S RESULT IS THE COMMON FORMULA: at point `n` of batch `b` the batch word is `b` and the coordinate
    words lie in `[0, 255]`, so the tail reads the region's result at the point's voxel, which is the nine taps' sums. -/
theorem kOut_eq_G (x0 : FVec Ideal S4x32768x64 .f32) (a : FVec Ideal S4x32768x2 .f32) (x2 : FVec Ideal S3x3x64x64 .f32) :
    kOut x0 a x2 = G x0 a x2 := by
  funext j
  obtain ⟨b, n, o, rfl⟩ : ∃ (b : Fin 4) (n : Fin 32768) (o : Fin 64), j = ix3 b n o := ⟨j 0, j 1, j 2, eq_ix3 j⟩
  have hil : b.val * 32768 + n.val < 131072 := by have := b.isLt; have := n.isLt; omega
  have hbn : (batchW (ix1 (⟨b.val * 32768 + n.val, hil⟩ : Fin 131072))).toNat = b.val := by
    rw [batchW_apply, BitVec.toNat_ofNat]
    show (b.val * 32768 + n.val) / 32768 % 2 ^ 32 = b.val
    have := b.isLt; have := n.isLt
    omega
  unfold kOut
  rw [kTail_apply _ _ _ b n o ⟨b.val * 32768 + n.val, hil⟩ rfl b
    ⟨_, idxW_lt a ⟨b.val * 32768 + n.val, hil⟩ (0 : Fin 2)⟩ ⟨_, idxW_lt a ⟨b.val * 32768 + n.val, hil⟩ (1 : Fin 2)⟩ hbn rfl rfl,
    dense_rpad_apply]
  rfl

end Cert.KernelIdeal.Spec

end
-- ==== Proof.KernelRun.lean ====
/- The kernel program's run over the extended reals: every execution ends with the result buffer at the common formula
   of the arguments, and the arguments as launched. -/
import proofs.«166044_j24610162606296_1_alg».proof.Proof.FrameKI
import proofs.«166044_j24610162606296_1_alg».proof.Proof.Spec
import proofs.«166044_j24610162606296_1_alg».proof.Proof.Dense
import proofs.«166044_j24610162606296_1_alg».proof.Proof.KHost
import proofs.«166044_j24610162606296_1_alg».proof.Proof.KBridge

noncomputable section

namespace Cert.KernelIdeal.Frame

open Idealize.ShloMosaic Idealize.ShloMosaic.TcCoe Idealize.SL.Sem Cert.KernelIdeal Cert.KernelIdeal.Gen

theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91)
          = Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v91 (Pipeline.mem_restRefs_of main_v91 (by decide) (by decide))).trans (by
        rw [tail_v91, final2, V_main_v64, V_main_v65, V_main_v17, V_main_v20]
        exact Spec.kOut_eq_G _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main (F := Ideal) m ρ)

end Cert.KernelIdeal.Frame

end
-- ==== Proof.RefOps.lean ====
import proofs.«166044_j24610162606296_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 0 … 64 of @main (65 of them), in order; the last writes `main_v45`. -/
abbrev opsPre0 : List (HloOp τ sig (Elt F)) :=
  ( nullary main_cst (constant S2 .f32 0x43800000#32)
  :: nullary main_cst_0 (constant S_ .f32 0x3F800000#32)
  :: unary main_cst_0 main_v0 (broadcastInDim S2 ![] bcast_S_S2 : (⟨S_, .f32⟩ : BufTy).Contents (Elt F) → (⟨S2, .f32⟩ : BufTy).Contents (Elt F))
  :: binary main_v0 main_cst main_v1 (Host.divf : (⟨S2, .f32⟩ : BufTy).Contents (Elt F) → (⟨S2, .f32⟩ : BufTy).Contents (Elt F) → (⟨S2, .f32⟩ : BufTy).Contents (Elt F))
  :: nullary main_cst_1 (constant S_ .f32 0xC1135C29#32)
  :: nullary main_cst_2 (constant S_ .f32 0x41135C29#32)
  :: unary main_cst_1 main_call0_v0 ((id) : (⟨S_, .f32⟩ : BufTy).Contents (Elt F) → (⟨S_, .f32⟩ : BufTy).Contents (Elt F))
  :: unary main_call0_v0 main_call0_v1 (((broadcastInDim S4x32768x2 ![] bcast_S_S4x32768x2)) : (⟨S_, .f32⟩ : BufTy).Contents (Elt F) → (⟨S4x32768x2, .f32⟩ : BufTy).Contents (Elt F))
  :: binary main_call0_v1 main_arg1 main_call0_v2 ((maximumf) : (⟨S4x32768x2, .f32⟩ : BufTy).Contents (Elt F) → (⟨S4x32768x2, .f32⟩ : BufTy).Contents (Elt F) → (⟨S4x32768x2, .f32⟩ : BufTy).Contents (Elt F))
  :: unary main_cst_2 main_call0_v3 ((id) : (⟨S_, .f32⟩ : BufTy).Contents (Elt F) → (⟨S_, .f32⟩ : BufTy).Contents (Elt F))
  :: unary main_call0_v3 main_call0_v4 (((broadcastInDim S4x32768x2 ![] bcast_S_S4x32768x2)) : (⟨S_, .f32⟩ : BufTy).Contents (Elt F) → (⟨S4x32768x2, .f32⟩ : BufTy).Contents (Elt F))
  :: binary main_call0_v4 main_call0_v2 main_v2 ((minimumf) : (⟨S4x32768x2, .f32⟩ : BufTy).Contents (Elt F) → (⟨S4x32768x2, .f32⟩ : BufTy).Contents (Elt F) → (⟨S4x32768x2, .f32⟩ : BufTy).Contents (Elt F))
  :: unary main_v2 main_v3 (Host.negf : (⟨S4x32768x2, .f32⟩ : BufTy).Contents (Elt F) → (⟨S4x32768x2, .f32⟩ : BufTy).Contents (Elt F))
  :: unary main_v3 main_v4 (Host.exp : (⟨S4x32768x2, .f32⟩ : BufTy).Contents (Elt F) → (⟨S4x32768x2, .f32⟩ : BufTy).Contents (Elt F))
  :: nullary main_cst_3 (constant S_ .f32 0x3F800000#32)
  :: unary main_cst_3 main_v5 (broadcastInDim S4x32768x2 ![] bcast_S_S4x32768x2 : (⟨S_, .f32⟩ : BufTy).Contents (Elt F) → (⟨S4x32768x2, .f32⟩ : BufTy).Contents (Elt F))
  :: binary main_v5 main_v4 main_v6 (addf : (⟨S4x32768x2, .f32⟩ : BufTy).Contents (Elt F) → (⟨S4x32768x2, .f32⟩ : BufTy).Contents (Elt F) → (⟨S4x32768x2, .f32⟩ : BufTy).Contents (Elt F))
  :: nullary main_cst_4 (constant S_ .f32 0x3F800000#32)
  :: unary main_cst_4 main_v7 (broadcastInDim S4x32768x2 ![] bcast_S_S4x32768x2 : (⟨S_, .f32⟩ : BufTy).Contents (Elt F) → (⟨S4x32768x2, .f32⟩ : BufTy).Contents (Elt F))
  :: binary main_v7 main_v6 main_v8 (Host.divf : (⟨S4x32768x2, .f32⟩ : BufTy).Contents (Elt F) → (⟨S4x32768x2, .f32⟩ : BufTy).Contents (Elt F) → (⟨S4x32768x2, .f32⟩ : BufTy).Contents (Elt F))
  :: reshape main_v8 main_v9 rfl shapeCasts_S4x32768x2_S131072x2
  :: nullary main_cst_5 (constant S_ .f32 0x7F800000#32)
  :: binary main_v9 main_cst_5 main_v10 ((fun x v => Host.reduce FloatOps.minimumf x v reducesTo_S131072x2_S2_d0 h_S_) : (⟨S131072x2, .f32⟩ : BufTy).Contents (Elt F) → (⟨S_, .f32⟩ : BufTy).Contents (Elt F) → (⟨S2, .f32⟩ : BufTy).Contents (Elt F))
  :: unary main_v10 main_v11 (broadcastInDim S1x2 ![1] bcast_S2_S1x2_1 : (⟨S2, .f32⟩ : BufTy).Contents (Elt F) → (⟨S1x2, .f32⟩ : BufTy).Contents (Elt F))
  :: unary main_v11 main_v12 (broadcastInDim S131072x2 ![0, 1] bcast_S1x2_S131072x2_0_1 : (⟨S1x2, .f32⟩ : BufTy).Contents (Elt F) → (⟨S131072x2, .f32⟩ : BufTy).Contents (Elt F))
  :: binary main_v9 main_v12 main_v13 (subf : (⟨S131072x2, .f32⟩ : BufTy).Contents (Elt F) → (⟨S131072x2, .f32⟩ : BufTy).Contents (Elt F) → (⟨S131072x2, .f32⟩ : BufTy).Contents (Elt F))
  :: unary main_v1 main_v14 (broadcastInDim S1x2 ![1] bcast_S2_S1x2_1 : (⟨S2, .f32⟩ : BufTy).Contents (Elt F) → (⟨S1x2, .f32⟩ : BufTy).Contents (Elt F))
  :: unary main_v14 main_v15 (broadcastInDim S131072x2 ![0, 1] bcast_S1x2_S131072x2_0_1 : (⟨S1x2, .f32⟩ : BufTy).Contents (Elt F) → (⟨S131072x2, .f32⟩ : BufTy).Contents (Elt F))
  :: binary main_v13 main_v15 main_v16 (Host.divf : (⟨S131072x2, .f32⟩ : BufTy).Contents (Elt F) → (⟨S131072x2, .f32⟩ : BufTy).Contents (Elt F) → (⟨S131072x2, .f32⟩ : BufTy).Contents (Elt F))
  :: unary main_v16 main_v17 (fptosi 32 : (⟨S131072x2, .f32⟩ : BufTy).Contents (Elt F) → (⟨S131072x2, .i32⟩ : BufTy).Contents (Elt F))
  :: nullary main_v18 (iotaInDim S4 32 0)
  :: unary main_v18 main_v19 (broadcastInDim S4x32768 ![0] bcast_S4_S4x32768_0 : (⟨S4, .i32⟩ : BufTy).Contents (Elt F) → (⟨S4x32768, .i32⟩ : BufTy).Contents (Elt F))
  :: reshape main_v19 main_v20 rfl shapeCasts_S4x32768_S131072
  :: reshape main_arg0 main_v21 rfl shapeCasts_S4x32768x64_S131072x64
  :: nullary main_c (constantI S_ 32 4294967295#32)
  :: unary main_c main_v22 (broadcastInDim S4x256x256 ![] bcast_S_S4x256x256 : (⟨S_, .i32⟩ : BufTy).Contents (Elt F) → (⟨S4x256x256, .i32⟩ : BufTy).Contents (Elt F))
  :: unary main_v17 main_v23 ((extractStridedSlice S131072x1 ![0, 0] · slices_S131072x2_S131072x1_0_0) : (⟨S131072x2, .i32⟩ : BufTy).Contents (Elt F) → (⟨S131072x1, .i32⟩ : BufTy).Contents (Elt F))
  :: reshape main_v23 main_v24 rfl shapeCasts_S131072x1_S131072
  :: unary main_v17 main_v25 ((extractStridedSlice S131072x1 ![0, 1] · slices_S131072x2_S131072x1_0_1) : (⟨S131072x2, .i32⟩ : BufTy).Contents (Elt F) → (⟨S131072x1, .i32⟩ : BufTy).Contents (Elt F))
  :: reshape main_v25 main_v26 rfl shapeCasts_S131072x1_S131072
  :: nullary main_v27 (iotaInDim S131072 32 0)
  :: nullary main_c_6 (constantI S_ 32 0#32)
  :: unary main_c_6 main_v28 (broadcastInDim S131072 ![] bcast_S_S131072 : (⟨S_, .i32⟩ : BufTy).Contents (Elt F) → (⟨S131072, .i32⟩ : BufTy).Contents (Elt F))
  :: binary main_v20 main_v28 main_v29 (cmpi .slt : (⟨S131072, .i32⟩ : BufTy).Contents (Elt F) → (⟨S131072, .i32⟩ : BufTy).Contents (Elt F) → (⟨S131072, .i1⟩ : BufTy).Contents (Elt F))
  :: nullary main_c_7 (constantI S_ 32 4#32)
  :: unary main_c_7 main_v30 (broadcastInDim S131072 ![] bcast_S_S131072 : (⟨S_, .i32⟩ : BufTy).Contents (Elt F) → (⟨S131072, .i32⟩ : BufTy).Contents (Elt F))
  :: binary main_v20 main_v30 main_v31 (addi : (⟨S131072, .i32⟩ : BufTy).Contents (Elt F) → (⟨S131072, .i32⟩ : BufTy).Contents (Elt F) → (⟨S131072, .i32⟩ : BufTy).Contents (Elt F))
  :: ternary main_v29 main_v31 main_v20 main_v32 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_8 (constantI S_ 32 0#32)
  :: unary main_c_8 main_v33 (broadcastInDim S131072 ![] bcast_S_S131072 : (⟨S_, .i32⟩ : BufTy).Contents (Elt F) → (⟨S131072, .i32⟩ : BufTy).Contents (Elt F))
  :: binary main_v24 main_v33 main_v34 (cmpi .slt : (⟨S131072, .i32⟩ : BufTy).Contents (Elt F) → (⟨S131072, .i32⟩ : BufTy).Contents (Elt F) → (⟨S131072, .i1⟩ : BufTy).Contents (Elt F))
  :: nullary main_c_9 (constantI S_ 32 256#32)
  :: unary main_c_9 main_v35 (broadcastInDim S131072 ![] bcast_S_S131072 : (⟨S_, .i32⟩ : BufTy).Contents (Elt F) → (⟨S131072, .i32⟩ : BufTy).Contents (Elt F))
  :: binary main_v24 main_v35 main_v36 (addi : (⟨S131072, .i32⟩ : BufTy).Contents (Elt F) → (⟨S131072, .i32⟩ : BufTy).Contents (Elt F) → (⟨S131072, .i32⟩ : BufTy).Contents (Elt F))
  :: ternary main_v34 main_v36 main_v24 main_v37 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_10 (constantI S_ 32 0#32)
  :: unary main_c_10 main_v38 (broadcastInDim S131072 ![] bcast_S_S131072 : (⟨S_, .i32⟩ : BufTy).Contents (Elt F) → (⟨S131072, .i32⟩ : BufTy).Contents (Elt F))
  :: binary main_v26 main_v38 main_v39 (cmpi .slt : (⟨S131072, .i32⟩ : BufTy).Contents (Elt F) → (⟨S131072, .i32⟩ : BufTy).Contents (Elt F) → (⟨S131072, .i1⟩ : BufTy).Contents (Elt F))
  :: nullary main_c_11 (constantI S_ 32 256#32)
  :: unary main_c_11 main_v40 (broadcastInDim S131072 ![] bcast_S_S131072 : (⟨S_, .i32⟩ : BufTy).Contents (Elt F) → (⟨S131072, .i32⟩ : BufTy).Contents (Elt F))
  :: binary main_v26 main_v40 main_v41 (addi : (⟨S131072, .i32⟩ : BufTy).Contents (Elt F) → (⟨S131072, .i32⟩ : BufTy).Contents (Elt F) → (⟨S131072, .i32⟩ : BufTy).Contents (Elt F))
  :: ternary main_v39 main_v41 main_v26 main_v42 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v32 main_v43 (broadcastInDim S131072x1 ![0] bcast_S131072_S131072x1_0 : (⟨S131072, .i32⟩ : BufTy).Contents (Elt F) → (⟨S131072x1, .i32⟩ : BufTy).Contents (Elt F))
  :: unary main_v37 main_v44 (broadcastInDim S131072x1 ![0] bcast_S131072_S131072x1_0 : (⟨S131072, .i32⟩ : BufTy).Contents (Elt F) → (⟨S131072x1, .i32⟩ : BufTy).Contents (Elt F))
  :: unary main_v42 main_v45 (broadcastInDim S131072x1 ![0] bcast_S131072_S131072x1_0 : (⟨S131072, .i32⟩ : BufTy).Contents (Elt F) → (⟨S131072x1, .i32⟩ : BufTy).Contents (Elt F))
  :: [] )
set_option maxHeartbeats 40000000 in
theorem opsPre0_sub : (opsPre0 : List (HloOp τ sig (Elt F))).Forall fun op => op.bufs ⊆ tcRefs τ sig :=
  ⟨nullary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., binary_bufs_sub .., unary_bufs_sub .., unary_bufs_sub .., binary_bufs_sub .., unary_bufs_sub .., unary_bufs_sub .., binary_bufs_sub .., unary_bufs_sub .., nullary_bufs_sub .., unary_bufs_sub .., reshape_bufs_sub .., reshape_bufs_sub .., nullary_bufs_sub .., unary_bufs_sub .., unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxHeartbeats 40000000 in
/-- Operations 65 … 68 of @main (4 of them), in order; the last writes `main_v48`. -/
abbrev opsPre1 : List (HloOp τ sig (Elt F)) :=
  ( nary ![main_v43, main_v44, main_v45] main_v46 (fun u => concatenate S131072x3 1 [⟨S131072x1, u 0⟩, ⟨S131072x1, u 1⟩, ⟨S131072x1, u 2⟩] concatenates_S131072x1_S131072x1_S131072x1_S131072x3_d1)
  :: ternary main_v22 main_v46 main_v27 main_v47 ((fun x i u => Host.scatter scatter_S4x256x256_S131072x3_S131072_n_012_012_1 IntOp.maxsi x i u) : (⟨S4x256x256, .i32⟩ : BufTy).Contents (Elt F) → (⟨S131072x3, .i32⟩ : BufTy).Contents (Elt F) → (⟨S131072, .i32⟩ : BufTy).Contents (Elt F) → (⟨S4x256x256, .i32⟩ : BufTy).Contents (Elt F))
  :: nullary main_cst_12 (constant S_ .f32 0x00000000#32)
  :: unary main_cst_12 main_v48 (broadcastInDim S131072x64 ![] bcast_S_S131072x64 : (⟨S_, .f32⟩ : BufTy).Contents (Elt F) → (⟨S131072x64, .f32⟩ : BufTy).Contents (Elt F))
  :: [] )
set_option maxHeartbeats 40000000 in
theorem opsPre1_sub : (opsPre1 : List (HloOp τ sig (Elt F))).Forall fun op => op.bufs ⊆ tcRefs τ sig :=
  ⟨nary_bufs_sub .., ternary_bufs_sub .., nullary_bufs_sub .., unary_bufs_sub ..⟩

set_option maxHeartbeats 40000000 in
/-- Operations 69 … 133 of @main (65 of them), in order; the last writes `main_v87`. -/
abbrev opsTap0a : List (HloOp τ sig (Elt F)) :=
  ( unary main_v17 main_v49 ((extractStridedSlice S131072x1 ![0, 0] · slices_S131072x2_S131072x1_0_0) : (⟨S131072x2, .i32⟩ : BufTy).Contents (Elt F) → (⟨S131072x1, .i32⟩ : BufTy).Contents (Elt F))
  :: reshape main_v49 main_v50 rfl shapeCasts_S131072x1_S131072
  :: nullary main_c_13 (constantI S_ 32 4294967295#32)
  :: unary main_c_13 main_v51 (broadcastInDim S131072 ![] bcast_S_S131072 : (⟨S_, .i32⟩ : BufTy).Contents (Elt F) → (⟨S131072, .i32⟩ : BufTy).Contents (Elt F))
  :: binary main_v50 main_v51 main_v52 (addi : (⟨S131072, .i32⟩ : BufTy).Contents (Elt F) → (⟨S131072, .i32⟩ : BufTy).Contents (Elt F) → (⟨S131072, .i32⟩ : BufTy).Contents (Elt F))
  :: unary main_v17 main_v53 ((extractStridedSlice S131072x1 ![0, 1] · slices_S131072x2_S131072x1_0_1) : (⟨S131072x2, .i32⟩ : BufTy).Contents (Elt F) → (⟨S131072x1, .i32⟩ : BufTy).Contents (Elt F))
  :: reshape main_v53 main_v54 rfl shapeCasts_S131072x1_S131072
  :: nullary main_c_14 (constantI S_ 32 4294967295#32)
  :: unary main_c_14 main_v55 (broadcastInDim S131072 ![] bcast_S_S131072 : (⟨S_, .i32⟩ : BufTy).Contents (Elt F) → (⟨S131072, .i32⟩ : BufTy).Contents (Elt F))
  :: binary main_v54 main_v55 main_v56 (addi : (⟨S131072, .i32⟩ : BufTy).Contents (Elt F) → (⟨S131072, .i32⟩ : BufTy).Contents (Elt F) → (⟨S131072, .i32⟩ : BufTy).Contents (Elt F))
  :: nullary main_c_15 (constantI S_ 32 0#32)
  :: unary main_c_15 main_v57 (broadcastInDim S131072 ![] bcast_S_S131072 : (⟨S_, .i32⟩ : BufTy).Contents (Elt F) → (⟨S131072, .i32⟩ : BufTy).Contents (Elt F))
  :: binary main_v52 main_v57 main_v58 (cmpi .sge : (⟨S131072, .i32⟩ : BufTy).Contents (Elt F) → (⟨S131072, .i32⟩ : BufTy).Contents (Elt F) → (⟨S131072, .i1⟩ : BufTy).Contents (Elt F))
  :: nullary main_c_16 (constantI S_ 32 256#32)
  :: unary main_c_16 main_v59 (broadcastInDim S131072 ![] bcast_S_S131072 : (⟨S_, .i32⟩ : BufTy).Contents (Elt F) → (⟨S131072, .i32⟩ : BufTy).Contents (Elt F))
  :: binary main_v52 main_v59 main_v60 (cmpi .slt : (⟨S131072, .i32⟩ : BufTy).Contents (Elt F) → (⟨S131072, .i32⟩ : BufTy).Contents (Elt F) → (⟨S131072, .i1⟩ : BufTy).Contents (Elt F))
  :: binary main_v58 main_v60 main_v61 (andi : (⟨S131072, .i1⟩ : BufTy).Contents (Elt F) → (⟨S131072, .i1⟩ : BufTy).Contents (Elt F) → (⟨S131072, .i1⟩ : BufTy).Contents (Elt F))
  :: nullary main_c_17 (constantI S_ 32 0#32)
  :: unary main_c_17 main_v62 (broadcastInDim S131072 ![] bcast_S_S131072 : (⟨S_, .i32⟩ : BufTy).Contents (Elt F) → (⟨S131072, .i32⟩ : BufTy).Contents (Elt F))
  :: binary main_v56 main_v62 main_v63 (cmpi .sge : (⟨S131072, .i32⟩ : BufTy).Contents (Elt F) → (⟨S131072, .i32⟩ : BufTy).Contents (Elt F) → (⟨S131072, .i1⟩ : BufTy).Contents (Elt F))
  :: binary main_v61 main_v63 main_v64 (andi : (⟨S131072, .i1⟩ : BufTy).Contents (Elt F) → (⟨S131072, .i1⟩ : BufTy).Contents (Elt F) → (⟨S131072, .i1⟩ : BufTy).Contents (Elt F))
  :: nullary main_c_18 (constantI S_ 32 256#32)
  :: unary main_c_18 main_v65 (broadcastInDim S131072 ![] bcast_S_S131072 : (⟨S_, .i32⟩ : BufTy).Contents (Elt F) → (⟨S131072, .i32⟩ : BufTy).Contents (Elt F))
  :: binary main_v56 main_v65 main_v66 (cmpi .slt : (⟨S131072, .i32⟩ : BufTy).Contents (Elt F) → (⟨S131072, .i32⟩ : BufTy).Contents (Elt F) → (⟨S131072, .i1⟩ : BufTy).Contents (Elt F))
  :: binary main_v64 main_v66 main_v67 (andi : (⟨S131072, .i1⟩ : BufTy).Contents (Elt F) → (⟨S131072, .i1⟩ : BufTy).Contents (Elt F) → (⟨S131072, .i1⟩ : BufTy).Contents (Elt F))
  :: nullary main_c_19 (constantI S_ 32 0#32)
  :: nullary main_c_20 (constantI S_ 32 255#32)
  :: unary main_c_19 main_call1_v0 ((id) : (⟨S_, .i32⟩ : BufTy).Contents (Elt F) → (⟨S_, .i32⟩ : BufTy).Contents (Elt F))
  :: unary main_call1_v0 main_call1_v1 (((broadcastInDim S131072 ![] bcast_S_S131072)) : (⟨S_, .i32⟩ : BufTy).Contents (Elt F) → (⟨S131072, .i32⟩ : BufTy).Contents (Elt F))
  :: binary main_call1_v1 main_v52 main_call1_v2 ((maxsi) : (⟨S131072, .i32⟩ : BufTy).Contents (Elt F) → (⟨S131072, .i32⟩ : BufTy).Contents (Elt F) → (⟨S131072, .i32⟩ : BufTy).Contents (Elt F))
  :: unary main_c_20 main_call1_v3 ((id) : (⟨S_, .i32⟩ : BufTy).Contents (Elt F) → (⟨S_, .i32⟩ : BufTy).Contents (Elt F))
  :: unary main_call1_v3 main_call1_v4 (((broadcastInDim S131072 ![] bcast_S_S131072)) : (⟨S_, .i32⟩ : BufTy).Contents (Elt F) → (⟨S131072, .i32⟩ : BufTy).Contents (Elt F))
  :: binary main_call1_v4 main_call1_v2 main_v68 ((minsi) : (⟨S131072, .i32⟩ : BufTy).Contents (Elt F) → (⟨S131072, .i32⟩ : BufTy).Contents (Elt F) → (⟨S131072, .i32⟩ : BufTy).Contents (Elt F))
  :: nullary main_c_21 (constantI S_ 32 0#32)
  :: nullary main_c_22 (constantI S_ 32 255#32)
  :: unary main_c_21 main_call2_v0 ((id) : (⟨S_, .i32⟩ : BufTy).Contents (Elt F) → (⟨S_, .i32⟩ : BufTy).Contents (Elt F))
  :: unary main_call2_v0 main_call2_v1 (((broadcastInDim S131072 ![] bcast_S_S131072)) : (⟨S_, .i32⟩ : BufTy).Contents (Elt F) → (⟨S131072, .i32⟩ : BufTy).Contents (Elt F))
  :: binary main_call2_v1 main_v56 main_call2_v2 ((maxsi) : (⟨S131072, .i32⟩ : BufTy).Contents (Elt F) → (⟨S131072, .i32⟩ : BufTy).Contents (Elt F) → (⟨S131072, .i32⟩ : BufTy).Contents (Elt F))
  :: unary main_c_22 main_call2_v3 ((id) : (⟨S_, .i32⟩ : BufTy).Contents (Elt F) → (⟨S_, .i32⟩ : BufTy).Contents (Elt F))
  :: unary main_call2_v3 main_call2_v4 (((broadcastInDim S131072 ![] bcast_S_S131072)) : (⟨S_, .i32⟩ : BufTy).Contents (Elt F) → (⟨S131072, .i32⟩ : BufTy).Contents (Elt F))
  :: binary main_call2_v4 main_call2_v2 main_v69 ((minsi) : (⟨S131072, .i32⟩ : BufTy).Contents (Elt F) → (⟨S131072, .i32⟩ : BufTy).Contents (Elt F) → (⟨S131072, .i32⟩ : BufTy).Contents (Elt F))
  :: nullary main_c_23 (constantI S_ 32 0#32)
  :: unary main_c_23 main_v70 (broadcastInDim S131072 ![] bcast_S_S131072 : (⟨S_, .i32⟩ : BufTy).Contents (Elt F) → (⟨S131072, .i32⟩ : BufTy).Contents (Elt F))
  :: binary main_v20 main_v70 main_v71 (cmpi .slt : (⟨S131072, .i32⟩ : BufTy).Contents (Elt F) → (⟨S131072, .i32⟩ : BufTy).Contents (Elt F) → (⟨S131072, .i1⟩ : BufTy).Contents (Elt F))
  :: nullary main_c_24 (constantI S_ 32 4#32)
  :: unary main_c_24 main_v72 (broadcastInDim S131072 ![] bcast_S_S131072 : (⟨S_, .i32⟩ : BufTy).Contents (Elt F) → (⟨S131072, .i32⟩ : BufTy).Contents (Elt F))
  :: binary main_v20 main_v72 main_v73 (addi : (⟨S131072, .i32⟩ : BufTy).Contents (Elt F) → (⟨S131072, .i32⟩ : BufTy).Contents (Elt F) → (⟨S131072, .i32⟩ : BufTy).Contents (Elt F))
  :: ternary main_v71 main_v73 main_v20 main_v74 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_25 (constantI S_ 32 0#32)
  :: unary main_c_25 main_v75 (broadcastInDim S131072 ![] bcast_S_S131072 : (⟨S_, .i32⟩ : BufTy).Contents (Elt F) → (⟨S131072, .i32⟩ : BufTy).Contents (Elt F))
  :: binary main_v68 main_v75 main_v76 (cmpi .slt : (⟨S131072, .i32⟩ : BufTy).Contents (Elt F) → (⟨S131072, .i32⟩ : BufTy).Contents (Elt F) → (⟨S131072, .i1⟩ : BufTy).Contents (Elt F))
  :: nullary main_c_26 (constantI S_ 32 256#32)
  :: unary main_c_26 main_v77 (broadcastInDim S131072 ![] bcast_S_S131072 : (⟨S_, .i32⟩ : BufTy).Contents (Elt F) → (⟨S131072, .i32⟩ : BufTy).Contents (Elt F))
  :: binary main_v68 main_v77 main_v78 (addi : (⟨S131072, .i32⟩ : BufTy).Contents (Elt F) → (⟨S131072, .i32⟩ : BufTy).Contents (Elt F) → (⟨S131072, .i32⟩ : BufTy).Contents (Elt F))
  :: ternary main_v76 main_v78 main_v68 main_v79 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_27 (constantI S_ 32 0#32)
  :: unary main_c_27 main_v80 (broadcastInDim S131072 ![] bcast_S_S131072 : (⟨S_, .i32⟩ : BufTy).Contents (Elt F) → (⟨S131072, .i32⟩ : BufTy).Contents (Elt F))
  :: binary main_v69 main_v80 main_v81 (cmpi .slt : (⟨S131072, .i32⟩ : BufTy).Contents (Elt F) → (⟨S131072, .i32⟩ : BufTy).Contents (Elt F) → (⟨S131072, .i1⟩ : BufTy).Contents (Elt F))
  :: nullary main_c_28 (constantI S_ 32 256#32)
  :: unary main_c_28 main_v82 (broadcastInDim S131072 ![] bcast_S_S131072 : (⟨S_, .i32⟩ : BufTy).Contents (Elt F) → (⟨S131072, .i32⟩ : BufTy).Contents (Elt F))
  :: binary main_v69 main_v82 main_v83 (addi : (⟨S131072, .i32⟩ : BufTy).Contents (Elt F) → (⟨S131072, .i32⟩ : BufTy).Contents (Elt F) → (⟨S131072, .i32⟩ : BufTy).Contents (Elt F))
  :: ternary main_v81 main_v83 main_v69 main_v84 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v74 main_v85 (broadcastInDim S131072x1 ![0] bcast_S131072_S131072x1_0 : (⟨S131072, .i32⟩ : BufTy).Contents (Elt F) → (⟨S131072x1, .i32⟩ : BufTy).Contents (Elt F))
  :: unary main_v79 main_v86 (broadcastInDim S131072x1 ![0] bcast_S131072_S131072x1_0 : (⟨S131072, .i32⟩ : BufTy).Contents (Elt F) → (⟨S131072x1, .i32⟩ : BufTy).Contents (Elt F))
  :: unary main_v84 main_v87 (broadcastInDim S131072x1 ![0] bcast_S131072_S131072x1_0 : (⟨S131072, .i32⟩ : BufTy).Contents (Elt F) → (⟨S131072x1, .i32⟩ : BufTy).Contents (Elt F))
  :: [] )
set_option maxHeartbeats 40000000 in
theorem opsTap0a_sub : (opsTap0a : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxHeartbeats 40000000 in
/-- Operations 134 … 161 of @main (28 of them), in order; the last writes `main_v107`. -/
abbrev opsTap0b : List (HloOp τ sig (Elt F)) :=
  ( nary ![main_v85, main_v86, main_v87] main_v88 (fun u => concatenate S131072x3 1 [⟨S131072x1, u 0⟩, ⟨S131072x1, u 1⟩, ⟨S131072x1, u 2⟩] concatenates_S131072x1_S131072x1_S131072x1_S131072x3_d1)
  :: binary main_v47 main_v88 main_v89 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F))
  :: nullary main_c_29 (constantI S_ 32 0#32)
  :: unary main_c_29 main_v90 (broadcastInDim S131072 ![] bcast_S_S131072 : (⟨S_, .i32⟩ : BufTy).Contents (Elt F) → (⟨S131072, .i32⟩ : BufTy).Contents (Elt F))
  :: binary main_v89 main_v90 main_v91 (cmpi .sge : (⟨S131072, .i32⟩ : BufTy).Contents (Elt F) → (⟨S131072, .i32⟩ : BufTy).Contents (Elt F) → (⟨S131072, .i1⟩ : BufTy).Contents (Elt F))
  :: binary main_v67 main_v91 main_v92 (andi : (⟨S131072, .i1⟩ : BufTy).Contents (Elt F) → (⟨S131072, .i1⟩ : BufTy).Contents (Elt F) → (⟨S131072, .i1⟩ : BufTy).Contents (Elt F))
  :: unary main_v92 main_v93 (broadcastInDim S131072x1 ![0] bcast_S131072_S131072x1_0 : (⟨S131072, .i1⟩ : BufTy).Contents (Elt F) → (⟨S131072x1, .i1⟩ : BufTy).Contents (Elt F))
  :: nullary main_c_30 (constantI S_ 32 0#32)
  :: unary main_c_30 main_v94 (broadcastInDim S131072 ![] bcast_S_S131072 : (⟨S_, .i32⟩ : BufTy).Contents (Elt F) → (⟨S131072, .i32⟩ : BufTy).Contents (Elt F))
  :: binary main_v89 main_v94 main_v95 (maxsi : (⟨S131072, .i32⟩ : BufTy).Contents (Elt F) → (⟨S131072, .i32⟩ : BufTy).Contents (Elt F) → (⟨S131072, .i32⟩ : BufTy).Contents (Elt F))
  :: nullary main_c_31 (constantI S_ 32 0#32)
  :: unary main_c_31 main_v96 (broadcastInDim S131072 ![] bcast_S_S131072 : (⟨S_, .i32⟩ : BufTy).Contents (Elt F) → (⟨S131072, .i32⟩ : BufTy).Contents (Elt F))
  :: binary main_v95 main_v96 main_v97 (cmpi .slt : (⟨S131072, .i32⟩ : BufTy).Contents (Elt F) → (⟨S131072, .i32⟩ : BufTy).Contents (Elt F) → (⟨S131072, .i1⟩ : BufTy).Contents (Elt F))
  :: nullary main_c_32 (constantI S_ 32 131072#32)
  :: unary main_c_32 main_v98 (broadcastInDim S131072 ![] bcast_S_S131072 : (⟨S_, .i32⟩ : BufTy).Contents (Elt F) → (⟨S131072, .i32⟩ : BufTy).Contents (Elt F))
  :: binary main_v95 main_v98 main_v99 (addi : (⟨S131072, .i32⟩ : BufTy).Contents (Elt F) → (⟨S131072, .i32⟩ : BufTy).Contents (Elt F) → (⟨S131072, .i32⟩ : BufTy).Contents (Elt F))
  :: ternary main_v97 main_v99 main_v95 main_v100 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v100 main_v101 (broadcastInDim S131072x1 ![0] bcast_S131072_S131072x1_0 : (⟨S131072, .i32⟩ : BufTy).Contents (Elt F) → (⟨S131072x1, .i32⟩ : BufTy).Contents (Elt F))
  :: binary main_v21 main_v101 main_v102 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F))
  :: nullary main_cst_33 (constant S_ .f32 0x00000000#32)
  :: unary main_cst_33 main_call3_v0 ((id) : (⟨S_, .f32⟩ : BufTy).Contents (Elt F) → (⟨S_, .f32⟩ : BufTy).Contents (Elt F))
  :: unary main_v93 main_call3_v1 (((broadcastInDim S131072x64 ![0, 1] bcast_S131072x1_S131072x64_0_1)) : (⟨S131072x1, .i1⟩ : BufTy).Contents (Elt F) → (⟨S131072x64, .i1⟩ : BufTy).Contents (Elt F))
  :: unary main_call3_v0 main_call3_v2 (((broadcastInDim S131072x64 ![] bcast_S_S131072x64)) : (⟨S_, .f32⟩ : BufTy).Contents (Elt F) → (⟨S131072x64, .f32⟩ : BufTy).Contents (Elt F))
  :: ternary main_call3_v1 main_v102 main_call3_v2 main_v103 ((select) : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F))
  :: unary main_arg2 main_v104 ((extractStridedSlice S1x1x64x64 ![0, 0, 0, 0] · slices_S3x3x64x64_S1x1x64x64_0_0_0_0) : (⟨S3x3x64x64, .f32⟩ : BufTy).Contents (Elt F) → (⟨S1x1x64x64, .f32⟩ : BufTy).Contents (Elt F))
  :: reshape main_v104 main_v105 rfl shapeCasts_S1x1x64x64_S64x64
  :: binary main_v103 main_v105 main_v106 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F))
  :: binary main_v48 main_v106 main_v107 (addf : (⟨S131072x64, .f32⟩ : BufTy).Contents (Elt F) → (⟨S131072x64, .f32⟩ : BufTy).Contents (Elt F) → (⟨S131072x64, .f32⟩ : BufTy).Contents (Elt F))
  :: [] )
set_option maxHeartbeats 40000000 in
theorem opsTap0b_sub : (opsTap0b : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub ..⟩

set_option maxHeartbeats 40000000 in
/-- Operations 162 … 226 of @main (65 of them), in order; the last writes `main_v146`. -/
abbrev opsTap1a : List (HloOp τ sig (Elt F)) :=
  ( unary main_v17 main_v108 ((extractStridedSlice S131072x1 ![0, 0] · slices_S131072x2_S131072x1_0_0) : (⟨S131072x2, .i32⟩ : BufTy).Contents (Elt F) → (⟨S131072x1, .i32⟩ : BufTy).Contents (Elt F))
  :: reshape main_v108 main_v109 rfl shapeCasts_S131072x1_S131072
  :: nullary main_c_34 (constantI S_ 32 4294967295#32)
  :: unary main_c_34 main_v110 (broadcastInDim S131072 ![] bcast_S_S131072 : (⟨S_, .i32⟩ : BufTy).Contents (Elt F) → (⟨S131072, .i32⟩ : BufTy).Contents (Elt F))
  :: binary main_v109 main_v110 main_v111 (addi : (⟨S131072, .i32⟩ : BufTy).Contents (Elt F) → (⟨S131072, .i32⟩ : BufTy).Contents (Elt F) → (⟨S131072, .i32⟩ : BufTy).Contents (Elt F))
  :: unary main_v17 main_v112 ((extractStridedSlice S131072x1 ![0, 1] · slices_S131072x2_S131072x1_0_1) : (⟨S131072x2, .i32⟩ : BufTy).Contents (Elt F) → (⟨S131072x1, .i32⟩ : BufTy).Contents (Elt F))
  :: reshape main_v112 main_v113 rfl shapeCasts_S131072x1_S131072
  :: nullary main_c_35 (constantI S_ 32 0#32)
  :: unary main_c_35 main_v114 (broadcastInDim S131072 ![] bcast_S_S131072 : (⟨S_, .i32⟩ : BufTy).Contents (Elt F) → (⟨S131072, .i32⟩ : BufTy).Contents (Elt F))
  :: binary main_v113 main_v114 main_v115 (addi : (⟨S131072, .i32⟩ : BufTy).Contents (Elt F) → (⟨S131072, .i32⟩ : BufTy).Contents (Elt F) → (⟨S131072, .i32⟩ : BufTy).Contents (Elt F))
  :: nullary main_c_36 (constantI S_ 32 0#32)
  :: unary main_c_36 main_v116 (broadcastInDim S131072 ![] bcast_S_S131072 : (⟨S_, .i32⟩ : BufTy).Contents (Elt F) → (⟨S131072, .i32⟩ : BufTy).Contents (Elt F))
  :: binary main_v111 main_v116 main_v117 (cmpi .sge : (⟨S131072, .i32⟩ : BufTy).Contents (Elt F) → (⟨S131072, .i32⟩ : BufTy).Contents (Elt F) → (⟨S131072, .i1⟩ : BufTy).Contents (Elt F))
  :: nullary main_c_37 (constantI S_ 32 256#32)
  :: unary main_c_37 main_v118 (broadcastInDim S131072 ![] bcast_S_S131072 : (⟨S_, .i32⟩ : BufTy).Contents (Elt F) → (⟨S131072, .i32⟩ : BufTy).Contents (Elt F))
  :: binary main_v111 main_v118 main_v119 (cmpi .slt : (⟨S131072, .i32⟩ : BufTy).Contents (Elt F) → (⟨S131072, .i32⟩ : BufTy).Contents (Elt F) → (⟨S131072, .i1⟩ : BufTy).Contents (Elt F))
  :: binary main_v117 main_v119 main_v120 (andi : (⟨S131072, .i1⟩ : BufTy).Contents (Elt F) → (⟨S131072, .i1⟩ : BufTy).Contents (Elt F) → (⟨S131072, .i1⟩ : BufTy).Contents (Elt F))
  :: nullary main_c_38 (constantI S_ 32 0#32)
  :: unary main_c_38 main_v121 (broadcastInDim S131072 ![] bcast_S_S131072 : (⟨S_, .i32⟩ : BufTy).Contents (Elt F) → (⟨S131072, .i32⟩ : BufTy).Contents (Elt F))
  :: binary main_v115 main_v121 main_v122 (cmpi .sge : (⟨S131072, .i32⟩ : BufTy).Contents (Elt F) → (⟨S131072, .i32⟩ : BufTy).Contents (Elt F) → (⟨S131072, .i1⟩ : BufTy).Contents (Elt F))
  :: binary main_v120 main_v122 main_v123 (andi : (⟨S131072, .i1⟩ : BufTy).Contents (Elt F) → (⟨S131072, .i1⟩ : BufTy).Contents (Elt F) → (⟨S131072, .i1⟩ : BufTy).Contents (Elt F))
  :: nullary main_c_39 (constantI S_ 32 256#32)
  :: unary main_c_39 main_v124 (broadcastInDim S131072 ![] bcast_S_S131072 : (⟨S_, .i32⟩ : BufTy).Contents (Elt F) → (⟨S131072, .i32⟩ : BufTy).Contents (Elt F))
  :: binary main_v115 main_v124 main_v125 (cmpi .slt : (⟨S131072, .i32⟩ : BufTy).Contents (Elt F) → (⟨S131072, .i32⟩ : BufTy).Contents (Elt F) → (⟨S131072, .i1⟩ : BufTy).Contents (Elt F))
  :: binary main_v123 main_v125 main_v126 (andi : (⟨S131072, .i1⟩ : BufTy).Contents (Elt F) → (⟨S131072, .i1⟩ : BufTy).Contents (Elt F) → (⟨S131072, .i1⟩ : BufTy).Contents (Elt F))
  :: nullary main_c_40 (constantI S_ 32 0#32)
  :: nullary main_c_41 (constantI S_ 32 255#32)
  :: unary main_c_40 main_call4_v0 ((id) : (⟨S_, .i32⟩ : BufTy).Contents (Elt F) → (⟨S_, .i32⟩ : BufTy).Contents (Elt F))
  :: unary main_call4_v0 main_call4_v1 (((broadcastInDim S131072 ![] bcast_S_S131072)) : (⟨S_, .i32⟩ : BufTy).Contents (Elt F) → (⟨S131072, .i32⟩ : BufTy).Contents (Elt F))
  :: binary main_call4_v1 main_v111 main_call4_v2 ((maxsi) : (⟨S131072, .i32⟩ : BufTy).Contents (Elt F) → (⟨S131072, .i32⟩ : BufTy).Contents (Elt F) → (⟨S131072, .i32⟩ : BufTy).Contents (Elt F))
  :: unary main_c_41 main_call4_v3 ((id) : (⟨S_, .i32⟩ : BufTy).Contents (Elt F) → (⟨S_, .i32⟩ : BufTy).Contents (Elt F))
  :: unary main_call4_v3 main_call4_v4 (((broadcastInDim S131072 ![] bcast_S_S131072)) : (⟨S_, .i32⟩ : BufTy).Contents (Elt F) → (⟨S131072, .i32⟩ : BufTy).Contents (Elt F))
  :: binary main_call4_v4 main_call4_v2 main_v127 ((minsi) : (⟨S131072, .i32⟩ : BufTy).Contents (Elt F) → (⟨S131072, .i32⟩ : BufTy).Contents (Elt F) → (⟨S131072, .i32⟩ : BufTy).Contents (Elt F))
  :: nullary main_c_42 (constantI S_ 32 0#32)
  :: nullary main_c_43 (constantI S_ 32 255#32)
  :: unary main_c_42 main_call5_v0 ((id) : (⟨S_, .i32⟩ : BufTy).Contents (Elt F) → (⟨S_, .i32⟩ : BufTy).Contents (Elt F))
  :: unary main_call5_v0 main_call5_v1 (((broadcastInDim S131072 ![] bcast_S_S131072)) : (⟨S_, .i32⟩ : BufTy).Contents (Elt F) → (⟨S131072, .i32⟩ : BufTy).Contents (Elt F))
  :: binary main_call5_v1 main_v115 main_call5_v2 ((maxsi) : (⟨S131072, .i32⟩ : BufTy).Contents (Elt F) → (⟨S131072, .i32⟩ : BufTy).Contents (Elt F) → (⟨S131072, .i32⟩ : BufTy).Contents (Elt F))
  :: unary main_c_43 main_call5_v3 ((id) : (⟨S_, .i32⟩ : BufTy).Contents (Elt F) → (⟨S_, .i32⟩ : BufTy).Contents (Elt F))
  :: unary main_call5_v3 main_call5_v4 (((broadcastInDim S131072 ![] bcast_S_S131072)) : (⟨S_, .i32⟩ : BufTy).Contents (Elt F) → (⟨S131072, .i32⟩ : BufTy).Contents (Elt F))
  :: binary main_call5_v4 main_call5_v2 main_v128 ((minsi) : (⟨S131072, .i32⟩ : BufTy).Contents (Elt F) → (⟨S131072, .i32⟩ : BufTy).Contents (Elt F) → (⟨S131072, .i32⟩ : BufTy).Contents (Elt F))
  :: nullary main_c_44 (constantI S_ 32 0#32)
  :: unary main_c_44 main_v129 (broadcastInDim S131072 ![] bcast_S_S131072 : (⟨S_, .i32⟩ : BufTy).Contents (Elt F) → (⟨S131072, .i32⟩ : BufTy).Contents (Elt F))
  :: binary main_v20 main_v129 main_v130 (cmpi .slt : (⟨S131072, .i32⟩ : BufTy).Contents (Elt F) → (⟨S131072, .i32⟩ : BufTy).Contents (Elt F) → (⟨S131072, .i1⟩ : BufTy).Contents (Elt F))
  :: nullary main_c_45 (constantI S_ 32 4#32)
  :: unary main_c_45 main_v131 (broadcastInDim S131072 ![] bcast_S_S131072 : (⟨S_, .i32⟩ : BufTy).Contents (Elt F) → (⟨S131072, .i32⟩ : BufTy).Contents (Elt F))
  :: binary main_v20 main_v131 main_v132 (addi : (⟨S131072, .i32⟩ : BufTy).Contents (Elt F) → (⟨S131072, .i32⟩ : BufTy).Contents (Elt F) → (⟨S131072, .i32⟩ : BufTy).Contents (Elt F))
  :: ternary main_v130 main_v132 main_v20 main_v133 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_46 (constantI S_ 32 0#32)
  :: unary main_c_46 main_v134 (broadcastInDim S131072 ![] bcast_S_S131072 : (⟨S_, .i32⟩ : BufTy).Contents (Elt F) → (⟨S131072, .i32⟩ : BufTy).Contents (Elt F))
  :: binary main_v127 main_v134 main_v135 (cmpi .slt : (⟨S131072, .i32⟩ : BufTy).Contents (Elt F) → (⟨S131072, .i32⟩ : BufTy).Contents (Elt F) → (⟨S131072, .i1⟩ : BufTy).Contents (Elt F))
  :: nullary main_c_47 (constantI S_ 32 256#32)
  :: unary main_c_47 main_v136 (broadcastInDim S131072 ![] bcast_S_S131072 : (⟨S_, .i32⟩ : BufTy).Contents (Elt F) → (⟨S131072, .i32⟩ : BufTy).Contents (Elt F))
  :: binary main_v127 main_v136 main_v137 (addi : (⟨S131072, .i32⟩ : BufTy).Contents (Elt F) → (⟨S131072, .i32⟩ : BufTy).Contents (Elt F) → (⟨S131072, .i32⟩ : BufTy).Contents (Elt F))
  :: ternary main_v135 main_v137 main_v127 main_v138 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_48 (constantI S_ 32 0#32)
  :: unary main_c_48 main_v139 (broadcastInDim S131072 ![] bcast_S_S131072 : (⟨S_, .i32⟩ : BufTy).Contents (Elt F) → (⟨S131072, .i32⟩ : BufTy).Contents (Elt F))
  :: binary main_v128 main_v139 main_v140 (cmpi .slt : (⟨S131072, .i32⟩ : BufTy).Contents (Elt F) → (⟨S131072, .i32⟩ : BufTy).Contents (Elt F) → (⟨S131072, .i1⟩ : BufTy).Contents (Elt F))
  :: nullary main_c_49 (constantI S_ 32 256#32)
  :: unary main_c_49 main_v141 (broadcastInDim S131072 ![] bcast_S_S131072 : (⟨S_, .i32⟩ : BufTy).Contents (Elt F) → (⟨S131072, .i32⟩ : BufTy).Contents (Elt F))
  :: binary main_v128 main_v141 main_v142 (addi : (⟨S131072, .i32⟩ : BufTy).Contents (Elt F) → (⟨S131072, .i32⟩ : BufTy).Contents (Elt F) → (⟨S131072, .i32⟩ : BufTy).Contents (Elt F))
  :: ternary main_v140 main_v142 main_v128 main_v143 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v133 main_v144 (broadcastInDim S131072x1 ![0] bcast_S131072_S131072x1_0 : (⟨S131072, .i32⟩ : BufTy).Contents (Elt F) → (⟨S131072x1, .i32⟩ : BufTy).Contents (Elt F))
  :: unary main_v138 main_v145 (broadcastInDim S131072x1 ![0] bcast_S131072_S131072x1_0 : (⟨S131072, .i32⟩ : BufTy).Contents (Elt F) → (⟨S131072x1, .i32⟩ : BufTy).Contents (Elt F))
  :: unary main_v143 main_v146 (broadcastInDim S131072x1 ![0] bcast_S131072_S131072x1_0 : (⟨S131072, .i32⟩ : BufTy).Contents (Elt F) → (⟨S131072x1, .i32⟩ : BufTy).Contents (Elt F))
  :: [] )
set_option maxHeartbeats 40000000 in
theorem opsTap1a_sub : (opsTap1a : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxHeartbeats 40000000 in
/-- Operations 227 … 254 of @main (28 of them), in order; the last writes `main_v166`. -/
abbrev opsTap1b : List (HloOp τ sig (Elt F)) :=
  ( nary ![main_v144, main_v145, main_v146] main_v147 (fun u => concatenate S131072x3 1 [⟨S131072x1, u 0⟩, ⟨S131072x1, u 1⟩, ⟨S131072x1, u 2⟩] concatenates_S131072x1_S131072x1_S131072x1_S131072x3_d1)
  :: binary main_v47 main_v147 main_v148 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F))
  :: nullary main_c_50 (constantI S_ 32 0#32)
  :: unary main_c_50 main_v149 (broadcastInDim S131072 ![] bcast_S_S131072 : (⟨S_, .i32⟩ : BufTy).Contents (Elt F) → (⟨S131072, .i32⟩ : BufTy).Contents (Elt F))
  :: binary main_v148 main_v149 main_v150 (cmpi .sge : (⟨S131072, .i32⟩ : BufTy).Contents (Elt F) → (⟨S131072, .i32⟩ : BufTy).Contents (Elt F) → (⟨S131072, .i1⟩ : BufTy).Contents (Elt F))
  :: binary main_v126 main_v150 main_v151 (andi : (⟨S131072, .i1⟩ : BufTy).Contents (Elt F) → (⟨S131072, .i1⟩ : BufTy).Contents (Elt F) → (⟨S131072, .i1⟩ : BufTy).Contents (Elt F))
  :: unary main_v151 main_v152 (broadcastInDim S131072x1 ![0] bcast_S131072_S131072x1_0 : (⟨S131072, .i1⟩ : BufTy).Contents (Elt F) → (⟨S131072x1, .i1⟩ : BufTy).Contents (Elt F))
  :: nullary main_c_51 (constantI S_ 32 0#32)
  :: unary main_c_51 main_v153 (broadcastInDim S131072 ![] bcast_S_S131072 : (⟨S_, .i32⟩ : BufTy).Contents (Elt F) → (⟨S131072, .i32⟩ : BufTy).Contents (Elt F))
  :: binary main_v148 main_v153 main_v154 (maxsi : (⟨S131072, .i32⟩ : BufTy).Contents (Elt F) → (⟨S131072, .i32⟩ : BufTy).Contents (Elt F) → (⟨S131072, .i32⟩ : BufTy).Contents (Elt F))
  :: nullary main_c_52 (constantI S_ 32 0#32)
  :: unary main_c_52 main_v155 (broadcastInDim S131072 ![] bcast_S_S131072 : (⟨S_, .i32⟩ : BufTy).Contents (Elt F) → (⟨S131072, .i32⟩ : BufTy).Contents (Elt F))
  :: binary main_v154 main_v155 main_v156 (cmpi .slt : (⟨S131072, .i32⟩ : BufTy).Contents (Elt F) → (⟨S131072, .i32⟩ : BufTy).Contents (Elt F) → (⟨S131072, .i1⟩ : BufTy).Contents (Elt F))
  :: nullary main_c_53 (constantI S_ 32 131072#32)
  :: unary main_c_53 main_v157 (broadcastInDim S131072 ![] bcast_S_S131072 : (⟨S_, .i32⟩ : BufTy).Contents (Elt F) → (⟨S131072, .i32⟩ : BufTy).Contents (Elt F))
  :: binary main_v154 main_v157 main_v158 (addi : (⟨S131072, .i32⟩ : BufTy).Contents (Elt F) → (⟨S131072, .i32⟩ : BufTy).Contents (Elt F) → (⟨S131072, .i32⟩ : BufTy).Contents (Elt F))
  :: ternary main_v156 main_v158 main_v154 main_v159 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v159 main_v160 (broadcastInDim S131072x1 ![0] bcast_S131072_S131072x1_0 : (⟨S131072, .i32⟩ : BufTy).Contents (Elt F) → (⟨S131072x1, .i32⟩ : BufTy).Contents (Elt F))
  :: binary main_v21 main_v160 main_v161 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F))
  :: nullary main_cst_54 (constant S_ .f32 0x00000000#32)
  :: unary main_cst_54 main_call6_v0 ((id) : (⟨S_, .f32⟩ : BufTy).Contents (Elt F) → (⟨S_, .f32⟩ : BufTy).Contents (Elt F))
  :: unary main_v152 main_call6_v1 (((broadcastInDim S131072x64 ![0, 1] bcast_S131072x1_S131072x64_0_1)) : (⟨S131072x1, .i1⟩ : BufTy).Contents (Elt F) → (⟨S131072x64, .i1⟩ : BufTy).Contents (Elt F))
  :: unary main_call6_v0 main_call6_v2 (((broadcastInDim S131072x64 ![] bcast_S_S131072x64)) : (⟨S_, .f32⟩ : BufTy).Contents (Elt F) → (⟨S131072x64, .f32⟩ : BufTy).Contents (Elt F))
  :: ternary main_call6_v1 main_v161 main_call6_v2 main_v162 ((select) : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F))
  :: unary main_arg2 main_v163 ((extractStridedSlice S1x1x64x64 ![0, 1, 0, 0] · slices_S3x3x64x64_S1x1x64x64_0_1_0_0) : (⟨S3x3x64x64, .f32⟩ : BufTy).Contents (Elt F) → (⟨S1x1x64x64, .f32⟩ : BufTy).Contents (Elt F))
  :: reshape main_v163 main_v164 rfl shapeCasts_S1x1x64x64_S64x64
  :: binary main_v162 main_v164 main_v165 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F))
  :: binary main_v107 main_v165 main_v166 (addf : (⟨S131072x64, .f32⟩ : BufTy).Contents (Elt F) → (⟨S131072x64, .f32⟩ : BufTy).Contents (Elt F) → (⟨S131072x64, .f32⟩ : BufTy).Contents (Elt F))
  :: [] )
set_option maxHeartbeats 40000000 in
theorem opsTap1b_sub : (opsTap1b : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub ..⟩

set_option maxHeartbeats 40000000 in
/-- Operations 255 … 319 of @main (65 of them), in order; the last writes `main_v205`. -/
abbrev opsTap2a : List (HloOp τ sig (Elt F)) :=
  ( unary main_v17 main_v167 ((extractStridedSlice S131072x1 ![0, 0] · slices_S131072x2_S131072x1_0_0) : (⟨S131072x2, .i32⟩ : BufTy).Contents (Elt F) → (⟨S131072x1, .i32⟩ : BufTy).Contents (Elt F))
  :: reshape main_v167 main_v168 rfl shapeCasts_S131072x1_S131072
  :: nullary main_c_55 (constantI S_ 32 4294967295#32)
  :: unary main_c_55 main_v169 (broadcastInDim S131072 ![] bcast_S_S131072 : (⟨S_, .i32⟩ : BufTy).Contents (Elt F) → (⟨S131072, .i32⟩ : BufTy).Contents (Elt F))
  :: binary main_v168 main_v169 main_v170 (addi : (⟨S131072, .i32⟩ : BufTy).Contents (Elt F) → (⟨S131072, .i32⟩ : BufTy).Contents (Elt F) → (⟨S131072, .i32⟩ : BufTy).Contents (Elt F))
  :: unary main_v17 main_v171 ((extractStridedSlice S131072x1 ![0, 1] · slices_S131072x2_S131072x1_0_1) : (⟨S131072x2, .i32⟩ : BufTy).Contents (Elt F) → (⟨S131072x1, .i32⟩ : BufTy).Contents (Elt F))
  :: reshape main_v171 main_v172 rfl shapeCasts_S131072x1_S131072
  :: nullary main_c_56 (constantI S_ 32 1#32)
  :: unary main_c_56 main_v173 (broadcastInDim S131072 ![] bcast_S_S131072 : (⟨S_, .i32⟩ : BufTy).Contents (Elt F) → (⟨S131072, .i32⟩ : BufTy).Contents (Elt F))
  :: binary main_v172 main_v173 main_v174 (addi : (⟨S131072, .i32⟩ : BufTy).Contents (Elt F) → (⟨S131072, .i32⟩ : BufTy).Contents (Elt F) → (⟨S131072, .i32⟩ : BufTy).Contents (Elt F))
  :: nullary main_c_57 (constantI S_ 32 0#32)
  :: unary main_c_57 main_v175 (broadcastInDim S131072 ![] bcast_S_S131072 : (⟨S_, .i32⟩ : BufTy).Contents (Elt F) → (⟨S131072, .i32⟩ : BufTy).Contents (Elt F))
  :: binary main_v170 main_v175 main_v176 (cmpi .sge : (⟨S131072, .i32⟩ : BufTy).Contents (Elt F) → (⟨S131072, .i32⟩ : BufTy).Contents (Elt F) → (⟨S131072, .i1⟩ : BufTy).Contents (Elt F))
  :: nullary main_c_58 (constantI S_ 32 256#32)
  :: unary main_c_58 main_v177 (broadcastInDim S131072 ![] bcast_S_S131072 : (⟨S_, .i32⟩ : BufTy).Contents (Elt F) → (⟨S131072, .i32⟩ : BufTy).Contents (Elt F))
  :: binary main_v170 main_v177 main_v178 (cmpi .slt : (⟨S131072, .i32⟩ : BufTy).Contents (Elt F) → (⟨S131072, .i32⟩ : BufTy).Contents (Elt F) → (⟨S131072, .i1⟩ : BufTy).Contents (Elt F))
  :: binary main_v176 main_v178 main_v179 (andi : (⟨S131072, .i1⟩ : BufTy).Contents (Elt F) → (⟨S131072, .i1⟩ : BufTy).Contents (Elt F) → (⟨S131072, .i1⟩ : BufTy).Contents (Elt F))
  :: nullary main_c_59 (constantI S_ 32 0#32)
  :: unary main_c_59 main_v180 (broadcastInDim S131072 ![] bcast_S_S131072 : (⟨S_, .i32⟩ : BufTy).Contents (Elt F) → (⟨S131072, .i32⟩ : BufTy).Contents (Elt F))
  :: binary main_v174 main_v180 main_v181 (cmpi .sge : (⟨S131072, .i32⟩ : BufTy).Contents (Elt F) → (⟨S131072, .i32⟩ : BufTy).Contents (Elt F) → (⟨S131072, .i1⟩ : BufTy).Contents (Elt F))
  :: binary main_v179 main_v181 main_v182 (andi : (⟨S131072, .i1⟩ : BufTy).Contents (Elt F) → (⟨S131072, .i1⟩ : BufTy).Contents (Elt F) → (⟨S131072, .i1⟩ : BufTy).Contents (Elt F))
  :: nullary main_c_60 (constantI S_ 32 256#32)
  :: unary main_c_60 main_v183 (broadcastInDim S131072 ![] bcast_S_S131072 : (⟨S_, .i32⟩ : BufTy).Contents (Elt F) → (⟨S131072, .i32⟩ : BufTy).Contents (Elt F))
  :: binary main_v174 main_v183 main_v184 (cmpi .slt : (⟨S131072, .i32⟩ : BufTy).Contents (Elt F) → (⟨S131072, .i32⟩ : BufTy).Contents (Elt F) → (⟨S131072, .i1⟩ : BufTy).Contents (Elt F))
  :: binary main_v182 main_v184 main_v185 (andi : (⟨S131072, .i1⟩ : BufTy).Contents (Elt F) → (⟨S131072, .i1⟩ : BufTy).Contents (Elt F) → (⟨S131072, .i1⟩ : BufTy).Contents (Elt F))
  :: nullary main_c_61 (constantI S_ 32 0#32)
  :: nullary main_c_62 (constantI S_ 32 255#32)
  :: unary main_c_61 main_call7_v0 ((id) : (⟨S_, .i32⟩ : BufTy).Contents (Elt F) → (⟨S_, .i32⟩ : BufTy).Contents (Elt F))
  :: unary main_call7_v0 main_call7_v1 (((broadcastInDim S131072 ![] bcast_S_S131072)) : (⟨S_, .i32⟩ : BufTy).Contents (Elt F) → (⟨S131072, .i32⟩ : BufTy).Contents (Elt F))
  :: binary main_call7_v1 main_v170 main_call7_v2 ((maxsi) : (⟨S131072, .i32⟩ : BufTy).Contents (Elt F) → (⟨S131072, .i32⟩ : BufTy).Contents (Elt F) → (⟨S131072, .i32⟩ : BufTy).Contents (Elt F))
  :: unary main_c_62 main_call7_v3 ((id) : (⟨S_, .i32⟩ : BufTy).Contents (Elt F) → (⟨S_, .i32⟩ : BufTy).Contents (Elt F))
  :: unary main_call7_v3 main_call7_v4 (((broadcastInDim S131072 ![] bcast_S_S131072)) : (⟨S_, .i32⟩ : BufTy).Contents (Elt F) → (⟨S131072, .i32⟩ : BufTy).Contents (Elt F))
  :: binary main_call7_v4 main_call7_v2 main_v186 ((minsi) : (⟨S131072, .i32⟩ : BufTy).Contents (Elt F) → (⟨S131072, .i32⟩ : BufTy).Contents (Elt F) → (⟨S131072, .i32⟩ : BufTy).Contents (Elt F))
  :: nullary main_c_63 (constantI S_ 32 0#32)
  :: nullary main_c_64 (constantI S_ 32 255#32)
  :: unary main_c_63 main_call8_v0 ((id) : (⟨S_, .i32⟩ : BufTy).Contents (Elt F) → (⟨S_, .i32⟩ : BufTy).Contents (Elt F))
  :: unary main_call8_v0 main_call8_v1 (((broadcastInDim S131072 ![] bcast_S_S131072)) : (⟨S_, .i32⟩ : BufTy).Contents (Elt F) → (⟨S131072, .i32⟩ : BufTy).Contents (Elt F))
  :: binary main_call8_v1 main_v174 main_call8_v2 ((maxsi) : (⟨S131072, .i32⟩ : BufTy).Contents (Elt F) → (⟨S131072, .i32⟩ : BufTy).Contents (Elt F) → (⟨S131072, .i32⟩ : BufTy).Contents (Elt F))
  :: unary main_c_64 main_call8_v3 ((id) : (⟨S_, .i32⟩ : BufTy).Contents (Elt F) → (⟨S_, .i32⟩ : BufTy).Contents (Elt F))
  :: unary main_call8_v3 main_call8_v4 (((broadcastInDim S131072 ![] bcast_S_S131072)) : (⟨S_, .i32⟩ : BufTy).Contents (Elt F) → (⟨S131072, .i32⟩ : BufTy).Contents (Elt F))
  :: binary main_call8_v4 main_call8_v2 main_v187 ((minsi) : (⟨S131072, .i32⟩ : BufTy).Contents (Elt F) → (⟨S131072, .i32⟩ : BufTy).Contents (Elt F) → (⟨S131072, .i32⟩ : BufTy).Contents (Elt F))
  :: nullary main_c_65 (constantI S_ 32 0#32)
  :: unary main_c_65 main_v188 (broadcastInDim S131072 ![] bcast_S_S131072 : (⟨S_, .i32⟩ : BufTy).Contents (Elt F) → (⟨S131072, .i32⟩ : BufTy).Contents (Elt F))
  :: binary main_v20 main_v188 main_v189 (cmpi .slt : (⟨S131072, .i32⟩ : BufTy).Contents (Elt F) → (⟨S131072, .i32⟩ : BufTy).Contents (Elt F) → (⟨S131072, .i1⟩ : BufTy).Contents (Elt F))
  :: nullary main_c_66 (constantI S_ 32 4#32)
  :: unary main_c_66 main_v190 (broadcastInDim S131072 ![] bcast_S_S131072 : (⟨S_, .i32⟩ : BufTy).Contents (Elt F) → (⟨S131072, .i32⟩ : BufTy).Contents (Elt F))
  :: binary main_v20 main_v190 main_v191 (addi : (⟨S131072, .i32⟩ : BufTy).Contents (Elt F) → (⟨S131072, .i32⟩ : BufTy).Contents (Elt F) → (⟨S131072, .i32⟩ : BufTy).Contents (Elt F))
  :: ternary main_v189 main_v191 main_v20 main_v192 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_67 (constantI S_ 32 0#32)
  :: unary main_c_67 main_v193 (broadcastInDim S131072 ![] bcast_S_S131072 : (⟨S_, .i32⟩ : BufTy).Contents (Elt F) → (⟨S131072, .i32⟩ : BufTy).Contents (Elt F))
  :: binary main_v186 main_v193 main_v194 (cmpi .slt : (⟨S131072, .i32⟩ : BufTy).Contents (Elt F) → (⟨S131072, .i32⟩ : BufTy).Contents (Elt F) → (⟨S131072, .i1⟩ : BufTy).Contents (Elt F))
  :: nullary main_c_68 (constantI S_ 32 256#32)
  :: unary main_c_68 main_v195 (broadcastInDim S131072 ![] bcast_S_S131072 : (⟨S_, .i32⟩ : BufTy).Contents (Elt F) → (⟨S131072, .i32⟩ : BufTy).Contents (Elt F))
  :: binary main_v186 main_v195 main_v196 (addi : (⟨S131072, .i32⟩ : BufTy).Contents (Elt F) → (⟨S131072, .i32⟩ : BufTy).Contents (Elt F) → (⟨S131072, .i32⟩ : BufTy).Contents (Elt F))
  :: ternary main_v194 main_v196 main_v186 main_v197 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_69 (constantI S_ 32 0#32)
  :: unary main_c_69 main_v198 (broadcastInDim S131072 ![] bcast_S_S131072 : (⟨S_, .i32⟩ : BufTy).Contents (Elt F) → (⟨S131072, .i32⟩ : BufTy).Contents (Elt F))
  :: binary main_v187 main_v198 main_v199 (cmpi .slt : (⟨S131072, .i32⟩ : BufTy).Contents (Elt F) → (⟨S131072, .i32⟩ : BufTy).Contents (Elt F) → (⟨S131072, .i1⟩ : BufTy).Contents (Elt F))
  :: nullary main_c_70 (constantI S_ 32 256#32)
  :: unary main_c_70 main_v200 (broadcastInDim S131072 ![] bcast_S_S131072 : (⟨S_, .i32⟩ : BufTy).Contents (Elt F) → (⟨S131072, .i32⟩ : BufTy).Contents (Elt F))
  :: binary main_v187 main_v200 main_v201 (addi : (⟨S131072, .i32⟩ : BufTy).Contents (Elt F) → (⟨S131072, .i32⟩ : BufTy).Contents (Elt F) → (⟨S131072, .i32⟩ : BufTy).Contents (Elt F))
  :: ternary main_v199 main_v201 main_v187 main_v202 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v192 main_v203 (broadcastInDim S131072x1 ![0] bcast_S131072_S131072x1_0 : (⟨S131072, .i32⟩ : BufTy).Contents (Elt F) → (⟨S131072x1, .i32⟩ : BufTy).Contents (Elt F))
  :: unary main_v197 main_v204 (broadcastInDim S131072x1 ![0] bcast_S131072_S131072x1_0 : (⟨S131072, .i32⟩ : BufTy).Contents (Elt F) → (⟨S131072x1, .i32⟩ : BufTy).Contents (Elt F))
  :: unary main_v202 main_v205 (broadcastInDim S131072x1 ![0] bcast_S131072_S131072x1_0 : (⟨S131072, .i32⟩ : BufTy).Contents (Elt F) → (⟨S131072x1, .i32⟩ : BufTy).Contents (Elt F))
  :: [] )
set_option maxHeartbeats 40000000 in
theorem opsTap2a_sub : (opsTap2a : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxHeartbeats 40000000 in
/-- Operations 320 … 347 of @main (28 of them), in order; the last writes `main_v225`. -/
abbrev opsTap2b : List (HloOp τ sig (Elt F)) :=
  ( nary ![main_v203, main_v204, main_v205] main_v206 (fun u => concatenate S131072x3 1 [⟨S131072x1, u 0⟩, ⟨S131072x1, u 1⟩, ⟨S131072x1, u 2⟩] concatenates_S131072x1_S131072x1_S131072x1_S131072x3_d1)
  :: binary main_v47 main_v206 main_v207 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F))
  :: nullary main_c_71 (constantI S_ 32 0#32)
  :: unary main_c_71 main_v208 (broadcastInDim S131072 ![] bcast_S_S131072 : (⟨S_, .i32⟩ : BufTy).Contents (Elt F) → (⟨S131072, .i32⟩ : BufTy).Contents (Elt F))
  :: binary main_v207 main_v208 main_v209 (cmpi .sge : (⟨S131072, .i32⟩ : BufTy).Contents (Elt F) → (⟨S131072, .i32⟩ : BufTy).Contents (Elt F) → (⟨S131072, .i1⟩ : BufTy).Contents (Elt F))
  :: binary main_v185 main_v209 main_v210 (andi : (⟨S131072, .i1⟩ : BufTy).Contents (Elt F) → (⟨S131072, .i1⟩ : BufTy).Contents (Elt F) → (⟨S131072, .i1⟩ : BufTy).Contents (Elt F))
  :: unary main_v210 main_v211 (broadcastInDim S131072x1 ![0] bcast_S131072_S131072x1_0 : (⟨S131072, .i1⟩ : BufTy).Contents (Elt F) → (⟨S131072x1, .i1⟩ : BufTy).Contents (Elt F))
  :: nullary main_c_72 (constantI S_ 32 0#32)
  :: unary main_c_72 main_v212 (broadcastInDim S131072 ![] bcast_S_S131072 : (⟨S_, .i32⟩ : BufTy).Contents (Elt F) → (⟨S131072, .i32⟩ : BufTy).Contents (Elt F))
  :: binary main_v207 main_v212 main_v213 (maxsi : (⟨S131072, .i32⟩ : BufTy).Contents (Elt F) → (⟨S131072, .i32⟩ : BufTy).Contents (Elt F) → (⟨S131072, .i32⟩ : BufTy).Contents (Elt F))
  :: nullary main_c_73 (constantI S_ 32 0#32)
  :: unary main_c_73 main_v214 (broadcastInDim S131072 ![] bcast_S_S131072 : (⟨S_, .i32⟩ : BufTy).Contents (Elt F) → (⟨S131072, .i32⟩ : BufTy).Contents (Elt F))
  :: binary main_v213 main_v214 main_v215 (cmpi .slt : (⟨S131072, .i32⟩ : BufTy).Contents (Elt F) → (⟨S131072, .i32⟩ : BufTy).Contents (Elt F) → (⟨S131072, .i1⟩ : BufTy).Contents (Elt F))
  :: nullary main_c_74 (constantI S_ 32 131072#32)
  :: unary main_c_74 main_v216 (broadcastInDim S131072 ![] bcast_S_S131072 : (⟨S_, .i32⟩ : BufTy).Contents (Elt F) → (⟨S131072, .i32⟩ : BufTy).Contents (Elt F))
  :: binary main_v213 main_v216 main_v217 (addi : (⟨S131072, .i32⟩ : BufTy).Contents (Elt F) → (⟨S131072, .i32⟩ : BufTy).Contents (Elt F) → (⟨S131072, .i32⟩ : BufTy).Contents (Elt F))
  :: ternary main_v215 main_v217 main_v213 main_v218 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v218 main_v219 (broadcastInDim S131072x1 ![0] bcast_S131072_S131072x1_0 : (⟨S131072, .i32⟩ : BufTy).Contents (Elt F) → (⟨S131072x1, .i32⟩ : BufTy).Contents (Elt F))
  :: binary main_v21 main_v219 main_v220 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F))
  :: nullary main_cst_75 (constant S_ .f32 0x00000000#32)
  :: unary main_cst_75 main_call9_v0 ((id) : (⟨S_, .f32⟩ : BufTy).Contents (Elt F) → (⟨S_, .f32⟩ : BufTy).Contents (Elt F))
  :: unary main_v211 main_call9_v1 (((broadcastInDim S131072x64 ![0, 1] bcast_S131072x1_S131072x64_0_1)) : (⟨S131072x1, .i1⟩ : BufTy).Contents (Elt F) → (⟨S131072x64, .i1⟩ : BufTy).Contents (Elt F))
  :: unary main_call9_v0 main_call9_v2 (((broadcastInDim S131072x64 ![] bcast_S_S131072x64)) : (⟨S_, .f32⟩ : BufTy).Contents (Elt F) → (⟨S131072x64, .f32⟩ : BufTy).Contents (Elt F))
  :: ternary main_call9_v1 main_v220 main_call9_v2 main_v221 ((select) : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F))
  :: unary main_arg2 main_v222 ((extractStridedSlice S1x1x64x64 ![0, 2, 0, 0] · slices_S3x3x64x64_S1x1x64x64_0_2_0_0) : (⟨S3x3x64x64, .f32⟩ : BufTy).Contents (Elt F) → (⟨S1x1x64x64, .f32⟩ : BufTy).Contents (Elt F))
  :: reshape main_v222 main_v223 rfl shapeCasts_S1x1x64x64_S64x64
  :: binary main_v221 main_v223 main_v224 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F))
  :: binary main_v166 main_v224 main_v225 (addf : (⟨S131072x64, .f32⟩ : BufTy).Contents (Elt F) → (⟨S131072x64, .f32⟩ : BufTy).Contents (Elt F) → (⟨S131072x64, .f32⟩ : BufTy).Contents (Elt F))
  :: [] )
set_option maxHeartbeats 40000000 in
theorem opsTap2b_sub : (opsTap2b : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub ..⟩

set_option maxHeartbeats 40000000 in
/-- Operations 348 … 412 of @main (65 of them), in order; the last writes `main_v264`. -/
abbrev opsTap3a : List (HloOp τ sig (Elt F)) :=
  ( unary main_v17 main_v226 ((extractStridedSlice S131072x1 ![0, 0] · slices_S131072x2_S131072x1_0_0) : (⟨S131072x2, .i32⟩ : BufTy).Contents (Elt F) → (⟨S131072x1, .i32⟩ : BufTy).Contents (Elt F))
  :: reshape main_v226 main_v227 rfl shapeCasts_S131072x1_S131072
  :: nullary main_c_76 (constantI S_ 32 0#32)
  :: unary main_c_76 main_v228 (broadcastInDim S131072 ![] bcast_S_S131072 : (⟨S_, .i32⟩ : BufTy).Contents (Elt F) → (⟨S131072, .i32⟩ : BufTy).Contents (Elt F))
  :: binary main_v227 main_v228 main_v229 (addi : (⟨S131072, .i32⟩ : BufTy).Contents (Elt F) → (⟨S131072, .i32⟩ : BufTy).Contents (Elt F) → (⟨S131072, .i32⟩ : BufTy).Contents (Elt F))
  :: unary main_v17 main_v230 ((extractStridedSlice S131072x1 ![0, 1] · slices_S131072x2_S131072x1_0_1) : (⟨S131072x2, .i32⟩ : BufTy).Contents (Elt F) → (⟨S131072x1, .i32⟩ : BufTy).Contents (Elt F))
  :: reshape main_v230 main_v231 rfl shapeCasts_S131072x1_S131072
  :: nullary main_c_77 (constantI S_ 32 4294967295#32)
  :: unary main_c_77 main_v232 (broadcastInDim S131072 ![] bcast_S_S131072 : (⟨S_, .i32⟩ : BufTy).Contents (Elt F) → (⟨S131072, .i32⟩ : BufTy).Contents (Elt F))
  :: binary main_v231 main_v232 main_v233 (addi : (⟨S131072, .i32⟩ : BufTy).Contents (Elt F) → (⟨S131072, .i32⟩ : BufTy).Contents (Elt F) → (⟨S131072, .i32⟩ : BufTy).Contents (Elt F))
  :: nullary main_c_78 (constantI S_ 32 0#32)
  :: unary main_c_78 main_v234 (broadcastInDim S131072 ![] bcast_S_S131072 : (⟨S_, .i32⟩ : BufTy).Contents (Elt F) → (⟨S131072, .i32⟩ : BufTy).Contents (Elt F))
  :: binary main_v229 main_v234 main_v235 (cmpi .sge : (⟨S131072, .i32⟩ : BufTy).Contents (Elt F) → (⟨S131072, .i32⟩ : BufTy).Contents (Elt F) → (⟨S131072, .i1⟩ : BufTy).Contents (Elt F))
  :: nullary main_c_79 (constantI S_ 32 256#32)
  :: unary main_c_79 main_v236 (broadcastInDim S131072 ![] bcast_S_S131072 : (⟨S_, .i32⟩ : BufTy).Contents (Elt F) → (⟨S131072, .i32⟩ : BufTy).Contents (Elt F))
  :: binary main_v229 main_v236 main_v237 (cmpi .slt : (⟨S131072, .i32⟩ : BufTy).Contents (Elt F) → (⟨S131072, .i32⟩ : BufTy).Contents (Elt F) → (⟨S131072, .i1⟩ : BufTy).Contents (Elt F))
  :: binary main_v235 main_v237 main_v238 (andi : (⟨S131072, .i1⟩ : BufTy).Contents (Elt F) → (⟨S131072, .i1⟩ : BufTy).Contents (Elt F) → (⟨S131072, .i1⟩ : BufTy).Contents (Elt F))
  :: nullary main_c_80 (constantI S_ 32 0#32)
  :: unary main_c_80 main_v239 (broadcastInDim S131072 ![] bcast_S_S131072 : (⟨S_, .i32⟩ : BufTy).Contents (Elt F) → (⟨S131072, .i32⟩ : BufTy).Contents (Elt F))
  :: binary main_v233 main_v239 main_v240 (cmpi .sge : (⟨S131072, .i32⟩ : BufTy).Contents (Elt F) → (⟨S131072, .i32⟩ : BufTy).Contents (Elt F) → (⟨S131072, .i1⟩ : BufTy).Contents (Elt F))
  :: binary main_v238 main_v240 main_v241 (andi : (⟨S131072, .i1⟩ : BufTy).Contents (Elt F) → (⟨S131072, .i1⟩ : BufTy).Contents (Elt F) → (⟨S131072, .i1⟩ : BufTy).Contents (Elt F))
  :: nullary main_c_81 (constantI S_ 32 256#32)
  :: unary main_c_81 main_v242 (broadcastInDim S131072 ![] bcast_S_S131072 : (⟨S_, .i32⟩ : BufTy).Contents (Elt F) → (⟨S131072, .i32⟩ : BufTy).Contents (Elt F))
  :: binary main_v233 main_v242 main_v243 (cmpi .slt : (⟨S131072, .i32⟩ : BufTy).Contents (Elt F) → (⟨S131072, .i32⟩ : BufTy).Contents (Elt F) → (⟨S131072, .i1⟩ : BufTy).Contents (Elt F))
  :: binary main_v241 main_v243 main_v244 (andi : (⟨S131072, .i1⟩ : BufTy).Contents (Elt F) → (⟨S131072, .i1⟩ : BufTy).Contents (Elt F) → (⟨S131072, .i1⟩ : BufTy).Contents (Elt F))
  :: nullary main_c_82 (constantI S_ 32 0#32)
  :: nullary main_c_83 (constantI S_ 32 255#32)
  :: unary main_c_82 main_call10_v0 ((id) : (⟨S_, .i32⟩ : BufTy).Contents (Elt F) → (⟨S_, .i32⟩ : BufTy).Contents (Elt F))
  :: unary main_call10_v0 main_call10_v1 (((broadcastInDim S131072 ![] bcast_S_S131072)) : (⟨S_, .i32⟩ : BufTy).Contents (Elt F) → (⟨S131072, .i32⟩ : BufTy).Contents (Elt F))
  :: binary main_call10_v1 main_v229 main_call10_v2 ((maxsi) : (⟨S131072, .i32⟩ : BufTy).Contents (Elt F) → (⟨S131072, .i32⟩ : BufTy).Contents (Elt F) → (⟨S131072, .i32⟩ : BufTy).Contents (Elt F))
  :: unary main_c_83 main_call10_v3 ((id) : (⟨S_, .i32⟩ : BufTy).Contents (Elt F) → (⟨S_, .i32⟩ : BufTy).Contents (Elt F))
  :: unary main_call10_v3 main_call10_v4 (((broadcastInDim S131072 ![] bcast_S_S131072)) : (⟨S_, .i32⟩ : BufTy).Contents (Elt F) → (⟨S131072, .i32⟩ : BufTy).Contents (Elt F))
  :: binary main_call10_v4 main_call10_v2 main_v245 ((minsi) : (⟨S131072, .i32⟩ : BufTy).Contents (Elt F) → (⟨S131072, .i32⟩ : BufTy).Contents (Elt F) → (⟨S131072, .i32⟩ : BufTy).Contents (Elt F))
  :: nullary main_c_84 (constantI S_ 32 0#32)
  :: nullary main_c_85 (constantI S_ 32 255#32)
  :: unary main_c_84 main_call11_v0 ((id) : (⟨S_, .i32⟩ : BufTy).Contents (Elt F) → (⟨S_, .i32⟩ : BufTy).Contents (Elt F))
  :: unary main_call11_v0 main_call11_v1 (((broadcastInDim S131072 ![] bcast_S_S131072)) : (⟨S_, .i32⟩ : BufTy).Contents (Elt F) → (⟨S131072, .i32⟩ : BufTy).Contents (Elt F))
  :: binary main_call11_v1 main_v233 main_call11_v2 ((maxsi) : (⟨S131072, .i32⟩ : BufTy).Contents (Elt F) → (⟨S131072, .i32⟩ : BufTy).Contents (Elt F) → (⟨S131072, .i32⟩ : BufTy).Contents (Elt F))
  :: unary main_c_85 main_call11_v3 ((id) : (⟨S_, .i32⟩ : BufTy).Contents (Elt F) → (⟨S_, .i32⟩ : BufTy).Contents (Elt F))
  :: unary main_call11_v3 main_call11_v4 (((broadcastInDim S131072 ![] bcast_S_S131072)) : (⟨S_, .i32⟩ : BufTy).Contents (Elt F) → (⟨S131072, .i32⟩ : BufTy).Contents (Elt F))
  :: binary main_call11_v4 main_call11_v2 main_v246 ((minsi) : (⟨S131072, .i32⟩ : BufTy).Contents (Elt F) → (⟨S131072, .i32⟩ : BufTy).Contents (Elt F) → (⟨S131072, .i32⟩ : BufTy).Contents (Elt F))
  :: nullary main_c_86 (constantI S_ 32 0#32)
  :: unary main_c_86 main_v247 (broadcastInDim S131072 ![] bcast_S_S131072 : (⟨S_, .i32⟩ : BufTy).Contents (Elt F) → (⟨S131072, .i32⟩ : BufTy).Contents (Elt F))
  :: binary main_v20 main_v247 main_v248 (cmpi .slt : (⟨S131072, .i32⟩ : BufTy).Contents (Elt F) → (⟨S131072, .i32⟩ : BufTy).Contents (Elt F) → (⟨S131072, .i1⟩ : BufTy).Contents (Elt F))
  :: nullary main_c_87 (constantI S_ 32 4#32)
  :: unary main_c_87 main_v249 (broadcastInDim S131072 ![] bcast_S_S131072 : (⟨S_, .i32⟩ : BufTy).Contents (Elt F) → (⟨S131072, .i32⟩ : BufTy).Contents (Elt F))
  :: binary main_v20 main_v249 main_v250 (addi : (⟨S131072, .i32⟩ : BufTy).Contents (Elt F) → (⟨S131072, .i32⟩ : BufTy).Contents (Elt F) → (⟨S131072, .i32⟩ : BufTy).Contents (Elt F))
  :: ternary main_v248 main_v250 main_v20 main_v251 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_88 (constantI S_ 32 0#32)
  :: unary main_c_88 main_v252 (broadcastInDim S131072 ![] bcast_S_S131072 : (⟨S_, .i32⟩ : BufTy).Contents (Elt F) → (⟨S131072, .i32⟩ : BufTy).Contents (Elt F))
  :: binary main_v245 main_v252 main_v253 (cmpi .slt : (⟨S131072, .i32⟩ : BufTy).Contents (Elt F) → (⟨S131072, .i32⟩ : BufTy).Contents (Elt F) → (⟨S131072, .i1⟩ : BufTy).Contents (Elt F))
  :: nullary main_c_89 (constantI S_ 32 256#32)
  :: unary main_c_89 main_v254 (broadcastInDim S131072 ![] bcast_S_S131072 : (⟨S_, .i32⟩ : BufTy).Contents (Elt F) → (⟨S131072, .i32⟩ : BufTy).Contents (Elt F))
  :: binary main_v245 main_v254 main_v255 (addi : (⟨S131072, .i32⟩ : BufTy).Contents (Elt F) → (⟨S131072, .i32⟩ : BufTy).Contents (Elt F) → (⟨S131072, .i32⟩ : BufTy).Contents (Elt F))
  :: ternary main_v253 main_v255 main_v245 main_v256 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_90 (constantI S_ 32 0#32)
  :: unary main_c_90 main_v257 (broadcastInDim S131072 ![] bcast_S_S131072 : (⟨S_, .i32⟩ : BufTy).Contents (Elt F) → (⟨S131072, .i32⟩ : BufTy).Contents (Elt F))
  :: binary main_v246 main_v257 main_v258 (cmpi .slt : (⟨S131072, .i32⟩ : BufTy).Contents (Elt F) → (⟨S131072, .i32⟩ : BufTy).Contents (Elt F) → (⟨S131072, .i1⟩ : BufTy).Contents (Elt F))
  :: nullary main_c_91 (constantI S_ 32 256#32)
  :: unary main_c_91 main_v259 (broadcastInDim S131072 ![] bcast_S_S131072 : (⟨S_, .i32⟩ : BufTy).Contents (Elt F) → (⟨S131072, .i32⟩ : BufTy).Contents (Elt F))
  :: binary main_v246 main_v259 main_v260 (addi : (⟨S131072, .i32⟩ : BufTy).Contents (Elt F) → (⟨S131072, .i32⟩ : BufTy).Contents (Elt F) → (⟨S131072, .i32⟩ : BufTy).Contents (Elt F))
  :: ternary main_v258 main_v260 main_v246 main_v261 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v251 main_v262 (broadcastInDim S131072x1 ![0] bcast_S131072_S131072x1_0 : (⟨S131072, .i32⟩ : BufTy).Contents (Elt F) → (⟨S131072x1, .i32⟩ : BufTy).Contents (Elt F))
  :: unary main_v256 main_v263 (broadcastInDim S131072x1 ![0] bcast_S131072_S131072x1_0 : (⟨S131072, .i32⟩ : BufTy).Contents (Elt F) → (⟨S131072x1, .i32⟩ : BufTy).Contents (Elt F))
  :: unary main_v261 main_v264 (broadcastInDim S131072x1 ![0] bcast_S131072_S131072x1_0 : (⟨S131072, .i32⟩ : BufTy).Contents (Elt F) → (⟨S131072x1, .i32⟩ : BufTy).Contents (Elt F))
  :: [] )
set_option maxHeartbeats 40000000 in
theorem opsTap3a_sub : (opsTap3a : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxHeartbeats 40000000 in
/-- Operations 413 … 440 of @main (28 of them), in order; the last writes `main_v284`. -/
abbrev opsTap3b : List (HloOp τ sig (Elt F)) :=
  ( nary ![main_v262, main_v263, main_v264] main_v265 (fun u => concatenate S131072x3 1 [⟨S131072x1, u 0⟩, ⟨S131072x1, u 1⟩, ⟨S131072x1, u 2⟩] concatenates_S131072x1_S131072x1_S131072x1_S131072x3_d1)
  :: binary main_v47 main_v265 main_v266 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F))
  :: nullary main_c_92 (constantI S_ 32 0#32)
  :: unary main_c_92 main_v267 (broadcastInDim S131072 ![] bcast_S_S131072 : (⟨S_, .i32⟩ : BufTy).Contents (Elt F) → (⟨S131072, .i32⟩ : BufTy).Contents (Elt F))
  :: binary main_v266 main_v267 main_v268 (cmpi .sge : (⟨S131072, .i32⟩ : BufTy).Contents (Elt F) → (⟨S131072, .i32⟩ : BufTy).Contents (Elt F) → (⟨S131072, .i1⟩ : BufTy).Contents (Elt F))
  :: binary main_v244 main_v268 main_v269 (andi : (⟨S131072, .i1⟩ : BufTy).Contents (Elt F) → (⟨S131072, .i1⟩ : BufTy).Contents (Elt F) → (⟨S131072, .i1⟩ : BufTy).Contents (Elt F))
  :: unary main_v269 main_v270 (broadcastInDim S131072x1 ![0] bcast_S131072_S131072x1_0 : (⟨S131072, .i1⟩ : BufTy).Contents (Elt F) → (⟨S131072x1, .i1⟩ : BufTy).Contents (Elt F))
  :: nullary main_c_93 (constantI S_ 32 0#32)
  :: unary main_c_93 main_v271 (broadcastInDim S131072 ![] bcast_S_S131072 : (⟨S_, .i32⟩ : BufTy).Contents (Elt F) → (⟨S131072, .i32⟩ : BufTy).Contents (Elt F))
  :: binary main_v266 main_v271 main_v272 (maxsi : (⟨S131072, .i32⟩ : BufTy).Contents (Elt F) → (⟨S131072, .i32⟩ : BufTy).Contents (Elt F) → (⟨S131072, .i32⟩ : BufTy).Contents (Elt F))
  :: nullary main_c_94 (constantI S_ 32 0#32)
  :: unary main_c_94 main_v273 (broadcastInDim S131072 ![] bcast_S_S131072 : (⟨S_, .i32⟩ : BufTy).Contents (Elt F) → (⟨S131072, .i32⟩ : BufTy).Contents (Elt F))
  :: binary main_v272 main_v273 main_v274 (cmpi .slt : (⟨S131072, .i32⟩ : BufTy).Contents (Elt F) → (⟨S131072, .i32⟩ : BufTy).Contents (Elt F) → (⟨S131072, .i1⟩ : BufTy).Contents (Elt F))
  :: nullary main_c_95 (constantI S_ 32 131072#32)
  :: unary main_c_95 main_v275 (broadcastInDim S131072 ![] bcast_S_S131072 : (⟨S_, .i32⟩ : BufTy).Contents (Elt F) → (⟨S131072, .i32⟩ : BufTy).Contents (Elt F))
  :: binary main_v272 main_v275 main_v276 (addi : (⟨S131072, .i32⟩ : BufTy).Contents (Elt F) → (⟨S131072, .i32⟩ : BufTy).Contents (Elt F) → (⟨S131072, .i32⟩ : BufTy).Contents (Elt F))
  :: ternary main_v274 main_v276 main_v272 main_v277 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v277 main_v278 (broadcastInDim S131072x1 ![0] bcast_S131072_S131072x1_0 : (⟨S131072, .i32⟩ : BufTy).Contents (Elt F) → (⟨S131072x1, .i32⟩ : BufTy).Contents (Elt F))
  :: binary main_v21 main_v278 main_v279 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F))
  :: nullary main_cst_96 (constant S_ .f32 0x00000000#32)
  :: unary main_cst_96 main_call12_v0 ((id) : (⟨S_, .f32⟩ : BufTy).Contents (Elt F) → (⟨S_, .f32⟩ : BufTy).Contents (Elt F))
  :: unary main_v270 main_call12_v1 (((broadcastInDim S131072x64 ![0, 1] bcast_S131072x1_S131072x64_0_1)) : (⟨S131072x1, .i1⟩ : BufTy).Contents (Elt F) → (⟨S131072x64, .i1⟩ : BufTy).Contents (Elt F))
  :: unary main_call12_v0 main_call12_v2 (((broadcastInDim S131072x64 ![] bcast_S_S131072x64)) : (⟨S_, .f32⟩ : BufTy).Contents (Elt F) → (⟨S131072x64, .f32⟩ : BufTy).Contents (Elt F))
  :: ternary main_call12_v1 main_v279 main_call12_v2 main_v280 ((select) : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F))
  :: unary main_arg2 main_v281 ((extractStridedSlice S1x1x64x64 ![1, 0, 0, 0] · slices_S3x3x64x64_S1x1x64x64_1_0_0_0) : (⟨S3x3x64x64, .f32⟩ : BufTy).Contents (Elt F) → (⟨S1x1x64x64, .f32⟩ : BufTy).Contents (Elt F))
  :: reshape main_v281 main_v282 rfl shapeCasts_S1x1x64x64_S64x64
  :: binary main_v280 main_v282 main_v283 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F))
  :: binary main_v225 main_v283 main_v284 (addf : (⟨S131072x64, .f32⟩ : BufTy).Contents (Elt F) → (⟨S131072x64, .f32⟩ : BufTy).Contents (Elt F) → (⟨S131072x64, .f32⟩ : BufTy).Contents (Elt F))
  :: [] )
set_option maxHeartbeats 40000000 in
theorem opsTap3b_sub : (opsTap3b : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub ..⟩

set_option maxHeartbeats 40000000 in
/-- Operations 441 … 505 of @main (65 of them), in order; the last writes `main_v323`. -/
abbrev opsTap4a : List (HloOp τ sig (Elt F)) :=
  ( unary main_v17 main_v285 ((extractStridedSlice S131072x1 ![0, 0] · slices_S131072x2_S131072x1_0_0) : (⟨S131072x2, .i32⟩ : BufTy).Contents (Elt F) → (⟨S131072x1, .i32⟩ : BufTy).Contents (Elt F))
  :: reshape main_v285 main_v286 rfl shapeCasts_S131072x1_S131072
  :: nullary main_c_97 (constantI S_ 32 0#32)
  :: unary main_c_97 main_v287 (broadcastInDim S131072 ![] bcast_S_S131072 : (⟨S_, .i32⟩ : BufTy).Contents (Elt F) → (⟨S131072, .i32⟩ : BufTy).Contents (Elt F))
  :: binary main_v286 main_v287 main_v288 (addi : (⟨S131072, .i32⟩ : BufTy).Contents (Elt F) → (⟨S131072, .i32⟩ : BufTy).Contents (Elt F) → (⟨S131072, .i32⟩ : BufTy).Contents (Elt F))
  :: unary main_v17 main_v289 ((extractStridedSlice S131072x1 ![0, 1] · slices_S131072x2_S131072x1_0_1) : (⟨S131072x2, .i32⟩ : BufTy).Contents (Elt F) → (⟨S131072x1, .i32⟩ : BufTy).Contents (Elt F))
  :: reshape main_v289 main_v290 rfl shapeCasts_S131072x1_S131072
  :: nullary main_c_98 (constantI S_ 32 0#32)
  :: unary main_c_98 main_v291 (broadcastInDim S131072 ![] bcast_S_S131072 : (⟨S_, .i32⟩ : BufTy).Contents (Elt F) → (⟨S131072, .i32⟩ : BufTy).Contents (Elt F))
  :: binary main_v290 main_v291 main_v292 (addi : (⟨S131072, .i32⟩ : BufTy).Contents (Elt F) → (⟨S131072, .i32⟩ : BufTy).Contents (Elt F) → (⟨S131072, .i32⟩ : BufTy).Contents (Elt F))
  :: nullary main_c_99 (constantI S_ 32 0#32)
  :: unary main_c_99 main_v293 (broadcastInDim S131072 ![] bcast_S_S131072 : (⟨S_, .i32⟩ : BufTy).Contents (Elt F) → (⟨S131072, .i32⟩ : BufTy).Contents (Elt F))
  :: binary main_v288 main_v293 main_v294 (cmpi .sge : (⟨S131072, .i32⟩ : BufTy).Contents (Elt F) → (⟨S131072, .i32⟩ : BufTy).Contents (Elt F) → (⟨S131072, .i1⟩ : BufTy).Contents (Elt F))
  :: nullary main_c_100 (constantI S_ 32 256#32)
  :: unary main_c_100 main_v295 (broadcastInDim S131072 ![] bcast_S_S131072 : (⟨S_, .i32⟩ : BufTy).Contents (Elt F) → (⟨S131072, .i32⟩ : BufTy).Contents (Elt F))
  :: binary main_v288 main_v295 main_v296 (cmpi .slt : (⟨S131072, .i32⟩ : BufTy).Contents (Elt F) → (⟨S131072, .i32⟩ : BufTy).Contents (Elt F) → (⟨S131072, .i1⟩ : BufTy).Contents (Elt F))
  :: binary main_v294 main_v296 main_v297 (andi : (⟨S131072, .i1⟩ : BufTy).Contents (Elt F) → (⟨S131072, .i1⟩ : BufTy).Contents (Elt F) → (⟨S131072, .i1⟩ : BufTy).Contents (Elt F))
  :: nullary main_c_101 (constantI S_ 32 0#32)
  :: unary main_c_101 main_v298 (broadcastInDim S131072 ![] bcast_S_S131072 : (⟨S_, .i32⟩ : BufTy).Contents (Elt F) → (⟨S131072, .i32⟩ : BufTy).Contents (Elt F))
  :: binary main_v292 main_v298 main_v299 (cmpi .sge : (⟨S131072, .i32⟩ : BufTy).Contents (Elt F) → (⟨S131072, .i32⟩ : BufTy).Contents (Elt F) → (⟨S131072, .i1⟩ : BufTy).Contents (Elt F))
  :: binary main_v297 main_v299 main_v300 (andi : (⟨S131072, .i1⟩ : BufTy).Contents (Elt F) → (⟨S131072, .i1⟩ : BufTy).Contents (Elt F) → (⟨S131072, .i1⟩ : BufTy).Contents (Elt F))
  :: nullary main_c_102 (constantI S_ 32 256#32)
  :: unary main_c_102 main_v301 (broadcastInDim S131072 ![] bcast_S_S131072 : (⟨S_, .i32⟩ : BufTy).Contents (Elt F) → (⟨S131072, .i32⟩ : BufTy).Contents (Elt F))
  :: binary main_v292 main_v301 main_v302 (cmpi .slt : (⟨S131072, .i32⟩ : BufTy).Contents (Elt F) → (⟨S131072, .i32⟩ : BufTy).Contents (Elt F) → (⟨S131072, .i1⟩ : BufTy).Contents (Elt F))
  :: binary main_v300 main_v302 main_v303 (andi : (⟨S131072, .i1⟩ : BufTy).Contents (Elt F) → (⟨S131072, .i1⟩ : BufTy).Contents (Elt F) → (⟨S131072, .i1⟩ : BufTy).Contents (Elt F))
  :: nullary main_c_103 (constantI S_ 32 0#32)
  :: nullary main_c_104 (constantI S_ 32 255#32)
  :: unary main_c_103 main_call13_v0 ((id) : (⟨S_, .i32⟩ : BufTy).Contents (Elt F) → (⟨S_, .i32⟩ : BufTy).Contents (Elt F))
  :: unary main_call13_v0 main_call13_v1 (((broadcastInDim S131072 ![] bcast_S_S131072)) : (⟨S_, .i32⟩ : BufTy).Contents (Elt F) → (⟨S131072, .i32⟩ : BufTy).Contents (Elt F))
  :: binary main_call13_v1 main_v288 main_call13_v2 ((maxsi) : (⟨S131072, .i32⟩ : BufTy).Contents (Elt F) → (⟨S131072, .i32⟩ : BufTy).Contents (Elt F) → (⟨S131072, .i32⟩ : BufTy).Contents (Elt F))
  :: unary main_c_104 main_call13_v3 ((id) : (⟨S_, .i32⟩ : BufTy).Contents (Elt F) → (⟨S_, .i32⟩ : BufTy).Contents (Elt F))
  :: unary main_call13_v3 main_call13_v4 (((broadcastInDim S131072 ![] bcast_S_S131072)) : (⟨S_, .i32⟩ : BufTy).Contents (Elt F) → (⟨S131072, .i32⟩ : BufTy).Contents (Elt F))
  :: binary main_call13_v4 main_call13_v2 main_v304 ((minsi) : (⟨S131072, .i32⟩ : BufTy).Contents (Elt F) → (⟨S131072, .i32⟩ : BufTy).Contents (Elt F) → (⟨S131072, .i32⟩ : BufTy).Contents (Elt F))
  :: nullary main_c_105 (constantI S_ 32 0#32)
  :: nullary main_c_106 (constantI S_ 32 255#32)
  :: unary main_c_105 main_call14_v0 ((id) : (⟨S_, .i32⟩ : BufTy).Contents (Elt F) → (⟨S_, .i32⟩ : BufTy).Contents (Elt F))
  :: unary main_call14_v0 main_call14_v1 (((broadcastInDim S131072 ![] bcast_S_S131072)) : (⟨S_, .i32⟩ : BufTy).Contents (Elt F) → (⟨S131072, .i32⟩ : BufTy).Contents (Elt F))
  :: binary main_call14_v1 main_v292 main_call14_v2 ((maxsi) : (⟨S131072, .i32⟩ : BufTy).Contents (Elt F) → (⟨S131072, .i32⟩ : BufTy).Contents (Elt F) → (⟨S131072, .i32⟩ : BufTy).Contents (Elt F))
  :: unary main_c_106 main_call14_v3 ((id) : (⟨S_, .i32⟩ : BufTy).Contents (Elt F) → (⟨S_, .i32⟩ : BufTy).Contents (Elt F))
  :: unary main_call14_v3 main_call14_v4 (((broadcastInDim S131072 ![] bcast_S_S131072)) : (⟨S_, .i32⟩ : BufTy).Contents (Elt F) → (⟨S131072, .i32⟩ : BufTy).Contents (Elt F))
  :: binary main_call14_v4 main_call14_v2 main_v305 ((minsi) : (⟨S131072, .i32⟩ : BufTy).Contents (Elt F) → (⟨S131072, .i32⟩ : BufTy).Contents (Elt F) → (⟨S131072, .i32⟩ : BufTy).Contents (Elt F))
  :: nullary main_c_107 (constantI S_ 32 0#32)
  :: unary main_c_107 main_v306 (broadcastInDim S131072 ![] bcast_S_S131072 : (⟨S_, .i32⟩ : BufTy).Contents (Elt F) → (⟨S131072, .i32⟩ : BufTy).Contents (Elt F))
  :: binary main_v20 main_v306 main_v307 (cmpi .slt : (⟨S131072, .i32⟩ : BufTy).Contents (Elt F) → (⟨S131072, .i32⟩ : BufTy).Contents (Elt F) → (⟨S131072, .i1⟩ : BufTy).Contents (Elt F))
  :: nullary main_c_108 (constantI S_ 32 4#32)
  :: unary main_c_108 main_v308 (broadcastInDim S131072 ![] bcast_S_S131072 : (⟨S_, .i32⟩ : BufTy).Contents (Elt F) → (⟨S131072, .i32⟩ : BufTy).Contents (Elt F))
  :: binary main_v20 main_v308 main_v309 (addi : (⟨S131072, .i32⟩ : BufTy).Contents (Elt F) → (⟨S131072, .i32⟩ : BufTy).Contents (Elt F) → (⟨S131072, .i32⟩ : BufTy).Contents (Elt F))
  :: ternary main_v307 main_v309 main_v20 main_v310 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_109 (constantI S_ 32 0#32)
  :: unary main_c_109 main_v311 (broadcastInDim S131072 ![] bcast_S_S131072 : (⟨S_, .i32⟩ : BufTy).Contents (Elt F) → (⟨S131072, .i32⟩ : BufTy).Contents (Elt F))
  :: binary main_v304 main_v311 main_v312 (cmpi .slt : (⟨S131072, .i32⟩ : BufTy).Contents (Elt F) → (⟨S131072, .i32⟩ : BufTy).Contents (Elt F) → (⟨S131072, .i1⟩ : BufTy).Contents (Elt F))
  :: nullary main_c_110 (constantI S_ 32 256#32)
  :: unary main_c_110 main_v313 (broadcastInDim S131072 ![] bcast_S_S131072 : (⟨S_, .i32⟩ : BufTy).Contents (Elt F) → (⟨S131072, .i32⟩ : BufTy).Contents (Elt F))
  :: binary main_v304 main_v313 main_v314 (addi : (⟨S131072, .i32⟩ : BufTy).Contents (Elt F) → (⟨S131072, .i32⟩ : BufTy).Contents (Elt F) → (⟨S131072, .i32⟩ : BufTy).Contents (Elt F))
  :: ternary main_v312 main_v314 main_v304 main_v315 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_111 (constantI S_ 32 0#32)
  :: unary main_c_111 main_v316 (broadcastInDim S131072 ![] bcast_S_S131072 : (⟨S_, .i32⟩ : BufTy).Contents (Elt F) → (⟨S131072, .i32⟩ : BufTy).Contents (Elt F))
  :: binary main_v305 main_v316 main_v317 (cmpi .slt : (⟨S131072, .i32⟩ : BufTy).Contents (Elt F) → (⟨S131072, .i32⟩ : BufTy).Contents (Elt F) → (⟨S131072, .i1⟩ : BufTy).Contents (Elt F))
  :: nullary main_c_112 (constantI S_ 32 256#32)
  :: unary main_c_112 main_v318 (broadcastInDim S131072 ![] bcast_S_S131072 : (⟨S_, .i32⟩ : BufTy).Contents (Elt F) → (⟨S131072, .i32⟩ : BufTy).Contents (Elt F))
  :: binary main_v305 main_v318 main_v319 (addi : (⟨S131072, .i32⟩ : BufTy).Contents (Elt F) → (⟨S131072, .i32⟩ : BufTy).Contents (Elt F) → (⟨S131072, .i32⟩ : BufTy).Contents (Elt F))
  :: ternary main_v317 main_v319 main_v305 main_v320 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v310 main_v321 (broadcastInDim S131072x1 ![0] bcast_S131072_S131072x1_0 : (⟨S131072, .i32⟩ : BufTy).Contents (Elt F) → (⟨S131072x1, .i32⟩ : BufTy).Contents (Elt F))
  :: unary main_v315 main_v322 (broadcastInDim S131072x1 ![0] bcast_S131072_S131072x1_0 : (⟨S131072, .i32⟩ : BufTy).Contents (Elt F) → (⟨S131072x1, .i32⟩ : BufTy).Contents (Elt F))
  :: unary main_v320 main_v323 (broadcastInDim S131072x1 ![0] bcast_S131072_S131072x1_0 : (⟨S131072, .i32⟩ : BufTy).Contents (Elt F) → (⟨S131072x1, .i32⟩ : BufTy).Contents (Elt F))
  :: [] )
set_option maxHeartbeats 40000000 in
theorem opsTap4a_sub : (opsTap4a : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxHeartbeats 40000000 in
/-- Operations 506 … 533 of @main (28 of them), in order; the last writes `main_v343`. -/
abbrev opsTap4b : List (HloOp τ sig (Elt F)) :=
  ( nary ![main_v321, main_v322, main_v323] main_v324 (fun u => concatenate S131072x3 1 [⟨S131072x1, u 0⟩, ⟨S131072x1, u 1⟩, ⟨S131072x1, u 2⟩] concatenates_S131072x1_S131072x1_S131072x1_S131072x3_d1)
  :: binary main_v47 main_v324 main_v325 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F))
  :: nullary main_c_113 (constantI S_ 32 0#32)
  :: unary main_c_113 main_v326 (broadcastInDim S131072 ![] bcast_S_S131072 : (⟨S_, .i32⟩ : BufTy).Contents (Elt F) → (⟨S131072, .i32⟩ : BufTy).Contents (Elt F))
  :: binary main_v325 main_v326 main_v327 (cmpi .sge : (⟨S131072, .i32⟩ : BufTy).Contents (Elt F) → (⟨S131072, .i32⟩ : BufTy).Contents (Elt F) → (⟨S131072, .i1⟩ : BufTy).Contents (Elt F))
  :: binary main_v303 main_v327 main_v328 (andi : (⟨S131072, .i1⟩ : BufTy).Contents (Elt F) → (⟨S131072, .i1⟩ : BufTy).Contents (Elt F) → (⟨S131072, .i1⟩ : BufTy).Contents (Elt F))
  :: unary main_v328 main_v329 (broadcastInDim S131072x1 ![0] bcast_S131072_S131072x1_0 : (⟨S131072, .i1⟩ : BufTy).Contents (Elt F) → (⟨S131072x1, .i1⟩ : BufTy).Contents (Elt F))
  :: nullary main_c_114 (constantI S_ 32 0#32)
  :: unary main_c_114 main_v330 (broadcastInDim S131072 ![] bcast_S_S131072 : (⟨S_, .i32⟩ : BufTy).Contents (Elt F) → (⟨S131072, .i32⟩ : BufTy).Contents (Elt F))
  :: binary main_v325 main_v330 main_v331 (maxsi : (⟨S131072, .i32⟩ : BufTy).Contents (Elt F) → (⟨S131072, .i32⟩ : BufTy).Contents (Elt F) → (⟨S131072, .i32⟩ : BufTy).Contents (Elt F))
  :: nullary main_c_115 (constantI S_ 32 0#32)
  :: unary main_c_115 main_v332 (broadcastInDim S131072 ![] bcast_S_S131072 : (⟨S_, .i32⟩ : BufTy).Contents (Elt F) → (⟨S131072, .i32⟩ : BufTy).Contents (Elt F))
  :: binary main_v331 main_v332 main_v333 (cmpi .slt : (⟨S131072, .i32⟩ : BufTy).Contents (Elt F) → (⟨S131072, .i32⟩ : BufTy).Contents (Elt F) → (⟨S131072, .i1⟩ : BufTy).Contents (Elt F))
  :: nullary main_c_116 (constantI S_ 32 131072#32)
  :: unary main_c_116 main_v334 (broadcastInDim S131072 ![] bcast_S_S131072 : (⟨S_, .i32⟩ : BufTy).Contents (Elt F) → (⟨S131072, .i32⟩ : BufTy).Contents (Elt F))
  :: binary main_v331 main_v334 main_v335 (addi : (⟨S131072, .i32⟩ : BufTy).Contents (Elt F) → (⟨S131072, .i32⟩ : BufTy).Contents (Elt F) → (⟨S131072, .i32⟩ : BufTy).Contents (Elt F))
  :: ternary main_v333 main_v335 main_v331 main_v336 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v336 main_v337 (broadcastInDim S131072x1 ![0] bcast_S131072_S131072x1_0 : (⟨S131072, .i32⟩ : BufTy).Contents (Elt F) → (⟨S131072x1, .i32⟩ : BufTy).Contents (Elt F))
  :: binary main_v21 main_v337 main_v338 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F))
  :: nullary main_cst_117 (constant S_ .f32 0x00000000#32)
  :: unary main_cst_117 main_call15_v0 ((id) : (⟨S_, .f32⟩ : BufTy).Contents (Elt F) → (⟨S_, .f32⟩ : BufTy).Contents (Elt F))
  :: unary main_v329 main_call15_v1 (((broadcastInDim S131072x64 ![0, 1] bcast_S131072x1_S131072x64_0_1)) : (⟨S131072x1, .i1⟩ : BufTy).Contents (Elt F) → (⟨S131072x64, .i1⟩ : BufTy).Contents (Elt F))
  :: unary main_call15_v0 main_call15_v2 (((broadcastInDim S131072x64 ![] bcast_S_S131072x64)) : (⟨S_, .f32⟩ : BufTy).Contents (Elt F) → (⟨S131072x64, .f32⟩ : BufTy).Contents (Elt F))
  :: ternary main_call15_v1 main_v338 main_call15_v2 main_v339 ((select) : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F))
  :: unary main_arg2 main_v340 ((extractStridedSlice S1x1x64x64 ![1, 1, 0, 0] · slices_S3x3x64x64_S1x1x64x64_1_1_0_0) : (⟨S3x3x64x64, .f32⟩ : BufTy).Contents (Elt F) → (⟨S1x1x64x64, .f32⟩ : BufTy).Contents (Elt F))
  :: reshape main_v340 main_v341 rfl shapeCasts_S1x1x64x64_S64x64
  :: binary main_v339 main_v341 main_v342 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F))
  :: binary main_v284 main_v342 main_v343 (addf : (⟨S131072x64, .f32⟩ : BufTy).Contents (Elt F) → (⟨S131072x64, .f32⟩ : BufTy).Contents (Elt F) → (⟨S131072x64, .f32⟩ : BufTy).Contents (Elt F))
  :: [] )
set_option maxHeartbeats 40000000 in
theorem opsTap4b_sub : (opsTap4b : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub ..⟩

set_option maxHeartbeats 40000000 in
/-- Operations 534 … 598 of @main (65 of them), in order; the last writes `main_v382`. -/
abbrev opsTap5a : List (HloOp τ sig (Elt F)) :=
  ( unary main_v17 main_v344 ((extractStridedSlice S131072x1 ![0, 0] · slices_S131072x2_S131072x1_0_0) : (⟨S131072x2, .i32⟩ : BufTy).Contents (Elt F) → (⟨S131072x1, .i32⟩ : BufTy).Contents (Elt F))
  :: reshape main_v344 main_v345 rfl shapeCasts_S131072x1_S131072
  :: nullary main_c_118 (constantI S_ 32 0#32)
  :: unary main_c_118 main_v346 (broadcastInDim S131072 ![] bcast_S_S131072 : (⟨S_, .i32⟩ : BufTy).Contents (Elt F) → (⟨S131072, .i32⟩ : BufTy).Contents (Elt F))
  :: binary main_v345 main_v346 main_v347 (addi : (⟨S131072, .i32⟩ : BufTy).Contents (Elt F) → (⟨S131072, .i32⟩ : BufTy).Contents (Elt F) → (⟨S131072, .i32⟩ : BufTy).Contents (Elt F))
  :: unary main_v17 main_v348 ((extractStridedSlice S131072x1 ![0, 1] · slices_S131072x2_S131072x1_0_1) : (⟨S131072x2, .i32⟩ : BufTy).Contents (Elt F) → (⟨S131072x1, .i32⟩ : BufTy).Contents (Elt F))
  :: reshape main_v348 main_v349 rfl shapeCasts_S131072x1_S131072
  :: nullary main_c_119 (constantI S_ 32 1#32)
  :: unary main_c_119 main_v350 (broadcastInDim S131072 ![] bcast_S_S131072 : (⟨S_, .i32⟩ : BufTy).Contents (Elt F) → (⟨S131072, .i32⟩ : BufTy).Contents (Elt F))
  :: binary main_v349 main_v350 main_v351 (addi : (⟨S131072, .i32⟩ : BufTy).Contents (Elt F) → (⟨S131072, .i32⟩ : BufTy).Contents (Elt F) → (⟨S131072, .i32⟩ : BufTy).Contents (Elt F))
  :: nullary main_c_120 (constantI S_ 32 0#32)
  :: unary main_c_120 main_v352 (broadcastInDim S131072 ![] bcast_S_S131072 : (⟨S_, .i32⟩ : BufTy).Contents (Elt F) → (⟨S131072, .i32⟩ : BufTy).Contents (Elt F))
  :: binary main_v347 main_v352 main_v353 (cmpi .sge : (⟨S131072, .i32⟩ : BufTy).Contents (Elt F) → (⟨S131072, .i32⟩ : BufTy).Contents (Elt F) → (⟨S131072, .i1⟩ : BufTy).Contents (Elt F))
  :: nullary main_c_121 (constantI S_ 32 256#32)
  :: unary main_c_121 main_v354 (broadcastInDim S131072 ![] bcast_S_S131072 : (⟨S_, .i32⟩ : BufTy).Contents (Elt F) → (⟨S131072, .i32⟩ : BufTy).Contents (Elt F))
  :: binary main_v347 main_v354 main_v355 (cmpi .slt : (⟨S131072, .i32⟩ : BufTy).Contents (Elt F) → (⟨S131072, .i32⟩ : BufTy).Contents (Elt F) → (⟨S131072, .i1⟩ : BufTy).Contents (Elt F))
  :: binary main_v353 main_v355 main_v356 (andi : (⟨S131072, .i1⟩ : BufTy).Contents (Elt F) → (⟨S131072, .i1⟩ : BufTy).Contents (Elt F) → (⟨S131072, .i1⟩ : BufTy).Contents (Elt F))
  :: nullary main_c_122 (constantI S_ 32 0#32)
  :: unary main_c_122 main_v357 (broadcastInDim S131072 ![] bcast_S_S131072 : (⟨S_, .i32⟩ : BufTy).Contents (Elt F) → (⟨S131072, .i32⟩ : BufTy).Contents (Elt F))
  :: binary main_v351 main_v357 main_v358 (cmpi .sge : (⟨S131072, .i32⟩ : BufTy).Contents (Elt F) → (⟨S131072, .i32⟩ : BufTy).Contents (Elt F) → (⟨S131072, .i1⟩ : BufTy).Contents (Elt F))
  :: binary main_v356 main_v358 main_v359 (andi : (⟨S131072, .i1⟩ : BufTy).Contents (Elt F) → (⟨S131072, .i1⟩ : BufTy).Contents (Elt F) → (⟨S131072, .i1⟩ : BufTy).Contents (Elt F))
  :: nullary main_c_123 (constantI S_ 32 256#32)
  :: unary main_c_123 main_v360 (broadcastInDim S131072 ![] bcast_S_S131072 : (⟨S_, .i32⟩ : BufTy).Contents (Elt F) → (⟨S131072, .i32⟩ : BufTy).Contents (Elt F))
  :: binary main_v351 main_v360 main_v361 (cmpi .slt : (⟨S131072, .i32⟩ : BufTy).Contents (Elt F) → (⟨S131072, .i32⟩ : BufTy).Contents (Elt F) → (⟨S131072, .i1⟩ : BufTy).Contents (Elt F))
  :: binary main_v359 main_v361 main_v362 (andi : (⟨S131072, .i1⟩ : BufTy).Contents (Elt F) → (⟨S131072, .i1⟩ : BufTy).Contents (Elt F) → (⟨S131072, .i1⟩ : BufTy).Contents (Elt F))
  :: nullary main_c_124 (constantI S_ 32 0#32)
  :: nullary main_c_125 (constantI S_ 32 255#32)
  :: unary main_c_124 main_call16_v0 ((id) : (⟨S_, .i32⟩ : BufTy).Contents (Elt F) → (⟨S_, .i32⟩ : BufTy).Contents (Elt F))
  :: unary main_call16_v0 main_call16_v1 (((broadcastInDim S131072 ![] bcast_S_S131072)) : (⟨S_, .i32⟩ : BufTy).Contents (Elt F) → (⟨S131072, .i32⟩ : BufTy).Contents (Elt F))
  :: binary main_call16_v1 main_v347 main_call16_v2 ((maxsi) : (⟨S131072, .i32⟩ : BufTy).Contents (Elt F) → (⟨S131072, .i32⟩ : BufTy).Contents (Elt F) → (⟨S131072, .i32⟩ : BufTy).Contents (Elt F))
  :: unary main_c_125 main_call16_v3 ((id) : (⟨S_, .i32⟩ : BufTy).Contents (Elt F) → (⟨S_, .i32⟩ : BufTy).Contents (Elt F))
  :: unary main_call16_v3 main_call16_v4 (((broadcastInDim S131072 ![] bcast_S_S131072)) : (⟨S_, .i32⟩ : BufTy).Contents (Elt F) → (⟨S131072, .i32⟩ : BufTy).Contents (Elt F))
  :: binary main_call16_v4 main_call16_v2 main_v363 ((minsi) : (⟨S131072, .i32⟩ : BufTy).Contents (Elt F) → (⟨S131072, .i32⟩ : BufTy).Contents (Elt F) → (⟨S131072, .i32⟩ : BufTy).Contents (Elt F))
  :: nullary main_c_126 (constantI S_ 32 0#32)
  :: nullary main_c_127 (constantI S_ 32 255#32)
  :: unary main_c_126 main_call17_v0 ((id) : (⟨S_, .i32⟩ : BufTy).Contents (Elt F) → (⟨S_, .i32⟩ : BufTy).Contents (Elt F))
  :: unary main_call17_v0 main_call17_v1 (((broadcastInDim S131072 ![] bcast_S_S131072)) : (⟨S_, .i32⟩ : BufTy).Contents (Elt F) → (⟨S131072, .i32⟩ : BufTy).Contents (Elt F))
  :: binary main_call17_v1 main_v351 main_call17_v2 ((maxsi) : (⟨S131072, .i32⟩ : BufTy).Contents (Elt F) → (⟨S131072, .i32⟩ : BufTy).Contents (Elt F) → (⟨S131072, .i32⟩ : BufTy).Contents (Elt F))
  :: unary main_c_127 main_call17_v3 ((id) : (⟨S_, .i32⟩ : BufTy).Contents (Elt F) → (⟨S_, .i32⟩ : BufTy).Contents (Elt F))
  :: unary main_call17_v3 main_call17_v4 (((broadcastInDim S131072 ![] bcast_S_S131072)) : (⟨S_, .i32⟩ : BufTy).Contents (Elt F) → (⟨S131072, .i32⟩ : BufTy).Contents (Elt F))
  :: binary main_call17_v4 main_call17_v2 main_v364 ((minsi) : (⟨S131072, .i32⟩ : BufTy).Contents (Elt F) → (⟨S131072, .i32⟩ : BufTy).Contents (Elt F) → (⟨S131072, .i32⟩ : BufTy).Contents (Elt F))
  :: nullary main_c_128 (constantI S_ 32 0#32)
  :: unary main_c_128 main_v365 (broadcastInDim S131072 ![] bcast_S_S131072 : (⟨S_, .i32⟩ : BufTy).Contents (Elt F) → (⟨S131072, .i32⟩ : BufTy).Contents (Elt F))
  :: binary main_v20 main_v365 main_v366 (cmpi .slt : (⟨S131072, .i32⟩ : BufTy).Contents (Elt F) → (⟨S131072, .i32⟩ : BufTy).Contents (Elt F) → (⟨S131072, .i1⟩ : BufTy).Contents (Elt F))
  :: nullary main_c_129 (constantI S_ 32 4#32)
  :: unary main_c_129 main_v367 (broadcastInDim S131072 ![] bcast_S_S131072 : (⟨S_, .i32⟩ : BufTy).Contents (Elt F) → (⟨S131072, .i32⟩ : BufTy).Contents (Elt F))
  :: binary main_v20 main_v367 main_v368 (addi : (⟨S131072, .i32⟩ : BufTy).Contents (Elt F) → (⟨S131072, .i32⟩ : BufTy).Contents (Elt F) → (⟨S131072, .i32⟩ : BufTy).Contents (Elt F))
  :: ternary main_v366 main_v368 main_v20 main_v369 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_130 (constantI S_ 32 0#32)
  :: unary main_c_130 main_v370 (broadcastInDim S131072 ![] bcast_S_S131072 : (⟨S_, .i32⟩ : BufTy).Contents (Elt F) → (⟨S131072, .i32⟩ : BufTy).Contents (Elt F))
  :: binary main_v363 main_v370 main_v371 (cmpi .slt : (⟨S131072, .i32⟩ : BufTy).Contents (Elt F) → (⟨S131072, .i32⟩ : BufTy).Contents (Elt F) → (⟨S131072, .i1⟩ : BufTy).Contents (Elt F))
  :: nullary main_c_131 (constantI S_ 32 256#32)
  :: unary main_c_131 main_v372 (broadcastInDim S131072 ![] bcast_S_S131072 : (⟨S_, .i32⟩ : BufTy).Contents (Elt F) → (⟨S131072, .i32⟩ : BufTy).Contents (Elt F))
  :: binary main_v363 main_v372 main_v373 (addi : (⟨S131072, .i32⟩ : BufTy).Contents (Elt F) → (⟨S131072, .i32⟩ : BufTy).Contents (Elt F) → (⟨S131072, .i32⟩ : BufTy).Contents (Elt F))
  :: ternary main_v371 main_v373 main_v363 main_v374 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_132 (constantI S_ 32 0#32)
  :: unary main_c_132 main_v375 (broadcastInDim S131072 ![] bcast_S_S131072 : (⟨S_, .i32⟩ : BufTy).Contents (Elt F) → (⟨S131072, .i32⟩ : BufTy).Contents (Elt F))
  :: binary main_v364 main_v375 main_v376 (cmpi .slt : (⟨S131072, .i32⟩ : BufTy).Contents (Elt F) → (⟨S131072, .i32⟩ : BufTy).Contents (Elt F) → (⟨S131072, .i1⟩ : BufTy).Contents (Elt F))
  :: nullary main_c_133 (constantI S_ 32 256#32)
  :: unary main_c_133 main_v377 (broadcastInDim S131072 ![] bcast_S_S131072 : (⟨S_, .i32⟩ : BufTy).Contents (Elt F) → (⟨S131072, .i32⟩ : BufTy).Contents (Elt F))
  :: binary main_v364 main_v377 main_v378 (addi : (⟨S131072, .i32⟩ : BufTy).Contents (Elt F) → (⟨S131072, .i32⟩ : BufTy).Contents (Elt F) → (⟨S131072, .i32⟩ : BufTy).Contents (Elt F))
  :: ternary main_v376 main_v378 main_v364 main_v379 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v369 main_v380 (broadcastInDim S131072x1 ![0] bcast_S131072_S131072x1_0 : (⟨S131072, .i32⟩ : BufTy).Contents (Elt F) → (⟨S131072x1, .i32⟩ : BufTy).Contents (Elt F))
  :: unary main_v374 main_v381 (broadcastInDim S131072x1 ![0] bcast_S131072_S131072x1_0 : (⟨S131072, .i32⟩ : BufTy).Contents (Elt F) → (⟨S131072x1, .i32⟩ : BufTy).Contents (Elt F))
  :: unary main_v379 main_v382 (broadcastInDim S131072x1 ![0] bcast_S131072_S131072x1_0 : (⟨S131072, .i32⟩ : BufTy).Contents (Elt F) → (⟨S131072x1, .i32⟩ : BufTy).Contents (Elt F))
  :: [] )
set_option maxHeartbeats 40000000 in
theorem opsTap5a_sub : (opsTap5a : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxHeartbeats 40000000 in
/-- Operations 599 … 626 of @main (28 of them), in order; the last writes `main_v402`. -/
abbrev opsTap5b : List (HloOp τ sig (Elt F)) :=
  ( nary ![main_v380, main_v381, main_v382] main_v383 (fun u => concatenate S131072x3 1 [⟨S131072x1, u 0⟩, ⟨S131072x1, u 1⟩, ⟨S131072x1, u 2⟩] concatenates_S131072x1_S131072x1_S131072x1_S131072x3_d1)
  :: binary main_v47 main_v383 main_v384 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F))
  :: nullary main_c_134 (constantI S_ 32 0#32)
  :: unary main_c_134 main_v385 (broadcastInDim S131072 ![] bcast_S_S131072 : (⟨S_, .i32⟩ : BufTy).Contents (Elt F) → (⟨S131072, .i32⟩ : BufTy).Contents (Elt F))
  :: binary main_v384 main_v385 main_v386 (cmpi .sge : (⟨S131072, .i32⟩ : BufTy).Contents (Elt F) → (⟨S131072, .i32⟩ : BufTy).Contents (Elt F) → (⟨S131072, .i1⟩ : BufTy).Contents (Elt F))
  :: binary main_v362 main_v386 main_v387 (andi : (⟨S131072, .i1⟩ : BufTy).Contents (Elt F) → (⟨S131072, .i1⟩ : BufTy).Contents (Elt F) → (⟨S131072, .i1⟩ : BufTy).Contents (Elt F))
  :: unary main_v387 main_v388 (broadcastInDim S131072x1 ![0] bcast_S131072_S131072x1_0 : (⟨S131072, .i1⟩ : BufTy).Contents (Elt F) → (⟨S131072x1, .i1⟩ : BufTy).Contents (Elt F))
  :: nullary main_c_135 (constantI S_ 32 0#32)
  :: unary main_c_135 main_v389 (broadcastInDim S131072 ![] bcast_S_S131072 : (⟨S_, .i32⟩ : BufTy).Contents (Elt F) → (⟨S131072, .i32⟩ : BufTy).Contents (Elt F))
  :: binary main_v384 main_v389 main_v390 (maxsi : (⟨S131072, .i32⟩ : BufTy).Contents (Elt F) → (⟨S131072, .i32⟩ : BufTy).Contents (Elt F) → (⟨S131072, .i32⟩ : BufTy).Contents (Elt F))
  :: nullary main_c_136 (constantI S_ 32 0#32)
  :: unary main_c_136 main_v391 (broadcastInDim S131072 ![] bcast_S_S131072 : (⟨S_, .i32⟩ : BufTy).Contents (Elt F) → (⟨S131072, .i32⟩ : BufTy).Contents (Elt F))
  :: binary main_v390 main_v391 main_v392 (cmpi .slt : (⟨S131072, .i32⟩ : BufTy).Contents (Elt F) → (⟨S131072, .i32⟩ : BufTy).Contents (Elt F) → (⟨S131072, .i1⟩ : BufTy).Contents (Elt F))
  :: nullary main_c_137 (constantI S_ 32 131072#32)
  :: unary main_c_137 main_v393 (broadcastInDim S131072 ![] bcast_S_S131072 : (⟨S_, .i32⟩ : BufTy).Contents (Elt F) → (⟨S131072, .i32⟩ : BufTy).Contents (Elt F))
  :: binary main_v390 main_v393 main_v394 (addi : (⟨S131072, .i32⟩ : BufTy).Contents (Elt F) → (⟨S131072, .i32⟩ : BufTy).Contents (Elt F) → (⟨S131072, .i32⟩ : BufTy).Contents (Elt F))
  :: ternary main_v392 main_v394 main_v390 main_v395 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v395 main_v396 (broadcastInDim S131072x1 ![0] bcast_S131072_S131072x1_0 : (⟨S131072, .i32⟩ : BufTy).Contents (Elt F) → (⟨S131072x1, .i32⟩ : BufTy).Contents (Elt F))
  :: binary main_v21 main_v396 main_v397 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F))
  :: nullary main_cst_138 (constant S_ .f32 0x00000000#32)
  :: unary main_cst_138 main_call18_v0 ((id) : (⟨S_, .f32⟩ : BufTy).Contents (Elt F) → (⟨S_, .f32⟩ : BufTy).Contents (Elt F))
  :: unary main_v388 main_call18_v1 (((broadcastInDim S131072x64 ![0, 1] bcast_S131072x1_S131072x64_0_1)) : (⟨S131072x1, .i1⟩ : BufTy).Contents (Elt F) → (⟨S131072x64, .i1⟩ : BufTy).Contents (Elt F))
  :: unary main_call18_v0 main_call18_v2 (((broadcastInDim S131072x64 ![] bcast_S_S131072x64)) : (⟨S_, .f32⟩ : BufTy).Contents (Elt F) → (⟨S131072x64, .f32⟩ : BufTy).Contents (Elt F))
  :: ternary main_call18_v1 main_v397 main_call18_v2 main_v398 ((select) : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F))
  :: unary main_arg2 main_v399 ((extractStridedSlice S1x1x64x64 ![1, 2, 0, 0] · slices_S3x3x64x64_S1x1x64x64_1_2_0_0) : (⟨S3x3x64x64, .f32⟩ : BufTy).Contents (Elt F) → (⟨S1x1x64x64, .f32⟩ : BufTy).Contents (Elt F))
  :: reshape main_v399 main_v400 rfl shapeCasts_S1x1x64x64_S64x64
  :: binary main_v398 main_v400 main_v401 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F))
  :: binary main_v343 main_v401 main_v402 (addf : (⟨S131072x64, .f32⟩ : BufTy).Contents (Elt F) → (⟨S131072x64, .f32⟩ : BufTy).Contents (Elt F) → (⟨S131072x64, .f32⟩ : BufTy).Contents (Elt F))
  :: [] )
set_option maxHeartbeats 40000000 in
theorem opsTap5b_sub : (opsTap5b : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub ..⟩

set_option maxHeartbeats 40000000 in
/-- Operations 627 … 691 of @main (65 of them), in order; the last writes `main_v441`. -/
abbrev opsTap6a : List (HloOp τ sig (Elt F)) :=
  ( unary main_v17 main_v403 ((extractStridedSlice S131072x1 ![0, 0] · slices_S131072x2_S131072x1_0_0) : (⟨S131072x2, .i32⟩ : BufTy).Contents (Elt F) → (⟨S131072x1, .i32⟩ : BufTy).Contents (Elt F))
  :: reshape main_v403 main_v404 rfl shapeCasts_S131072x1_S131072
  :: nullary main_c_139 (constantI S_ 32 1#32)
  :: unary main_c_139 main_v405 (broadcastInDim S131072 ![] bcast_S_S131072 : (⟨S_, .i32⟩ : BufTy).Contents (Elt F) → (⟨S131072, .i32⟩ : BufTy).Contents (Elt F))
  :: binary main_v404 main_v405 main_v406 (addi : (⟨S131072, .i32⟩ : BufTy).Contents (Elt F) → (⟨S131072, .i32⟩ : BufTy).Contents (Elt F) → (⟨S131072, .i32⟩ : BufTy).Contents (Elt F))
  :: unary main_v17 main_v407 ((extractStridedSlice S131072x1 ![0, 1] · slices_S131072x2_S131072x1_0_1) : (⟨S131072x2, .i32⟩ : BufTy).Contents (Elt F) → (⟨S131072x1, .i32⟩ : BufTy).Contents (Elt F))
  :: reshape main_v407 main_v408 rfl shapeCasts_S131072x1_S131072
  :: nullary main_c_140 (constantI S_ 32 4294967295#32)
  :: unary main_c_140 main_v409 (broadcastInDim S131072 ![] bcast_S_S131072 : (⟨S_, .i32⟩ : BufTy).Contents (Elt F) → (⟨S131072, .i32⟩ : BufTy).Contents (Elt F))
  :: binary main_v408 main_v409 main_v410 (addi : (⟨S131072, .i32⟩ : BufTy).Contents (Elt F) → (⟨S131072, .i32⟩ : BufTy).Contents (Elt F) → (⟨S131072, .i32⟩ : BufTy).Contents (Elt F))
  :: nullary main_c_141 (constantI S_ 32 0#32)
  :: unary main_c_141 main_v411 (broadcastInDim S131072 ![] bcast_S_S131072 : (⟨S_, .i32⟩ : BufTy).Contents (Elt F) → (⟨S131072, .i32⟩ : BufTy).Contents (Elt F))
  :: binary main_v406 main_v411 main_v412 (cmpi .sge : (⟨S131072, .i32⟩ : BufTy).Contents (Elt F) → (⟨S131072, .i32⟩ : BufTy).Contents (Elt F) → (⟨S131072, .i1⟩ : BufTy).Contents (Elt F))
  :: nullary main_c_142 (constantI S_ 32 256#32)
  :: unary main_c_142 main_v413 (broadcastInDim S131072 ![] bcast_S_S131072 : (⟨S_, .i32⟩ : BufTy).Contents (Elt F) → (⟨S131072, .i32⟩ : BufTy).Contents (Elt F))
  :: binary main_v406 main_v413 main_v414 (cmpi .slt : (⟨S131072, .i32⟩ : BufTy).Contents (Elt F) → (⟨S131072, .i32⟩ : BufTy).Contents (Elt F) → (⟨S131072, .i1⟩ : BufTy).Contents (Elt F))
  :: binary main_v412 main_v414 main_v415 (andi : (⟨S131072, .i1⟩ : BufTy).Contents (Elt F) → (⟨S131072, .i1⟩ : BufTy).Contents (Elt F) → (⟨S131072, .i1⟩ : BufTy).Contents (Elt F))
  :: nullary main_c_143 (constantI S_ 32 0#32)
  :: unary main_c_143 main_v416 (broadcastInDim S131072 ![] bcast_S_S131072 : (⟨S_, .i32⟩ : BufTy).Contents (Elt F) → (⟨S131072, .i32⟩ : BufTy).Contents (Elt F))
  :: binary main_v410 main_v416 main_v417 (cmpi .sge : (⟨S131072, .i32⟩ : BufTy).Contents (Elt F) → (⟨S131072, .i32⟩ : BufTy).Contents (Elt F) → (⟨S131072, .i1⟩ : BufTy).Contents (Elt F))
  :: binary main_v415 main_v417 main_v418 (andi : (⟨S131072, .i1⟩ : BufTy).Contents (Elt F) → (⟨S131072, .i1⟩ : BufTy).Contents (Elt F) → (⟨S131072, .i1⟩ : BufTy).Contents (Elt F))
  :: nullary main_c_144 (constantI S_ 32 256#32)
  :: unary main_c_144 main_v419 (broadcastInDim S131072 ![] bcast_S_S131072 : (⟨S_, .i32⟩ : BufTy).Contents (Elt F) → (⟨S131072, .i32⟩ : BufTy).Contents (Elt F))
  :: binary main_v410 main_v419 main_v420 (cmpi .slt : (⟨S131072, .i32⟩ : BufTy).Contents (Elt F) → (⟨S131072, .i32⟩ : BufTy).Contents (Elt F) → (⟨S131072, .i1⟩ : BufTy).Contents (Elt F))
  :: binary main_v418 main_v420 main_v421 (andi : (⟨S131072, .i1⟩ : BufTy).Contents (Elt F) → (⟨S131072, .i1⟩ : BufTy).Contents (Elt F) → (⟨S131072, .i1⟩ : BufTy).Contents (Elt F))
  :: nullary main_c_145 (constantI S_ 32 0#32)
  :: nullary main_c_146 (constantI S_ 32 255#32)
  :: unary main_c_145 main_call19_v0 ((id) : (⟨S_, .i32⟩ : BufTy).Contents (Elt F) → (⟨S_, .i32⟩ : BufTy).Contents (Elt F))
  :: unary main_call19_v0 main_call19_v1 (((broadcastInDim S131072 ![] bcast_S_S131072)) : (⟨S_, .i32⟩ : BufTy).Contents (Elt F) → (⟨S131072, .i32⟩ : BufTy).Contents (Elt F))
  :: binary main_call19_v1 main_v406 main_call19_v2 ((maxsi) : (⟨S131072, .i32⟩ : BufTy).Contents (Elt F) → (⟨S131072, .i32⟩ : BufTy).Contents (Elt F) → (⟨S131072, .i32⟩ : BufTy).Contents (Elt F))
  :: unary main_c_146 main_call19_v3 ((id) : (⟨S_, .i32⟩ : BufTy).Contents (Elt F) → (⟨S_, .i32⟩ : BufTy).Contents (Elt F))
  :: unary main_call19_v3 main_call19_v4 (((broadcastInDim S131072 ![] bcast_S_S131072)) : (⟨S_, .i32⟩ : BufTy).Contents (Elt F) → (⟨S131072, .i32⟩ : BufTy).Contents (Elt F))
  :: binary main_call19_v4 main_call19_v2 main_v422 ((minsi) : (⟨S131072, .i32⟩ : BufTy).Contents (Elt F) → (⟨S131072, .i32⟩ : BufTy).Contents (Elt F) → (⟨S131072, .i32⟩ : BufTy).Contents (Elt F))
  :: nullary main_c_147 (constantI S_ 32 0#32)
  :: nullary main_c_148 (constantI S_ 32 255#32)
  :: unary main_c_147 main_call20_v0 ((id) : (⟨S_, .i32⟩ : BufTy).Contents (Elt F) → (⟨S_, .i32⟩ : BufTy).Contents (Elt F))
  :: unary main_call20_v0 main_call20_v1 (((broadcastInDim S131072 ![] bcast_S_S131072)) : (⟨S_, .i32⟩ : BufTy).Contents (Elt F) → (⟨S131072, .i32⟩ : BufTy).Contents (Elt F))
  :: binary main_call20_v1 main_v410 main_call20_v2 ((maxsi) : (⟨S131072, .i32⟩ : BufTy).Contents (Elt F) → (⟨S131072, .i32⟩ : BufTy).Contents (Elt F) → (⟨S131072, .i32⟩ : BufTy).Contents (Elt F))
  :: unary main_c_148 main_call20_v3 ((id) : (⟨S_, .i32⟩ : BufTy).Contents (Elt F) → (⟨S_, .i32⟩ : BufTy).Contents (Elt F))
  :: unary main_call20_v3 main_call20_v4 (((broadcastInDim S131072 ![] bcast_S_S131072)) : (⟨S_, .i32⟩ : BufTy).Contents (Elt F) → (⟨S131072, .i32⟩ : BufTy).Contents (Elt F))
  :: binary main_call20_v4 main_call20_v2 main_v423 ((minsi) : (⟨S131072, .i32⟩ : BufTy).Contents (Elt F) → (⟨S131072, .i32⟩ : BufTy).Contents (Elt F) → (⟨S131072, .i32⟩ : BufTy).Contents (Elt F))
  :: nullary main_c_149 (constantI S_ 32 0#32)
  :: unary main_c_149 main_v424 (broadcastInDim S131072 ![] bcast_S_S131072 : (⟨S_, .i32⟩ : BufTy).Contents (Elt F) → (⟨S131072, .i32⟩ : BufTy).Contents (Elt F))
  :: binary main_v20 main_v424 main_v425 (cmpi .slt : (⟨S131072, .i32⟩ : BufTy).Contents (Elt F) → (⟨S131072, .i32⟩ : BufTy).Contents (Elt F) → (⟨S131072, .i1⟩ : BufTy).Contents (Elt F))
  :: nullary main_c_150 (constantI S_ 32 4#32)
  :: unary main_c_150 main_v426 (broadcastInDim S131072 ![] bcast_S_S131072 : (⟨S_, .i32⟩ : BufTy).Contents (Elt F) → (⟨S131072, .i32⟩ : BufTy).Contents (Elt F))
  :: binary main_v20 main_v426 main_v427 (addi : (⟨S131072, .i32⟩ : BufTy).Contents (Elt F) → (⟨S131072, .i32⟩ : BufTy).Contents (Elt F) → (⟨S131072, .i32⟩ : BufTy).Contents (Elt F))
  :: ternary main_v425 main_v427 main_v20 main_v428 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_151 (constantI S_ 32 0#32)
  :: unary main_c_151 main_v429 (broadcastInDim S131072 ![] bcast_S_S131072 : (⟨S_, .i32⟩ : BufTy).Contents (Elt F) → (⟨S131072, .i32⟩ : BufTy).Contents (Elt F))
  :: binary main_v422 main_v429 main_v430 (cmpi .slt : (⟨S131072, .i32⟩ : BufTy).Contents (Elt F) → (⟨S131072, .i32⟩ : BufTy).Contents (Elt F) → (⟨S131072, .i1⟩ : BufTy).Contents (Elt F))
  :: nullary main_c_152 (constantI S_ 32 256#32)
  :: unary main_c_152 main_v431 (broadcastInDim S131072 ![] bcast_S_S131072 : (⟨S_, .i32⟩ : BufTy).Contents (Elt F) → (⟨S131072, .i32⟩ : BufTy).Contents (Elt F))
  :: binary main_v422 main_v431 main_v432 (addi : (⟨S131072, .i32⟩ : BufTy).Contents (Elt F) → (⟨S131072, .i32⟩ : BufTy).Contents (Elt F) → (⟨S131072, .i32⟩ : BufTy).Contents (Elt F))
  :: ternary main_v430 main_v432 main_v422 main_v433 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_153 (constantI S_ 32 0#32)
  :: unary main_c_153 main_v434 (broadcastInDim S131072 ![] bcast_S_S131072 : (⟨S_, .i32⟩ : BufTy).Contents (Elt F) → (⟨S131072, .i32⟩ : BufTy).Contents (Elt F))
  :: binary main_v423 main_v434 main_v435 (cmpi .slt : (⟨S131072, .i32⟩ : BufTy).Contents (Elt F) → (⟨S131072, .i32⟩ : BufTy).Contents (Elt F) → (⟨S131072, .i1⟩ : BufTy).Contents (Elt F))
  :: nullary main_c_154 (constantI S_ 32 256#32)
  :: unary main_c_154 main_v436 (broadcastInDim S131072 ![] bcast_S_S131072 : (⟨S_, .i32⟩ : BufTy).Contents (Elt F) → (⟨S131072, .i32⟩ : BufTy).Contents (Elt F))
  :: binary main_v423 main_v436 main_v437 (addi : (⟨S131072, .i32⟩ : BufTy).Contents (Elt F) → (⟨S131072, .i32⟩ : BufTy).Contents (Elt F) → (⟨S131072, .i32⟩ : BufTy).Contents (Elt F))
  :: ternary main_v435 main_v437 main_v423 main_v438 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v428 main_v439 (broadcastInDim S131072x1 ![0] bcast_S131072_S131072x1_0 : (⟨S131072, .i32⟩ : BufTy).Contents (Elt F) → (⟨S131072x1, .i32⟩ : BufTy).Contents (Elt F))
  :: unary main_v433 main_v440 (broadcastInDim S131072x1 ![0] bcast_S131072_S131072x1_0 : (⟨S131072, .i32⟩ : BufTy).Contents (Elt F) → (⟨S131072x1, .i32⟩ : BufTy).Contents (Elt F))
  :: unary main_v438 main_v441 (broadcastInDim S131072x1 ![0] bcast_S131072_S131072x1_0 : (⟨S131072, .i32⟩ : BufTy).Contents (Elt F) → (⟨S131072x1, .i32⟩ : BufTy).Contents (Elt F))
  :: [] )
set_option maxHeartbeats 40000000 in
theorem opsTap6a_sub : (opsTap6a : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxHeartbeats 40000000 in
/-- Operations 692 … 719 of @main (28 of them), in order; the last writes `main_v461`. -/
abbrev opsTap6b : List (HloOp τ sig (Elt F)) :=
  ( nary ![main_v439, main_v440, main_v441] main_v442 (fun u => concatenate S131072x3 1 [⟨S131072x1, u 0⟩, ⟨S131072x1, u 1⟩, ⟨S131072x1, u 2⟩] concatenates_S131072x1_S131072x1_S131072x1_S131072x3_d1)
  :: binary main_v47 main_v442 main_v443 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F))
  :: nullary main_c_155 (constantI S_ 32 0#32)
  :: unary main_c_155 main_v444 (broadcastInDim S131072 ![] bcast_S_S131072 : (⟨S_, .i32⟩ : BufTy).Contents (Elt F) → (⟨S131072, .i32⟩ : BufTy).Contents (Elt F))
  :: binary main_v443 main_v444 main_v445 (cmpi .sge : (⟨S131072, .i32⟩ : BufTy).Contents (Elt F) → (⟨S131072, .i32⟩ : BufTy).Contents (Elt F) → (⟨S131072, .i1⟩ : BufTy).Contents (Elt F))
  :: binary main_v421 main_v445 main_v446 (andi : (⟨S131072, .i1⟩ : BufTy).Contents (Elt F) → (⟨S131072, .i1⟩ : BufTy).Contents (Elt F) → (⟨S131072, .i1⟩ : BufTy).Contents (Elt F))
  :: unary main_v446 main_v447 (broadcastInDim S131072x1 ![0] bcast_S131072_S131072x1_0 : (⟨S131072, .i1⟩ : BufTy).Contents (Elt F) → (⟨S131072x1, .i1⟩ : BufTy).Contents (Elt F))
  :: nullary main_c_156 (constantI S_ 32 0#32)
  :: unary main_c_156 main_v448 (broadcastInDim S131072 ![] bcast_S_S131072 : (⟨S_, .i32⟩ : BufTy).Contents (Elt F) → (⟨S131072, .i32⟩ : BufTy).Contents (Elt F))
  :: binary main_v443 main_v448 main_v449 (maxsi : (⟨S131072, .i32⟩ : BufTy).Contents (Elt F) → (⟨S131072, .i32⟩ : BufTy).Contents (Elt F) → (⟨S131072, .i32⟩ : BufTy).Contents (Elt F))
  :: nullary main_c_157 (constantI S_ 32 0#32)
  :: unary main_c_157 main_v450 (broadcastInDim S131072 ![] bcast_S_S131072 : (⟨S_, .i32⟩ : BufTy).Contents (Elt F) → (⟨S131072, .i32⟩ : BufTy).Contents (Elt F))
  :: binary main_v449 main_v450 main_v451 (cmpi .slt : (⟨S131072, .i32⟩ : BufTy).Contents (Elt F) → (⟨S131072, .i32⟩ : BufTy).Contents (Elt F) → (⟨S131072, .i1⟩ : BufTy).Contents (Elt F))
  :: nullary main_c_158 (constantI S_ 32 131072#32)
  :: unary main_c_158 main_v452 (broadcastInDim S131072 ![] bcast_S_S131072 : (⟨S_, .i32⟩ : BufTy).Contents (Elt F) → (⟨S131072, .i32⟩ : BufTy).Contents (Elt F))
  :: binary main_v449 main_v452 main_v453 (addi : (⟨S131072, .i32⟩ : BufTy).Contents (Elt F) → (⟨S131072, .i32⟩ : BufTy).Contents (Elt F) → (⟨S131072, .i32⟩ : BufTy).Contents (Elt F))
  :: ternary main_v451 main_v453 main_v449 main_v454 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v454 main_v455 (broadcastInDim S131072x1 ![0] bcast_S131072_S131072x1_0 : (⟨S131072, .i32⟩ : BufTy).Contents (Elt F) → (⟨S131072x1, .i32⟩ : BufTy).Contents (Elt F))
  :: binary main_v21 main_v455 main_v456 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F))
  :: nullary main_cst_159 (constant S_ .f32 0x00000000#32)
  :: unary main_cst_159 main_call21_v0 ((id) : (⟨S_, .f32⟩ : BufTy).Contents (Elt F) → (⟨S_, .f32⟩ : BufTy).Contents (Elt F))
  :: unary main_v447 main_call21_v1 (((broadcastInDim S131072x64 ![0, 1] bcast_S131072x1_S131072x64_0_1)) : (⟨S131072x1, .i1⟩ : BufTy).Contents (Elt F) → (⟨S131072x64, .i1⟩ : BufTy).Contents (Elt F))
  :: unary main_call21_v0 main_call21_v2 (((broadcastInDim S131072x64 ![] bcast_S_S131072x64)) : (⟨S_, .f32⟩ : BufTy).Contents (Elt F) → (⟨S131072x64, .f32⟩ : BufTy).Contents (Elt F))
  :: ternary main_call21_v1 main_v456 main_call21_v2 main_v457 ((select) : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F))
  :: unary main_arg2 main_v458 ((extractStridedSlice S1x1x64x64 ![2, 0, 0, 0] · slices_S3x3x64x64_S1x1x64x64_2_0_0_0) : (⟨S3x3x64x64, .f32⟩ : BufTy).Contents (Elt F) → (⟨S1x1x64x64, .f32⟩ : BufTy).Contents (Elt F))
  :: reshape main_v458 main_v459 rfl shapeCasts_S1x1x64x64_S64x64
  :: binary main_v457 main_v459 main_v460 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F))
  :: binary main_v402 main_v460 main_v461 (addf : (⟨S131072x64, .f32⟩ : BufTy).Contents (Elt F) → (⟨S131072x64, .f32⟩ : BufTy).Contents (Elt F) → (⟨S131072x64, .f32⟩ : BufTy).Contents (Elt F))
  :: [] )
set_option maxHeartbeats 40000000 in
theorem opsTap6b_sub : (opsTap6b : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub ..⟩

set_option maxHeartbeats 40000000 in
/-- Operations 720 … 784 of @main (65 of them), in order; the last writes `main_v500`. -/
abbrev opsTap7a : List (HloOp τ sig (Elt F)) :=
  ( unary main_v17 main_v462 ((extractStridedSlice S131072x1 ![0, 0] · slices_S131072x2_S131072x1_0_0) : (⟨S131072x2, .i32⟩ : BufTy).Contents (Elt F) → (⟨S131072x1, .i32⟩ : BufTy).Contents (Elt F))
  :: reshape main_v462 main_v463 rfl shapeCasts_S131072x1_S131072
  :: nullary main_c_160 (constantI S_ 32 1#32)
  :: unary main_c_160 main_v464 (broadcastInDim S131072 ![] bcast_S_S131072 : (⟨S_, .i32⟩ : BufTy).Contents (Elt F) → (⟨S131072, .i32⟩ : BufTy).Contents (Elt F))
  :: binary main_v463 main_v464 main_v465 (addi : (⟨S131072, .i32⟩ : BufTy).Contents (Elt F) → (⟨S131072, .i32⟩ : BufTy).Contents (Elt F) → (⟨S131072, .i32⟩ : BufTy).Contents (Elt F))
  :: unary main_v17 main_v466 ((extractStridedSlice S131072x1 ![0, 1] · slices_S131072x2_S131072x1_0_1) : (⟨S131072x2, .i32⟩ : BufTy).Contents (Elt F) → (⟨S131072x1, .i32⟩ : BufTy).Contents (Elt F))
  :: reshape main_v466 main_v467 rfl shapeCasts_S131072x1_S131072
  :: nullary main_c_161 (constantI S_ 32 0#32)
  :: unary main_c_161 main_v468 (broadcastInDim S131072 ![] bcast_S_S131072 : (⟨S_, .i32⟩ : BufTy).Contents (Elt F) → (⟨S131072, .i32⟩ : BufTy).Contents (Elt F))
  :: binary main_v467 main_v468 main_v469 (addi : (⟨S131072, .i32⟩ : BufTy).Contents (Elt F) → (⟨S131072, .i32⟩ : BufTy).Contents (Elt F) → (⟨S131072, .i32⟩ : BufTy).Contents (Elt F))
  :: nullary main_c_162 (constantI S_ 32 0#32)
  :: unary main_c_162 main_v470 (broadcastInDim S131072 ![] bcast_S_S131072 : (⟨S_, .i32⟩ : BufTy).Contents (Elt F) → (⟨S131072, .i32⟩ : BufTy).Contents (Elt F))
  :: binary main_v465 main_v470 main_v471 (cmpi .sge : (⟨S131072, .i32⟩ : BufTy).Contents (Elt F) → (⟨S131072, .i32⟩ : BufTy).Contents (Elt F) → (⟨S131072, .i1⟩ : BufTy).Contents (Elt F))
  :: nullary main_c_163 (constantI S_ 32 256#32)
  :: unary main_c_163 main_v472 (broadcastInDim S131072 ![] bcast_S_S131072 : (⟨S_, .i32⟩ : BufTy).Contents (Elt F) → (⟨S131072, .i32⟩ : BufTy).Contents (Elt F))
  :: binary main_v465 main_v472 main_v473 (cmpi .slt : (⟨S131072, .i32⟩ : BufTy).Contents (Elt F) → (⟨S131072, .i32⟩ : BufTy).Contents (Elt F) → (⟨S131072, .i1⟩ : BufTy).Contents (Elt F))
  :: binary main_v471 main_v473 main_v474 (andi : (⟨S131072, .i1⟩ : BufTy).Contents (Elt F) → (⟨S131072, .i1⟩ : BufTy).Contents (Elt F) → (⟨S131072, .i1⟩ : BufTy).Contents (Elt F))
  :: nullary main_c_164 (constantI S_ 32 0#32)
  :: unary main_c_164 main_v475 (broadcastInDim S131072 ![] bcast_S_S131072 : (⟨S_, .i32⟩ : BufTy).Contents (Elt F) → (⟨S131072, .i32⟩ : BufTy).Contents (Elt F))
  :: binary main_v469 main_v475 main_v476 (cmpi .sge : (⟨S131072, .i32⟩ : BufTy).Contents (Elt F) → (⟨S131072, .i32⟩ : BufTy).Contents (Elt F) → (⟨S131072, .i1⟩ : BufTy).Contents (Elt F))
  :: binary main_v474 main_v476 main_v477 (andi : (⟨S131072, .i1⟩ : BufTy).Contents (Elt F) → (⟨S131072, .i1⟩ : BufTy).Contents (Elt F) → (⟨S131072, .i1⟩ : BufTy).Contents (Elt F))
  :: nullary main_c_165 (constantI S_ 32 256#32)
  :: unary main_c_165 main_v478 (broadcastInDim S131072 ![] bcast_S_S131072 : (⟨S_, .i32⟩ : BufTy).Contents (Elt F) → (⟨S131072, .i32⟩ : BufTy).Contents (Elt F))
  :: binary main_v469 main_v478 main_v479 (cmpi .slt : (⟨S131072, .i32⟩ : BufTy).Contents (Elt F) → (⟨S131072, .i32⟩ : BufTy).Contents (Elt F) → (⟨S131072, .i1⟩ : BufTy).Contents (Elt F))
  :: binary main_v477 main_v479 main_v480 (andi : (⟨S131072, .i1⟩ : BufTy).Contents (Elt F) → (⟨S131072, .i1⟩ : BufTy).Contents (Elt F) → (⟨S131072, .i1⟩ : BufTy).Contents (Elt F))
  :: nullary main_c_166 (constantI S_ 32 0#32)
  :: nullary main_c_167 (constantI S_ 32 255#32)
  :: unary main_c_166 main_call22_v0 ((id) : (⟨S_, .i32⟩ : BufTy).Contents (Elt F) → (⟨S_, .i32⟩ : BufTy).Contents (Elt F))
  :: unary main_call22_v0 main_call22_v1 (((broadcastInDim S131072 ![] bcast_S_S131072)) : (⟨S_, .i32⟩ : BufTy).Contents (Elt F) → (⟨S131072, .i32⟩ : BufTy).Contents (Elt F))
  :: binary main_call22_v1 main_v465 main_call22_v2 ((maxsi) : (⟨S131072, .i32⟩ : BufTy).Contents (Elt F) → (⟨S131072, .i32⟩ : BufTy).Contents (Elt F) → (⟨S131072, .i32⟩ : BufTy).Contents (Elt F))
  :: unary main_c_167 main_call22_v3 ((id) : (⟨S_, .i32⟩ : BufTy).Contents (Elt F) → (⟨S_, .i32⟩ : BufTy).Contents (Elt F))
  :: unary main_call22_v3 main_call22_v4 (((broadcastInDim S131072 ![] bcast_S_S131072)) : (⟨S_, .i32⟩ : BufTy).Contents (Elt F) → (⟨S131072, .i32⟩ : BufTy).Contents (Elt F))
  :: binary main_call22_v4 main_call22_v2 main_v481 ((minsi) : (⟨S131072, .i32⟩ : BufTy).Contents (Elt F) → (⟨S131072, .i32⟩ : BufTy).Contents (Elt F) → (⟨S131072, .i32⟩ : BufTy).Contents (Elt F))
  :: nullary main_c_168 (constantI S_ 32 0#32)
  :: nullary main_c_169 (constantI S_ 32 255#32)
  :: unary main_c_168 main_call23_v0 ((id) : (⟨S_, .i32⟩ : BufTy).Contents (Elt F) → (⟨S_, .i32⟩ : BufTy).Contents (Elt F))
  :: unary main_call23_v0 main_call23_v1 (((broadcastInDim S131072 ![] bcast_S_S131072)) : (⟨S_, .i32⟩ : BufTy).Contents (Elt F) → (⟨S131072, .i32⟩ : BufTy).Contents (Elt F))
  :: binary main_call23_v1 main_v469 main_call23_v2 ((maxsi) : (⟨S131072, .i32⟩ : BufTy).Contents (Elt F) → (⟨S131072, .i32⟩ : BufTy).Contents (Elt F) → (⟨S131072, .i32⟩ : BufTy).Contents (Elt F))
  :: unary main_c_169 main_call23_v3 ((id) : (⟨S_, .i32⟩ : BufTy).Contents (Elt F) → (⟨S_, .i32⟩ : BufTy).Contents (Elt F))
  :: unary main_call23_v3 main_call23_v4 (((broadcastInDim S131072 ![] bcast_S_S131072)) : (⟨S_, .i32⟩ : BufTy).Contents (Elt F) → (⟨S131072, .i32⟩ : BufTy).Contents (Elt F))
  :: binary main_call23_v4 main_call23_v2 main_v482 ((minsi) : (⟨S131072, .i32⟩ : BufTy).Contents (Elt F) → (⟨S131072, .i32⟩ : BufTy).Contents (Elt F) → (⟨S131072, .i32⟩ : BufTy).Contents (Elt F))
  :: nullary main_c_170 (constantI S_ 32 0#32)
  :: unary main_c_170 main_v483 (broadcastInDim S131072 ![] bcast_S_S131072 : (⟨S_, .i32⟩ : BufTy).Contents (Elt F) → (⟨S131072, .i32⟩ : BufTy).Contents (Elt F))
  :: binary main_v20 main_v483 main_v484 (cmpi .slt : (⟨S131072, .i32⟩ : BufTy).Contents (Elt F) → (⟨S131072, .i32⟩ : BufTy).Contents (Elt F) → (⟨S131072, .i1⟩ : BufTy).Contents (Elt F))
  :: nullary main_c_171 (constantI S_ 32 4#32)
  :: unary main_c_171 main_v485 (broadcastInDim S131072 ![] bcast_S_S131072 : (⟨S_, .i32⟩ : BufTy).Contents (Elt F) → (⟨S131072, .i32⟩ : BufTy).Contents (Elt F))
  :: binary main_v20 main_v485 main_v486 (addi : (⟨S131072, .i32⟩ : BufTy).Contents (Elt F) → (⟨S131072, .i32⟩ : BufTy).Contents (Elt F) → (⟨S131072, .i32⟩ : BufTy).Contents (Elt F))
  :: ternary main_v484 main_v486 main_v20 main_v487 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_172 (constantI S_ 32 0#32)
  :: unary main_c_172 main_v488 (broadcastInDim S131072 ![] bcast_S_S131072 : (⟨S_, .i32⟩ : BufTy).Contents (Elt F) → (⟨S131072, .i32⟩ : BufTy).Contents (Elt F))
  :: binary main_v481 main_v488 main_v489 (cmpi .slt : (⟨S131072, .i32⟩ : BufTy).Contents (Elt F) → (⟨S131072, .i32⟩ : BufTy).Contents (Elt F) → (⟨S131072, .i1⟩ : BufTy).Contents (Elt F))
  :: nullary main_c_173 (constantI S_ 32 256#32)
  :: unary main_c_173 main_v490 (broadcastInDim S131072 ![] bcast_S_S131072 : (⟨S_, .i32⟩ : BufTy).Contents (Elt F) → (⟨S131072, .i32⟩ : BufTy).Contents (Elt F))
  :: binary main_v481 main_v490 main_v491 (addi : (⟨S131072, .i32⟩ : BufTy).Contents (Elt F) → (⟨S131072, .i32⟩ : BufTy).Contents (Elt F) → (⟨S131072, .i32⟩ : BufTy).Contents (Elt F))
  :: ternary main_v489 main_v491 main_v481 main_v492 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_174 (constantI S_ 32 0#32)
  :: unary main_c_174 main_v493 (broadcastInDim S131072 ![] bcast_S_S131072 : (⟨S_, .i32⟩ : BufTy).Contents (Elt F) → (⟨S131072, .i32⟩ : BufTy).Contents (Elt F))
  :: binary main_v482 main_v493 main_v494 (cmpi .slt : (⟨S131072, .i32⟩ : BufTy).Contents (Elt F) → (⟨S131072, .i32⟩ : BufTy).Contents (Elt F) → (⟨S131072, .i1⟩ : BufTy).Contents (Elt F))
  :: nullary main_c_175 (constantI S_ 32 256#32)
  :: unary main_c_175 main_v495 (broadcastInDim S131072 ![] bcast_S_S131072 : (⟨S_, .i32⟩ : BufTy).Contents (Elt F) → (⟨S131072, .i32⟩ : BufTy).Contents (Elt F))
  :: binary main_v482 main_v495 main_v496 (addi : (⟨S131072, .i32⟩ : BufTy).Contents (Elt F) → (⟨S131072, .i32⟩ : BufTy).Contents (Elt F) → (⟨S131072, .i32⟩ : BufTy).Contents (Elt F))
  :: ternary main_v494 main_v496 main_v482 main_v497 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v487 main_v498 (broadcastInDim S131072x1 ![0] bcast_S131072_S131072x1_0 : (⟨S131072, .i32⟩ : BufTy).Contents (Elt F) → (⟨S131072x1, .i32⟩ : BufTy).Contents (Elt F))
  :: unary main_v492 main_v499 (broadcastInDim S131072x1 ![0] bcast_S131072_S131072x1_0 : (⟨S131072, .i32⟩ : BufTy).Contents (Elt F) → (⟨S131072x1, .i32⟩ : BufTy).Contents (Elt F))
  :: unary main_v497 main_v500 (broadcastInDim S131072x1 ![0] bcast_S131072_S131072x1_0 : (⟨S131072, .i32⟩ : BufTy).Contents (Elt F) → (⟨S131072x1, .i32⟩ : BufTy).Contents (Elt F))
  :: [] )
set_option maxHeartbeats 40000000 in
theorem opsTap7a_sub : (opsTap7a : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxHeartbeats 40000000 in
/-- Operations 785 … 812 of @main (28 of them), in order; the last writes `main_v520`. -/
abbrev opsTap7b : List (HloOp τ sig (Elt F)) :=
  ( nary ![main_v498, main_v499, main_v500] main_v501 (fun u => concatenate S131072x3 1 [⟨S131072x1, u 0⟩, ⟨S131072x1, u 1⟩, ⟨S131072x1, u 2⟩] concatenates_S131072x1_S131072x1_S131072x1_S131072x3_d1)
  :: binary main_v47 main_v501 main_v502 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F))
  :: nullary main_c_176 (constantI S_ 32 0#32)
  :: unary main_c_176 main_v503 (broadcastInDim S131072 ![] bcast_S_S131072 : (⟨S_, .i32⟩ : BufTy).Contents (Elt F) → (⟨S131072, .i32⟩ : BufTy).Contents (Elt F))
  :: binary main_v502 main_v503 main_v504 (cmpi .sge : (⟨S131072, .i32⟩ : BufTy).Contents (Elt F) → (⟨S131072, .i32⟩ : BufTy).Contents (Elt F) → (⟨S131072, .i1⟩ : BufTy).Contents (Elt F))
  :: binary main_v480 main_v504 main_v505 (andi : (⟨S131072, .i1⟩ : BufTy).Contents (Elt F) → (⟨S131072, .i1⟩ : BufTy).Contents (Elt F) → (⟨S131072, .i1⟩ : BufTy).Contents (Elt F))
  :: unary main_v505 main_v506 (broadcastInDim S131072x1 ![0] bcast_S131072_S131072x1_0 : (⟨S131072, .i1⟩ : BufTy).Contents (Elt F) → (⟨S131072x1, .i1⟩ : BufTy).Contents (Elt F))
  :: nullary main_c_177 (constantI S_ 32 0#32)
  :: unary main_c_177 main_v507 (broadcastInDim S131072 ![] bcast_S_S131072 : (⟨S_, .i32⟩ : BufTy).Contents (Elt F) → (⟨S131072, .i32⟩ : BufTy).Contents (Elt F))
  :: binary main_v502 main_v507 main_v508 (maxsi : (⟨S131072, .i32⟩ : BufTy).Contents (Elt F) → (⟨S131072, .i32⟩ : BufTy).Contents (Elt F) → (⟨S131072, .i32⟩ : BufTy).Contents (Elt F))
  :: nullary main_c_178 (constantI S_ 32 0#32)
  :: unary main_c_178 main_v509 (broadcastInDim S131072 ![] bcast_S_S131072 : (⟨S_, .i32⟩ : BufTy).Contents (Elt F) → (⟨S131072, .i32⟩ : BufTy).Contents (Elt F))
  :: binary main_v508 main_v509 main_v510 (cmpi .slt : (⟨S131072, .i32⟩ : BufTy).Contents (Elt F) → (⟨S131072, .i32⟩ : BufTy).Contents (Elt F) → (⟨S131072, .i1⟩ : BufTy).Contents (Elt F))
  :: nullary main_c_179 (constantI S_ 32 131072#32)
  :: unary main_c_179 main_v511 (broadcastInDim S131072 ![] bcast_S_S131072 : (⟨S_, .i32⟩ : BufTy).Contents (Elt F) → (⟨S131072, .i32⟩ : BufTy).Contents (Elt F))
  :: binary main_v508 main_v511 main_v512 (addi : (⟨S131072, .i32⟩ : BufTy).Contents (Elt F) → (⟨S131072, .i32⟩ : BufTy).Contents (Elt F) → (⟨S131072, .i32⟩ : BufTy).Contents (Elt F))
  :: ternary main_v510 main_v512 main_v508 main_v513 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v513 main_v514 (broadcastInDim S131072x1 ![0] bcast_S131072_S131072x1_0 : (⟨S131072, .i32⟩ : BufTy).Contents (Elt F) → (⟨S131072x1, .i32⟩ : BufTy).Contents (Elt F))
  :: binary main_v21 main_v514 main_v515 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F))
  :: nullary main_cst_180 (constant S_ .f32 0x00000000#32)
  :: unary main_cst_180 main_call24_v0 ((id) : (⟨S_, .f32⟩ : BufTy).Contents (Elt F) → (⟨S_, .f32⟩ : BufTy).Contents (Elt F))
  :: unary main_v506 main_call24_v1 (((broadcastInDim S131072x64 ![0, 1] bcast_S131072x1_S131072x64_0_1)) : (⟨S131072x1, .i1⟩ : BufTy).Contents (Elt F) → (⟨S131072x64, .i1⟩ : BufTy).Contents (Elt F))
  :: unary main_call24_v0 main_call24_v2 (((broadcastInDim S131072x64 ![] bcast_S_S131072x64)) : (⟨S_, .f32⟩ : BufTy).Contents (Elt F) → (⟨S131072x64, .f32⟩ : BufTy).Contents (Elt F))
  :: ternary main_call24_v1 main_v515 main_call24_v2 main_v516 ((select) : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F))
  :: unary main_arg2 main_v517 ((extractStridedSlice S1x1x64x64 ![2, 1, 0, 0] · slices_S3x3x64x64_S1x1x64x64_2_1_0_0) : (⟨S3x3x64x64, .f32⟩ : BufTy).Contents (Elt F) → (⟨S1x1x64x64, .f32⟩ : BufTy).Contents (Elt F))
  :: reshape main_v517 main_v518 rfl shapeCasts_S1x1x64x64_S64x64
  :: binary main_v516 main_v518 main_v519 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F))
  :: binary main_v461 main_v519 main_v520 (addf : (⟨S131072x64, .f32⟩ : BufTy).Contents (Elt F) → (⟨S131072x64, .f32⟩ : BufTy).Contents (Elt F) → (⟨S131072x64, .f32⟩ : BufTy).Contents (Elt F))
  :: [] )
set_option maxHeartbeats 40000000 in
theorem opsTap7b_sub : (opsTap7b : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub ..⟩

set_option maxHeartbeats 40000000 in
/-- Operations 813 … 877 of @main (65 of them), in order; the last writes `main_v559`. -/
abbrev opsTap8a : List (HloOp τ sig (Elt F)) :=
  ( unary main_v17 main_v521 ((extractStridedSlice S131072x1 ![0, 0] · slices_S131072x2_S131072x1_0_0) : (⟨S131072x2, .i32⟩ : BufTy).Contents (Elt F) → (⟨S131072x1, .i32⟩ : BufTy).Contents (Elt F))
  :: reshape main_v521 main_v522 rfl shapeCasts_S131072x1_S131072
  :: nullary main_c_181 (constantI S_ 32 1#32)
  :: unary main_c_181 main_v523 (broadcastInDim S131072 ![] bcast_S_S131072 : (⟨S_, .i32⟩ : BufTy).Contents (Elt F) → (⟨S131072, .i32⟩ : BufTy).Contents (Elt F))
  :: binary main_v522 main_v523 main_v524 (addi : (⟨S131072, .i32⟩ : BufTy).Contents (Elt F) → (⟨S131072, .i32⟩ : BufTy).Contents (Elt F) → (⟨S131072, .i32⟩ : BufTy).Contents (Elt F))
  :: unary main_v17 main_v525 ((extractStridedSlice S131072x1 ![0, 1] · slices_S131072x2_S131072x1_0_1) : (⟨S131072x2, .i32⟩ : BufTy).Contents (Elt F) → (⟨S131072x1, .i32⟩ : BufTy).Contents (Elt F))
  :: reshape main_v525 main_v526 rfl shapeCasts_S131072x1_S131072
  :: nullary main_c_182 (constantI S_ 32 1#32)
  :: unary main_c_182 main_v527 (broadcastInDim S131072 ![] bcast_S_S131072 : (⟨S_, .i32⟩ : BufTy).Contents (Elt F) → (⟨S131072, .i32⟩ : BufTy).Contents (Elt F))
  :: binary main_v526 main_v527 main_v528 (addi : (⟨S131072, .i32⟩ : BufTy).Contents (Elt F) → (⟨S131072, .i32⟩ : BufTy).Contents (Elt F) → (⟨S131072, .i32⟩ : BufTy).Contents (Elt F))
  :: nullary main_c_183 (constantI S_ 32 0#32)
  :: unary main_c_183 main_v529 (broadcastInDim S131072 ![] bcast_S_S131072 : (⟨S_, .i32⟩ : BufTy).Contents (Elt F) → (⟨S131072, .i32⟩ : BufTy).Contents (Elt F))
  :: binary main_v524 main_v529 main_v530 (cmpi .sge : (⟨S131072, .i32⟩ : BufTy).Contents (Elt F) → (⟨S131072, .i32⟩ : BufTy).Contents (Elt F) → (⟨S131072, .i1⟩ : BufTy).Contents (Elt F))
  :: nullary main_c_184 (constantI S_ 32 256#32)
  :: unary main_c_184 main_v531 (broadcastInDim S131072 ![] bcast_S_S131072 : (⟨S_, .i32⟩ : BufTy).Contents (Elt F) → (⟨S131072, .i32⟩ : BufTy).Contents (Elt F))
  :: binary main_v524 main_v531 main_v532 (cmpi .slt : (⟨S131072, .i32⟩ : BufTy).Contents (Elt F) → (⟨S131072, .i32⟩ : BufTy).Contents (Elt F) → (⟨S131072, .i1⟩ : BufTy).Contents (Elt F))
  :: binary main_v530 main_v532 main_v533 (andi : (⟨S131072, .i1⟩ : BufTy).Contents (Elt F) → (⟨S131072, .i1⟩ : BufTy).Contents (Elt F) → (⟨S131072, .i1⟩ : BufTy).Contents (Elt F))
  :: nullary main_c_185 (constantI S_ 32 0#32)
  :: unary main_c_185 main_v534 (broadcastInDim S131072 ![] bcast_S_S131072 : (⟨S_, .i32⟩ : BufTy).Contents (Elt F) → (⟨S131072, .i32⟩ : BufTy).Contents (Elt F))
  :: binary main_v528 main_v534 main_v535 (cmpi .sge : (⟨S131072, .i32⟩ : BufTy).Contents (Elt F) → (⟨S131072, .i32⟩ : BufTy).Contents (Elt F) → (⟨S131072, .i1⟩ : BufTy).Contents (Elt F))
  :: binary main_v533 main_v535 main_v536 (andi : (⟨S131072, .i1⟩ : BufTy).Contents (Elt F) → (⟨S131072, .i1⟩ : BufTy).Contents (Elt F) → (⟨S131072, .i1⟩ : BufTy).Contents (Elt F))
  :: nullary main_c_186 (constantI S_ 32 256#32)
  :: unary main_c_186 main_v537 (broadcastInDim S131072 ![] bcast_S_S131072 : (⟨S_, .i32⟩ : BufTy).Contents (Elt F) → (⟨S131072, .i32⟩ : BufTy).Contents (Elt F))
  :: binary main_v528 main_v537 main_v538 (cmpi .slt : (⟨S131072, .i32⟩ : BufTy).Contents (Elt F) → (⟨S131072, .i32⟩ : BufTy).Contents (Elt F) → (⟨S131072, .i1⟩ : BufTy).Contents (Elt F))
  :: binary main_v536 main_v538 main_v539 (andi : (⟨S131072, .i1⟩ : BufTy).Contents (Elt F) → (⟨S131072, .i1⟩ : BufTy).Contents (Elt F) → (⟨S131072, .i1⟩ : BufTy).Contents (Elt F))
  :: nullary main_c_187 (constantI S_ 32 0#32)
  :: nullary main_c_188 (constantI S_ 32 255#32)
  :: unary main_c_187 main_call25_v0 ((id) : (⟨S_, .i32⟩ : BufTy).Contents (Elt F) → (⟨S_, .i32⟩ : BufTy).Contents (Elt F))
  :: unary main_call25_v0 main_call25_v1 (((broadcastInDim S131072 ![] bcast_S_S131072)) : (⟨S_, .i32⟩ : BufTy).Contents (Elt F) → (⟨S131072, .i32⟩ : BufTy).Contents (Elt F))
  :: binary main_call25_v1 main_v524 main_call25_v2 ((maxsi) : (⟨S131072, .i32⟩ : BufTy).Contents (Elt F) → (⟨S131072, .i32⟩ : BufTy).Contents (Elt F) → (⟨S131072, .i32⟩ : BufTy).Contents (Elt F))
  :: unary main_c_188 main_call25_v3 ((id) : (⟨S_, .i32⟩ : BufTy).Contents (Elt F) → (⟨S_, .i32⟩ : BufTy).Contents (Elt F))
  :: unary main_call25_v3 main_call25_v4 (((broadcastInDim S131072 ![] bcast_S_S131072)) : (⟨S_, .i32⟩ : BufTy).Contents (Elt F) → (⟨S131072, .i32⟩ : BufTy).Contents (Elt F))
  :: binary main_call25_v4 main_call25_v2 main_v540 ((minsi) : (⟨S131072, .i32⟩ : BufTy).Contents (Elt F) → (⟨S131072, .i32⟩ : BufTy).Contents (Elt F) → (⟨S131072, .i32⟩ : BufTy).Contents (Elt F))
  :: nullary main_c_189 (constantI S_ 32 0#32)
  :: nullary main_c_190 (constantI S_ 32 255#32)
  :: unary main_c_189 main_call26_v0 ((id) : (⟨S_, .i32⟩ : BufTy).Contents (Elt F) → (⟨S_, .i32⟩ : BufTy).Contents (Elt F))
  :: unary main_call26_v0 main_call26_v1 (((broadcastInDim S131072 ![] bcast_S_S131072)) : (⟨S_, .i32⟩ : BufTy).Contents (Elt F) → (⟨S131072, .i32⟩ : BufTy).Contents (Elt F))
  :: binary main_call26_v1 main_v528 main_call26_v2 ((maxsi) : (⟨S131072, .i32⟩ : BufTy).Contents (Elt F) → (⟨S131072, .i32⟩ : BufTy).Contents (Elt F) → (⟨S131072, .i32⟩ : BufTy).Contents (Elt F))
  :: unary main_c_190 main_call26_v3 ((id) : (⟨S_, .i32⟩ : BufTy).Contents (Elt F) → (⟨S_, .i32⟩ : BufTy).Contents (Elt F))
  :: unary main_call26_v3 main_call26_v4 (((broadcastInDim S131072 ![] bcast_S_S131072)) : (⟨S_, .i32⟩ : BufTy).Contents (Elt F) → (⟨S131072, .i32⟩ : BufTy).Contents (Elt F))
  :: binary main_call26_v4 main_call26_v2 main_v541 ((minsi) : (⟨S131072, .i32⟩ : BufTy).Contents (Elt F) → (⟨S131072, .i32⟩ : BufTy).Contents (Elt F) → (⟨S131072, .i32⟩ : BufTy).Contents (Elt F))
  :: nullary main_c_191 (constantI S_ 32 0#32)
  :: unary main_c_191 main_v542 (broadcastInDim S131072 ![] bcast_S_S131072 : (⟨S_, .i32⟩ : BufTy).Contents (Elt F) → (⟨S131072, .i32⟩ : BufTy).Contents (Elt F))
  :: binary main_v20 main_v542 main_v543 (cmpi .slt : (⟨S131072, .i32⟩ : BufTy).Contents (Elt F) → (⟨S131072, .i32⟩ : BufTy).Contents (Elt F) → (⟨S131072, .i1⟩ : BufTy).Contents (Elt F))
  :: nullary main_c_192 (constantI S_ 32 4#32)
  :: unary main_c_192 main_v544 (broadcastInDim S131072 ![] bcast_S_S131072 : (⟨S_, .i32⟩ : BufTy).Contents (Elt F) → (⟨S131072, .i32⟩ : BufTy).Contents (Elt F))
  :: binary main_v20 main_v544 main_v545 (addi : (⟨S131072, .i32⟩ : BufTy).Contents (Elt F) → (⟨S131072, .i32⟩ : BufTy).Contents (Elt F) → (⟨S131072, .i32⟩ : BufTy).Contents (Elt F))
  :: ternary main_v543 main_v545 main_v20 main_v546 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_193 (constantI S_ 32 0#32)
  :: unary main_c_193 main_v547 (broadcastInDim S131072 ![] bcast_S_S131072 : (⟨S_, .i32⟩ : BufTy).Contents (Elt F) → (⟨S131072, .i32⟩ : BufTy).Contents (Elt F))
  :: binary main_v540 main_v547 main_v548 (cmpi .slt : (⟨S131072, .i32⟩ : BufTy).Contents (Elt F) → (⟨S131072, .i32⟩ : BufTy).Contents (Elt F) → (⟨S131072, .i1⟩ : BufTy).Contents (Elt F))
  :: nullary main_c_194 (constantI S_ 32 256#32)
  :: unary main_c_194 main_v549 (broadcastInDim S131072 ![] bcast_S_S131072 : (⟨S_, .i32⟩ : BufTy).Contents (Elt F) → (⟨S131072, .i32⟩ : BufTy).Contents (Elt F))
  :: binary main_v540 main_v549 main_v550 (addi : (⟨S131072, .i32⟩ : BufTy).Contents (Elt F) → (⟨S131072, .i32⟩ : BufTy).Contents (Elt F) → (⟨S131072, .i32⟩ : BufTy).Contents (Elt F))
  :: ternary main_v548 main_v550 main_v540 main_v551 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: nullary main_c_195 (constantI S_ 32 0#32)
  :: unary main_c_195 main_v552 (broadcastInDim S131072 ![] bcast_S_S131072 : (⟨S_, .i32⟩ : BufTy).Contents (Elt F) → (⟨S131072, .i32⟩ : BufTy).Contents (Elt F))
  :: binary main_v541 main_v552 main_v553 (cmpi .slt : (⟨S131072, .i32⟩ : BufTy).Contents (Elt F) → (⟨S131072, .i32⟩ : BufTy).Contents (Elt F) → (⟨S131072, .i1⟩ : BufTy).Contents (Elt F))
  :: nullary main_c_196 (constantI S_ 32 256#32)
  :: unary main_c_196 main_v554 (broadcastInDim S131072 ![] bcast_S_S131072 : (⟨S_, .i32⟩ : BufTy).Contents (Elt F) → (⟨S131072, .i32⟩ : BufTy).Contents (Elt F))
  :: binary main_v541 main_v554 main_v555 (addi : (⟨S131072, .i32⟩ : BufTy).Contents (Elt F) → (⟨S131072, .i32⟩ : BufTy).Contents (Elt F) → (⟨S131072, .i32⟩ : BufTy).Contents (Elt F))
  :: ternary main_v553 main_v555 main_v541 main_v556 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v546 main_v557 (broadcastInDim S131072x1 ![0] bcast_S131072_S131072x1_0 : (⟨S131072, .i32⟩ : BufTy).Contents (Elt F) → (⟨S131072x1, .i32⟩ : BufTy).Contents (Elt F))
  :: unary main_v551 main_v558 (broadcastInDim S131072x1 ![0] bcast_S131072_S131072x1_0 : (⟨S131072, .i32⟩ : BufTy).Contents (Elt F) → (⟨S131072x1, .i32⟩ : BufTy).Contents (Elt F))
  :: unary main_v556 main_v559 (broadcastInDim S131072x1 ![0] bcast_S131072_S131072x1_0 : (⟨S131072, .i32⟩ : BufTy).Contents (Elt F) → (⟨S131072x1, .i32⟩ : BufTy).Contents (Elt F))
  :: [] )
set_option maxHeartbeats 40000000 in
theorem opsTap8a_sub : (opsTap8a : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxHeartbeats 40000000 in
/-- Operations 878 … 905 of @main (28 of them), in order; the last writes `main_v579`. -/
abbrev opsTap8b : List (HloOp τ sig (Elt F)) :=
  ( nary ![main_v557, main_v558, main_v559] main_v560 (fun u => concatenate S131072x3 1 [⟨S131072x1, u 0⟩, ⟨S131072x1, u 1⟩, ⟨S131072x1, u 2⟩] concatenates_S131072x1_S131072x1_S131072x1_S131072x3_d1)
  :: binary main_v47 main_v560 main_v561 ((fun x i => Host.gather gather_S4x256x256_S131072x3_S131072_n_012_n_n_012_1_111 x i) : (⟨S4x256x256, .i32⟩ : BufTy).Contents (Elt F) → (⟨S131072x3, .i32⟩ : BufTy).Contents (Elt F) → (⟨S131072, .i32⟩ : BufTy).Contents (Elt F))
  :: nullary main_c_197 (constantI S_ 32 0#32)
  :: unary main_c_197 main_v562 (broadcastInDim S131072 ![] bcast_S_S131072 : (⟨S_, .i32⟩ : BufTy).Contents (Elt F) → (⟨S131072, .i32⟩ : BufTy).Contents (Elt F))
  :: binary main_v561 main_v562 main_v563 (cmpi .sge : (⟨S131072, .i32⟩ : BufTy).Contents (Elt F) → (⟨S131072, .i32⟩ : BufTy).Contents (Elt F) → (⟨S131072, .i1⟩ : BufTy).Contents (Elt F))
  :: binary main_v539 main_v563 main_v564 (andi : (⟨S131072, .i1⟩ : BufTy).Contents (Elt F) → (⟨S131072, .i1⟩ : BufTy).Contents (Elt F) → (⟨S131072, .i1⟩ : BufTy).Contents (Elt F))
  :: unary main_v564 main_v565 (broadcastInDim S131072x1 ![0] bcast_S131072_S131072x1_0 : (⟨S131072, .i1⟩ : BufTy).Contents (Elt F) → (⟨S131072x1, .i1⟩ : BufTy).Contents (Elt F))
  :: nullary main_c_198 (constantI S_ 32 0#32)
  :: unary main_c_198 main_v566 (broadcastInDim S131072 ![] bcast_S_S131072 : (⟨S_, .i32⟩ : BufTy).Contents (Elt F) → (⟨S131072, .i32⟩ : BufTy).Contents (Elt F))
  :: binary main_v561 main_v566 main_v567 (maxsi : (⟨S131072, .i32⟩ : BufTy).Contents (Elt F) → (⟨S131072, .i32⟩ : BufTy).Contents (Elt F) → (⟨S131072, .i32⟩ : BufTy).Contents (Elt F))
  :: nullary main_c_199 (constantI S_ 32 0#32)
  :: unary main_c_199 main_v568 (broadcastInDim S131072 ![] bcast_S_S131072 : (⟨S_, .i32⟩ : BufTy).Contents (Elt F) → (⟨S131072, .i32⟩ : BufTy).Contents (Elt F))
  :: binary main_v567 main_v568 main_v569 (cmpi .slt : (⟨S131072, .i32⟩ : BufTy).Contents (Elt F) → (⟨S131072, .i32⟩ : BufTy).Contents (Elt F) → (⟨S131072, .i1⟩ : BufTy).Contents (Elt F))
  :: nullary main_c_200 (constantI S_ 32 131072#32)
  :: unary main_c_200 main_v570 (broadcastInDim S131072 ![] bcast_S_S131072 : (⟨S_, .i32⟩ : BufTy).Contents (Elt F) → (⟨S131072, .i32⟩ : BufTy).Contents (Elt F))
  :: binary main_v567 main_v570 main_v571 (addi : (⟨S131072, .i32⟩ : BufTy).Contents (Elt F) → (⟨S131072, .i32⟩ : BufTy).Contents (Elt F) → (⟨S131072, .i32⟩ : BufTy).Contents (Elt F))
  :: ternary main_v569 main_v571 main_v567 main_v572 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
  :: unary main_v572 main_v573 (broadcastInDim S131072x1 ![0] bcast_S131072_S131072x1_0 : (⟨S131072, .i32⟩ : BufTy).Contents (Elt F) → (⟨S131072x1, .i32⟩ : BufTy).Contents (Elt F))
  :: binary main_v21 main_v573 main_v574 ((fun x i => Host.gather gather_S131072x64_S131072x1_S131072x64_1_0_n_n_0_1_164 x i) : (⟨S131072x64, .f32⟩ : BufTy).Contents (Elt F) → (⟨S131072x1, .i32⟩ : BufTy).Contents (Elt F) → (⟨S131072x64, .f32⟩ : BufTy).Contents (Elt F))
  :: nullary main_cst_201 (constant S_ .f32 0x00000000#32)
  :: unary main_cst_201 main_call27_v0 ((id) : (⟨S_, .f32⟩ : BufTy).Contents (Elt F) → (⟨S_, .f32⟩ : BufTy).Contents (Elt F))
  :: unary main_v565 main_call27_v1 (((broadcastInDim S131072x64 ![0, 1] bcast_S131072x1_S131072x64_0_1)) : (⟨S131072x1, .i1⟩ : BufTy).Contents (Elt F) → (⟨S131072x64, .i1⟩ : BufTy).Contents (Elt F))
  :: unary main_call27_v0 main_call27_v2 (((broadcastInDim S131072x64 ![] bcast_S_S131072x64)) : (⟨S_, .f32⟩ : BufTy).Contents (Elt F) → (⟨S131072x64, .f32⟩ : BufTy).Contents (Elt F))
  :: ternary main_call27_v1 main_v574 main_call27_v2 main_v575 ((select) : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F))
  :: unary main_arg2 main_v576 ((extractStridedSlice S1x1x64x64 ![2, 2, 0, 0] · slices_S3x3x64x64_S1x1x64x64_2_2_0_0) : (⟨S3x3x64x64, .f32⟩ : BufTy).Contents (Elt F) → (⟨S1x1x64x64, .f32⟩ : BufTy).Contents (Elt F))
  :: reshape main_v576 main_v577 rfl shapeCasts_S1x1x64x64_S64x64
  :: binary main_v575 main_v577 main_v578 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F))
  :: binary main_v520 main_v578 main_v579 (addf : (⟨S131072x64, .f32⟩ : BufTy).Contents (Elt F) → (⟨S131072x64, .f32⟩ : BufTy).Contents (Elt F) → (⟨S131072x64, .f32⟩ : BufTy).Contents (Elt F))
  :: [] )
set_option maxHeartbeats 40000000 in
theorem opsTap8b_sub : (opsTap8b : List (HloOp τ sig (Elt F))).Forall fun op => op.bufs ⊆ tcRefs τ sig :=
  ⟨nary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., unary_bufs_sub .., reshape_bufs_sub .., binary_bufs_sub .., binary_bufs_sub ..⟩

set_option maxHeartbeats 40000000 in
/-- Operations 906 … 906 of @main (1 of them), in order; the last writes `main_v580`. -/
abbrev opsFin : List (HloOp τ sig (Elt F)) :=
  ( reshape main_v579 main_v580 rfl shapeCasts_S131072x64_S4x32768x64
  :: [] )
set_option maxHeartbeats 40000000 in
theorem opsFin_sub : (opsFin : List (HloOp τ sig (Elt F))).Forall fun op => op.bufs ⊆ tcRefs τ sig :=
  reshape_bufs_sub ..

/-- The lists, in order. -/
abbrev chunks : List (List (HloOp τ sig (Elt F))) :=
  [opsPre0, opsPre1, opsTap0a, opsTap0b, opsTap1a, opsTap1b, opsTap2a, opsTap2b, opsTap3a, opsTap3b, opsTap4a, opsTap4b, opsTap5a, opsTap5b, opsTap6a, opsTap6b, opsTap7a, opsTap7b, opsTap8a, opsTap8b, opsFin]

end Cert.ReferenceIdeal.Hand

end
-- ==== Proof.RefMain.lean ====
/- The reference program's @main is its operations run one after the other: the printed windows and the calls they
   make unfold to the chunks of the operation table, in order. -/
import proofs.«166044_j24610162606296_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 200000 in
set_option maxHeartbeats 40000000 in
theorem main_eq (c : Dev nD) : main (F := F) c = seq (chunks (F := F)).flatten := rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRunLib.lean ====
/-
  The pieces the reference program's run is assembled from: what a straight line of host operations leaves in the
  buffers when it is cut into stretches, the functions one tap computes from the buffers it reads, and the facts
  about the buffers that every tap reads and none writes.
-/
import proofs.«166044_j24610162606296_1_alg».proof.Proof.Spec
import proofs.«166044_j24610162606296_1_alg».proof.Proof.LibNary3
import Idealize.ShloMosaic.Lib.StableHlo.Run

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## Stretches of a straight line -/

/-- The buffers after two stretches run one after the other: the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A property of every operation of every stretch is one of every operation of the stretches laid end to end. -/
theorem forall_flatten_nil {p : HloOp τ sig (Elt F) → Prop} : ∀ op ∈ ([] : List (List (HloOp τ sig (Elt F)))).flatten, p op :=
  fun _ h => nomatch h
theorem forall_flatten_cons {p : HloOp τ sig (Elt F) → Prop} {l : List (HloOp τ sig (Elt F))} {ls : List (List (HloOp τ sig (Elt F)))}
    (h₁ : ∀ op ∈ l, p op) (h₂ : ∀ op ∈ ls.flatten, p op) : ∀ op ∈ (l :: ls).flatten, p op := by
  intro op h
  rw [List.flatten_cons, List.mem_append] at h
  exact h.elim (h₁ op) (h₂ op)

/-! ## One tap, from the buffers it reads -/

/-- The winner of each point's neighbour voxel, from the voxel table and the three index columns. -/
def nidB (grid : IVec S4x256x256 32) (c0 c1 c2 : IVec S131072x1 32) : IVec S131072 32 :=
  Host.gather gather_S4x256x256_S131072x3_S131072_n_012_n_n_012_1_111 grid
    (concatenate S131072x3 1 [⟨S131072x1, c0⟩, ⟨S131072x1, c1⟩, ⟨S131072x1, c2⟩] concatenates_S131072x1_S131072x1_S131072x1_S131072x3_d1)

/-- The row of the feature table read for a winner `n`: `n` or row 0 for an empty voxel, a negative number counted from
    the end. -/
def rowB (n : IVec S131072 32) : IVec S131072 32 :=
  select (cmpi .slt (maxsi n (broadcastInDim S131072 ![] bcast_S_S131072 (constantI S_ 32 0#32)))
      (broadcastInDim S131072 ![] bcast_S_S131072 (constantI S_ 32 0#32)))
    (addi (maxsi n (broadcastInDim S131072 ![] bcast_S_S131072 (constantI S_ 32 0#32)))
      (broadcastInDim S131072 ![] bcast_S_S131072 (constantI S_ 32 131072#32)))
    (maxsi n (broadcastInDim S131072 ![] bcast_S_S131072 (constantI S_ 32 0#32)))

/-- The second half of a tap: from the in-range flags `q`, the three index columns, the voxel table, the feature
    table, the weights and the running sum, the new running sum. -/
def tapB (q : IVec S131072 1) (c0 c1 c2 : IVec S131072x1 32) (grid : IVec S4x256x256 32) (feats : FVec F S131072x64 .f32)
    (x2 : FVec F S3x3x64x64 .f32) (off : Fin 4 → Nat) (hs : S3x3x64x64.Slices off S1x1x64x64) (acc : FVec F S131072x64 .f32) :
    FVec F S131072x64 .f32 :=
  addf acc (Host.dotGeneral dot_S131072x64_S64x64_S131072x64_1_0_0_1_n_n none
    (select (broadcastInDim S131072x64 ![0, 1] bcast_S131072x1_S131072x64_0_1
        (broadcastInDim S131072x1 ![0] bcast_S131072_S131072x1_0
          (andi q (cmpi .sge (nidB grid c0 c1 c2) (broadcastInDim S131072 ![] bcast_S_S131072 (constantI S_ 32 0#32))))))
      (Host.gather gather_S131072x64_S131072x1_S131072x64_1_0_n_n_0_1_164 feats
        (broadcastInDim S131072x1 ![0] bcast_S131072_S131072x1_0 (rowB (nidB grid c0 c1 c2))))
      (broadcastInDim S131072x64 ![] bcast_S_S131072x64 (id (constant S_ .f32 0x00000000#32))))
    (shapeCast S64x64 (extractStridedSlice S1x1x64x64 off x2 hs) shapeCasts_S1x1x64x64_S64x64))

/-- The first half of a tap, from the voxel coordinates and the batch numbers: the in-range flags of the shifted
    coordinates and the three index columns of the clipped ones. -/
def qA (idx : IVec S131072x2 32) (dyw dxw : BitVec 32) : IVec S131072 1 :=
  Spec.inb (Spec.shiftI (Spec.col0 idx) dyw) (Spec.shiftI (Spec.col1 idx) dxw)
def c0A (bat : IVec S131072 32) : IVec S131072x1 32 :=
  broadcastInDim S131072x1 ![0] bcast_S131072_S131072x1_0 (Spec.normI 4#32 bat)
def c1A (idx : IVec S131072x2 32) (dyw : BitVec 32) : IVec S131072x1 32 :=
  broadcastInDim S131072x1 ![0] bcast_S131072_S131072x1_0 (Spec.normI 256#32 (Spec.clipI (Spec.shiftI (Spec.col0 idx) dyw)))
def c2A (idx : IVec S131072x2 32) (dxw : BitVec 32) : IVec S131072x1 32 :=
  broadcastInDim S131072x1 ![0] bcast_S131072_S131072x1_0 (Spec.normI 256#32 (Spec.clipI (Spec.shiftI (Spec.col1 idx) dxw)))

/-- One tap of the reference is its two halves, read at the functions of the arguments the earlier operations leave. -/
theorem tap_eq (x0 : FVec F S4x32768x64 .f32) (a : FVec F S4x32768x2 .f32) (x2 : FVec F S3x3x64x64 .f32) (dyw dxw : BitVec 32)
    (off : Fin 4 → Nat) (hs : S3x3x64x64.Slices off S1x1x64x64) (acc : FVec F S131072x64 .f32) :
    tapB (qA (Spec.idxW a) dyw dxw) (c0A Spec.batchW) (c1A (Spec.idxW a) dyw) (c2A (Spec.idxW a) dxw) (Spec.gridW a) (Spec.featsW x0)
      x2 off hs acc = Spec.tap x0 a x2 dyw dxw off hs acc := rfl

/-! ## What every tap reads and none writes -/

/-- The buffers' contents `X` hold, at the buffers every tap reads, the functions of the arguments `x0`, `a`, `x2`
    that the operations before the taps compute, and the arguments themselves. -/
structure Base (x0 : FVec F S4x32768x64 .f32) (a : FVec F S4x32768x2 .f32) (x2 : FVec F S3x3x64x64 .f32)
    (X : Valuation τ sig (Elt F)) : Prop where
  idx : X (Proc.devRef .tc main_v17) = Spec.idxW a
  bat : X (Proc.devRef .tc main_v20) = Spec.batchW
  feats : X (Proc.devRef .tc main_v21) = Spec.featsW x0
  grid : X (Proc.devRef .tc main_v47) = Spec.gridW a
  arg0 : X (Proc.devRef .tc main_arg0) = x0
  arg1 : X (Proc.devRef .tc main_arg1) = a
  arg2 : X (Proc.devRef .tc main_arg2) = x2

end Cert.ReferenceIdeal.Hand

end
-- ==== Proof.RefRunPre.lean ====
/-
  The operations before the taps: from the launch contents they leave the voxel coordinates, the batch numbers, the
  feature rows and the voxel table in the buffers every tap reads, the zero running sum, and the arguments as they were.
  The stretch is cut before the three-piece concatenate that feeds the scatter.
-/
import proofs.«166044_j24610162606296_1_alg».proof.Proof.RefOps
import proofs.«166044_j24610162606296_1_alg».proof.Proof.RefRunLib

set_option maxRecDepth 8192
set_option maxHeartbeats 8000000

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The first stretch, from the arguments -/

theorem pre0_idx (W : Valuation τ sig (Elt F)) : after (opsPre0 (F := F)) W (Proc.devRef .tc main_v17)
    = Spec.idxW (W (Proc.devRef .tc main_arg1)) := by
  after_results_simp
  rfl

theorem pre0_bat (W : Valuation τ sig (Elt F)) : after (opsPre0 (F := F)) W (Proc.devRef .tc main_v20) = Spec.batchW := by
  after_results_simp
  rfl

theorem pre0_feats (W : Valuation τ sig (Elt F)) : after (opsPre0 (F := F)) W (Proc.devRef .tc main_v21)
    = Spec.featsW (W (Proc.devRef .tc main_arg0)) := by
  after_results_simp
  rfl

theorem pre0_empty (W : Valuation τ sig (Elt F)) : after (opsPre0 (F := F)) W (Proc.devRef .tc main_v22)
    = broadcastInDim S4x256x256 ![] bcast_S_S4x256x256 (constantI S_ 32 4294967295#32) := by
  after_results_simp

theorem pre0_iota (W : Valuation τ sig (Elt F)) : after (opsPre0 (F := F)) W (Proc.devRef .tc main_v27) = iotaInDim S131072 32 0 := by
  after_results_simp

theorem pre0_c0 (W : Valuation τ sig (Elt F)) : after (opsPre0 (F := F)) W (Proc.devRef .tc main_v43)
    = broadcastInDim S131072x1 ![0] bcast_S131072_S131072x1_0 (Spec.normI 4#32 Spec.batchW) := by
  after_results_simp
  rfl

theorem pre0_c1 (W : Valuation τ sig (Elt F)) : after (opsPre0 (F := F)) W (Proc.devRef .tc main_v44)
    = broadcastInDim S131072x1 ![0] bcast_S131072_S131072x1_0 (Spec.normI 256#32 (Spec.col0 (Spec.idxW (W (Proc.devRef .tc main_arg1))))) := by
  after_results_simp
  rfl

theorem pre0_c2 (W : Valuation τ sig (Elt F)) : after (opsPre0 (F := F)) W (Proc.devRef .tc main_v45)
    = broadcastInDim S131072x1 ![0] bcast_S131072_S131072x1_0 (Spec.normI 256#32 (Spec.col1 (Spec.idxW (W (Proc.devRef .tc main_arg1))))) := by
  after_results_simp
  rfl

theorem pre0_keep_arg0 (W : Valuation τ sig (Elt F)) :
    after (opsPre0 (F := F)) W (Proc.devRef .tc main_arg0) = W (Proc.devRef .tc main_arg0) := by after_results_simp
theorem pre0_keep_arg1 (W : Valuation τ sig (Elt F)) :
    after (opsPre0 (F := F)) W (Proc.devRef .tc main_arg1) = W (Proc.devRef .tc main_arg1) := by after_results_simp
theorem pre0_keep_arg2 (W : Valuation τ sig (Elt F)) :
    after (opsPre0 (F := F)) W (Proc.devRef .tc main_arg2) = W (Proc.devRef .tc main_arg2) := by after_results_simp

/-! ## The second stretch: the voxel table and the zero running sum -/

theorem pre1_grid (X : Valuation τ sig (Elt F)) : after (opsPre1 (F := F)) X (Proc.devRef .tc main_v47)
    = Host.scatter scatter_S4x256x256_S131072x3_S131072_n_012_012_1 IntOp.maxsi (X (Proc.devRef .tc main_v22))
        (concatenate S131072x3 1 [⟨S131072x1, X (Proc.devRef .tc main_v43)⟩, ⟨S131072x1, X (Proc.devRef .tc main_v44)⟩,
          ⟨S131072x1, X (Proc.devRef .tc main_v45)⟩] concatenates_S131072x1_S131072x1_S131072x1_S131072x3_d1)
        (X (Proc.devRef .tc main_v27)) := by
  after_results_simp
  rfl

theorem pre1_acc (X : Valuation τ sig (Elt F)) : after (opsPre1 (F := F)) X (Proc.devRef .tc main_v48)
    = broadcastInDim S131072x64 ![] bcast_S_S131072x64 (constant S_ .f32 0x00000000#32) := by
  after_results_simp

theorem pre1_keep_idx (X : Valuation τ sig (Elt F)) :
    after (opsPre1 (F := F)) X (Proc.devRef .tc main_v17) = X (Proc.devRef .tc main_v17) := by after_results_simp
theorem pre1_keep_bat (X : Valuation τ sig (Elt F)) :
    after (opsPre1 (F := F)) X (Proc.devRef .tc main_v20) = X (Proc.devRef .tc main_v20) := by after_results_simp
theorem pre1_keep_feats (X : Valuation τ sig (Elt F)) :
    after (opsPre1 (F := F)) X (Proc.devRef .tc main_v21) = X (Proc.devRef .tc main_v21) := by after_results_simp
theorem pre1_keep_arg0 (X : Valuation τ sig (Elt F)) :
    after (opsPre1 (F := F)) X (Proc.devRef .tc main_arg0) = X (Proc.devRef .tc main_arg0) := by after_results_simp
theorem pre1_keep_arg1 (X : Valuation τ sig (Elt F)) :
    after (opsPre1 (F := F)) X (Proc.devRef .tc main_arg1) = X (Proc.devRef .tc main_arg1) := by after_results_simp
theorem pre1_keep_arg2 (X : Valuation τ sig (Elt F)) :
    after (opsPre1 (F := F)) X (Proc.devRef .tc main_arg2) = X (Proc.devRef .tc main_arg2) := by after_results_simp

/-! ## Both -/

/-- After the operations before the taps the buffers hold what every tap reads, as functions of the launch contents of
    the three arguments. -/
theorem pre_base (W : Valuation τ sig (Elt F)) :
    Base (W (Proc.devRef .tc main_arg0)) (W (Proc.devRef .tc main_arg1)) (W (Proc.devRef .tc main_arg2))
      (after (opsPre1 (F := F)) (after opsPre0 W)) := by
  refine ⟨?_, ?_, ?_, ?_, ?_, ?_, ?_⟩
  · rw [pre1_keep_idx, pre0_idx]
  · rw [pre1_keep_bat, pre0_bat]
  · rw [pre1_keep_feats, pre0_feats]
  · rw [pre1_grid, pre0_empty, pre0_c0, pre0_c1, pre0_c2, pre0_iota]; rfl
  · rw [pre1_keep_arg0, pre0_keep_arg0]
  · rw [pre1_keep_arg1, pre0_keep_arg1]
  · rw [pre1_keep_arg2, pre0_keep_arg2]

/-- And the running sum starts at zero. -/
theorem pre_acc (W : Valuation τ sig (Elt F)) : after (opsPre1 (F := F)) (after opsPre0 W) (Proc.devRef .tc main_v48)
    = broadcastInDim S131072x64 ![] bcast_S_S131072x64 (constant S_ .f32 0x00000000#32) := pre1_acc _

/-! ## None of these operations leaves a result undetermined -/

theorem pre0_fresh : ∀ op ∈ (opsPre0 : List (HloOp τ sig (Elt F))), op.fresh = ∅ :=
  List.forall_iff_forall_mem.mp (by simp only [List.Forall]; repeat' constructor)
theorem pre1_fresh : ∀ op ∈ (opsPre1 : List (HloOp τ sig (Elt F))), op.fresh = ∅ :=
  List.forall_iff_forall_mem.mp (by simp only [List.Forall]; repeat' constructor)

end Cert.ReferenceIdeal.Hand

end
-- ==== Proof.RefRunTap0.lean ====
/-
  Tap 0 of the reference's run (shifts −1, −1; weight slice 0, 0): from buffers that hold what every tap reads and a
  running sum, its 93 operations leave those buffers as they were and the new running sum at `Spec.tap` of the old.
  The tap is cut before its three-piece concatenate: the first stretch computes the in-range flags and the three index
  columns from the voxel coordinates and the batch numbers, the second reads the voxel table, the feature table and
  the weights.
-/
import proofs.«166044_j24610162606296_1_alg».proof.Proof.RefOps
import proofs.«166044_j24610162606296_1_alg».proof.Proof.RefRunLib

set_option maxRecDepth 8192
set_option maxHeartbeats 8000000

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The first stretch: flags and index columns -/

theorem tap0a_q (W : Valuation τ sig (Elt F)) : after (opsTap0a (F := F)) W (Proc.devRef .tc main_v67)
    = qA (W (Proc.devRef .tc main_v17)) 4294967295#32 4294967295#32 := by
  after_results_simp
  rfl

theorem tap0a_c0 (W : Valuation τ sig (Elt F)) : after (opsTap0a (F := F)) W (Proc.devRef .tc main_v85)
    = c0A (W (Proc.devRef .tc main_v20)) := by
  after_results_simp
  rfl

theorem tap0a_c1 (W : Valuation τ sig (Elt F)) : after (opsTap0a (F := F)) W (Proc.devRef .tc main_v86)
    = c1A (W (Proc.devRef .tc main_v17)) 4294967295#32 := by
  after_results_simp
  rfl

theorem tap0a_c2 (W : Valuation τ sig (Elt F)) : after (opsTap0a (F := F)) W (Proc.devRef .tc main_v87)
    = c2A (W (Proc.devRef .tc main_v17)) 4294967295#32 := by
  after_results_simp
  rfl

/-- The first stretch writes none of the buffers the second reads from before the tap. -/
theorem tap0a_keep_grid (W : Valuation τ sig (Elt F)) :
    after (opsTap0a (F := F)) W (Proc.devRef .tc main_v47) = W (Proc.devRef .tc main_v47) := by after_results_simp
theorem tap0a_keep_feats (W : Valuation τ sig (Elt F)) :
    after (opsTap0a (F := F)) W (Proc.devRef .tc main_v21) = W (Proc.devRef .tc main_v21) := by after_results_simp
theorem tap0a_keep_arg2 (W : Valuation τ sig (Elt F)) :
    after (opsTap0a (F := F)) W (Proc.devRef .tc main_arg2) = W (Proc.devRef .tc main_arg2) := by after_results_simp
theorem tap0a_keep_acc (W : Valuation τ sig (Elt F)) :
    after (opsTap0a (F := F)) W (Proc.devRef .tc main_v48) = W (Proc.devRef .tc main_v48) := by after_results_simp

/-! ## The second stretch: the new running sum -/

theorem tap0b_acc (X : Valuation τ sig (Elt F)) : after (opsTap0b (F := F)) X (Proc.devRef .tc main_v107)
    = tapB (X (Proc.devRef .tc main_v67)) (X (Proc.devRef .tc main_v85)) (X (Proc.devRef .tc main_v86)) (X (Proc.devRef .tc main_v87))
        (X (Proc.devRef .tc main_v47)) (X (Proc.devRef .tc main_v21)) (X (Proc.devRef .tc main_arg2))
        ![0, 0, 0, 0] slices_S3x3x64x64_S1x1x64x64_0_0_0_0 (X (Proc.devRef .tc main_v48)) := by
  after_results_simp
  rfl

/-! ## The whole tap writes none of the buffers every tap reads -/

theorem tap0_keep_idx (W : Valuation τ sig (Elt F)) :
    after (opsTap0b (F := F)) (after opsTap0a W) (Proc.devRef .tc main_v17) = W (Proc.devRef .tc main_v17) := by after_results_simp
theorem tap0_keep_bat (W : Valuation τ sig (Elt F)) :
    after (opsTap0b (F := F)) (after opsTap0a W) (Proc.devRef .tc main_v20) = W (Proc.devRef .tc main_v20) := by after_results_simp
theorem tap0_keep_feats (W : Valuation τ sig (Elt F)) :
    after (opsTap0b (F := F)) (after opsTap0a W) (Proc.devRef .tc main_v21) = W (Proc.devRef .tc main_v21) := by after_results_simp
theorem tap0_keep_grid (W : Valuation τ sig (Elt F)) :
    after (opsTap0b (F := F)) (after opsTap0a W) (Proc.devRef .tc main_v47) = W (Proc.devRef .tc main_v47) := by after_results_simp
theorem tap0_keep_arg0 (W : Valuation τ sig (Elt F)) :
    after (opsTap0b (F := F)) (after opsTap0a W) (Proc.devRef .tc main_arg0) = W (Proc.devRef .tc main_arg0) := by after_results_simp
theorem tap0_keep_arg1 (W : Valuation τ sig (Elt F)) :
    after (opsTap0b (F := F)) (after opsTap0a W) (Proc.devRef .tc main_arg1) = W (Proc.devRef .tc main_arg1) := by after_results_simp
theorem tap0_keep_arg2 (W : Valuation τ sig (Elt F)) :
    after (opsTap0b (F := F)) (after opsTap0a W) (Proc.devRef .tc main_arg2) = W (Proc.devRef .tc main_arg2) := by after_results_simp

/-! ## The tap -/

/-- From buffers that hold what every tap reads and the running sum `acc`, the tap leaves them holding the same and the
    new running sum. -/
theorem tap0_step {x0 : FVec F S4x32768x64 .f32} {a : FVec F S4x32768x2 .f32} {x2 : FVec F S3x3x64x64 .f32}
    {acc : FVec F S131072x64 .f32} {X : Valuation τ sig (Elt F)} (hb : Base x0 a x2 X)
    (hacc : X (Proc.devRef .tc main_v48) = acc) :
    Base x0 a x2 (after (opsTap0b (F := F)) (after opsTap0a X))
      ∧ after (opsTap0b (F := F)) (after opsTap0a X) (Proc.devRef .tc main_v107)
          = Spec.tap x0 a x2 4294967295#32 4294967295#32 ![0, 0, 0, 0] slices_S3x3x64x64_S1x1x64x64_0_0_0_0 acc := by
  refine ⟨⟨?_, ?_, ?_, ?_, ?_, ?_, ?_⟩, ?_⟩
  · rw [tap0_keep_idx]; exact hb.idx
  · rw [tap0_keep_bat]; exact hb.bat
  · rw [tap0_keep_feats]; exact hb.feats
  · rw [tap0_keep_grid]; exact hb.grid
  · rw [tap0_keep_arg0]; exact hb.arg0
  · rw [tap0_keep_arg1]; exact hb.arg1
  · rw [tap0_keep_arg2]; exact hb.arg2
  · rw [tap0b_acc, tap0a_q, tap0a_c0, tap0a_c1, tap0a_c2, tap0a_keep_grid, tap0a_keep_feats, tap0a_keep_arg2, tap0a_keep_acc,
      hb.idx, hb.bat, hb.grid, hb.feats, hb.arg2, hacc]
    exact tap_eq x0 a x2 _ _ _ _ acc

/-! ## None of its operations leaves a result undetermined -/

theorem tap0a_fresh : ∀ op ∈ (opsTap0a : List (HloOp τ sig (Elt F))), op.fresh = ∅ :=
  List.forall_iff_forall_mem.mp (by simp only [List.Forall]; repeat' constructor)
theorem tap0b_fresh : ∀ op ∈ (opsTap0b : List (HloOp τ sig (Elt F))), op.fresh = ∅ :=
  List.forall_iff_forall_mem.mp (by simp only [List.Forall]; repeat' constructor)

end Cert.ReferenceIdeal.Hand

end
-- ==== Proof.RefRunTap1.lean ====
import proofs.«166044_j24610162606296_1_alg».proof.Proof.RefOps
import proofs.«166044_j24610162606296_1_alg».proof.Proof.RefRunLib

set_option maxRecDepth 8192
set_option maxHeartbeats 8000000

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The first stretch: flags and index columns -/

theorem tap1a_q (W : Valuation τ sig (Elt F)) : after (opsTap1a (F := F)) W (Proc.devRef .tc main_v126)
    = qA (W (Proc.devRef .tc main_v17)) 4294967295#32 0#32 := by
  after_results_simp
  rfl

theorem tap1a_c0 (W : Valuation τ sig (Elt F)) : after (opsTap1a (F := F)) W (Proc.devRef .tc main_v144)
    = c0A (W (Proc.devRef .tc main_v20)) := by
  after_results_simp
  rfl

theorem tap1a_c1 (W : Valuation τ sig (Elt F)) : after (opsTap1a (F := F)) W (Proc.devRef .tc main_v145)
    = c1A (W (Proc.devRef .tc main_v17)) 4294967295#32 := by
  after_results_simp
  rfl

theorem tap1a_c2 (W : Valuation τ sig (Elt F)) : after (opsTap1a (F := F)) W (Proc.devRef .tc main_v146)
    = c2A (W (Proc.devRef .tc main_v17)) 0#32 := by
  after_results_simp
  rfl

/-- The first stretch writes none of the buffers the second reads from before the tap. -/
theorem tap1a_keep_grid (W : Valuation τ sig (Elt F)) :
    after (opsTap1a (F := F)) W (Proc.devRef .tc main_v47) = W (Proc.devRef .tc main_v47) := by after_results_simp
theorem tap1a_keep_feats (W : Valuation τ sig (Elt F)) :
    after (opsTap1a (F := F)) W (Proc.devRef .tc main_v21) = W (Proc.devRef .tc main_v21) := by after_results_simp
theorem tap1a_keep_arg2 (W : Valuation τ sig (Elt F)) :
    after (opsTap1a (F := F)) W (Proc.devRef .tc main_arg2) = W (Proc.devRef .tc main_arg2) := by after_results_simp
theorem tap1a_keep_acc (W : Valuation τ sig (Elt F)) :
    after (opsTap1a (F := F)) W (Proc.devRef .tc main_v107) = W (Proc.devRef .tc main_v107) := by after_results_simp

/-! ## The second stretch: the new running sum -/

theorem tap1b_acc (X : Valuation τ sig (Elt F)) : after (opsTap1b (F := F)) X (Proc.devRef .tc main_v166)
    = tapB (X (Proc.devRef .tc main_v126)) (X (Proc.devRef .tc main_v144)) (X (Proc.devRef .tc main_v145)) (X (Proc.devRef .tc main_v146))
        (X (Proc.devRef .tc main_v47)) (X (Proc.devRef .tc main_v21)) (X (Proc.devRef .tc main_arg2))
        ![0, 1, 0, 0] slices_S3x3x64x64_S1x1x64x64_0_1_0_0 (X (Proc.devRef .tc main_v107)) := by
  after_results_simp
  rfl

/-! ## The whole tap writes none of the buffers every tap reads -/

theorem tap1_keep_idx (W : Valuation τ sig (Elt F)) :
    after (opsTap1b (F := F)) (after opsTap1a W) (Proc.devRef .tc main_v17) = W (Proc.devRef .tc main_v17) := by after_results_simp
theorem tap1_keep_bat (W : Valuation τ sig (Elt F)) :
    after (opsTap1b (F := F)) (after opsTap1a W) (Proc.devRef .tc main_v20) = W (Proc.devRef .tc main_v20) := by after_results_simp
theorem tap1_keep_feats (W : Valuation τ sig (Elt F)) :
    after (opsTap1b (F := F)) (after opsTap1a W) (Proc.devRef .tc main_v21) = W (Proc.devRef .tc main_v21) := by after_results_simp
theorem tap1_keep_grid (W : Valuation τ sig (Elt F)) :
    after (opsTap1b (F := F)) (after opsTap1a W) (Proc.devRef .tc main_v47) = W (Proc.devRef .tc main_v47) := by after_results_simp
theorem tap1_keep_arg0 (W : Valuation τ sig (Elt F)) :
    after (opsTap1b (F := F)) (after opsTap1a W) (Proc.devRef .tc main_arg0) = W (Proc.devRef .tc main_arg0) := by after_results_simp
theorem tap1_keep_arg1 (W : Valuation τ sig (Elt F)) :
    after (opsTap1b (F := F)) (after opsTap1a W) (Proc.devRef .tc main_arg1) = W (Proc.devRef .tc main_arg1) := by after_results_simp
theorem tap1_keep_arg2 (W : Valuation τ sig (Elt F)) :
    after (opsTap1b (F := F)) (after opsTap1a W) (Proc.devRef .tc main_arg2) = W (Proc.devRef .tc main_arg2) := by after_results_simp

/-! ## The tap -/

/-- From buffers that hold what every tap reads and the running sum `acc`, the tap leaves them holding the same and the
    new running sum. -/
theorem tap1_step {x0 : FVec F S4x32768x64 .f32} {a : FVec F S4x32768x2 .f32} {x2 : FVec F S3x3x64x64 .f32}
    {acc : FVec F S131072x64 .f32} {X : Valuation τ sig (Elt F)} (hb : Base x0 a x2 X)
    (hacc : X (Proc.devRef .tc main_v107) = acc) :
    Base x0 a x2 (after (opsTap1b (F := F)) (after opsTap1a X))
      ∧ after (opsTap1b (F := F)) (after opsTap1a X) (Proc.devRef .tc main_v166)
          = Spec.tap x0 a x2 4294967295#32 0#32 ![0, 1, 0, 0] slices_S3x3x64x64_S1x1x64x64_0_1_0_0 acc := by
  refine ⟨⟨?_, ?_, ?_, ?_, ?_, ?_, ?_⟩, ?_⟩
  · rw [tap1_keep_idx]; exact hb.idx
  · rw [tap1_keep_bat]; exact hb.bat
  · rw [tap1_keep_feats]; exact hb.feats
  · rw [tap1_keep_grid]; exact hb.grid
  · rw [tap1_keep_arg0]; exact hb.arg0
  · rw [tap1_keep_arg1]; exact hb.arg1
  · rw [tap1_keep_arg2]; exact hb.arg2
  · rw [tap1b_acc, tap1a_q, tap1a_c0, tap1a_c1, tap1a_c2, tap1a_keep_grid, tap1a_keep_feats, tap1a_keep_arg2, tap1a_keep_acc,
      hb.idx, hb.bat, hb.grid, hb.feats, hb.arg2, hacc]
    exact tap_eq x0 a x2 _ _ _ _ acc

/-! ## None of its operations leaves a result undetermined -/

theorem tap1a_fresh : ∀ op ∈ (opsTap1a : List (HloOp τ sig (Elt F))), op.fresh = ∅ :=
  List.forall_iff_forall_mem.mp (by simp only [List.Forall]; repeat' constructor)
theorem tap1b_fresh : ∀ op ∈ (opsTap1b : List (HloOp τ sig (Elt F))), op.fresh = ∅ :=
  List.forall_iff_forall_mem.mp (by simp only [List.Forall]; repeat' constructor)

end Cert.ReferenceIdeal.Hand

end
-- ==== Proof.RefRunTap2.lean ====
import proofs.«166044_j24610162606296_1_alg».proof.Proof.RefOps
import proofs.«166044_j24610162606296_1_alg».proof.Proof.RefRunLib

set_option maxRecDepth 8192
set_option maxHeartbeats 8000000

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The first stretch: flags and index columns -/

theorem tap2a_q (W : Valuation τ sig (Elt F)) : after (opsTap2a (F := F)) W (Proc.devRef .tc main_v185)
    = qA (W (Proc.devRef .tc main_v17)) 4294967295#32 1#32 := by
  after_results_simp
  rfl

theorem tap2a_c0 (W : Valuation τ sig (Elt F)) : after (opsTap2a (F := F)) W (Proc.devRef .tc main_v203)
    = c0A (W (Proc.devRef .tc main_v20)) := by
  after_results_simp
  rfl

theorem tap2a_c1 (W : Valuation τ sig (Elt F)) : after (opsTap2a (F := F)) W (Proc.devRef .tc main_v204)
    = c1A (W (Proc.devRef .tc main_v17)) 4294967295#32 := by
  after_results_simp
  rfl

theorem tap2a_c2 (W : Valuation τ sig (Elt F)) : after (opsTap2a (F := F)) W (Proc.devRef .tc main_v205)
    = c2A (W (Proc.devRef .tc main_v17)) 1#32 := by
  after_results_simp
  rfl

/-- The first stretch writes none of the buffers the second reads from before the tap. -/
theorem tap2a_keep_grid (W : Valuation τ sig (Elt F)) :
    after (opsTap2a (F := F)) W (Proc.devRef .tc main_v47) = W (Proc.devRef .tc main_v47) := by after_results_simp
theorem tap2a_keep_feats (W : Valuation τ sig (Elt F)) :
    after (opsTap2a (F := F)) W (Proc.devRef .tc main_v21) = W (Proc.devRef .tc main_v21) := by after_results_simp
theorem tap2a_keep_arg2 (W : Valuation τ sig (Elt F)) :
    after (opsTap2a (F := F)) W (Proc.devRef .tc main_arg2) = W (Proc.devRef .tc main_arg2) := by after_results_simp
theorem tap2a_keep_acc (W : Valuation τ sig (Elt F)) :
    after (opsTap2a (F := F)) W (Proc.devRef .tc main_v166) = W (Proc.devRef .tc main_v166) := by after_results_simp

/-! ## The second stretch: the new running sum -/

theorem tap2b_acc (X : Valuation τ sig (Elt F)) : after (opsTap2b (F := F)) X (Proc.devRef .tc main_v225)
    = tapB (X (Proc.devRef .tc main_v185)) (X (Proc.devRef .tc main_v203)) (X (Proc.devRef .tc main_v204)) (X (Proc.devRef .tc main_v205))
        (X (Proc.devRef .tc main_v47)) (X (Proc.devRef .tc main_v21)) (X (Proc.devRef .tc main_arg2))
        ![0, 2, 0, 0] slices_S3x3x64x64_S1x1x64x64_0_2_0_0 (X (Proc.devRef .tc main_v166)) := by
  after_results_simp
  rfl

/-! ## The whole tap writes none of the buffers every tap reads -/

theorem tap2_keep_idx (W : Valuation τ sig (Elt F)) :
    after (opsTap2b (F := F)) (after opsTap2a W) (Proc.devRef .tc main_v17) = W (Proc.devRef .tc main_v17) := by after_results_simp
theorem tap2_keep_bat (W : Valuation τ sig (Elt F)) :
    after (opsTap2b (F := F)) (after opsTap2a W) (Proc.devRef .tc main_v20) = W (Proc.devRef .tc main_v20) := by after_results_simp
theorem tap2_keep_feats (W : Valuation τ sig (Elt F)) :
    after (opsTap2b (F := F)) (after opsTap2a W) (Proc.devRef .tc main_v21) = W (Proc.devRef .tc main_v21) := by after_results_simp
theorem tap2_keep_grid (W : Valuation τ sig (Elt F)) :
    after (opsTap2b (F := F)) (after opsTap2a W) (Proc.devRef .tc main_v47) = W (Proc.devRef .tc main_v47) := by after_results_simp
theorem tap2_keep_arg0 (W : Valuation τ sig (Elt F)) :
    after (opsTap2b (F := F)) (after opsTap2a W) (Proc.devRef .tc main_arg0) = W (Proc.devRef .tc main_arg0) := by after_results_simp
theorem tap2_keep_arg1 (W : Valuation τ sig (Elt F)) :
    after (opsTap2b (F := F)) (after opsTap2a W) (Proc.devRef .tc main_arg1) = W (Proc.devRef .tc main_arg1) := by after_results_simp
theorem tap2_keep_arg2 (W : Valuation τ sig (Elt F)) :
    after (opsTap2b (F := F)) (after opsTap2a W) (Proc.devRef .tc main_arg2) = W (Proc.devRef .tc main_arg2) := by after_results_simp

/-! ## The tap -/

/-- From buffers that hold what every tap reads and the running sum `acc`, the tap leaves them holding the same and the
    new running sum. -/
theorem tap2_step {x0 : FVec F S4x32768x64 .f32} {a : FVec F S4x32768x2 .f32} {x2 : FVec F S3x3x64x64 .f32}
    {acc : FVec F S131072x64 .f32} {X : Valuation τ sig (Elt F)} (hb : Base x0 a x2 X)
    (hacc : X (Proc.devRef .tc main_v166) = acc) :
    Base x0 a x2 (after (opsTap2b (F := F)) (after opsTap2a X))
      ∧ after (opsTap2b (F := F)) (after opsTap2a X) (Proc.devRef .tc main_v225)
          = Spec.tap x0 a x2 4294967295#32 1#32 ![0, 2, 0, 0] slices_S3x3x64x64_S1x1x64x64_0_2_0_0 acc := by
  refine ⟨⟨?_, ?_, ?_, ?_, ?_, ?_, ?_⟩, ?_⟩
  · rw [tap2_keep_idx]; exact hb.idx
  · rw [tap2_keep_bat]; exact hb.bat
  · rw [tap2_keep_feats]; exact hb.feats
  · rw [tap2_keep_grid]; exact hb.grid
  · rw [tap2_keep_arg0]; exact hb.arg0
  · rw [tap2_keep_arg1]; exact hb.arg1
  · rw [tap2_keep_arg2]; exact hb.arg2
  · rw [tap2b_acc, tap2a_q, tap2a_c0, tap2a_c1, tap2a_c2, tap2a_keep_grid, tap2a_keep_feats, tap2a_keep_arg2, tap2a_keep_acc,
      hb.idx, hb.bat, hb.grid, hb.feats, hb.arg2, hacc]
    exact tap_eq x0 a x2 _ _ _ _ acc

/-! ## None of its operations leaves a result undetermined -/

theorem tap2a_fresh : ∀ op ∈ (opsTap2a : List (HloOp τ sig (Elt F))), op.fresh = ∅ :=
  List.forall_iff_forall_mem.mp (by simp only [List.Forall]; repeat' constructor)
theorem tap2b_fresh : ∀ op ∈ (opsTap2b : List (HloOp τ sig (Elt F))), op.fresh = ∅ :=
  List.forall_iff_forall_mem.mp (by simp only [List.Forall]; repeat' constructor)

end Cert.ReferenceIdeal.Hand

end
-- ==== Proof.RefRunTap3.lean ====
import proofs.«166044_j24610162606296_1_alg».proof.Proof.RefOps
import proofs.«166044_j24610162606296_1_alg».proof.Proof.RefRunLib

set_option maxRecDepth 8192
set_option maxHeartbeats 8000000

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The first stretch: flags and index columns -/

theorem tap3a_q (W : Valuation τ sig (Elt F)) : after (opsTap3a (F := F)) W (Proc.devRef .tc main_v244)
    = qA (W (Proc.devRef .tc main_v17)) 0#32 4294967295#32 := by
  after_results_simp
  rfl

theorem tap3a_c0 (W : Valuation τ sig (Elt F)) : after (opsTap3a (F := F)) W (Proc.devRef .tc main_v262)
    = c0A (W (Proc.devRef .tc main_v20)) := by
  after_results_simp
  rfl

theorem tap3a_c1 (W : Valuation τ sig (Elt F)) : after (opsTap3a (F := F)) W (Proc.devRef .tc main_v263)
    = c1A (W (Proc.devRef .tc main_v17)) 0#32 := by
  after_results_simp
  rfl

theorem tap3a_c2 (W : Valuation τ sig (Elt F)) : after (opsTap3a (F := F)) W (Proc.devRef .tc main_v264)
    = c2A (W (Proc.devRef .tc main_v17)) 4294967295#32 := by
  after_results_simp
  rfl

/-- The first stretch writes none of the buffers the second reads from before the tap. -/
theorem tap3a_keep_grid (W : Valuation τ sig (Elt F)) :
    after (opsTap3a (F := F)) W (Proc.devRef .tc main_v47) = W (Proc.devRef .tc main_v47) := by after_results_simp
theorem tap3a_keep_feats (W : Valuation τ sig (Elt F)) :
    after (opsTap3a (F := F)) W (Proc.devRef .tc main_v21) = W (Proc.devRef .tc main_v21) := by after_results_simp
theorem tap3a_keep_arg2 (W : Valuation τ sig (Elt F)) :
    after (opsTap3a (F := F)) W (Proc.devRef .tc main_arg2) = W (Proc.devRef .tc main_arg2) := by after_results_simp
theorem tap3a_keep_acc (W : Valuation τ sig (Elt F)) :
    after (opsTap3a (F := F)) W (Proc.devRef .tc main_v225) = W (Proc.devRef .tc main_v225) := by after_results_simp

/-! ## The second stretch: the new running sum -/

theorem tap3b_acc (X : Valuation τ sig (Elt F)) : after (opsTap3b (F := F)) X (Proc.devRef .tc main_v284)
    = tapB (X (Proc.devRef .tc main_v244)) (X (Proc.devRef .tc main_v262)) (X (Proc.devRef .tc main_v263)) (X (Proc.devRef .tc main_v264))
        (X (Proc.devRef .tc main_v47)) (X (Proc.devRef .tc main_v21)) (X (Proc.devRef .tc main_arg2))
        ![1, 0, 0, 0] slices_S3x3x64x64_S1x1x64x64_1_0_0_0 (X (Proc.devRef .tc main_v225)) := by
  after_results_simp
  rfl

/-! ## The whole tap writes none of the buffers every tap reads -/

theorem tap3_keep_idx (W : Valuation τ sig (Elt F)) :
    after (opsTap3b (F := F)) (after opsTap3a W) (Proc.devRef .tc main_v17) = W (Proc.devRef .tc main_v17) := by after_results_simp
theorem tap3_keep_bat (W : Valuation τ sig (Elt F)) :
    after (opsTap3b (F := F)) (after opsTap3a W) (Proc.devRef .tc main_v20) = W (Proc.devRef .tc main_v20) := by after_results_simp
theorem tap3_keep_feats (W : Valuation τ sig (Elt F)) :
    after (opsTap3b (F := F)) (after opsTap3a W) (Proc.devRef .tc main_v21) = W (Proc.devRef .tc main_v21) := by after_results_simp
theorem tap3_keep_grid (W : Valuation τ sig (Elt F)) :
    after (opsTap3b (F := F)) (after opsTap3a W) (Proc.devRef .tc main_v47) = W (Proc.devRef .tc main_v47) := by after_results_simp
theorem tap3_keep_arg0 (W : Valuation τ sig (Elt F)) :
    after (opsTap3b (F := F)) (after opsTap3a W) (Proc.devRef .tc main_arg0) = W (Proc.devRef .tc main_arg0) := by after_results_simp
theorem tap3_keep_arg1 (W : Valuation τ sig (Elt F)) :
    after (opsTap3b (F := F)) (after opsTap3a W) (Proc.devRef .tc main_arg1) = W (Proc.devRef .tc main_arg1) := by after_results_simp
theorem tap3_keep_arg2 (W : Valuation τ sig (Elt F)) :
    after (opsTap3b (F := F)) (after opsTap3a W) (Proc.devRef .tc main_arg2) = W (Proc.devRef .tc main_arg2) := by after_results_simp

/-! ## The tap -/

/-- From buffers that hold what every tap reads and the running sum `acc`, the tap leaves them holding the same and the
    new running sum. -/
theorem tap3_step {x0 : FVec F S4x32768x64 .f32} {a : FVec F S4x32768x2 .f32} {x2 : FVec F S3x3x64x64 .f32}
    {acc : FVec F S131072x64 .f32} {X : Valuation τ sig (Elt F)} (hb : Base x0 a x2 X)
    (hacc : X (Proc.devRef .tc main_v225) = acc) :
    Base x0 a x2 (after (opsTap3b (F := F)) (after opsTap3a X))
      ∧ after (opsTap3b (F := F)) (after opsTap3a X) (Proc.devRef .tc main_v284)
          = Spec.tap x0 a x2 0#32 4294967295#32 ![1, 0, 0, 0] slices_S3x3x64x64_S1x1x64x64_1_0_0_0 acc := by
  refine ⟨⟨?_, ?_, ?_, ?_, ?_, ?_, ?_⟩, ?_⟩
  · rw [tap3_keep_idx]; exact hb.idx
  · rw [tap3_keep_bat]; exact hb.bat
  · rw [tap3_keep_feats]; exact hb.feats
  · rw [tap3_keep_grid]; exact hb.grid
  · rw [tap3_keep_arg0]; exact hb.arg0
  · rw [tap3_keep_arg1]; exact hb.arg1
  · rw [tap3_keep_arg2]; exact hb.arg2
  · rw [tap3b_acc, tap3a_q, tap3a_c0, tap3a_c1, tap3a_c2, tap3a_keep_grid, tap3a_keep_feats, tap3a_keep_arg2, tap3a_keep_acc,
      hb.idx, hb.bat, hb.grid, hb.feats, hb.arg2, hacc]
    exact tap_eq x0 a x2 _ _ _ _ acc

/-! ## None of its operations leaves a result undetermined -/

theorem tap3a_fresh : ∀ op ∈ (opsTap3a : List (HloOp τ sig (Elt F))), op.fresh = ∅ :=
  List.forall_iff_forall_mem.mp (by simp only [List.Forall]; repeat' constructor)
theorem tap3b_fresh : ∀ op ∈ (opsTap3b : List (HloOp τ sig (Elt F))), op.fresh = ∅ :=
  List.forall_iff_forall_mem.mp (by simp only [List.Forall]; repeat' constructor)

end Cert.ReferenceIdeal.Hand

end
-- ==== Proof.RefRunTap4.lean ====
import proofs.«166044_j24610162606296_1_alg».proof.Proof.RefOps
import proofs.«166044_j24610162606296_1_alg».proof.Proof.RefRunLib

set_option maxRecDepth 8192
set_option maxHeartbeats 8000000

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The first stretch: flags and index columns -/

theorem tap4a_q (W : Valuation τ sig (Elt F)) : after (opsTap4a (F := F)) W (Proc.devRef .tc main_v303)
    = qA (W (Proc.devRef .tc main_v17)) 0#32 0#32 := by
  after_results_simp
  rfl

theorem tap4a_c0 (W : Valuation τ sig (Elt F)) : after (opsTap4a (F := F)) W (Proc.devRef .tc main_v321)
    = c0A (W (Proc.devRef .tc main_v20)) := by
  after_results_simp
  rfl

theorem tap4a_c1 (W : Valuation τ sig (Elt F)) : after (opsTap4a (F := F)) W (Proc.devRef .tc main_v322)
    = c1A (W (Proc.devRef .tc main_v17)) 0#32 := by
  after_results_simp
  rfl

theorem tap4a_c2 (W : Valuation τ sig (Elt F)) : after (opsTap4a (F := F)) W (Proc.devRef .tc main_v323)
    = c2A (W (Proc.devRef .tc main_v17)) 0#32 := by
  after_results_simp
  rfl

/-- The first stretch writes none of the buffers the second reads from before the tap. -/
theorem tap4a_keep_grid (W : Valuation τ sig (Elt F)) :
    after (opsTap4a (F := F)) W (Proc.devRef .tc main_v47) = W (Proc.devRef .tc main_v47) := by after_results_simp
theorem tap4a_keep_feats (W : Valuation τ sig (Elt F)) :
    after (opsTap4a (F := F)) W (Proc.devRef .tc main_v21) = W (Proc.devRef .tc main_v21) := by after_results_simp
theorem tap4a_keep_arg2 (W : Valuation τ sig (Elt F)) :
    after (opsTap4a (F := F)) W (Proc.devRef .tc main_arg2) = W (Proc.devRef .tc main_arg2) := by after_results_simp
theorem tap4a_keep_acc (W : Valuation τ sig (Elt F)) :
    after (opsTap4a (F := F)) W (Proc.devRef .tc main_v284) = W (Proc.devRef .tc main_v284) := by after_results_simp

/-! ## The second stretch: the new running sum -/

theorem tap4b_acc (X : Valuation τ sig (Elt F)) : after (opsTap4b (F := F)) X (Proc.devRef .tc main_v343)
    = tapB (X (Proc.devRef .tc main_v303)) (X (Proc.devRef .tc main_v321)) (X (Proc.devRef .tc main_v322)) (X (Proc.devRef .tc main_v323))
        (X (Proc.devRef .tc main_v47)) (X (Proc.devRef .tc main_v21)) (X (Proc.devRef .tc main_arg2))
        ![1, 1, 0, 0] slices_S3x3x64x64_S1x1x64x64_1_1_0_0 (X (Proc.devRef .tc main_v284)) := by
  after_results_simp
  rfl

/-! ## The whole tap writes none of the buffers every tap reads -/

theorem tap4_keep_idx (W : Valuation τ sig (Elt F)) :
    after (opsTap4b (F := F)) (after opsTap4a W) (Proc.devRef .tc main_v17) = W (Proc.devRef .tc main_v17) := by after_results_simp
theorem tap4_keep_bat (W : Valuation τ sig (Elt F)) :
    after (opsTap4b (F := F)) (after opsTap4a W) (Proc.devRef .tc main_v20) = W (Proc.devRef .tc main_v20) := by after_results_simp
theorem tap4_keep_feats (W : Valuation τ sig (Elt F)) :
    after (opsTap4b (F := F)) (after opsTap4a W) (Proc.devRef .tc main_v21) = W (Proc.devRef .tc main_v21) := by after_results_simp
theorem tap4_keep_grid (W : Valuation τ sig (Elt F)) :
    after (opsTap4b (F := F)) (after opsTap4a W) (Proc.devRef .tc main_v47) = W (Proc.devRef .tc main_v47) := by after_results_simp
theorem tap4_keep_arg0 (W : Valuation τ sig (Elt F)) :
    after (opsTap4b (F := F)) (after opsTap4a W) (Proc.devRef .tc main_arg0) = W (Proc.devRef .tc main_arg0) := by after_results_simp
theorem tap4_keep_arg1 (W : Valuation τ sig (Elt F)) :
    after (opsTap4b (F := F)) (after opsTap4a W) (Proc.devRef .tc main_arg1) = W (Proc.devRef .tc main_arg1) := by after_results_simp
theorem tap4_keep_arg2 (W : Valuation τ sig (Elt F)) :
    after (opsTap4b (F := F)) (after opsTap4a W) (Proc.devRef .tc main_arg2) = W (Proc.devRef .tc main_arg2) := by after_results_simp

/-! ## The tap -/

/-- From buffers that hold what every tap reads and the running sum `acc`, the tap leaves them holding the same and the
    new running sum. -/
theorem tap4_step {x0 : FVec F S4x32768x64 .f32} {a : FVec F S4x32768x2 .f32} {x2 : FVec F S3x3x64x64 .f32}
    {acc : FVec F S131072x64 .f32} {X : Valuation τ sig (Elt F)} (hb : Base x0 a x2 X)
    (hacc : X (Proc.devRef .tc main_v284) = acc) :
    Base x0 a x2 (after (opsTap4b (F := F)) (after opsTap4a X))
      ∧ after (opsTap4b (F := F)) (after opsTap4a X) (Proc.devRef .tc main_v343)
          = Spec.tap x0 a x2 0#32 0#32 ![1, 1, 0, 0] slices_S3x3x64x64_S1x1x64x64_1_1_0_0 acc := by
  refine ⟨⟨?_, ?_, ?_, ?_, ?_, ?_, ?_⟩, ?_⟩
  · rw [tap4_keep_idx]; exact hb.idx
  · rw [tap4_keep_bat]; exact hb.bat
  · rw [tap4_keep_feats]; exact hb.feats
  · rw [tap4_keep_grid]; exact hb.grid
  · rw [tap4_keep_arg0]; exact hb.arg0
  · rw [tap4_keep_arg1]; exact hb.arg1
  · rw [tap4_keep_arg2]; exact hb.arg2
  · rw [tap4b_acc, tap4a_q, tap4a_c0, tap4a_c1, tap4a_c2, tap4a_keep_grid, tap4a_keep_feats, tap4a_keep_arg2, tap4a_keep_acc,
      hb.idx, hb.bat, hb.grid, hb.feats, hb.arg2, hacc]
    exact tap_eq x0 a x2 _ _ _ _ acc

/-! ## None of its operations leaves a result undetermined -/

theorem tap4a_fresh : ∀ op ∈ (opsTap4a : List (HloOp τ sig (Elt F))), op.fresh = ∅ :=
  List.forall_iff_forall_mem.mp (by simp only [List.Forall]; repeat' constructor)
theorem tap4b_fresh : ∀ op ∈ (opsTap4b : List (HloOp τ sig (Elt F))), op.fresh = ∅ :=
  List.forall_iff_forall_mem.mp (by simp only [List.Forall]; repeat' constructor)

end Cert.ReferenceIdeal.Hand

end
-- ==== Proof.RefRunTap5.lean ====
import proofs.«166044_j24610162606296_1_alg».proof.Proof.RefOps
import proofs.«166044_j24610162606296_1_alg».proof.Proof.RefRunLib

set_option maxRecDepth 8192
set_option maxHeartbeats 8000000

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The first stretch: flags and index columns -/

theorem tap5a_q (W : Valuation τ sig (Elt F)) : after (opsTap5a (F := F)) W (Proc.devRef .tc main_v362)
    = qA (W (Proc.devRef .tc main_v17)) 0#32 1#32 := by
  after_results_simp
  rfl

theorem tap5a_c0 (W : Valuation τ sig (Elt F)) : after (opsTap5a (F := F)) W (Proc.devRef .tc main_v380)
    = c0A (W (Proc.devRef .tc main_v20)) := by
  after_results_simp
  rfl

theorem tap5a_c1 (W : Valuation τ sig (Elt F)) : after (opsTap5a (F := F)) W (Proc.devRef .tc main_v381)
    = c1A (W (Proc.devRef .tc main_v17)) 0#32 := by
  after_results_simp
  rfl

theorem tap5a_c2 (W : Valuation τ sig (Elt F)) : after (opsTap5a (F := F)) W (Proc.devRef .tc main_v382)
    = c2A (W (Proc.devRef .tc main_v17)) 1#32 := by
  after_results_simp
  rfl

/-- The first stretch writes none of the buffers the second reads from before the tap. -/
theorem tap5a_keep_grid (W : Valuation τ sig (Elt F)) :
    after (opsTap5a (F := F)) W (Proc.devRef .tc main_v47) = W (Proc.devRef .tc main_v47) := by after_results_simp
theorem tap5a_keep_feats (W : Valuation τ sig (Elt F)) :
    after (opsTap5a (F := F)) W (Proc.devRef .tc main_v21) = W (Proc.devRef .tc main_v21) := by after_results_simp
theorem tap5a_keep_arg2 (W : Valuation τ sig (Elt F)) :
    after (opsTap5a (F := F)) W (Proc.devRef .tc main_arg2) = W (Proc.devRef .tc main_arg2) := by after_results_simp
theorem tap5a_keep_acc (W : Valuation τ sig (Elt F)) :
    after (opsTap5a (F := F)) W (Proc.devRef .tc main_v343) = W (Proc.devRef .tc main_v343) := by after_results_simp

/-! ## The second stretch: the new running sum -/

theorem tap5b_acc (X : Valuation τ sig (Elt F)) : after (opsTap5b (F := F)) X (Proc.devRef .tc main_v402)
    = tapB (X (Proc.devRef .tc main_v362)) (X (Proc.devRef .tc main_v380)) (X (Proc.devRef .tc main_v381)) (X (Proc.devRef .tc main_v382))
        (X (Proc.devRef .tc main_v47)) (X (Proc.devRef .tc main_v21)) (X (Proc.devRef .tc main_arg2))
        ![1, 2, 0, 0] slices_S3x3x64x64_S1x1x64x64_1_2_0_0 (X (Proc.devRef .tc main_v343)) := by
  after_results_simp
  rfl

/-! ## The whole tap writes none of the buffers every tap reads -/

theorem tap5_keep_idx (W : Valuation τ sig (Elt F)) :
    after (opsTap5b (F := F)) (after opsTap5a W) (Proc.devRef .tc main_v17) = W (Proc.devRef .tc main_v17) := by after_results_simp
theorem tap5_keep_bat (W : Valuation τ sig (Elt F)) :
    after (opsTap5b (F := F)) (after opsTap5a W) (Proc.devRef .tc main_v20) = W (Proc.devRef .tc main_v20) := by after_results_simp
theorem tap5_keep_feats (W : Valuation τ sig (Elt F)) :
    after (opsTap5b (F := F)) (after opsTap5a W) (Proc.devRef .tc main_v21) = W (Proc.devRef .tc main_v21) := by after_results_simp
theorem tap5_keep_grid (W : Valuation τ sig (Elt F)) :
    after (opsTap5b (F := F)) (after opsTap5a W) (Proc.devRef .tc main_v47) = W (Proc.devRef .tc main_v47) := by after_results_simp
theorem tap5_keep_arg0 (W : Valuation τ sig (Elt F)) :
    after (opsTap5b (F := F)) (after opsTap5a W) (Proc.devRef .tc main_arg0) = W (Proc.devRef .tc main_arg0) := by after_results_simp
theorem tap5_keep_arg1 (W : Valuation τ sig (Elt F)) :
    after (opsTap5b (F := F)) (after opsTap5a W) (Proc.devRef .tc main_arg1) = W (Proc.devRef .tc main_arg1) := by after_results_simp
theorem tap5_keep_arg2 (W : Valuation τ sig (Elt F)) :
    after (opsTap5b (F := F)) (after opsTap5a W) (Proc.devRef .tc main_arg2) = W (Proc.devRef .tc main_arg2) := by after_results_simp

/-! ## The tap -/

/-- From buffers that hold what every tap reads and the running sum `acc`, the tap leaves them holding the same and the
    new running sum. -/
theorem tap5_step {x0 : FVec F S4x32768x64 .f32} {a : FVec F S4x32768x2 .f32} {x2 : FVec F S3x3x64x64 .f32}
    {acc : FVec F S131072x64 .f32} {X : Valuation τ sig (Elt F)} (hb : Base x0 a x2 X)
    (hacc : X (Proc.devRef .tc main_v343) = acc) :
    Base x0 a x2 (after (opsTap5b (F := F)) (after opsTap5a X))
      ∧ after (opsTap5b (F := F)) (after opsTap5a X) (Proc.devRef .tc main_v402)
          = Spec.tap x0 a x2 0#32 1#32 ![1, 2, 0, 0] slices_S3x3x64x64_S1x1x64x64_1_2_0_0 acc := by
  refine ⟨⟨?_, ?_, ?_, ?_, ?_, ?_, ?_⟩, ?_⟩
  · rw [tap5_keep_idx]; exact hb.idx
  · rw [tap5_keep_bat]; exact hb.bat
  · rw [tap5_keep_feats]; exact hb.feats
  · rw [tap5_keep_grid]; exact hb.grid
  · rw [tap5_keep_arg0]; exact hb.arg0
  · rw [tap5_keep_arg1]; exact hb.arg1
  · rw [tap5_keep_arg2]; exact hb.arg2
  · rw [tap5b_acc, tap5a_q, tap5a_c0, tap5a_c1, tap5a_c2, tap5a_keep_grid, tap5a_keep_feats, tap5a_keep_arg2, tap5a_keep_acc,
      hb.idx, hb.bat, hb.grid, hb.feats, hb.arg2, hacc]
    exact tap_eq x0 a x2 _ _ _ _ acc

/-! ## None of its operations leaves a result undetermined -/

theorem tap5a_fresh : ∀ op ∈ (opsTap5a : List (HloOp τ sig (Elt F))), op.fresh = ∅ :=
  List.forall_iff_forall_mem.mp (by simp only [List.Forall]; repeat' constructor)
theorem tap5b_fresh : ∀ op ∈ (opsTap5b : List (HloOp τ sig (Elt F))), op.fresh = ∅ :=
  List.forall_iff_forall_mem.mp (by simp only [List.Forall]; repeat' constructor)

end Cert.ReferenceIdeal.Hand

end
-- ==== Proof.RefRunTap6.lean ====
import proofs.«166044_j24610162606296_1_alg».proof.Proof.RefOps
import proofs.«166044_j24610162606296_1_alg».proof.Proof.RefRunLib

set_option maxRecDepth 8192
set_option maxHeartbeats 8000000

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The first stretch: flags and index columns -/

theorem tap6a_q (W : Valuation τ sig (Elt F)) : after (opsTap6a (F := F)) W (Proc.devRef .tc main_v421)
    = qA (W (Proc.devRef .tc main_v17)) 1#32 4294967295#32 := by
  after_results_simp
  rfl

theorem tap6a_c0 (W : Valuation τ sig (Elt F)) : after (opsTap6a (F := F)) W (Proc.devRef .tc main_v439)
    = c0A (W (Proc.devRef .tc main_v20)) := by
  after_results_simp
  rfl

theorem tap6a_c1 (W : Valuation τ sig (Elt F)) : after (opsTap6a (F := F)) W (Proc.devRef .tc main_v440)
    = c1A (W (Proc.devRef .tc main_v17)) 1#32 := by
  after_results_simp
  rfl

theorem tap6a_c2 (W : Valuation τ sig (Elt F)) : after (opsTap6a (F := F)) W (Proc.devRef .tc main_v441)
    = c2A (W (Proc.devRef .tc main_v17)) 4294967295#32 := by
  after_results_simp
  rfl

/-- The first stretch writes none of the buffers the second reads from before the tap. -/
theorem tap6a_keep_grid (W : Valuation τ sig (Elt F)) :
    after (opsTap6a (F := F)) W (Proc.devRef .tc main_v47) = W (Proc.devRef .tc main_v47) := by after_results_simp
theorem tap6a_keep_feats (W : Valuation τ sig (Elt F)) :
    after (opsTap6a (F := F)) W (Proc.devRef .tc main_v21) = W (Proc.devRef .tc main_v21) := by after_results_simp
theorem tap6a_keep_arg2 (W : Valuation τ sig (Elt F)) :
    after (opsTap6a (F := F)) W (Proc.devRef .tc main_arg2) = W (Proc.devRef .tc main_arg2) := by after_results_simp
theorem tap6a_keep_acc (W : Valuation τ sig (Elt F)) :
    after (opsTap6a (F := F)) W (Proc.devRef .tc main_v402) = W (Proc.devRef .tc main_v402) := by after_results_simp

/-! ## The second stretch: the new running sum -/

theorem tap6b_acc (X : Valuation τ sig (Elt F)) : after (opsTap6b (F := F)) X (Proc.devRef .tc main_v461)
    = tapB (X (Proc.devRef .tc main_v421)) (X (Proc.devRef .tc main_v439)) (X (Proc.devRef .tc main_v440)) (X (Proc.devRef .tc main_v441))
        (X (Proc.devRef .tc main_v47)) (X (Proc.devRef .tc main_v21)) (X (Proc.devRef .tc main_arg2))
        ![2, 0, 0, 0] slices_S3x3x64x64_S1x1x64x64_2_0_0_0 (X (Proc.devRef .tc main_v402)) := by
  after_results_simp
  rfl

/-! ## The whole tap writes none of the buffers every tap reads -/

theorem tap6_keep_idx (W : Valuation τ sig (Elt F)) :
    after (opsTap6b (F := F)) (after opsTap6a W) (Proc.devRef .tc main_v17) = W (Proc.devRef .tc main_v17) := by after_results_simp
theorem tap6_keep_bat (W : Valuation τ sig (Elt F)) :
    after (opsTap6b (F := F)) (after opsTap6a W) (Proc.devRef .tc main_v20) = W (Proc.devRef .tc main_v20) := by after_results_simp
theorem tap6_keep_feats (W : Valuation τ sig (Elt F)) :
    after (opsTap6b (F := F)) (after opsTap6a W) (Proc.devRef .tc main_v21) = W (Proc.devRef .tc main_v21) := by after_results_simp
theorem tap6_keep_grid (W : Valuation τ sig (Elt F)) :
    after (opsTap6b (F := F)) (after opsTap6a W) (Proc.devRef .tc main_v47) = W (Proc.devRef .tc main_v47) := by after_results_simp
theorem tap6_keep_arg0 (W : Valuation τ sig (Elt F)) :
    after (opsTap6b (F := F)) (after opsTap6a W) (Proc.devRef .tc main_arg0) = W (Proc.devRef .tc main_arg0) := by after_results_simp
theorem tap6_keep_arg1 (W : Valuation τ sig (Elt F)) :
    after (opsTap6b (F := F)) (after opsTap6a W) (Proc.devRef .tc main_arg1) = W (Proc.devRef .tc main_arg1) := by after_results_simp
theorem tap6_keep_arg2 (W : Valuation τ sig (Elt F)) :
    after (opsTap6b (F := F)) (after opsTap6a W) (Proc.devRef .tc main_arg2) = W (Proc.devRef .tc main_arg2) := by after_results_simp

/-! ## The tap -/

/-- From buffers that hold what every tap reads and the running sum `acc`, the tap leaves them holding the same and the
    new running sum. -/
theorem tap6_step {x0 : FVec F S4x32768x64 .f32} {a : FVec F S4x32768x2 .f32} {x2 : FVec F S3x3x64x64 .f32}
    {acc : FVec F S131072x64 .f32} {X : Valuation τ sig (Elt F)} (hb : Base x0 a x2 X)
    (hacc : X (Proc.devRef .tc main_v402) = acc) :
    Base x0 a x2 (after (opsTap6b (F := F)) (after opsTap6a X))
      ∧ after (opsTap6b (F := F)) (after opsTap6a X) (Proc.devRef .tc main_v461)
          = Spec.tap x0 a x2 1#32 4294967295#32 ![2, 0, 0, 0] slices_S3x3x64x64_S1x1x64x64_2_0_0_0 acc := by
  refine ⟨⟨?_, ?_, ?_, ?_, ?_, ?_, ?_⟩, ?_⟩
  · rw [tap6_keep_idx]; exact hb.idx
  · rw [tap6_keep_bat]; exact hb.bat
  · rw [tap6_keep_feats]; exact hb.feats
  · rw [tap6_keep_grid]; exact hb.grid
  · rw [tap6_keep_arg0]; exact hb.arg0
  · rw [tap6_keep_arg1]; exact hb.arg1
  · rw [tap6_keep_arg2]; exact hb.arg2
  · rw [tap6b_acc, tap6a_q, tap6a_c0, tap6a_c1, tap6a_c2, tap6a_keep_grid, tap6a_keep_feats, tap6a_keep_arg2, tap6a_keep_acc,
      hb.idx, hb.bat, hb.grid, hb.feats, hb.arg2, hacc]
    exact tap_eq x0 a x2 _ _ _ _ acc

/-! ## None of its operations leaves a result undetermined -/

theorem tap6a_fresh : ∀ op ∈ (opsTap6a : List (HloOp τ sig (Elt F))), op.fresh = ∅ :=
  List.forall_iff_forall_mem.mp (by simp only [List.Forall]; repeat' constructor)
theorem tap6b_fresh : ∀ op ∈ (opsTap6b : List (HloOp τ sig (Elt F))), op.fresh = ∅ :=
  List.forall_iff_forall_mem.mp (by simp only [List.Forall]; repeat' constructor)

end Cert.ReferenceIdeal.Hand

end
-- ==== Proof.RefRunTap7.lean ====
import proofs.«166044_j24610162606296_1_alg».proof.Proof.RefOps
import proofs.«166044_j24610162606296_1_alg».proof.Proof.RefRunLib

set_option maxRecDepth 8192
set_option maxHeartbeats 8000000

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The first stretch: flags and index columns -/

theorem tap7a_q (W : Valuation τ sig (Elt F)) : after (opsTap7a (F := F)) W (Proc.devRef .tc main_v480)
    = qA (W (Proc.devRef .tc main_v17)) 1#32 0#32 := by
  after_results_simp
  rfl

theorem tap7a_c0 (W : Valuation τ sig (Elt F)) : after (opsTap7a (F := F)) W (Proc.devRef .tc main_v498)
    = c0A (W (Proc.devRef .tc main_v20)) := by
  after_results_simp
  rfl

theorem tap7a_c1 (W : Valuation τ sig (Elt F)) : after (opsTap7a (F := F)) W (Proc.devRef .tc main_v499)
    = c1A (W (Proc.devRef .tc main_v17)) 1#32 := by
  after_results_simp
  rfl

theorem tap7a_c2 (W : Valuation τ sig (Elt F)) : after (opsTap7a (F := F)) W (Proc.devRef .tc main_v500)
    = c2A (W (Proc.devRef .tc main_v17)) 0#32 := by
  after_results_simp
  rfl

/-- The first stretch writes none of the buffers the second reads from before the tap. -/
theorem tap7a_keep_grid (W : Valuation τ sig (Elt F)) :
    after (opsTap7a (F := F)) W (Proc.devRef .tc main_v47) = W (Proc.devRef .tc main_v47) := by after_results_simp
theorem tap7a_keep_feats (W : Valuation τ sig (Elt F)) :
    after (opsTap7a (F := F)) W (Proc.devRef .tc main_v21) = W (Proc.devRef .tc main_v21) := by after_results_simp
theorem tap7a_keep_arg2 (W : Valuation τ sig (Elt F)) :
    after (opsTap7a (F := F)) W (Proc.devRef .tc main_arg2) = W (Proc.devRef .tc main_arg2) := by after_results_simp
theorem tap7a_keep_acc (W : Valuation τ sig (Elt F)) :
    after (opsTap7a (F := F)) W (Proc.devRef .tc main_v461) = W (Proc.devRef .tc main_v461) := by after_results_simp

/-! ## The second stretch: the new running sum -/

theorem tap7b_acc (X : Valuation τ sig (Elt F)) : after (opsTap7b (F := F)) X (Proc.devRef .tc main_v520)
    = tapB (X (Proc.devRef .tc main_v480)) (X (Proc.devRef .tc main_v498)) (X (Proc.devRef .tc main_v499)) (X (Proc.devRef .tc main_v500))
        (X (Proc.devRef .tc main_v47)) (X (Proc.devRef .tc main_v21)) (X (Proc.devRef .tc main_arg2))
        ![2, 1, 0, 0] slices_S3x3x64x64_S1x1x64x64_2_1_0_0 (X (Proc.devRef .tc main_v461)) := by
  after_results_simp
  rfl

/-! ## The whole tap writes none of the buffers every tap reads -/

theorem tap7_keep_idx (W : Valuation τ sig (Elt F)) :
    after (opsTap7b (F := F)) (after opsTap7a W) (Proc.devRef .tc main_v17) = W (Proc.devRef .tc main_v17) := by after_results_simp
theorem tap7_keep_bat (W : Valuation τ sig (Elt F)) :
    after (opsTap7b (F := F)) (after opsTap7a W) (Proc.devRef .tc main_v20) = W (Proc.devRef .tc main_v20) := by after_results_simp
theorem tap7_keep_feats (W : Valuation τ sig (Elt F)) :
    after (opsTap7b (F := F)) (after opsTap7a W) (Proc.devRef .tc main_v21) = W (Proc.devRef .tc main_v21) := by after_results_simp
theorem tap7_keep_grid (W : Valuation τ sig (Elt F)) :
    after (opsTap7b (F := F)) (after opsTap7a W) (Proc.devRef .tc main_v47) = W (Proc.devRef .tc main_v47) := by after_results_simp
theorem tap7_keep_arg0 (W : Valuation τ sig (Elt F)) :
    after (opsTap7b (F := F)) (after opsTap7a W) (Proc.devRef .tc main_arg0) = W (Proc.devRef .tc main_arg0) := by after_results_simp
theorem tap7_keep_arg1 (W : Valuation τ sig (Elt F)) :
    after (opsTap7b (F := F)) (after opsTap7a W) (Proc.devRef .tc main_arg1) = W (Proc.devRef .tc main_arg1) := by after_results_simp
theorem tap7_keep_arg2 (W : Valuation τ sig (Elt F)) :
    after (opsTap7b (F := F)) (after opsTap7a W) (Proc.devRef .tc main_arg2) = W (Proc.devRef .tc main_arg2) := by after_results_simp

/-! ## The tap -/

/-- From buffers that hold what every tap reads and the running sum `acc`, the tap leaves them holding the same and the
    new running sum. -/
theorem tap7_step {x0 : FVec F S4x32768x64 .f32} {a : FVec F S4x32768x2 .f32} {x2 : FVec F S3x3x64x64 .f32}
    {acc : FVec F S131072x64 .f32} {X : Valuation τ sig (Elt F)} (hb : Base x0 a x2 X)
    (hacc : X (Proc.devRef .tc main_v461) = acc) :
    Base x0 a x2 (after (opsTap7b (F := F)) (after opsTap7a X))
      ∧ after (opsTap7b (F := F)) (after opsTap7a X) (Proc.devRef .tc main_v520)
          = Spec.tap x0 a x2 1#32 0#32 ![2, 1, 0, 0] slices_S3x3x64x64_S1x1x64x64_2_1_0_0 acc := by
  refine ⟨⟨?_, ?_, ?_, ?_, ?_, ?_, ?_⟩, ?_⟩
  · rw [tap7_keep_idx]; exact hb.idx
  · rw [tap7_keep_bat]; exact hb.bat
  · rw [tap7_keep_feats]; exact hb.feats
  · rw [tap7_keep_grid]; exact hb.grid
  · rw [tap7_keep_arg0]; exact hb.arg0
  · rw [tap7_keep_arg1]; exact hb.arg1
  · rw [tap7_keep_arg2]; exact hb.arg2
  · rw [tap7b_acc, tap7a_q, tap7a_c0, tap7a_c1, tap7a_c2, tap7a_keep_grid, tap7a_keep_feats, tap7a_keep_arg2, tap7a_keep_acc,
      hb.idx, hb.bat, hb.grid, hb.feats, hb.arg2, hacc]
    exact tap_eq x0 a x2 _ _ _ _ acc

/-! ## None of its operations leaves a result undetermined -/

theorem tap7a_fresh : ∀ op ∈ (opsTap7a : List (HloOp τ sig (Elt F))), op.fresh = ∅ :=
  List.forall_iff_forall_mem.mp (by simp only [List.Forall]; repeat' constructor)
theorem tap7b_fresh : ∀ op ∈ (opsTap7b : List (HloOp τ sig (Elt F))), op.fresh = ∅ :=
  List.forall_iff_forall_mem.mp (by simp only [List.Forall]; repeat' constructor)

end Cert.ReferenceIdeal.Hand

end
-- ==== Proof.RefRunTap8.lean ====
import proofs.«166044_j24610162606296_1_alg».proof.Proof.RefOps
import proofs.«166044_j24610162606296_1_alg».proof.Proof.RefRunLib

set_option maxRecDepth 8192
set_option maxHeartbeats 8000000

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The first stretch: flags and index columns -/

theorem tap8a_q (W : Valuation τ sig (Elt F)) : after (opsTap8a (F := F)) W (Proc.devRef .tc main_v539)
    = qA (W (Proc.devRef .tc main_v17)) 1#32 1#32 := by
  after_results_simp
  rfl

theorem tap8a_c0 (W : Valuation τ sig (Elt F)) : after (opsTap8a (F := F)) W (Proc.devRef .tc main_v557)
    = c0A (W (Proc.devRef .tc main_v20)) := by
  after_results_simp
  rfl

theorem tap8a_c1 (W : Valuation τ sig (Elt F)) : after (opsTap8a (F := F)) W (Proc.devRef .tc main_v558)
    = c1A (W (Proc.devRef .tc main_v17)) 1#32 := by
  after_results_simp
  rfl

theorem tap8a_c2 (W : Valuation τ sig (Elt F)) : after (opsTap8a (F := F)) W (Proc.devRef .tc main_v559)
    = c2A (W (Proc.devRef .tc main_v17)) 1#32 := by
  after_results_simp
  rfl

/-- The first stretch writes none of the buffers the second reads from before the tap. -/
theorem tap8a_keep_grid (W : Valuation τ sig (Elt F)) :
    after (opsTap8a (F := F)) W (Proc.devRef .tc main_v47) = W (Proc.devRef .tc main_v47) := by after_results_simp
theorem tap8a_keep_feats (W : Valuation τ sig (Elt F)) :
    after (opsTap8a (F := F)) W (Proc.devRef .tc main_v21) = W (Proc.devRef .tc main_v21) := by after_results_simp
theorem tap8a_keep_arg2 (W : Valuation τ sig (Elt F)) :
    after (opsTap8a (F := F)) W (Proc.devRef .tc main_arg2) = W (Proc.devRef .tc main_arg2) := by after_results_simp
theorem tap8a_keep_acc (W : Valuation τ sig (Elt F)) :
    after (opsTap8a (F := F)) W (Proc.devRef .tc main_v520) = W (Proc.devRef .tc main_v520) := by after_results_simp

/-! ## The second stretch: the new running sum -/

theorem tap8b_acc (X : Valuation τ sig (Elt F)) : after (opsTap8b (F := F)) X (Proc.devRef .tc main_v579)
    = tapB (X (Proc.devRef .tc main_v539)) (X (Proc.devRef .tc main_v557)) (X (Proc.devRef .tc main_v558)) (X (Proc.devRef .tc main_v559))
        (X (Proc.devRef .tc main_v47)) (X (Proc.devRef .tc main_v21)) (X (Proc.devRef .tc main_arg2))
        ![2, 2, 0, 0] slices_S3x3x64x64_S1x1x64x64_2_2_0_0 (X (Proc.devRef .tc main_v520)) := by
  after_results_simp
  rfl

/-! ## The whole tap writes none of the buffers every tap reads -/

theorem tap8_keep_idx (W : Valuation τ sig (Elt F)) :
    after (opsTap8b (F := F)) (after opsTap8a W) (Proc.devRef .tc main_v17) = W (Proc.devRef .tc main_v17) := by after_results_simp
theorem tap8_keep_bat (W : Valuation τ sig (Elt F)) :
    after (opsTap8b (F := F)) (after opsTap8a W) (Proc.devRef .tc main_v20) = W (Proc.devRef .tc main_v20) := by after_results_simp
theorem tap8_keep_feats (W : Valuation τ sig (Elt F)) :
    after (opsTap8b (F := F)) (after opsTap8a W) (Proc.devRef .tc main_v21) = W (Proc.devRef .tc main_v21) := by after_results_simp
theorem tap8_keep_grid (W : Valuation τ sig (Elt F)) :
    after (opsTap8b (F := F)) (after opsTap8a W) (Proc.devRef .tc main_v47) = W (Proc.devRef .tc main_v47) := by after_results_simp
theorem tap8_keep_arg0 (W : Valuation τ sig (Elt F)) :
    after (opsTap8b (F := F)) (after opsTap8a W) (Proc.devRef .tc main_arg0) = W (Proc.devRef .tc main_arg0) := by after_results_simp
theorem tap8_keep_arg1 (W : Valuation τ sig (Elt F)) :
    after (opsTap8b (F := F)) (after opsTap8a W) (Proc.devRef .tc main_arg1) = W (Proc.devRef .tc main_arg1) := by after_results_simp
theorem tap8_keep_arg2 (W : Valuation τ sig (Elt F)) :
    after (opsTap8b (F := F)) (after opsTap8a W) (Proc.devRef .tc main_arg2) = W (Proc.devRef .tc main_arg2) := by after_results_simp

/-! ## The tap -/

/-- From buffers that hold what every tap reads and the running sum `acc`, the tap leaves them holding the same and the
    new running sum. -/
theorem tap8_step {x0 : FVec F S4x32768x64 .f32} {a : FVec F S4x32768x2 .f32} {x2 : FVec F S3x3x64x64 .f32}
    {acc : FVec F S131072x64 .f32} {X : Valuation τ sig (Elt F)} (hb : Base x0 a x2 X)
    (hacc : X (Proc.devRef .tc main_v520) = acc) :
    Base x0 a x2 (after (opsTap8b (F := F)) (after opsTap8a X))
      ∧ after (opsTap8b (F := F)) (after opsTap8a X) (Proc.devRef .tc main_v579)
          = Spec.tap x0 a x2 1#32 1#32 ![2, 2, 0, 0] slices_S3x3x64x64_S1x1x64x64_2_2_0_0 acc := by
  refine ⟨⟨?_, ?_, ?_, ?_, ?_, ?_, ?_⟩, ?_⟩
  · rw [tap8_keep_idx]; exact hb.idx
  · rw [tap8_keep_bat]; exact hb.bat
  · rw [tap8_keep_feats]; exact hb.feats
  · rw [tap8_keep_grid]; exact hb.grid
  · rw [tap8_keep_arg0]; exact hb.arg0
  · rw [tap8_keep_arg1]; exact hb.arg1
  · rw [tap8_keep_arg2]; exact hb.arg2
  · rw [tap8b_acc, tap8a_q, tap8a_c0, tap8a_c1, tap8a_c2, tap8a_keep_grid, tap8a_keep_feats, tap8a_keep_arg2, tap8a_keep_acc,
      hb.idx, hb.bat, hb.grid, hb.feats, hb.arg2, hacc]
    exact tap_eq x0 a x2 _ _ _ _ acc

/-! ## None of its operations leaves a result undetermined -/

theorem tap8a_fresh : ∀ op ∈ (opsTap8a : List (HloOp τ sig (Elt F))), op.fresh = ∅ :=
  List.forall_iff_forall_mem.mp (by simp only [List.Forall]; repeat' constructor)
theorem tap8b_fresh : ∀ op ∈ (opsTap8b : List (HloOp τ sig (Elt F))), op.fresh = ∅ :=
  List.forall_iff_forall_mem.mp (by simp only [List.Forall]; repeat' constructor)

end Cert.ReferenceIdeal.Hand

end
-- ==== Proof.RefRun.lean ====
/- The reference program's run: every execution ends with the result buffer at `rOut` of the arguments. -/
import proofs.«166044_j24610162606296_1_alg».proof.Proof.RefMain
import proofs.«166044_j24610162606296_1_alg».proof.Proof.RefRunLib
import proofs.«166044_j24610162606296_1_alg».proof.Proof.RefRunPre
import proofs.«166044_j24610162606296_1_alg».proof.Proof.RefRunTap0
import proofs.«166044_j24610162606296_1_alg».proof.Proof.RefRunTap1
import proofs.«166044_j24610162606296_1_alg».proof.Proof.RefRunTap2
import proofs.«166044_j24610162606296_1_alg».proof.Proof.RefRunTap3
import proofs.«166044_j24610162606296_1_alg».proof.Proof.RefRunTap4
import proofs.«166044_j24610162606296_1_alg».proof.Proof.RefRunTap5
import proofs.«166044_j24610162606296_1_alg».proof.Proof.RefRunTap6
import proofs.«166044_j24610162606296_1_alg».proof.Proof.RefRunTap7
import proofs.«166044_j24610162606296_1_alg».proof.Proof.RefRunTap8

noncomputable section

namespace Cert.ReferenceIdeal.Hand

open Idealize.ShloMosaic Idealize.ShloMosaic.TcCoe Idealize.SL.Sem Idealize.ShloMosaic.StableHlo Cert.ReferenceIdeal Cert.ReferenceIdeal.Gen

variable {F : FTy → Type} [FloatOps F]

/-! ## The last operation: the rows laid out by batch -/

theorem fin_out (X : Valuation τ sig (Elt F)) : after (opsFin (F := F)) X (Proc.devRef .tc main_v580)
    = shapeCast S4x32768x64 (X (Proc.devRef .tc main_v579)) shapeCasts_S131072x64_S4x32768x64 := by
  after_results_simp
  rfl
theorem fin_keep_arg0 (X : Valuation τ sig (Elt F)) :
    after (opsFin (F := F)) X (Proc.devRef .tc main_arg0) = X (Proc.devRef .tc main_arg0) := by after_results_simp
theorem fin_keep_arg1 (X : Valuation τ sig (Elt F)) :
    after (opsFin (F := F)) X (Proc.devRef .tc main_arg1) = X (Proc.devRef .tc main_arg1) := by after_results_simp
theorem fin_keep_arg2 (X : Valuation τ sig (Elt F)) :
    after (opsFin (F := F)) X (Proc.devRef .tc main_arg2) = X (Proc.devRef .tc main_arg2) := by after_results_simp
theorem fin_fresh : ∀ op ∈ (opsFin : List (HloOp τ sig (Elt F))), op.fresh = ∅ :=
  List.forall_iff_forall_mem.mp (by simp only [List.Forall]; repeat' constructor)

/-! ## The whole line, stretch by stretch -/

/-- Every operation touches TensorCore references only. -/
theorem chunks_sub : (chunks (F := F)).flatten.Forall fun op => op.bufs ⊆ tcRefs τ sig :=
  List.forall_iff_forall_mem.mpr <|
    forall_flatten_cons (List.forall_iff_forall_mem.mp opsPre0_sub) <|
    forall_flatten_cons (List.forall_iff_forall_mem.mp opsPre1_sub) <|
    forall_flatten_cons (List.forall_iff_forall_mem.mp opsTap0a_sub) <|
    forall_flatten_cons (List.forall_iff_forall_mem.mp opsTap0b_sub) <|
    forall_flatten_cons (List.forall_iff_forall_mem.mp opsTap1a_sub) <|
    forall_flatten_cons (List.forall_iff_forall_mem.mp opsTap1b_sub) <|
    forall_flatten_cons (List.forall_iff_forall_mem.mp opsTap2a_sub) <|
    forall_flatten_cons (List.forall_iff_forall_mem.mp opsTap2b_sub) <|
    forall_flatten_cons (List.forall_iff_forall_mem.mp opsTap3a_sub) <|
    forall_flatten_cons (List.forall_iff_forall_mem.mp opsTap3b_sub) <|
    forall_flatten_cons (List.forall_iff_forall_mem.mp opsTap4a_sub) <|
    forall_flatten_cons (List.forall_iff_forall_mem.mp opsTap4b_sub) <|
    forall_flatten_cons (List.forall_iff_forall_mem.mp opsTap5a_sub) <|
    forall_flatten_cons (List.forall_iff_forall_mem.mp opsTap5b_sub) <|
    forall_flatten_cons (List.forall_iff_forall_mem.mp opsTap6a_sub) <|
    forall_flatten_cons (List.forall_iff_forall_mem.mp opsTap6b_sub) <|
    forall_flatten_cons (List.forall_iff_forall_mem.mp opsTap7a_sub) <|
    forall_flatten_cons (List.forall_iff_forall_mem.mp opsTap7b_sub) <|
    forall_flatten_cons (List.forall_iff_forall_mem.mp opsTap8a_sub) <|
    forall_flatten_cons (List.forall_iff_forall_mem.mp opsTap8b_sub) <|
    forall_flatten_cons (List.forall_iff_forall_mem.mp opsFin_sub) <|
    forall_flatten_nil

/-- No operation leaves a result undetermined. -/
theorem chunks_fresh : ∀ op ∈ (chunks (F := F)).flatten, op.fresh = ∅ :=
  forall_flatten_cons pre0_fresh <|
  forall_flatten_cons pre1_fresh <|
  forall_flatten_cons tap0a_fresh <|
  forall_flatten_cons tap0b_fresh <|
  forall_flatten_cons tap1a_fresh <|
  forall_flatten_cons tap1b_fresh <|
  forall_flatten_cons tap2a_fresh <|
  forall_flatten_cons tap2b_fresh <|
  forall_flatten_cons tap3a_fresh <|
  forall_flatten_cons tap3b_fresh <|
  forall_flatten_cons tap4a_fresh <|
  forall_flatten_cons tap4b_fresh <|
  forall_flatten_cons tap5a_fresh <|
  forall_flatten_cons tap5b_fresh <|
  forall_flatten_cons tap6a_fresh <|
  forall_flatten_cons tap6b_fresh <|
  forall_flatten_cons tap7a_fresh <|
  forall_flatten_cons tap7b_fresh <|
  forall_flatten_cons tap8a_fresh <|
  forall_flatten_cons tap8b_fresh <|
  forall_flatten_cons fin_fresh <|
  forall_flatten_nil

/-- The buffers after the whole line are the buffers after each stretch in turn. -/
theorem after_chunks (V : Valuation τ sig (Elt F)) : after (chunks (F := F)).flatten V
    = after opsFin (after opsTap8b (after opsTap8a (after opsTap7b (after opsTap7a (after opsTap6b (after opsTap6a (after opsTap5b (after opsTap5a (after opsTap4b (after opsTap4a (after opsTap3b (after opsTap3a (after opsTap2b (after opsTap2a (after opsTap1b (after opsTap1a (after opsTap0b (after opsTap0a (after opsPre1 (after opsPre0 V)))))))))))))))))))) := by
  simp only [chunks, List.flatten_cons, List.flatten_nil, List.append_nil, after_app]

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v580)
          = Spec.rOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨b0, a0⟩ := tap0_step (pre_base (launchContents m c)) (pre_acc _)
      obtain ⟨b1, a1⟩ := tap1_step b0 a0
      obtain ⟨b2, a2⟩ := tap2_step b1 a1
      obtain ⟨b3, a3⟩ := tap3_step b2 a2
      obtain ⟨b4, a4⟩ := tap4_step b3 a3
      obtain ⟨b5, a5⟩ := tap5_step b4 a4
      obtain ⟨b6, a6⟩ := tap6_step b5 a5
      obtain ⟨b7, a7⟩ := tap7_step b6 a6
      obtain ⟨b8, a8⟩ := tap8_step b7 a7
      refine ⟨(h c main_v580).trans ?_, (h c main_arg0).trans ?_, (h c main_arg1).trans ?_, (h c main_arg2).trans ?_⟩
      · show after (chunks (F := F)).flatten (launchContents m c) _ = _
        rw [after_chunks, fin_out, a8]
        rfl
      · show after (chunks (F := F)).flatten (launchContents m c) _ = _
        rw [after_chunks, fin_keep_arg0, b8.arg0]
      · show after (chunks (F := F)).flatten (launchContents m c) _ = _
        rw [after_chunks, fin_keep_arg1, b8.arg1]
      · show after (chunks (F := F)).flatten (launchContents m c) _ = _
        rw [after_chunks, fin_keep_arg2, b8.arg2])
    (run_seq scopedRefs_eq scopedSems_eq defs main (fun _ => (chunks (F := F)).flatten) main_eq (fun _ => chunks_sub) m ρ
      (fun _ => chunks_fresh))

end Cert.ReferenceIdeal.Hand

end
-- ==== Proof.RBridge.lean ====
/-
  The reference program's result is the common formula.

  The reference adds nine taps to a zero array of one row of 64 per point. A tap `(dy, dx)` shifts each point's voxel
  coordinates `(y, x)` by `(dy − 1, dx − 1)` as 32-bit words, tests that both shifted words lie in `[0, 256)` as signed
  integers, clips them into `[0, 255]`, looks the voxel `(batch, clipped row, clipped column)` up in the table of
  winners, reads the winner's feature row (zero when the test fails or the voxel is empty), and adds the product of
  those features with the tap's 64 × 64 weights to the running sum. Since `y, x < 256`, the shifted words never wrap,
  so the test says `1 ≤ y + dy ≤ 256 ∧ 1 ≤ x + dx ≤ 256`; under it the clip changes nothing and the voxel looked up
  is `(b, y + dy − 1, x + dx − 1)`: the padded voxel `(b, y + dy, x + dx)` of the common formula. Each tap is thus the
  running sum plus `Σ_c N(b, y + dy, x + dx, c) · w[dy, dx, c, o]`, and the nine of them from zero, in the program's
  order, are `G`.

  The file begins with two groups of general lemmas that depend on no program: a gather of single elements of a
  rank-3 table (all three operand axes collapsed) and three columns concatenated side by side, read at an index; and
  facts about signed 32-bit words.
-/
import proofs.«166044_j24610162606296_1_alg».proof.Proof.Spec
import proofs.«166044_j24610162606296_1_alg».proof.Proof.IdxRange
import proofs.«166044_j24610162606296_1_alg».proof.Proof.LibGatherRows
import Idealize.ShloMosaic.Lib.Pipeline.Value
import Idealize.ShloMosaic.Lib.ValueLayout
import Idealize.ShloMosaic.PureOps.Ideal.Laws
import Idealize.ShloMosaic.Lib.WordArith

namespace LibGatherPoints

open Idealize.ShloMosaic Idealize.ShloMosaic.ValueIdx

variable {α : Type}

/-- A start index component read as a gather reads it: signed, and kept inside an axis of extent `n`. -/
def clampIdx {w : Nat} (n : Nat) (hn : 0 < n) (v : BitVec w) : Fin n := ⟨min v.toInt.toNat (n - 1), by omega⟩

theorem clampIdx_val {w : Nat} (n : Nat) (hn : 0 < n) (v : BitVec w) : (clampIdx n hn v).val = min v.toInt.toNat (n - 1) := rfl

/-- The dimension numbers of a gather of single elements of a table `[A, B, C]` at a list `[E, 3]` of index triples:
    all three operand axes collapsed, no offset axis, no batching axes, the triple on the start indices' axis 1. -/
abbrev pointDims (A B C E : Nat)
    (wf : GatherDims.WF ⟨3, ![A, B, C]⟩ ⟨2, ![E, 3]⟩ ⟨1, ![E]⟩ [] [0, 1, 2] [] [0, 1, 2] [] 1 ![1, 1, 1]) :
    GatherDims ⟨3, ![A, B, C]⟩ ⟨2, ![E, 3]⟩ ⟨1, ![E]⟩ where
  offsetDims := []
  collapsedSliceDims := [0, 1, 2]
  operandBatchingDims := []
  startIndicesBatchingDims := []
  startIndexMap := [0, 1, 2]
  indexVectorDim := 1
  sliceSizes := ![1, 1, 1]
  wf := wf

theorem gather_points_apply {A B C E w : Nat} (hA : 0 < A) (hB : 0 < B) (hC : 0 < C)
    (wf : GatherDims.WF ⟨3, ![A, B, C]⟩ ⟨2, ![E, 3]⟩ ⟨1, ![E]⟩ [] [0, 1, 2] [] [0, 1, 2] [] 1 ![1, 1, 1])
    (x : (⟨3, ![A, B, C]⟩ : Shape).Idx → α) (idx : IVec ⟨2, ![E, 3]⟩ w) (e : Fin E) :
    Host.gather (pointDims A B C E wf) x idx (ix1 e)
      = x (ix3 (clampIdx A hA (idx (ix2 e (0 : Fin 3)))) (clampIdx B hB (idx (ix2 e (1 : Fin 3))))
          (clampIdx C hC (idx (ix2 e (2 : Fin 3))))) := by
  have m0 : (0 : Fin 3) ∈ ([0, 1, 2] : List (Fin 3)) := by decide
  have m1 : (1 : Fin 3) ∈ ([0, 1, 2] : List (Fin 3)) := by decide
  have m2 : (2 : Fin 3) ∈ ([0, 1, 2] : List (Fin 3)) := by decide
  unfold Host.gather
  congr 1
  funext a
  refine Fin.ext ?_
  match a with
  | ⟨0, _⟩ =>
    show (pointDims A B C E wf).start (ix1 e) idx 0 + (pointDims A B C E wf).batchCoord (ix1 e) 0
      + (pointDims A B C E wf).offCoord (ix1 e) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 3) ∈ (pointDims A B C E wf).startIndexMap from m0)]
    have hsi : (pointDims A B C E wf).siIdx (ix1 e) ⟨List.idxOf (0 : Fin 3) (pointDims A B C E wf).startIndexMap,
        List.idxOf_lt_length_iff.2 m0⟩ = ix2 e (0 : Fin 3) := by
      funext b; refine Fin.ext ?_
      match b with
      | ⟨0, _⟩ => rfl
      | ⟨1, _⟩ => rfl
    rw [hsi]
    rfl
  | ⟨1, _⟩ =>
    show (pointDims A B C E wf).start (ix1 e) idx 1 + (pointDims A B C E wf).batchCoord (ix1 e) 1
      + (pointDims A B C E wf).offCoord (ix1 e) 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 3) ∈ (pointDims A B C E wf).startIndexMap from m1)]
    have hsi : (pointDims A B C E wf).siIdx (ix1 e) ⟨List.idxOf (1 : Fin 3) (pointDims A B C E wf).startIndexMap,
        List.idxOf_lt_length_iff.2 m1⟩ = ix2 e (1 : Fin 3) := by
      funext b; refine Fin.ext ?_
      match b with
      | ⟨0, _⟩ => rfl
      | ⟨1, _⟩ => rfl
    rw [hsi]
    rfl
  | ⟨2, _⟩ =>
    show (pointDims A B C E wf).start (ix1 e) idx 2 + (pointDims A B C E wf).batchCoord (ix1 e) 2
      + (pointDims A B C E wf).offCoord (ix1 e) 2 = _
    rw [GatherDims.batchCoord_eq_zero _ _ _ List.not_mem_nil,
      GatherDims.offCoord_eq_zero _ _ _ (fun h => ((GatherDims.mem_sKept _ _).mp h).1 m2)]
    simp only [Nat.add_zero]
    unfold GatherDims.start
    rw [dif_pos (show (2 : Fin 3) ∈ (pointDims A B C E wf).startIndexMap from m2)]
    have hsi : (pointDims A B C E wf).siIdx (ix1 e) ⟨List.idxOf (2 : Fin 3) (pointDims A B C E wf).startIndexMap,
        List.idxOf_lt_length_iff.2 m2⟩ = ix2 e (2 : Fin 3) := by
      funext b; refine Fin.ext ?_
      match b with
      | ⟨0, _⟩ => rfl
      | ⟨1, _⟩ => rfl
    rw [hsi]
    rfl

/-- A record of dimension numbers with the fields of a gather of single elements is `pointDims`. -/
theorem eq_pointDims {A B C E : Nat} (G : GatherDims ⟨3, ![A, B, C]⟩ ⟨2, ![E, 3]⟩ ⟨1, ![E]⟩)
    (hod : G.offsetDims = []) (hcd : G.collapsedSliceDims = [0, 1, 2]) (hob : G.operandBatchingDims = [])
    (hsb : G.startIndicesBatchingDims = []) (hsm : G.startIndexMap = [0, 1, 2]) (hiv : G.indexVectorDim = 1)
    (hss : G.sliceSizes = ![1, 1, 1]) :
    ∃ wf, G = pointDims A B C E wf := by
  obtain ⟨od, cd, ob, sb, sm, iv, ss, wf⟩ := G
  simp only at hod hcd hob hsb hsm hiv hss
  subst hod hcd hob hsb hsm hiv hss
  exact ⟨wf, rfl⟩

/-- The gather of single elements read at `e`, for any record of dimension numbers with those fields: the table at the
    triple `idx[e, ·]`, each component read signed and clamped into its axis. -/
theorem gather_apply_of_fields {A B C E w : Nat} (hA : 0 < A) (hB : 0 < B) (hC : 0 < C)
    (G : GatherDims ⟨3, ![A, B, C]⟩ ⟨2, ![E, 3]⟩ ⟨1, ![E]⟩)
    (hod : G.offsetDims = []) (hcd : G.collapsedSliceDims = [0, 1, 2]) (hob : G.operandBatchingDims = [])
    (hsb : G.startIndicesBatchingDims = []) (hsm : G.startIndexMap = [0, 1, 2]) (hiv : G.indexVectorDim = 1)
    (hss : G.sliceSizes = ![1, 1, 1])
    (x : (⟨3, ![A, B, C]⟩ : Shape).Idx → α) (idx : IVec ⟨2, ![E, 3]⟩ w) (e : Fin E) :
    Host.gather G x idx (ix1 e)
      = x (ix3 (clampIdx A hA (idx (ix2 e (0 : Fin 3)))) (clampIdx B hB (idx (ix2 e (1 : Fin 3))))
          (clampIdx C hC (idx (ix2 e (2 : Fin 3))))) := by
  obtain ⟨wf, rfl⟩ := eq_pointDims G hod hcd hob hsb hsm hiv hss
  exact gather_points_apply hA hB hC wf x idx e

/-! ## Three columns side by side -/

section Columns

variable {E : Nat} (p0 p1 p2 : (⟨2, ![E, 1]⟩ : Shape).Idx → α)
  (h : Shape.Concatenates [(⟨2, ![E, 1]⟩ : Shape), ⟨2, ![E, 1]⟩, ⟨2, ![E, 1]⟩] ⟨2, ![E, 3]⟩ 1)

/-- Three columns `[E, 1]` concatenated along axis 1, read at `(e, 0)`: the first column at `(e, 0)`. -/
theorem columns3_apply_0 (e : Fin E) :
    concatenate ⟨2, ![E, 3]⟩ 1 [⟨⟨2, ![E, 1]⟩, p0⟩, ⟨⟨2, ![E, 1]⟩, p1⟩, ⟨⟨2, ![E, 1]⟩, p2⟩] h (ix2 e (0 : Fin 3))
      = p0 (ix2 e (0 : Fin 1)) :=
  concatenate_apply_piece (t := ⟨2, ![E, 3]⟩) (1 : Fin 2) [⟨⟨2, ![E, 1]⟩, p0⟩, ⟨⟨2, ![E, 1]⟩, p1⟩, ⟨⟨2, ![E, 1]⟩, p2⟩] h (ix2 e (0 : Fin 3)) 0 (show (0 : Nat) < 3 by decide) ⟨2, ![E, 1]⟩ p0 rfl rfl 0 rfl (ix2 e (0 : Fin 1))
    (fun b hb => match b, hb with
      | ⟨0, _⟩, _ => rfl
      | ⟨1, _⟩, hb => absurd rfl hb) rfl

theorem columns3_apply_1 (e : Fin E) :
    concatenate ⟨2, ![E, 3]⟩ 1 [⟨⟨2, ![E, 1]⟩, p0⟩, ⟨⟨2, ![E, 1]⟩, p1⟩, ⟨⟨2, ![E, 1]⟩, p2⟩] h (ix2 e (1 : Fin 3))
      = p1 (ix2 e (0 : Fin 1)) :=
  concatenate_apply_piece (t := ⟨2, ![E, 3]⟩) (1 : Fin 2) [⟨⟨2, ![E, 1]⟩, p0⟩, ⟨⟨2, ![E, 1]⟩, p1⟩, ⟨⟨2, ![E, 1]⟩, p2⟩] h (ix2 e (1 : Fin 3)) 1 (show (1 : Nat) < 3 by decide) ⟨2, ![E, 1]⟩ p1 rfl rfl 1 rfl (ix2 e (0 : Fin 1))
    (fun b hb => match b, hb with
      | ⟨0, _⟩, _ => rfl
      | ⟨1, _⟩, hb => absurd rfl hb) rfl

theorem columns3_apply_2 (e : Fin E) :
    concatenate ⟨2, ![E, 3]⟩ 1 [⟨⟨2, ![E, 1]⟩, p0⟩, ⟨⟨2, ![E, 1]⟩, p1⟩, ⟨⟨2, ![E, 1]⟩, p2⟩] h (ix2 e (2 : Fin 3))
      = p2 (ix2 e (0 : Fin 1)) :=
  concatenate_apply_piece (t := ⟨2, ![E, 3]⟩) (1 : Fin 2) [⟨⟨2, ![E, 1]⟩, p0⟩, ⟨⟨2, ![E, 1]⟩, p1⟩, ⟨⟨2, ![E, 1]⟩, p2⟩] h (ix2 e (2 : Fin 3)) 2 (show (2 : Nat) < 3 by decide) ⟨2, ![E, 1]⟩ p2 rfl rfl 2 rfl (ix2 e (0 : Fin 1))
    (fun b hb => match b, hb with
      | ⟨0, _⟩, _ => rfl
      | ⟨1, _⟩, hb => absurd rfl hb) rfl

end Columns

end LibGatherPoints

namespace LibSignedWords

open Idealize.ShloMosaic Idealize.ShloMosaic.WordArith

/-- A word below 256 plus a shift constant −1, 0 or 1 (the word `2³² − 1 + k` reduced modulo `2³²`, `k < 3`): its signed
    reading is the exact sum, nothing wraps. -/
theorem toInt_add_shift (y d : BitVec 32) (k : Nat) (hy : y.toNat < 256) (hk : k < 3)
    (hd : d.toNat = (4294967295 + k) % 4294967296) : (y + d).toInt = (y.toNat : Int) + k - 1 := by
  have h := BitVec.toInt_eq_toNat_cond (y + d)
  rw [BitVec.toNat_add, hd] at h
  split at h <;> omega

theorem toInt_zero32 : (0#32 : BitVec 32).toInt = 0 := by decide
theorem toInt_255 : (255#32 : BitVec 32).toInt = 255 := by decide
theorem toInt_256 : (256#32 : BitVec 32).toInt = 256 := by decide

/-- The four comparisons "both words lie in [0, 256) signed", conjoined as one-bit words. -/
theorem inb_iff (v w : BitVec 32) :
    IntOp.andi (IntOp.andi (IntOp.andi (IntOp.cmpi .sge v 0#32) (IntOp.cmpi .slt v 256#32)) (IntOp.cmpi .sge w 0#32))
      (IntOp.cmpi .slt w 256#32) = 1#1 ↔ ((0 ≤ v.toInt ∧ v.toInt < 256) ∧ 0 ≤ w.toInt) ∧ w.toInt < 256 := by
  simp only [IntOp.cmpi, andi_ofBool, ofBool_eq_one_iff, Bool.and_eq_true, BitVec.sle_iff_toInt_le, BitVec.slt_iff_toInt_lt,
    toInt_zero32, toInt_256]

/-- "Not negative" as a one-bit word. -/
theorem sge_zero_iff (g : BitVec 32) : IntOp.cmpi .sge g 0#32 = 1#1 ↔ 0 ≤ g.toInt := by
  simp only [IntOp.cmpi, ofBool_eq_one_iff, BitVec.sle_iff_toInt_le, toInt_zero32]

/-- A conjunction of one-bit words is `1` exactly when both are. -/
theorem andi_eq_one_iff (p q : BitVec 1) : IntOp.andi p q = 1#1 ↔ p = 1#1 ∧ q = 1#1 := by
  revert p q; decide

/-- Keeping a word inside [0, 255] changes nothing when it is there already. -/
theorem clip_of_range (v : BitVec 32) (h0 : 0 ≤ v.toInt) (h1 : v.toInt < 256) :
    IntOp.minsi 255#32 (IntOp.maxsi 0#32 v) = v := by
  have hm : IntOp.maxsi 0#32 v = v := by
    unfold IntOp.maxsi
    rw [if_neg (by rw [BitVec.slt_iff_toInt_lt, toInt_zero32]; omega)]
  rw [hm]
  unfold IntOp.minsi
  rw [if_neg (by rw [BitVec.slt_iff_toInt_lt, toInt_255]; omega)]

/-- Counting a negative index from the end of an axis changes nothing for an index that is not negative. -/
theorem norm_of_nonneg {α : Type} (v : BitVec 32) (a b : α) (h0 : 0 ≤ v.toInt) :
    Scalar.select (IntOp.cmpi .slt v 0#32) a b = b := by
  unfold Scalar.select
  rw [if_neg]
  simp only [IntOp.cmpi, ofBool_eq_numeral_one_iff, BitVec.slt_iff_toInt_lt, toInt_zero32]
  omega

/-- The larger of a non-negative word and zero is the word. -/
theorem maxsi_zero_of_nonneg (g : BitVec 32) (h0 : 0 ≤ g.toInt) : IntOp.maxsi g 0#32 = g := by
  unfold IntOp.maxsi
  split
  · rfl
  · rename_i h
    rw [BitVec.slt_iff_toInt_lt, toInt_zero32] at h
    apply BitVec.eq_of_toInt_eq
    rw [toInt_zero32]; omega

/-- A word whose signed reading is a natural number below 2³¹: the reading's natural part is that number. -/
theorem toInt_toNat_of_eq (v : BitVec 32) (n : Nat) (h : v.toInt = (n : Int)) : v.toInt.toNat = n := by
  rw [h]; exact Int.toNat_natCast n

/-- A conjunction with the zero bit is zero. -/
theorem andi_zero_left (q : BitVec 1) : IntOp.andi 0#1 q = 0#1 := by revert q; decide

/-- A conjunction with the zero bit is zero. -/
theorem andi_zero_right (p : BitVec 1) : IntOp.andi p 0#1 = 0#1 := by revert p; decide

theorem andi_one_one : IntOp.andi 1#1 1#1 = 1#1 := by decide

end LibSignedWords

noncomputable section

namespace Cert.ReferenceIdeal.Spec

open Idealize.ShloMosaic Idealize.ShloMosaic.ValueIdx Cert.ReferenceIdeal Cert.ReferenceIdeal.Gen

/-! ## The two halves' functions are the same functions -/

theorem idxW_eqK (a : FVec Ideal Cert.KernelIdeal.S4x32768x2 .f32) : idxW (F := Ideal) a = Cert.KernelIdeal.Spec.idxW a := rfl
theorem batchW_eqK : batchW = Cert.KernelIdeal.Spec.batchW := rfl
theorem featsW_eqK (x0 : FVec Ideal Cert.KernelIdeal.S4x32768x64 .f32) : featsW (F := Ideal) x0 = Cert.KernelIdeal.Spec.featsW x0 := rfl
theorem gridW_eqK (a : FVec Ideal Cert.KernelIdeal.S4x32768x2 .f32) : gridW (F := Ideal) a = Cert.KernelIdeal.Spec.gridW a := rfl

/-! ## The layout operations read at an index -/

/-- A vector laid out as a column, read at `(i, 0)`. -/
theorem bcol_apply {α : Type} (v : S131072.Idx → α) (i : Fin 131072) :
    broadcastInDim S131072x1 ![0] bcast_S131072_S131072x1_0 v (ix2 i (0 : Fin 1)) = v (ix1 i) :=
  broadcastInDim_apply _ bcast_S131072_S131072x1_0 v (ix2 i (0 : Fin 1)) (ix1 i) (fun a => match a with
    | ⟨0, _⟩ => by show i.val = if (131072 : Nat) = 1 then 0 else i.val; rw [if_neg (by decide)])

/-- A column repeated along 64 lanes, read at `(i, c)`. -/
theorem brow_apply {α : Type} (v : S131072x1.Idx → α) (i : Fin 131072) (c : Fin 64) :
    broadcastInDim S131072x64 ![0, 1] bcast_S131072x1_S131072x64_0_1 v (ix2 i c) = v (ix2 i (0 : Fin 1)) :=
  broadcastInDim_apply _ bcast_S131072x1_S131072x64_0_1 v (ix2 i c) (ix2 i (0 : Fin 1)) (fun a => match a with
    | ⟨0, _⟩ => by show i.val = if (131072 : Nat) = 1 then 0 else i.val; rw [if_neg (by decide)]
    | ⟨1, _⟩ => by show 0 = if (1 : Nat) = 1 then 0 else c.val; rw [if_pos rfl])

theorem col0_apply (idx : IVec S131072x2 32) (i : Fin 131072) : col0 idx (ix1 i) = idx (ix2 i (0 : Fin 2)) := by
  unfold col0
  rw [shapeCast_apply _ shapeCasts_S131072x1_S131072 (ix1 i) (ix2 i (0 : Fin 1))
    (by rewrite [Shape.rowMajor_val_two, Shape.rowMajor_val_one]; show i.val * 1 + 0 = i.val; omega)]
  exact extractStridedSlice_apply ![0, 0] idx slices_S131072x2_S131072x1_0_0 (ix2 i (0 : Fin 1)) (ix2 i (0 : Fin 2)) (fun a => match a with
    | ⟨0, _⟩ => by show i.val = 0 + i.val; omega
    | ⟨1, _⟩ => by show 0 = 0 + 0; rfl)

theorem col1_apply (idx : IVec S131072x2 32) (i : Fin 131072) : col1 idx (ix1 i) = idx (ix2 i (1 : Fin 2)) := by
  unfold col1
  rw [shapeCast_apply _ shapeCasts_S131072x1_S131072 (ix1 i) (ix2 i (0 : Fin 1))
    (by rewrite [Shape.rowMajor_val_two, Shape.rowMajor_val_one]; show i.val * 1 + 0 = i.val; omega)]
  exact extractStridedSlice_apply ![0, 1] idx slices_S131072x2_S131072x1_0_1 (ix2 i (0 : Fin 1)) (ix2 i (1 : Fin 2)) (fun a => match a with
    | ⟨0, _⟩ => by show i.val = 0 + i.val; omega
    | ⟨1, _⟩ => by show 1 = 1 + 0; rfl)

theorem shiftI_apply (v : IVec S131072 32) (d : BitVec 32) (j : S131072.Idx) : shiftI v d j = v j + d := rfl

theorem clipI_apply (v : IVec S131072 32) (j : S131072.Idx) : clipI v j = IntOp.minsi 255#32 (IntOp.maxsi 0#32 (v j)) := rfl

theorem inb_apply (y' x' : IVec S131072 32) (j : S131072.Idx) :
    inb y' x' j = IntOp.andi (IntOp.andi (IntOp.andi (IntOp.cmpi .sge (y' j) 0#32) (IntOp.cmpi .slt (y' j) 256#32))
      (IntOp.cmpi .sge (x' j) 0#32)) (IntOp.cmpi .slt (x' j) 256#32) := rfl

theorem normI_apply (n : BitVec 32) (v : IVec S131072 32) (j : S131072.Idx) :
    normI n v j = Scalar.select (IntOp.cmpi .slt (v j) 0#32) (v j + n) (v j) := rfl

theorem idx3_apply_0 (b y x : IVec S131072 32) (i : Fin 131072) : idx3 b y x (ix2 i (0 : Fin 3)) = normI 4#32 b (ix1 i) := by
  unfold idx3
  rw [LibGatherPoints.columns3_apply_0]
  exact bcol_apply _ i

theorem idx3_apply_1 (b y x : IVec S131072 32) (i : Fin 131072) : idx3 b y x (ix2 i (1 : Fin 3)) = normI 256#32 y (ix1 i) := by
  unfold idx3
  rw [LibGatherPoints.columns3_apply_1]
  exact bcol_apply _ i

theorem idx3_apply_2 (b y x : IVec S131072 32) (i : Fin 131072) : idx3 b y x (ix2 i (2 : Fin 3)) = normI 256#32 x (ix1 i) := by
  unfold idx3
  rw [LibGatherPoints.columns3_apply_2]
  exact bcol_apply _ i

/-- The neighbour voxel's winner at a point: the table at the triple of the point's batch word and its two shifted,
    clipped coordinates, each counted from the end if negative, read signed and kept inside its axis. -/
theorem nid_apply (a : FVec Ideal S4x32768x2 .f32) (dyw dxw : BitVec 32) (i : Fin 131072) :
    nid a dyw dxw (ix1 i) = gridW a (ix3
      (LibGatherPoints.clampIdx 4 (by decide) (normI 4#32 batchW (ix1 i)))
      (LibGatherPoints.clampIdx 256 (by decide) (normI 256#32 (clipI (shiftI (col0 (idxW a)) dyw)) (ix1 i)))
      (LibGatherPoints.clampIdx 256 (by decide) (normI 256#32 (clipI (shiftI (col1 (idxW a)) dxw)) (ix1 i)))) := by
  unfold nid
  rw [LibGatherPoints.gather_apply_of_fields (A := 4) (B := 256) (C := 256) (E := 131072) (by decide) (by decide) (by decide)
    gather_S4x256x256_S131072x3_S131072_n_012_n_n_012_1_111 rfl rfl rfl rfl rfl rfl rfl (gridW a) _ i]
  rw [idx3_apply_0, idx3_apply_1, idx3_apply_2]

/-! ## The neighbour features read at an index -/

/-- The row of the feature table a point reads at a tap, as a word function of the neighbour's winner. -/
theorem rowR_apply (a : FVec Ideal S4x32768x2 .f32) (dyw dxw : BitVec 32) (j : S131072.Idx) :
    rowR a dyw dxw j = Scalar.select (IntOp.cmpi .slt (IntOp.maxsi (nid a dyw dxw j) 0#32) 0#32)
      (IntOp.maxsi (nid a dyw dxw j) 0#32 + 131072#32) (IntOp.maxsi (nid a dyw dxw j) 0#32) := rfl

/-- The neighbour features at `(i, c)`: under the validity bit of the point, the feature row its row word names (read
    signed, kept inside the table), else zero. -/
theorem nfeat_read (x0 : FVec Ideal S4x32768x64 .f32) (a : FVec Ideal S4x32768x2 .f32) (dyw dxw : BitVec 32)
    (i : Fin 131072) (c : Fin 64) :
    nfeat x0 a dyw dxw (ix2 i c)
      = Scalar.select (IntOp.andi (inb (shiftI (col0 (idxW a)) dyw) (shiftI (col1 (idxW a)) dxw) (ix1 i))
            (IntOp.cmpi .sge (nid a dyw dxw (ix1 i)) 0#32))
          (featsW x0 (ix2 (LibGatherPoints.clampIdx 131072 (by decide) (rowR a dyw dxw (ix1 i))) c))
          0 := by
  unfold nfeat
  rw [select_apply, brow_apply, bcol_apply]
  obtain ⟨wf, hG⟩ := LibGatherRows.eq_rowDims (N := 131072) (C := 64) (E := 131072) gather_S131072x64_S131072x1_S131072x64_1_0_n_n_0_1_164 rfl rfl rfl rfl rfl rfl rfl
  have hrow : Host.gather gather_S131072x64_S131072x1_S131072x64_1_0_n_n_0_1_164 (featsW x0)
        (broadcastInDim S131072x1 ![0] bcast_S131072_S131072x1_0 (rowR a dyw dxw)) (ix2 i c)
      = featsW x0 (ix2 (LibGatherPoints.clampIdx 131072 (by decide) (rowR a dyw dxw (ix1 i))) c) := by
    rw [hG, LibGatherRows.gather_rows_apply (by omega) wf]
    show featsW x0 (ix2 (LibGatherPoints.clampIdx 131072 (by decide)
      (broadcastInDim S131072x1 ![0] bcast_S131072_S131072x1_0 (rowR a dyw dxw) (ix2 i (0 : Fin 1)))) c) = _
    rw [bcol_apply]
  rw [hrow]
  show Scalar.select _ _ (Ideal.ofBits .f32 0x00000000#32) = _
  rw [Ideal.ofBits_zero_f32]
  rfl

/-! ## One tap read at an index -/

theorem lhs_dot_0 (i : S131072x64.Idx) (q : dot_S131072x64_S64x64_S131072x64_1_0_0_1_n_n.contr.Idx) :
    (dot_S131072x64_S64x64_S131072x64_1_0_0_1_n_n.lhsIdx i q 0).val = (i 0).val := by
  unfold DotDims.lhsIdx
  rw [dif_neg (show ¬(0 : Fin S131072x64.rank) ∈ dot_S131072x64_S64x64_S131072x64_1_0_0_1_n_n.lhsBatch by decide), dif_pos (show (0 : Fin S131072x64.rank) ∈ dot_S131072x64_S64x64_S131072x64_1_0_0_1_n_n.lhsNonContracting by decide)]
  rfl
theorem lhs_dot_1 (i : S131072x64.Idx) (q : dot_S131072x64_S64x64_S131072x64_1_0_0_1_n_n.contr.Idx) :
    (dot_S131072x64_S64x64_S131072x64_1_0_0_1_n_n.lhsIdx i q 1).val = (q ⟨0, by decide⟩).val :=
  dot_S131072x64_S64x64_S131072x64_1_0_0_1_n_n.lhsIdx_val_of_single rfl i q
theorem rhs_dot_0 (i : S131072x64.Idx) (q : dot_S131072x64_S64x64_S131072x64_1_0_0_1_n_n.contr.Idx) :
    (dot_S131072x64_S64x64_S131072x64_1_0_0_1_n_n.rhsIdx i q 0).val = (q ⟨0, by decide⟩).val :=
  dot_S131072x64_S64x64_S131072x64_1_0_0_1_n_n.rhsIdx_val_of_single rfl i q
theorem rhs_dot_1 (i : S131072x64.Idx) (q : dot_S131072x64_S64x64_S131072x64_1_0_0_1_n_n.contr.Idx) :
    (dot_S131072x64_S64x64_S131072x64_1_0_0_1_n_n.rhsIdx i q 1).val = (i 1).val := by
  unfold DotDims.rhsIdx
  rw [dif_neg (show ¬(1 : Fin S64x64.rank) ∈ dot_S131072x64_S64x64_S131072x64_1_0_0_1_n_n.rhsBatch by decide), dif_pos (show (1 : Fin S64x64.rank) ∈ dot_S131072x64_S64x64_S131072x64_1_0_0_1_n_n.rhsNonContracting by decide)]
  rfl

/-- The product of a `[131072, 64]` array with a `[64, 64]` one over the extended reals, at `(i, o)`: the plain sum over
    the contracted axis. -/
theorem dot_apply (l : FVec Ideal S131072x64 .f32) (r : FVec Ideal S64x64 .f32) (i : Fin 131072) (o : Fin 64) :
    Host.dotGeneral dot_S131072x64_S64x64_S131072x64_1_0_0_1_n_n none l r (ix2 i o) = ∑ k : Fin 64, l (ix2 i k) * r (ix2 k o) := by
  simp only [Host.dotGeneral]
  rw [Ideal.dotGeneral_apply, ← Equiv.sum_comp (ValueIdx.contrEquiv1 dot_S131072x64_S64x64_S131072x64_1_0_0_1_n_n 64 rfl rfl).symm]
  refine Finset.sum_congr rfl fun k _ => ?_
  have hk := ValueIdx.contrEquiv1_symm_val dot_S131072x64_S64x64_S131072x64_1_0_0_1_n_n 64 rfl rfl k
  have el : dot_S131072x64_S64x64_S131072x64_1_0_0_1_n_n.lhsIdx (ix2 i o) ((ValueIdx.contrEquiv1 dot_S131072x64_S64x64_S131072x64_1_0_0_1_n_n 64 rfl rfl).symm k) = ix2 i k := funext fun a => Fin.ext (by
    match a with
    | ⟨0, _⟩ => exact lhs_dot_0 _ _
    | ⟨1, _⟩ => exact (lhs_dot_1 _ _).trans hk)
  have er : dot_S131072x64_S64x64_S131072x64_1_0_0_1_n_n.rhsIdx (ix2 i o) ((ValueIdx.contrEquiv1 dot_S131072x64_S64x64_S131072x64_1_0_0_1_n_n 64 rfl rfl).symm k) = ix2 k o := funext fun a => Fin.ext (by
    match a with
    | ⟨0, _⟩ => exact (rhs_dot_0 _ _).trans hk
    | ⟨1, _⟩ => exact rhs_dot_1 _ _)
  rw [el, er]

/-- A tap's 64 × 64 weights, cut out of the four-axis weights at `(dy, dx, 0, 0)` and laid out flat, at `(k, o)`. -/
theorem weights_apply (x2 : FVec Ideal S3x3x64x64 .f32) (off : Fin 4 → Nat) (hs : S3x3x64x64.Slices off S1x1x64x64)
    (dy dx : Fin 3) (h0 : off 0 = dy.val) (h1 : off 1 = dx.val) (h2 : off 2 = 0) (h3 : off 3 = 0) (k o : Fin 64) :
    shapeCast S64x64 (extractStridedSlice S1x1x64x64 off x2 hs) shapeCasts_S1x1x64x64_S64x64 (ix2 k o) = x2 (ix4 dy dx k o) := by
  rw [shapeCast_apply _ shapeCasts_S1x1x64x64_S64x64 (ix2 k o) (ix4 (0 : Fin 1) (0 : Fin 1) k o)
    (by rewrite [Shape.rowMajor_val_four, Shape.rowMajor_val_two]; show ((0 * 1 + 0) * 64 + k.val) * 64 + o.val = k.val * 64 + o.val; omega)]
  exact extractStridedSlice_apply off x2 hs (ix4 (0 : Fin 1) (0 : Fin 1) k o) (ix4 dy dx k o) (fun a => match a with
    | ⟨0, _⟩ => by show dy.val = off 0 + 0; omega
    | ⟨1, _⟩ => by show dx.val = off 1 + 0; omega
    | ⟨2, _⟩ => by show k.val = off 2 + k.val; omega
    | ⟨3, _⟩ => by show o.val = off 3 + o.val; omega)

/-- One tap at `(i, o)`: the running sum there plus the sum over the channels of the neighbour features times the tap's
    weights. -/
theorem tap_apply (x0 : FVec Ideal S4x32768x64 .f32) (a : FVec Ideal S4x32768x2 .f32) (x2 : FVec Ideal S3x3x64x64 .f32)
    (dyw dxw : BitVec 32) (off : Fin 4 → Nat) (hs : S3x3x64x64.Slices off S1x1x64x64) (acc : FVec Ideal S131072x64 .f32)
    (dy dx : Fin 3) (h0 : off 0 = dy.val) (h1 : off 1 = dx.val) (h2 : off 2 = 0) (h3 : off 3 = 0) (i : Fin 131072) (o : Fin 64) :
    tap x0 a x2 dyw dxw off hs acc (ix2 i o)
      = acc (ix2 i o) + ∑ c : Fin 64, nfeat x0 a dyw dxw (ix2 i c) * x2 (ix4 dy dx c o) := by
  unfold tap
  rw [addf_apply, dot_apply]
  congr 1
  refine Finset.sum_congr rfl fun c _ => ?_
  rw [weights_apply x2 off hs dy dx h0 h1 h2 h3]

/-! ## The neighbour features are the common formula's -/

/-- The common formula's padded-voxel feature inside the table: the winner's features where the voxel has one. -/
theorem NF_in (x0 : FVec Ideal S4x32768x64 .f32) (a : FVec Ideal S4x32768x2 .f32) (b : Fin 4) (py px : Nat) (c : Fin 64)
    (hP : 1 ≤ py ∧ py ≤ 256 ∧ 1 ≤ px ∧ px ≤ 256) :
    Cert.KernelIdeal.Spec.NF x0 a b py px c
      = if 0 ≤ (Cert.KernelIdeal.Spec.gridW a (ix3 b (⟨py - 1, by omega⟩ : Fin 256) (⟨px - 1, by omega⟩ : Fin 256))).toInt then
          Cert.KernelIdeal.Spec.featsW x0 (ix2 (LibGatherPoints.clampIdx 131072 (by decide)
            (Cert.KernelIdeal.Spec.gridW a (ix3 b (⟨py - 1, by omega⟩ : Fin 256) (⟨px - 1, by omega⟩ : Fin 256)))) c)
        else 0 := by
  unfold Cert.KernelIdeal.Spec.NF
  rw [dif_pos hP]
  rfl

/-- The select of the reference over words, against the common formula's case split: `W` is the bit "the shifted
    coordinates lie inside the table", and under it the table is read at the voxel `(b, py − 1, px − 1)`. -/
theorem NF_of_words (x0 : FVec Ideal S4x32768x64 .f32) (a : FVec Ideal S4x32768x2 .f32) (b : Fin 4) (py px : Nat) (c : Fin 64)
    (W : BitVec 1) (i0 : Fin 4) (i1 i2 : Fin 256)
    (hW : W = 1#1 ↔ (1 ≤ py ∧ py ≤ 256 ∧ 1 ≤ px ∧ px ≤ 256))
    (h0 : W = 1#1 → i0 = b) (h1 : W = 1#1 → i1.val = py - 1) (h2 : W = 1#1 → i2.val = px - 1) :
    Scalar.select (IntOp.andi W (IntOp.cmpi .sge (Cert.KernelIdeal.Spec.gridW a (ix3 i0 i1 i2)) 0#32))
        (Cert.KernelIdeal.Spec.featsW x0 (ix2 (LibGatherPoints.clampIdx 131072 (by decide) (Scalar.select
            (IntOp.cmpi .slt (IntOp.maxsi (Cert.KernelIdeal.Spec.gridW a (ix3 i0 i1 i2)) 0#32) 0#32)
            (IntOp.maxsi (Cert.KernelIdeal.Spec.gridW a (ix3 i0 i1 i2)) 0#32 + 131072#32)
            (IntOp.maxsi (Cert.KernelIdeal.Spec.gridW a (ix3 i0 i1 i2)) 0#32))) c))
        0
      = Cert.KernelIdeal.Spec.NF x0 a b py px c := by
  by_cases hP : 1 ≤ py ∧ py ≤ 256 ∧ 1 ≤ px ∧ px ≤ 256
  · have hw : W = 1#1 := hW.mpr hP
    have e1 : i1 = (⟨py - 1, by omega⟩ : Fin 256) := Fin.ext (h1 hw)
    have e2 : i2 = (⟨px - 1, by omega⟩ : Fin 256) := Fin.ext (h2 hw)
    rw [NF_in x0 a b py px c hP, hw, h0 hw, e1, e2]
    generalize Cert.KernelIdeal.Spec.gridW a (ix3 b (⟨py - 1, by omega⟩ : Fin 256) (⟨px - 1, by omega⟩ : Fin 256)) = g
    by_cases hg : 0 ≤ g.toInt
    · rw [if_pos hg, (LibSignedWords.sge_zero_iff g).mpr hg, LibSignedWords.maxsi_zero_of_nonneg g hg,
        LibSignedWords.norm_of_nonneg g _ _ hg, LibSignedWords.andi_one_one, select_one]
    · rw [if_neg hg]
      have hz : IntOp.cmpi .sge g 0#32 = 0#1 := eq_zero_of_ne_one (fun h => hg ((LibSignedWords.sge_zero_iff g).mp h))
      rw [hz, LibSignedWords.andi_zero_right, select_zero]
  · have hz : W = 0#1 := eq_zero_of_ne_one (fun h => hP (hW.mp h))
    unfold Cert.KernelIdeal.Spec.NF
    rw [dif_neg hP, hz, LibSignedWords.andi_zero_left, select_zero]

/-- THE NEIGHBOUR FEATURES AT A TAP `(dy, dx)`, whose shift words are `dy − 1` and `dx − 1`: at point `i` of batch `b` and
    channel `c` they are the common formula's padded-voxel feature at `(b, y + dy, x + dx)`, `(y, x)` the point's voxel. -/
theorem nfeat_apply (x0 : FVec Ideal S4x32768x64 .f32) (a : FVec Ideal S4x32768x2 .f32) (dyw dxw : BitVec 32) (dy dx : Fin 3)
    (hdy : dyw.toNat = (4294967295 + dy.val) % 4294967296) (hdx : dxw.toNat = (4294967295 + dx.val) % 4294967296)
    (i : Fin 131072) (b : Fin 4) (hb : i.val / 32768 = b.val) (c : Fin 64) :
    nfeat x0 a dyw dxw (ix2 i c)
      = Cert.KernelIdeal.Spec.NF x0 a b ((Cert.KernelIdeal.Spec.idxW a (ix2 i (0 : Fin 2))).toNat + dy.val)
          ((Cert.KernelIdeal.Spec.idxW a (ix2 i (1 : Fin 2))).toNat + dx.val) c := by
  have hyl : (Cert.KernelIdeal.Spec.idxW a (ix2 i (0 : Fin 2))).toNat < 256 := Cert.KernelIdeal.Spec.idxW_lt a i 0
  have hxl : (Cert.KernelIdeal.Spec.idxW a (ix2 i (1 : Fin 2))).toNat < 256 := Cert.KernelIdeal.Spec.idxW_lt a i 1
  have ty := LibSignedWords.toInt_add_shift _ dyw dy.val hyl dy.isLt hdy
  have tx := LibSignedWords.toInt_add_shift _ dxw dx.val hxl dx.isLt hdx
  have hbw : (BitVec.ofNat 32 b.val).toInt = (b.val : Int) := WordArith.toInt_ofNat_small b.val (by have := b.isLt; omega)
  have hW : inb (shiftI (col0 (Cert.KernelIdeal.Spec.idxW a)) dyw) (shiftI (col1 (Cert.KernelIdeal.Spec.idxW a)) dxw) (ix1 i) = 1#1
      ↔ (1 ≤ (Cert.KernelIdeal.Spec.idxW a (ix2 i (0 : Fin 2))).toNat + dy.val
        ∧ (Cert.KernelIdeal.Spec.idxW a (ix2 i (0 : Fin 2))).toNat + dy.val ≤ 256
        ∧ 1 ≤ (Cert.KernelIdeal.Spec.idxW a (ix2 i (1 : Fin 2))).toNat + dx.val
        ∧ (Cert.KernelIdeal.Spec.idxW a (ix2 i (1 : Fin 2))).toNat + dx.val ≤ 256) := by
    rw [inb_apply, shiftI_apply, shiftI_apply, col0_apply, col1_apply, LibSignedWords.inb_iff, ty, tx]
    omega
  rw [nfeat_read, rowR_apply, nid_apply, idxW_eqK, gridW_eqK, featsW_eqK, batchW_eqK]
  refine NF_of_words x0 a b _ _ c _ _ _ _ hW (fun hw => Fin.ext ?_) (fun hw => ?_) (fun hw => ?_)
  · rw [LibGatherPoints.clampIdx_val, normI_apply, Cert.KernelIdeal.Spec.batchW_apply, hb,
      LibSignedWords.norm_of_nonneg _ _ _ (by rw [hbw]; omega), hbw]
    have := b.isLt
    omega
  · have hP := hW.mp hw
    rw [LibGatherPoints.clampIdx_val, normI_apply, clipI_apply, shiftI_apply, col0_apply,
      LibSignedWords.clip_of_range _ (by rw [ty]; omega) (by rw [ty]; omega),
      LibSignedWords.norm_of_nonneg _ _ _ (by rw [ty]; omega), ty]
    omega
  · have hP := hW.mp hw
    rw [LibGatherPoints.clampIdx_val, normI_apply, clipI_apply, shiftI_apply, col1_apply,
      LibSignedWords.clip_of_range _ (by rw [tx]; omega) (by rw [tx]; omega),
      LibSignedWords.norm_of_nonneg _ _ _ (by rw [tx]; omega), tx]
    omega

/-! ## The nine taps from zero -/

/-- One tap at `(i, o)` with the neighbour features written as the common formula's. -/
theorem tap_apply_NF (x0 : FVec Ideal S4x32768x64 .f32) (a : FVec Ideal S4x32768x2 .f32) (x2 : FVec Ideal S3x3x64x64 .f32)
    (dyw dxw : BitVec 32) (off : Fin 4 → Nat) (hs : S3x3x64x64.Slices off S1x1x64x64) (acc : FVec Ideal S131072x64 .f32)
    (dy dx : Fin 3) (h0 : off 0 = dy.val) (h1 : off 1 = dx.val) (h2 : off 2 = 0) (h3 : off 3 = 0)
    (hdy : dyw.toNat = (4294967295 + dy.val) % 4294967296) (hdx : dxw.toNat = (4294967295 + dx.val) % 4294967296)
    (i : Fin 131072) (b : Fin 4) (hb : i.val / 32768 = b.val) (o : Fin 64) :
    tap x0 a x2 dyw dxw off hs acc (ix2 i o)
      = acc (ix2 i o) + ∑ c : Fin 64,
          Cert.KernelIdeal.Spec.NF x0 a b ((Cert.KernelIdeal.Spec.idxW a (ix2 i (0 : Fin 2))).toNat + dy.val)
            ((Cert.KernelIdeal.Spec.idxW a (ix2 i (1 : Fin 2))).toNat + dx.val) c * x2 (ix4 dy dx c o) := by
  rw [tap_apply x0 a x2 dyw dxw off hs acc dy dx h0 h1 h2 h3]
  congr 1
  refine Finset.sum_congr rfl fun c _ => ?_
  rw [nfeat_apply x0 a dyw dxw dy dx hdy hdx i b hb]

/-- The zero the running sum starts from. -/
theorem zero_apply (j : S131072x64.Idx) :
    broadcastInDim S131072x64 ![] bcast_S_S131072x64 (constant (F := Ideal) S_ .f32 0x00000000#32) j = 0 := by
  show Ideal.ofBits .f32 0x00000000#32 = 0
  exact Ideal.ofBits_zero_f32

theorem rOut_eq_G (x0 : FVec Ideal Cert.KernelIdeal.S4x32768x64 .f32) (a : FVec Ideal Cert.KernelIdeal.S4x32768x2 .f32)
    (x2 : FVec Ideal Cert.KernelIdeal.S3x3x64x64 .f32) :
    rOut (F := Ideal) x0 a x2 = Cert.KernelIdeal.Spec.G x0 a x2 := by
  funext j
  obtain ⟨b, n, o, rfl⟩ : ∃ (b : Fin 4) (n : Fin 32768) (o : Fin 64), j = ix3 b n o := ⟨j 0, j 1, j 2, eq_ix3 j⟩
  have hbl := b.isLt
  have hnl := n.isLt
  have hi : b.val * 32768 + n.val < 131072 := by omega
  have hq : (⟨b.val * 32768 + n.val, hi⟩ : Fin 131072).val / 32768 = b.val := by
    show (b.val * 32768 + n.val) / 32768 = b.val
    omega
  unfold rOut
  rw [shapeCast_apply _ shapeCasts_S131072x64_S4x32768x64 (ix3 b n o) (ix2 (⟨b.val * 32768 + n.val, hi⟩ : Fin 131072) o)
    (by rewrite [Shape.rowMajor_val_two, Shape.rowMajor_val_three]; rfl)]
  rw [tap_apply_NF x0 a x2 1#32 1#32 _ _ _ 2 2 rfl rfl rfl rfl (by decide) (by decide) _ b hq,
    tap_apply_NF x0 a x2 1#32 0#32 _ _ _ 2 1 rfl rfl rfl rfl (by decide) (by decide) _ b hq,
    tap_apply_NF x0 a x2 1#32 4294967295#32 _ _ _ 2 0 rfl rfl rfl rfl (by decide) (by decide) _ b hq,
    tap_apply_NF x0 a x2 0#32 1#32 _ _ _ 1 2 rfl rfl rfl rfl (by decide) (by decide) _ b hq,
    tap_apply_NF x0 a x2 0#32 0#32 _ _ _ 1 1 rfl rfl rfl rfl (by decide) (by decide) _ b hq,
    tap_apply_NF x0 a x2 0#32 4294967295#32 _ _ _ 1 0 rfl rfl rfl rfl (by decide) (by decide) _ b hq,
    tap_apply_NF x0 a x2 4294967295#32 1#32 _ _ _ 0 2 rfl rfl rfl rfl (by decide) (by decide) _ b hq,
    tap_apply_NF x0 a x2 4294967295#32 0#32 _ _ _ 0 1 rfl rfl rfl rfl (by decide) (by decide) _ b hq,
    tap_apply_NF x0 a x2 4294967295#32 4294967295#32 _ _ _ 0 0 rfl rfl rfl rfl (by decide) (by decide) _ b hq,
    zero_apply]
  rfl

end Cert.ReferenceIdeal.Spec

end
-- ==== Proof.lean ====
/-
  The certificate. The two kernel programs' frames are one proof read at the two float families (the region's body
  on whole staging buffers, the pipeline's proof data at every grid point, the launch with host operations on both
  sides of the region). The reference's frame is its run with the result dropped. Over the extended reals the kernel
  program ends at the common formula `G` of the arguments (a dense 3 × 3 convolution of the winners' feature grid,
  read back at each point's voxel) and so does the reference (nine neighbour look-ups accumulated in the same order);
  the ideal pass rewrote nothing, so there is nothing to preserve.
-/
import proofs.«166044_j24610162606296_1_alg».proof.Defs
import proofs.«166044_j24610162606296_1_alg».proof.Proof.FrameK
import proofs.«166044_j24610162606296_1_alg».proof.Proof.FrameKI
import proofs.«166044_j24610162606296_1_alg».proof.Proof.KernelRun
import proofs.«166044_j24610162606296_1_alg».proof.Proof.RefRun
import proofs.«166044_j24610162606296_1_alg».proof.Proof.RBridge
import proofs.«166044_j24610162606296_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frame.frame m ρ

theorem frame_ki : Cert.frame_KernelIdeal (hKernelIdeal := Cert.KernelIdeal.Gen.facts) (hPre_finite_inputs := Cert.Pre_finite_inputs.Gen.facts) :=
  fun m ρ _ => Cert.KernelIdeal.Frame.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- Both runs end at `G` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Frame.kernel_run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.Spec.rOut_eq_G _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
